-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x3x8 : Shape := ⟨3, ![50000, 3, 8]⟩
abbrev S800000x16 : Shape := ⟨2, ![800000, 16]⟩
abbrev S800000x3x1 : Shape := ⟨3, ![800000, 3, 1]⟩
abbrev S2x800000 : Shape := ⟨2, ![2, 800000]⟩
abbrev S17x17 : Shape := ⟨2, ![17, 17]⟩
abbrev S161x64 : Shape := ⟨2, ![161, 64]⟩
abbrev S64 : Shape := ⟨1, ![64]⟩
abbrev S17x8 : Shape := ⟨2, ![17, 8]⟩
abbrev S64x8 : Shape := ⟨2, ![64, 8]⟩
abbrev S8 : Shape := ⟨1, ![8]⟩
abbrev S8x8 : Shape := ⟨2, ![8, 8]⟩
abbrev S72x64 : Shape := ⟨2, ![72, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3x8 : S_.BroadcastsInDim S50000x3x8 (![] : Fin 0 → Fin S50000x3x8.rank)
  reducesTo_S50000x3x8_S_d0_1_2 : S50000x3x8.ReducesTo [0, 1, 2] S_
  bcast_S_S800000x16 : S_.BroadcastsInDim S800000x16 (![] : Fin 0 → Fin S800000x16.rank)
  reducesTo_S800000x16_S_d0_1 : S800000x16.ReducesTo [0, 1] S_
  bcast_S_S800000x3x1 : S_.BroadcastsInDim S800000x3x1 (![] : Fin 0 → Fin S800000x3x1.rank)
  reducesTo_S800000x3x1_S_d0_1_2 : S800000x3x1.ReducesTo [0, 1, 2] S_
  bcast_S_S17x17 : S_.BroadcastsInDim S17x17 (![] : Fin 0 → Fin S17x17.rank)
  reducesTo_S17x17_S_d0_1 : S17x17.ReducesTo [0, 1] S_
  bcast_S_S161x64 : S_.BroadcastsInDim S161x64 (![] : Fin 0 → Fin S161x64.rank)
  reducesTo_S161x64_S_d0_1 : S161x64.ReducesTo [0, 1] S_
  bcast_S_S64 : S_.BroadcastsInDim S64 (![] : Fin 0 → Fin S64.rank)
  reducesTo_S64_S_d0 : S64.ReducesTo [0] S_
  bcast_S_S17x8 : S_.BroadcastsInDim S17x8 (![] : Fin 0 → Fin S17x8.rank)
  reducesTo_S17x8_S_d0_1 : S17x8.ReducesTo [0, 1] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S72x64 : S_.BroadcastsInDim S72x64 (![] : Fin 0 → Fin S72x64.rank)
  reducesTo_S72x64_S_d0_1 : S72x64.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part6 {F : FTy → Type} [FloatOps F] (main_arg4 : IVec S2x800000 32) (main_arg22 : FVec F S8 .f32) (main_v98 : IVec S_ 1) (main_v101 : IVec S64x8 1) (main_c_39 : IVec S_ 1) : IVec S_ 1 :=
  let main_v102 : IVec S_ 1 := (fun x v => Host.reduce IntOp.andi x v reducesTo_S64x8_S_d0_1 h_S_) main_v101 main_c_39
  let main_v103 : IVec S_ 1 := andi main_v98 main_v102
  let main_v104 : FVec F S8 .f32 := Host.absf main_arg22
  let main_cst_40 : FVec F S_ .f32 := constant S_ .f32 0x7F800000#32
  let main_v105 : FVec F S8 .f32 := broadcastInDim S8 ![] bcast_S_S8 main_cst_40
  let main_v106 : IVec S8 1 := cmpf .olt main_v104 main_v105
  let main_c_41 : IVec S_ 1 := constantI S_ 1 1#1
  let main_v107 : IVec S_ 1 := (fun x v => Host.reduce IntOp.andi x v reducesTo_S8_S_d0 h_S_) main_v106 main_c_41
  let main_v108 : IVec S_ 1 := andi main_v103 main_v107
  let main_c_42 : IVec S_ 32 := constantI S_ 32 0#32
  let main_v109 : IVec S2x800000 32 := broadcastInDim S2x800000 ![] bcast_S_S2x800000 main_c_42
  let main_v110 : IVec S2x800000 1 := cmpi .sge main_arg4 main_v109
  let main_c_43 : IVec S_ 1 := constantI S_ 1 1#1
  let main_v111 : IVec S_ 1 := (fun x v => Host.reduce IntOp.andi x v reducesTo_S2x800000_S_d0_1 h_S_) main_v110 main_c_43
  let main_v112 : IVec S_ 1 := andi main_v108 main_v111
  let main_c_44 : IVec S_ 32 := constantI S_ 32 50000#32
  let main_v113 : IVec S2x800000 32 := broadcastInDim S2x800000 ![] bcast_S_S2x800000 main_c_44
  let main_v114 : IVec S2x800000 1 := cmpi .slt main_arg4 main_v113
  let main_c_45 : IVec S_ 1 := constantI S_ 1 1#1
  let main_v115 : IVec S_ 1 := (fun x v => Host.reduce IntOp.andi x v reducesTo_S2x800000_S_d0_1 h_S_) main_v114 main_c_45
  let main_v116 : IVec S_ 1 := andi main_v112 main_v115
  main_v116

def fn_part5 {F : FTy → Type} [FloatOps F] (main_arg4 : IVec S2x800000 32) (main_arg19 : FVec F S64 .f32) (main_arg20 : FVec F S8x8 .f32) (main_arg21 : FVec F S64x8 .f32) (main_arg22 : FVec F S8 .f32) (main_v83 : IVec S_ 1) (main_v84 : FVec F S72x64 .f32) (main_cst_32 : FVec F S_ .f32) : IVec S_ 1 :=
  let main_v85 : FVec F S72x64 .f32 := broadcastInDim S72x64 ![] bcast_S_S72x64 main_cst_32
  let main_v86 : IVec S72x64 1 := cmpf .olt main_v84 main_v85
  let main_c_33 : IVec S_ 1 := constantI S_ 1 1#1
  let main_v87 : IVec S_ 1 := (fun x v => Host.reduce IntOp.andi x v reducesTo_S72x64_S_d0_1 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S8x8 .f32 := Host.absf main_arg20
  let main_cst_36 : FVec F S_ .f32 := constant S_ .f32 0x7F800000#32
  let main_v95 : FVec F S8x8 .f32 := broadcastInDim S8x8 ![] bcast_S_S8x8 main_cst_36
  let main_v96 : IVec S8x8 1 := cmpf .olt main_v94 main_v95
  let main_c_37 : IVec S_ 1 := constantI S_ 1 1#1
  let main_v97 : IVec S_ 1 := (fun x v => Host.reduce IntOp.andi x v reducesTo_S8x8_S_d0_1 h_S_) main_v96 main_c_37
  let main_v98 : IVec S_ 1 := andi main_v93 main_v97
  let main_v99 : FVec F S64x8 .f32 := Host.absf main_arg21
  let main_cst_38 : FVec F S_ .f32 := constant S_ .f32 0x7F800000#32
  let main_v100 : FVec F S64x8 .f32 := broadcastInDim S64x8 ![] bcast_S_S64x8 main_cst_38
  let main_v101 : IVec S64x8 1 := cmpf .olt main_v99 main_v100
  let main_c_39 : IVec S_ 1 := constantI S_ 1 1#1
  fn_part6 (F := F) main_arg4 main_arg22 main_v98 main_v101 main_c_39

def fn_part4 {F : FTy → Type} [FloatOps F] (main_arg4 : IVec S2x800000 32) (main_arg15 : FVec F S64x8 .f32) (main_arg16 : FVec F S8 .f32) (main_arg17 : FVec F S8x8 .f32) (main_arg18 : FVec F S72x64 .f32) (main_arg19 : FVec F S64 .f32) (main_arg20 : FVec F S8x8 .f32) (main_arg21 : FVec F S64x8 .f32) (main_arg22 : FVec F S8 .f32) (main_v63 : IVec S_ 1) (main_v67 : IVec S_ 1) : IVec S_ 1 :=
  let main_v68 : IVec S_ 1 := andi main_v63 main_v67
  let main_v69 : FVec F S64x8 .f32 := Host.absf main_arg15
  let main_cst_26 : FVec F S_ .f32 := constant S_ .f32 0x7F800000#32
  let main_v70 : FVec F S64x8 .f32 := broadcastInDim S64x8 ![] bcast_S_S64x8 main_cst_26
  let main_v71 : IVec S64x8 1 := cmpf .olt main_v69 main_v70
  let main_c_27 : IVec S_ 1 := constantI S_ 1 1#1
  let main_v72 : IVec S_ 1 := (fun x v => Host.reduce IntOp.andi x v reducesTo_S64x8_S_d0_1 h_S_) main_v71 main_c_27
  let main_v73 : IVec S_ 1 := andi main_v68 main_v72
  let main_v74 : FVec F S8 .f32 := Host.absf main_arg16
  let main_cst_28 : FVec F S_ .f32 := constant S_ .f32 0x7F800000#32
  let main_v75 : FVec F S8 .f32 := broadcastInDim S8 ![] bcast_S_S8 main_cst_28
  let main_v76 : IVec S8 1 := cmpf .olt main_v74 main_v75
  let main_c_29 : IVec S_ 1 := constantI S_ 1 1#1
  let main_v77 : IVec S_ 1 := (fun x v => Host.reduce IntOp.andi x v reducesTo_S8_S_d0 h_S_) main_v76 main_c_29
  let main_v78 : IVec S_ 1 := andi main_v73 main_v77
  let main_v79 : FVec F S8x8 .f32 := Host.absf main_arg17
  let main_cst_30 : FVec F S_ .f32 := constant S_ .f32 0x7F800000#32
  let main_v80 : FVec F S8x8 .f32 := broadcastInDim S8x8 ![] bcast_S_S8x8 main_cst_30
  let main_v81 : IVec S8x8 1 := cmpf .olt main_v79 main_v80
  let main_c_31 : IVec S_ 1 := constantI S_ 1 1#1
  let main_v82 : IVec S_ 1 := (fun x v => Host.reduce IntOp.andi x v reducesTo_S8x8_S_d0_1 h_S_) main_v81 main_c_31
  let main_v83 : IVec S_ 1 := andi main_v78 main_v82
  let main_v84 : FVec F S72x64 .f32 := Host.absf main_arg18
  let main_cst_32 : FVec F S_ .f32 := constant S_ .f32 0x7F800000#32
  fn_part5 (F := F) main_arg4 main_arg19 main_arg20 main_arg21 main_arg22 main_v83 main_v84 main_cst_32

def fn_part3 {F : FTy → Type} [FloatOps F] (main_arg4 : IVec S2x800000 32) (main_arg12 : FVec F S72x64 .f32) (main_arg13 : FVec F S64 .f32) (main_arg14 : FVec F S8x8 .f32) (main_arg15 : FVec F S64x8 .f32) (main_arg16 : FVec F S8 .f32) (main_arg17 : FVec F S8x8 .f32) (main_arg18 : FVec F S72x64 .f32) (main_arg19 : FVec F S64 .f32) (main_arg20 : FVec F S8x8 .f32) (main_arg21 : FVec F S64x8 .f32) (main_arg22 : FVec F S8 .f32) (main_v48 : IVec S_ 1) (main_v49 : FVec F S8x8 .f32) (main_v50 : FVec F S8x8 .f32) : IVec S_ 1 :=
  let main_v51 : IVec S8x8 1 := cmpf .olt main_v49 main_v50
  let main_c_19 : IVec S_ 1 := constantI S_ 1 1#1
  let main_v52 : IVec S_ 1 := (fun x v => Host.reduce IntOp.andi x v reducesTo_S8x8_S_d0_1 h_S_) main_v51 main_c_19
  let main_v53 : IVec S_ 1 := andi main_v48 main_v52
  let main_v54 : FVec F S72x64 .f32 := Host.absf main_arg12
  let main_cst_20 : FVec F S_ .f32 := constant S_ .f32 0x7F800000#32
  let main_v55 : FVec F S72x64 .f32 := broadcastInDim S72x64 ![] bcast_S_S72x64 main_cst_20
  let main_v56 : IVec S72x64 1 := cmpf .olt main_v54 main_v55
  let main_c_21 : IVec S_ 1 := constantI S_ 1 1#1
  let main_v57 : IVec S_ 1 := (fun x v => Host.reduce IntOp.andi x v reducesTo_S72x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S8x8 .f32 := Host.absf main_arg14
  let main_cst_24 : FVec F S_ .f32 := constant S_ .f32 0x7F800000#32
  let main_v65 : FVec F S8x8 .f32 := broadcastInDim S8x8 ![] bcast_S_S8x8 main_cst_24
  let main_v66 : IVec S8x8 1 := cmpf .olt main_v64 main_v65
  let main_c_25 : IVec S_ 1 := constantI S_ 1 1#1
  let main_v67 : IVec S_ 1 := (fun x v => Host.reduce IntOp.andi x v reducesTo_S8x8_S_d0_1 h_S_) main_v66 main_c_25
  fn_part4 (F := F) main_arg4 main_arg15 main_arg16 main_arg17 main_arg18 main_arg19 main_arg20 main_arg21 main_arg22 main_v63 main_v67

def fn_part2 {F : FTy → Type} [FloatOps F] (main_arg4 : IVec S2x800000 32) (main_arg8 : FVec F S17x8 .f32) (main_arg9 : FVec F S64x8 .f32) (main_arg10 : FVec F S8 .f32) (main_arg11 : FVec F S8x8 .f32) (main_arg12 : FVec F S72x64 .f32) (main_arg13 : FVec F S64 .f32) (main_arg14 : FVec F S8x8 .f32) (main_arg15 : FVec F S64x8 .f32) (main_arg16 : FVec F S8 .f32) (main_arg17 : FVec F S8x8 .f32) (main_arg18 : FVec F S72x64 .f32) (main_arg19 : FVec F S64 .f32) (main_arg20 : FVec F S8x8 .f32) (main_arg21 : FVec F S64x8 .f32) (main_arg22 : FVec F S8 .f32) (main_v33 : IVec S_ 1) : IVec S_ 1 :=
  let main_v34 : FVec F S17x8 .f32 := Host.absf main_arg8
  let main_cst_12 : FVec F S_ .f32 := constant S_ .f32 0x7F800000#32
  let main_v35 : FVec F S17x8 .f32 := broadcastInDim S17x8 ![] bcast_S_S17x8 main_cst_12
  let main_v36 : IVec S17x8 1 := cmpf .olt main_v34 main_v35
  let main_c_13 : IVec S_ 1 := constantI S_ 1 1#1
  let main_v37 : IVec S_ 1 := (fun x v => Host.reduce IntOp.andi x v reducesTo_S17x8_S_d0_1 h_S_) main_v36 main_c_13
  let main_v38 : IVec S_ 1 := andi main_v33 main_v37
  let main_v39 : FVec F S64x8 .f32 := Host.absf main_arg9
  let main_cst_14 : FVec F S_ .f32 := constant S_ .f32 0x7F800000#32
  let main_v40 : FVec F S64x8 .f32 := broadcastInDim S64x8 ![] bcast_S_S64x8 main_cst_14
  let main_v41 : IVec S64x8 1 := cmpf .olt main_v39 main_v40
  let main_c_15 : IVec S_ 1 := constantI S_ 1 1#1
  let main_v42 : IVec S_ 1 := (fun x v => Host.reduce IntOp.andi x v reducesTo_S64x8_S_d0_1 h_S_) main_v41 main_c_15
  let main_v43 : IVec S_ 1 := andi main_v38 main_v42
  let main_v44 : FVec F S8 .f32 := Host.absf main_arg10
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  let main_v49 : FVec F S8x8 .f32 := Host.absf main_arg11
  let main_cst_18 : FVec F S_ .f32 := constant S_ .f32 0x7F800000#32
  let main_v50 : FVec F S8x8 .f32 := broadcastInDim S8x8 ![] bcast_S_S8x8 main_cst_18
  fn_part3 (F := F) main_arg4 main_arg12 main_arg13 main_arg14 main_arg15 main_arg16 main_arg17 main_arg18 main_arg19 main_arg20 main_arg21 main_arg22 main_v48 main_v49 main_v50

def fn_part1 {F : FTy → Type} [FloatOps F] (main_arg4 : IVec S2x800000 32) (main_arg5 : FVec F S17x17 .f32) (main_arg6 : FVec F S161x64 .f32) (main_arg7 : FVec F S64 .f32) (main_arg8 : FVec F S17x8 .f32) (main_arg9 : FVec F S64x8 .f32) (main_arg10 : FVec F S8 .f32) (main_arg11 : FVec F S8x8 .f32) (main_arg12 : FVec F S72x64 .f32) (main_arg13 : FVec F S64 .f32) (main_arg14 : FVec F S8x8 .f32) (main_arg15 : FVec F S64x8 .f32) (main_arg16 : FVec F S8 .f32) (main_arg17 : FVec F S8x8 .f32) (main_arg18 : FVec F S72x64 .f32) (main_arg19 : FVec F S64 .f32) (main_arg20 : FVec F S8x8 .f32) (main_arg21 : FVec F S64x8 .f32) (main_arg22 : FVec F S8 .f32) (main_v13 : IVec S_ 1) (main_v16 : IVec S800000x3x1 1) : IVec S_ 1 :=
  let main_c_5 : IVec S_ 1 := constantI S_ 1 1#1
  let main_v17 : IVec S_ 1 := (fun x v => Host.reduce IntOp.andi x v reducesTo_S800000x3x1_S_d0_1_2 h_S_) main_v16 main_c_5
  let main_v18 : IVec S_ 1 := andi main_v13 main_v17
  let main_v19 : FVec F S17x17 .f32 := Host.absf main_arg5
  let main_cst_6 : FVec F S_ .f32 := constant S_ .f32 0x7F800000#32
  let main_v20 : FVec F S17x17 .f32 := broadcastInDim S17x17 ![] bcast_S_S17x17 main_cst_6
  let main_v21 : IVec S17x17 1 := cmpf .olt main_v19 main_v20
  let main_c_7 : IVec S_ 1 := constantI S_ 1 1#1
  let main_v22 : IVec S_ 1 := (fun x v => Host.reduce IntOp.andi x v reducesTo_S17x17_S_d0_1 h_S_) main_v21 main_c_7
  let main_v23 : IVec S_ 1 := andi main_v18 main_v22
  let main_v24 : FVec F S161x64 .f32 := Host.absf main_arg6
  let main_cst_8 : FVec F S_ .f32 := constant S_ .f32 0x7F800000#32
  let main_v25 : FVec F S161x64 .f32 := broadcastInDim S161x64 ![] bcast_S_S161x64 main_cst_8
  let main_v26 : IVec S161x64 1 := cmpf .olt main_v24 main_v25
  let main_c_9 : IVec S_ 1 := constantI S_ 1 1#1
  let main_v27 : IVec S_ 1 := (fun x v => Host.reduce IntOp.andi x v reducesTo_S161x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg4 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x64 .f32) (main_arg1 : FVec F S50000x3x8 .f32) (main_arg2 : FVec F S800000x16 .f32) (main_arg3 : FVec F S800000x3x1 .f32) (main_arg4 : IVec S2x800000 32) (main_arg5 : FVec F S17x17 .f32) (main_arg6 : FVec F S161x64 .f32) (main_arg7 : FVec F S64 .f32) (main_arg8 : FVec F S17x8 .f32) (main_arg9 : FVec F S64x8 .f32) (main_arg10 : FVec F S8 .f32) (main_arg11 : FVec F S8x8 .f32) (main_arg12 : FVec F S72x64 .f32) (main_arg13 : FVec F S64 .f32) (main_arg14 : FVec F S8x8 .f32) (main_arg15 : FVec F S64x8 .f32) (main_arg16 : FVec F S8 .f32) (main_arg17 : FVec F S8x8 .f32) (main_arg18 : FVec F S72x64 .f32) (main_arg19 : FVec F S64 .f32) (main_arg20 : FVec F S8x8 .f32) (main_arg21 : FVec F S64x8 .f32) (main_arg22 : FVec F S8 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3x8 .f32 := Host.absf main_arg1
  let main_cst_0 : FVec F S_ .f32 := constant S_ .f32 0x7F800000#32
  let main_v5 : FVec F S50000x3x8 .f32 := broadcastInDim S50000x3x8 ![] bcast_S_S50000x3x8 main_cst_0
  let main_v6 : IVec S50000x3x8 1 := cmpf .olt main_v4 main_v5
  let main_c_1 : IVec S_ 1 := constantI S_ 1 1#1
  let main_v7 : IVec S_ 1 := (fun x v => Host.reduce IntOp.andi x v reducesTo_S50000x3x8_S_d0_1_2 h_S_) main_v6 main_c_1
  let main_v8 : IVec S_ 1 := andi main_v3 main_v7
  let main_v9 : FVec F S800000x16 .f32 := Host.absf main_arg2
  let main_cst_2 : FVec F S_ .f32 := constant S_ .f32 0x7F800000#32
  let main_v10 : FVec F S800000x16 .f32 := broadcastInDim S800000x16 ![] bcast_S_S800000x16 main_cst_2
  let main_v11 : IVec S800000x16 1 := cmpf .olt main_v9 main_v10
  let main_c_3 : IVec S_ 1 := constantI S_ 1 1#1
  let main_v12 : IVec S_ 1 := (fun x v => Host.reduce IntOp.andi x v reducesTo_S800000x16_S_d0_1 h_S_) main_v11 main_c_3
  let main_v13 : IVec S_ 1 := andi main_v8 main_v12
  let main_v14 : FVec F S800000x3x1 .f32 := Host.absf main_arg3
  let main_cst_4 : FVec F S_ .f32 := constant S_ .f32 0x7F800000#32
  let main_v15 : FVec F S800000x3x1 .f32 := broadcastInDim S800000x3x1 ![] bcast_S_S800000x3x1 main_cst_4
  let main_v16 : IVec S800000x3x1 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x64 : Shape := ⟨2, ![50000, 64]⟩
abbrev S50000x3x8 : Shape := ⟨3, ![50000, 3, 8]⟩
abbrev S800000x16 : Shape := ⟨2, ![800000, 16]⟩
abbrev S800000x3x1 : Shape := ⟨3, ![800000, 3, 1]⟩
abbrev S2x800000 : Shape := ⟨2, ![2, 800000]⟩
abbrev S17x17 : Shape := ⟨2, ![17, 17]⟩
abbrev S161x64 : Shape := ⟨2, ![161, 64]⟩
abbrev S64 : Shape := ⟨1, ![64]⟩
abbrev S17x8 : Shape := ⟨2, ![17, 8]⟩
abbrev S64x8 : Shape := ⟨2, ![64, 8]⟩
abbrev S8 : Shape := ⟨1, ![8]⟩
abbrev S8x8 : Shape := ⟨2, ![8, 8]⟩
abbrev S72x64 : Shape := ⟨2, ![72, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S800000x3x8 : Shape := ⟨3, ![800000, 3, 8]⟩
abbrev S800000x24 : Shape := ⟨2, ![800000, 24]⟩
abbrev S800000x3 : Shape := ⟨2, ![800000, 3]⟩
abbrev S800000x144 : Shape := ⟨2, ![800000, 144]⟩
abbrev S800000x8 : Shape := ⟨2, ![800000, 8]⟩
abbrev S800000x17 : Shape := ⟨2, ![800000, 17]⟩
abbrev S800000x51 : Shape := ⟨2, ![800000, 51]⟩
abbrev S1x64 : Shape := ⟨2, ![1, 64]⟩
abbrev S1x8 : Shape := ⟨2, ![1, 8]⟩
abbrev S4000x144 : Shape := ⟨2, ![4000, 144]⟩
abbrev S4000x51 : Shape := ⟨2, ![4000, 51]⟩
abbrev S4000x64 : Shape := ⟨2, ![4000, 64]⟩
abbrev S4000x24 : Shape := ⟨2, ![4000, 24]⟩
abbrev S4000x17 : Shape := ⟨2, ![4000, 17]⟩
abbrev S4000x161 : Shape := ⟨2, ![4000, 161]⟩
abbrev S4000x8 : Shape := ⟨2, ![4000, 8]⟩
abbrev S4000x72 : Shape := ⟨2, ![4000, 72]⟩

abbrev nBuf : Space → Nat
  | .hbm => 147
  | .vmem => 26
  | .smem => 0
  | _ => 0

abbrev hbmTy0_0 (i : Nat) : BufTy := match i % 128 with
  | 0 => ⟨S50000x64, .f32⟩
  | 1 => ⟨S50000x3x8, .f32⟩
  | 2 => ⟨S800000x16, .f32⟩
  | 3 => ⟨S800000x3x1, .f32⟩
  | 4 => ⟨S2x800000, .i32⟩
  | 5 => ⟨S17x17, .f32⟩
  | 6 => ⟨S161x64, .f32⟩
  | 7 => ⟨S64, .f32⟩
  | 8 => ⟨S17x8, .f32⟩
  | 9 => ⟨S64x8, .f32⟩
  | 10 => ⟨S8, .f32⟩
  | 11 => ⟨S8x8, .f32⟩
  | 12 => ⟨S72x64, .f32⟩
  | 13 => ⟨S64, .f32⟩
  | 14 => ⟨S8x8, .f32⟩
  | 15 => ⟨S64x8, .f32⟩
  | 16 => ⟨S8, .f32⟩
  | 17 => ⟨S8x8, .f32⟩
  | 18 => ⟨S72x64, .f32⟩
  | 19 => ⟨S64, .f32⟩
  | 20 => ⟨S8x8, .f32⟩
  | 21 => ⟨S64x8, .f32⟩
  | 22 => ⟨S8, .f32⟩
  | 23 => ⟨S1x800000, .i32⟩
  | 24 => ⟨S800000, .i32⟩
  | 25 => ⟨S1x800000, .i32⟩
  | 26 => ⟨S800000, .i32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S1, .i32⟩
  | 36 => ⟨S_, .i32⟩
  | 37 => ⟨S800000x1, .i32⟩
  | 38 => ⟨S800000x1, .i1⟩
  | 39 => ⟨S1x1, .i32⟩
  | 40 => ⟨S800000x1, .i32⟩
  | 41 => ⟨S800000x1, .i1⟩
  | 42 => ⟨S800000x1, .i1⟩
  | 43 => ⟨S_, .i1⟩
  | 44 => ⟨S800000, .i1⟩
  | 45 => ⟨S800000x64, .f32⟩
  | 46 => ⟨S800000x64, .i1⟩
  | 47 => ⟨S_, .f32⟩
  | 48 => ⟨S800000x64, .f32⟩
  | 49 => ⟨S800000x64, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S1, .i32⟩
  | 59 => ⟨S_, .i32⟩
  | 60 => ⟨S800000x1, .i32⟩
  | 61 => ⟨S800000x1, .i1⟩
  | 62 => ⟨S1x1, .i32⟩
  | 63 => ⟨S800000x1, .i32⟩
  | 64 => ⟨S800000x1, .i1⟩
  | 65 => ⟨S800000x1, .i1⟩
  | 66 => ⟨S_, .i1⟩
  | 67 => ⟨S800000, .i1⟩
  | 68 => ⟨S800000x64, .f32⟩
  | 69 => ⟨S800000x64, .i1⟩
  | 70 => ⟨S_, .f32⟩
  | 71 => ⟨S800000x64, .f32⟩
  | 72 => ⟨S800000x64, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S1, .i32⟩
  | 82 => ⟨S_, .i32⟩
  | 83 => ⟨S800000x1, .i32⟩
  | 84 => ⟨S800000x1, .i1⟩
  | 85 => ⟨S1x1, .i32⟩
  | 86 => ⟨S800000x1, .i32⟩
  | 87 => ⟨S800000x1, .i1⟩
  | 88 => ⟨S800000x1, .i1⟩
  | 89 => ⟨S_, .i1⟩
  | 90 => ⟨S800000, .i1⟩
  | 91 => ⟨S800000x3x8, .f32⟩
  | 92 => ⟨S800000x3x8, .i1⟩
  | 93 => ⟨S_, .f32⟩
  | 94 => ⟨S800000x3x8, .f32⟩
  | 95 => ⟨S800000x3x8, .f32⟩
  | 96 => ⟨S800000x24, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S1, .i32⟩
  | 106 => ⟨S_, .i32⟩
  | 107 => ⟨S800000x1, .i32⟩
  | 108 => ⟨S800000x1, .i1⟩
  | 109 => ⟨S1x1, .i32⟩
  | 110 => ⟨S800000x1, .i32⟩
  | 111 => ⟨S800000x1, .i1⟩
  | 112 => ⟨S800000x1, .i1⟩
  | 113 => ⟨S_, .i1⟩
  | 114 => ⟨S800000, .i1⟩
  | 115 => ⟨S800000x3x8, .f32⟩
  | 116 => ⟨S800000x3x8, .i1⟩
  | 117 => ⟨S_, .f32⟩
  | 118 => ⟨S800000x3x8, .f32⟩
  | 119 => ⟨S800000x3x8, .f32⟩
  | 120 => ⟨S800000x24, .f32⟩
  | 121 => ⟨S800000x3, .f32⟩
  | 122 => ⟨S800000x144, .f32⟩
  | 123 => ⟨S800000x144, .bf16⟩
  | 124 => ⟨S800000x8, .f32⟩
  | 125 => ⟨S800000x8, .f32⟩
  | 126 => ⟨S800000x8, .f32⟩
  | 127 => ⟨S800000x8, .f32⟩
  | _ => ⟨S50000x64, .f32⟩

abbrev hbmTy0_1 (i : Nat) : BufTy := match i % 128 with
  | 0 => ⟨S800000x8, .f32⟩
  | 1 => ⟨S800000x8, .f32⟩
  | 2 => ⟨S800000x1, .f32⟩
  | 3 => ⟨S800000x1, .f32⟩
  | 4 => ⟨S800000x1, .f32⟩
  | 5 => ⟨S800000x17, .f32⟩
  | 6 => ⟨S800000x17, .f32⟩
  | 7 => ⟨S800000x17, .f32⟩
  | 8 => ⟨S800000x51, .f32⟩
  | 9 => ⟨S800000x51, .bf16⟩
  | 10 => ⟨S1x64, .f32⟩
  | 11 => ⟨S1x8, .f32⟩
  | 12 => ⟨S1x64, .f32⟩
  | 13 => ⟨S1x8, .f32⟩
  | 14 => ⟨S1x64, .f32⟩
  | 15 => ⟨S1x8, .f32⟩
  | 16 => ⟨S800000x64, .f32⟩
  | 17 => ⟨S800000x24, .f32⟩
  | 18 => ⟨S800000x3x8, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S4000x144, .bf16⟩
  | .local _ .vmem, ⟨1, _⟩ => ⟨S4000x144, .bf16⟩
  | .local _ .vmem, ⟨2, _⟩ => ⟨S4000x51, .bf16⟩
  | .local _ .vmem, ⟨3, _⟩ => ⟨S4000x51, .bf16⟩
  | .local _ .vmem, ⟨4, _⟩ => ⟨S17x17, .f32⟩
  | .local _ .vmem, ⟨5, _⟩ => ⟨S161x64, .f32⟩
  | .local _ .vmem, ⟨6, _⟩ => ⟨S1x64, .f32⟩
  | .local _ .vmem, ⟨7, _⟩ => ⟨S17x8, .f32⟩
  | .local _ .vmem, ⟨8, _⟩ => ⟨S64x8, .f32⟩
  | .local _ .vmem, ⟨9, _⟩ => ⟨S1x8, .f32⟩
  | .local _ .vmem, ⟨10, _⟩ => ⟨S8x8, .f32⟩
  | .local _ .vmem, ⟨11, _⟩ => ⟨S72x64, .f32⟩
  | .local _ .vmem, ⟨12, _⟩ => ⟨S1x64, .f32⟩
  | .local _ .vmem, ⟨13, _⟩ => ⟨S8x8, .f32⟩
  | .local _ .vmem, ⟨14, _⟩ => ⟨S64x8, .f32⟩
  | .local _ .vmem, ⟨15, _⟩ => ⟨S1x8, .f32⟩
  | .local _ .vmem, ⟨16, _⟩ => ⟨S8x8, .f32⟩
  | .local _ .vmem, ⟨17, _⟩ => ⟨S72x64, .f32⟩
  | .local _ .vmem, ⟨18, _⟩ => ⟨S1x64, .f32⟩
  | .local _ .vmem, ⟨19, _⟩ => ⟨S8x8, .f32⟩
  | .local _ .vmem, ⟨20, _⟩ => ⟨S64x8, .f32⟩
  | .local _ .vmem, ⟨21, _⟩ => ⟨S1x8, .f32⟩
  | .local _ .vmem, ⟨22, _⟩ => ⟨S4000x64, .f32⟩
  | .local _ .vmem, ⟨23, _⟩ => ⟨S4000x64, .f32⟩
  | .local _ .vmem, ⟨24, _⟩ => ⟨S4000x24, .f32⟩
  | .local _ .vmem, ⟨25, _⟩ => ⟨S4000x24, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v4 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v5 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_call2_cst : Ref sig .tc := ⟨.hbm, 93, rfl⟩
abbrev main_call2_v15 : Ref sig .tc := ⟨.hbm, 94, rfl⟩
abbrev main_v6 : Ref sig .tc := ⟨.hbm, 95, rfl⟩
abbrev main_v7 : Ref sig .tc := ⟨.hbm, 96, rfl⟩
abbrev main_call3_c : Ref sig .tc := ⟨.hbm, 97, rfl⟩
abbrev main_call3_v0 : Ref sig .tc := ⟨.hbm, 98, rfl⟩
abbrev main_call3_v1 : Ref sig .tc := ⟨.hbm, 99, rfl⟩
abbrev main_call3_c_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_c_1 : Ref sig .tc := ⟨.hbm, 105, rfl⟩
abbrev main_call3_c_2 : Ref sig .tc := ⟨.hbm, 106, rfl⟩
abbrev main_call3_v6 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_c_3 : Ref sig .tc := ⟨.hbm, 113, rfl⟩
abbrev main_call3_v12 : Ref sig .tc := ⟨.hbm, 114, rfl⟩
abbrev main_call3_v13 : Ref sig .tc := ⟨.hbm, 115, rfl⟩
abbrev main_call3_v14 : Ref sig .tc := ⟨.hbm, 116, rfl⟩
abbrev main_call3_cst : Ref sig .tc := ⟨.hbm, 117, rfl⟩
abbrev main_call3_v15 : Ref sig .tc := ⟨.hbm, 118, rfl⟩
abbrev main_v8 : Ref sig .tc := ⟨.hbm, 119, rfl⟩
abbrev main_v9 : Ref sig .tc := ⟨.hbm, 120, rfl⟩
abbrev main_v10 : Ref sig .tc := ⟨.hbm, 121, rfl⟩
abbrev main_v11 : Ref sig .tc := ⟨.hbm, 122, rfl⟩
abbrev main_v12 : Ref sig .tc := ⟨.hbm, 123, rfl⟩
abbrev main_v13 : Ref sig .tc := ⟨.hbm, 124, rfl⟩
abbrev main_v14 : Ref sig .tc := ⟨.hbm, 125, rfl⟩
abbrev main_v15 : Ref sig .tc := ⟨.hbm, 126, rfl⟩
abbrev main_v16 : Ref sig .tc := ⟨.hbm, 127, rfl⟩
abbrev main_v17 : Ref sig .tc := ⟨.hbm, 128, rfl⟩
abbrev main_v18 : Ref sig .tc := ⟨.hbm, 129, rfl⟩
abbrev main_v19 : Ref sig .tc := ⟨.hbm, 130, rfl⟩
abbrev main_v20 : Ref sig .tc := ⟨.hbm, 131, rfl⟩
abbrev main_v21 : Ref sig .tc := ⟨.hbm, 132, rfl⟩
abbrev main_v22 : Ref sig .tc := ⟨.hbm, 133, rfl⟩
abbrev main_v23 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33_0 : Ref sig .tc := ⟨.hbm, 144, rfl⟩
abbrev main_v33_1 : Ref sig .tc := ⟨.hbm, 145, rfl⟩
abbrev main_v34 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg20_1 : Ref sig .tc := ⟨.vmem, 23, rfl⟩
abbrev cc0_stg21_0 : Ref sig .tc := ⟨.vmem, 24, rfl⟩
abbrev cc0_stg21_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem20_1 : DmaSem sig := 23
abbrev cc0_sem21_0 : DmaSem sig := 24
abbrev cc0_sem21_1 : DmaSem sig := 25

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x51 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S17x17 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S161x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S17x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S72x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S72x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S64x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S4000x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S4000x24 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S800000_S800000x3x8_0 : S800000.BroadcastsInDim S800000x3x8 (![0] : Fin 1 → Fin S800000x3x8.rank)
  bcast_S_S800000x3x8 : S_.BroadcastsInDim S800000x3x8 (![] : Fin 0 → Fin S800000x3x8.rank)
  shapeCasts_S800000x3x8_S800000x24 : S800000x3x8.ShapeCasts S800000x24
  shapeCasts_S800000x3x1_S800000x3 : S800000x3x1.ShapeCasts S800000x3
  concatenates_S800000x64_S800000x64_S800000x16_S800000x144_d1 : Shape.Concatenates [S800000x64, S800000x64, S800000x16] S800000x144 1
  bitsLt_bf16_f32 : FTy.bits .bf16 < FTy.bits .f32
  slices_S800000x24_S800000x8_0_0 : S800000x24.Slices ![0, 0] S800000x8
  slices_S800000x24_S800000x8_0_8 : S800000x24.Slices ![0, 8] S800000x8
  slices_S800000x24_S800000x8_0_16 : S800000x24.Slices ![0, 16] S800000x8
  slices_S800000x3_S800000x1_0_0 : S800000x3.Slices ![0, 0] S800000x1
  slices_S800000x3_S800000x1_0_1 : S800000x3.Slices ![0, 1] S800000x1
  slices_S800000x3_S800000x1_0_2 : S800000x3.Slices ![0, 2] S800000x1
  concatenates_S800000x8_S800000x8_S800000x1_S800000x17_d1 : Shape.Concatenates [S800000x8, S800000x8, S800000x1] S800000x17 1
  concatenates_S800000x17_S800000x17_S800000x17_S800000x51_d1 : Shape.Concatenates [S800000x17, S800000x17, S800000x17] S800000x51 1
  shapeCasts_S64_S1x64 : S64.ShapeCasts S1x64
  shapeCasts_S8_S1x8 : S8.ShapeCasts S1x8
  inb_S4000x144_S4000x144_0_0 : ∀ a, (![0, 0] : Fin 2 → Nat) a + S4000x144.size a ≤ S4000x144.size a
  h_S4000x144 : 0 < S4000x144.numel
  shapeCasts_S4000x144_S4000x144 : S4000x144.ShapeCasts S4000x144
  inb_S4000x51_S4000x51_0_0 : ∀ a, (![0, 0] : Fin 2 → Nat) a + S4000x51.size a ≤ S4000x51.size a
  h_S4000x51 : 0 < S4000x51.numel
  shapeCasts_S4000x51_S4000x51 : S4000x51.ShapeCasts S4000x51
  inb_S17x17_S17x17_0_0 : ∀ a, (![0, 0] : Fin 2 → Nat) a + S17x17.size a ≤ S17x17.size a
  h_S17x17 : 0 < S17x17.numel
  inb_S161x64_S161x64_0_0 : ∀ a, (![0, 0] : Fin 2 → Nat) a + S161x64.size a ≤ S161x64.size a
  h_S161x64 : 0 < S161x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S17x8_S17x8_0_0 : ∀ a, (![0, 0] : Fin 2 → Nat) a + S17x8.size a ≤ S17x8.size a
  h_S17x8 : 0 < S17x8.numel
  inb_S64x8_S64x8_0_0 : ∀ a, (![0, 0] : Fin 2 → Nat) a + S64x8.size a ≤ S64x8.size a
  h_S64x8 : 0 < S64x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  slices_S4000x51_o0_0_S4000x17 : S4000x51.Slices ![0, 0] S4000x17
  slices_S4000x51_o0_17_S4000x17 : S4000x51.Slices ![0, 17] S4000x17
  slices_S4000x51_o0_34_S4000x17 : S4000x51.Slices ![0, 34] S4000x17
  concatenates_S4000x144_S4000x17_S4000x161_d1 : Shape.Concatenates [S4000x144, S4000x17] S4000x161 1
  broadcasts_S1x64_S4000x64 : S1x64.Broadcasts S4000x64
  broadcasts_S1x8_S4000x8 : S1x8.Broadcasts S4000x8
  concatenates_S4000x8_S4000x8_S4000x8_S4000x24_d1 : Shape.Concatenates [S4000x8, S4000x8, S4000x8] S4000x24 1
  inb_S8x8_S8x8_0_0 : ∀ a, (![0, 0] : Fin 2 → Nat) a + S8x8.size a ≤ S8x8.size a
  h_S8x8 : 0 < S8x8.numel
  inb_S72x64_S72x64_0_0 : ∀ a, (![0, 0] : Fin 2 → Nat) a + S72x64.size a ≤ S72x64.size a
  h_S72x64 : 0 < S72x64.numel
  slices_S4000x24_o0_0_S4000x8 : S4000x24.Slices ![0, 0] S4000x8
  slices_S4000x24_o0_8_S4000x8 : S4000x24.Slices ![0, 8] S4000x8
  slices_S4000x24_o0_16_S4000x8 : S4000x24.Slices ![0, 16] S4000x8
  concatenates_S4000x64_S4000x8_S4000x72_d1 : Shape.Concatenates [S4000x64, S4000x8] S4000x72 1
  inb_S4000x64_S4000x64_0_0 : ∀ a, (![0, 0] : Fin 2 → Nat) a + S4000x64.size a ≤ S4000x64.size a
  h_S4000x64 : 0 < S4000x64.numel
  inb_S4000x24_S4000x24_0_0 : ∀ a, (![0, 0] : Fin 2 → Nat) a + S4000x24.size a ≤ S4000x24.size a
  h_S4000x24 : 0 < S4000x24.numel
  shapeCasts_S800000x24_S800000x3x8 : S800000x24.ShapeCasts S800000x3x8
  gather_S50000x64_S800000x1_S800000x64_1_0_n_n_0_1_164_wf : GatherDims.WF S50000x64 S800000x1 S800000x64 [1] [0] [] [0] [] 1 ![1, 64]
  gather_S50000x3x8_S800000x1_S800000x3x8_12_0_n_n_0_1_138_wf : GatherDims.WF S50000x3x8 S800000x1 S800000x3x8 [1, 2] [0] [] [0] [] 1 ![1, 3, 8]
  dot_S4000x17_S17x17_S4000x17_1_0_0_1_n_n_wf : DotDims.WF S4000x17 S17x17 S4000x17 [1] [0] [0] [1] [] []
  dot_S4000x161_S161x64_S4000x64_1_0_0_1_n_n_wf : DotDims.WF S4000x161 S161x64 S4000x64 [1] [0] [0] [1] [] []
  dot_S4000x17_S17x8_S4000x8_1_0_0_1_n_n_wf : DotDims.WF S4000x17 S17x8 S4000x8 [1] [0] [0] [1] [] []
  dot_S4000x64_S64x8_S4000x8_1_0_0_1_n_n_wf : DotDims.WF S4000x64 S64x8 S4000x8 [1] [0] [0] [1] [] []
  dot_S4000x8_S8x8_S4000x8_1_0_0_1_n_n_wf : DotDims.WF S4000x8 S8x8 S4000x8 [1] [0] [0] [1] [] []
  dot_S4000x72_S72x64_S4000x64_1_0_0_1_n_n_wf : DotDims.WF S4000x72 S72x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x144.size a ≤ S800000x144.size a
  hwx0_0 : ∀ i : grid0.Coords, EltTy.bits .bf16 = 32 ∨ (Rect.block (s := S800000x144) S4000x144.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x51.size a ≤ S800000x51.size a
  hwx0_1 : ∀ i : grid0.Coords, EltTy.bits .bf16 = 32 ∨ (Rect.block (s := S800000x51) S4000x51.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S17x17.size a ≤ S17x17.size a
  hwx0_2 : ∀ i : grid0.Coords, EltTy.bits .f32 = 32 ∨ (Rect.block (s := S17x17) S17x17.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S161x64.size a ≤ S161x64.size a
  hwx0_3 : ∀ i : grid0.Coords, EltTy.bits .f32 = 32 ∨ (Rect.block (s := S161x64) S161x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S17x8.size a ≤ S17x8.size a
  hwx0_5 : ∀ i : grid0.Coords, EltTy.bits .f32 = 32 ∨ (Rect.block (s := S17x8) S17x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x8.size a ≤ S64x8.size a
  hwx0_6 : ∀ i : grid0.Coords, EltTy.bits .f32 = 32 ∨ (Rect.block (s := S64x8) S64x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x8.size a ≤ S1x8.size a
  hwx0_7 : ∀ i : grid0.Coords, EltTy.bits .f32 = 32 ∨ (Rect.block (s := S1x8) S1x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x8.size a ≤ S8x8.size a
  hwx0_8 : ∀ i : grid0.Coords, EltTy.bits .f32 = 32 ∨ (Rect.block (s := S8x8) S8x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S72x64.size a ≤ S72x64.size a
  hwx0_9 : ∀ i : grid0.Coords, EltTy.bits .f32 = 32 ∨ (Rect.block (s := S72x64) S72x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8x8.size a ≤ S8x8.size a
  hwx0_11 : ∀ i : grid0.Coords, EltTy.bits .f32 = 32 ∨ (Rect.block (s := S8x8) S8x8.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x8.size a ≤ S64x8.size a
  hwx0_12 : ∀ i : grid0.Coords, EltTy.bits .f32 = 32 ∨ (Rect.block (s := S64x8) S64x8.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x8.size a ≤ S1x8.size a
  hwx0_13 : ∀ i : grid0.Coords, EltTy.bits .f32 = 32 ∨ (Rect.block (s := S1x8) S1x8.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S8x8.size a ≤ S8x8.size a
  hwx0_14 : ∀ i : grid0.Coords, EltTy.bits .f32 = 32 ∨ (Rect.block (s := S8x8) S8x8.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S72x64.size a ≤ S72x64.size a
  hwx0_15 : ∀ i : grid0.Coords, EltTy.bits .f32 = 32 ∨ (Rect.block (s := S72x64) S72x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x64.size a ≤ S1x64.size a
  hwx0_16 : ∀ i : grid0.Coords, EltTy.bits .f32 = 32 ∨ (Rect.block (s := S1x64) S1x64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S8x8.size a ≤ S8x8.size a
  hwx0_17 : ∀ i : grid0.Coords, EltTy.bits .f32 = 32 ∨ (Rect.block (s := S8x8) S8x8.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S64x8.size a ≤ S64x8.size a
  hwx0_18 : ∀ i : grid0.Coords, EltTy.bits .f32 = 32 ∨ (Rect.block (s := S64x8) S64x8.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x8.size a ≤ S1x8.size a
  hwx0_19 : ∀ i : grid0.Coords, EltTy.bits .f32 = 32 ∨ (Rect.block (s := S1x8) S1x8.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S4000x64.size a ≤ S800000x64.size a
  hwx0_20 : ∀ i : grid0.Coords, EltTy.bits .f32 = 32 ∨ (Rect.block (s := S800000x64) S4000x64.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S4000x24.size a ≤ S800000x24.size a
  hwx0_21 : ∀ i : grid0.Coords, EltTy.bits .f32 = 32 ∨ (Rect.block (s := S800000x24) S4000x24.size (cc0_transform_21 i) (hinb0_21 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x3x8_S800000x1_S800000x3x8_12_0_n_n_0_1_138 : GatherDims S50000x3x8 S800000x1 S800000x3x8 where
  offsetDims := [1, 2]
  collapsedSliceDims := [0]
  operandBatchingDims := []
  startIndicesBatchingDims := []
  startIndexMap := [0]
  indexVectorDim := 1
  sliceSizes := ![1, 3, 8]
  wf := gather_S50000x3x8_S800000x1_S800000x3x8_12_0_n_n_0_1_138_wf
def dot_S4000x17_S17x17_S4000x17_1_0_0_1_n_n : DotDims S4000x17 S17x17 S4000x17 where
  lhsContracting := [1]
  rhsContracting := [0]
  lhsNonContracting := [0]
  rhsNonContracting := [1]
  lhsBatch := []
  rhsBatch := []
  wf := dot_S4000x17_S17x17_S4000x17_1_0_0_1_n_n_wf
def dot_S4000x161_S161x64_S4000x64_1_0_0_1_n_n : DotDims S4000x161 S161x64 S4000x64 where
  lhsContracting := [1]
  rhsContracting := [0]
  lhsNonContracting := [0]
  rhsNonContracting := [1]
  lhsBatch := []
  rhsBatch := []
  wf := dot_S4000x161_S161x64_S4000x64_1_0_0_1_n_n_wf
def dot_S4000x17_S17x8_S4000x8_1_0_0_1_n_n : DotDims S4000x17 S17x8 S4000x8 where
  lhsContracting := [1]
  rhsContracting := [0]
  lhsNonContracting := [0]
  rhsNonContracting := [1]
  lhsBatch := []
  rhsBatch := []
  wf := dot_S4000x17_S17x8_S4000x8_1_0_0_1_n_n_wf
def dot_S4000x64_S64x8_S4000x8_1_0_0_1_n_n : DotDims S4000x64 S64x8 S4000x8 where
  lhsContracting := [1]
  rhsContracting := [0]
  lhsNonContracting := [0]
  rhsNonContracting := [1]
  lhsBatch := []
  rhsBatch := []
  wf := dot_S4000x64_S64x8_S4000x8_1_0_0_1_n_n_wf
def dot_S4000x8_S8x8_S4000x8_1_0_0_1_n_n : DotDims S4000x8 S8x8 S4000x8 where
  lhsContracting := [1]
  rhsContracting := [0]
  lhsNonContracting := [0]
  rhsNonContracting := [1]
  lhsBatch := []
  rhsBatch := []
  wf := dot_S4000x8_S8x8_S4000x8_1_0_0_1_n_n_wf
def dot_S4000x72_S72x64_S4000x64_1_0_0_1_n_n : DotDims S4000x72 S72x64 S4000x64 where
  lhsContracting := [1]
  rhsContracting := [0]
  lhsNonContracting := [0]
  rhsNonContracting := [1]
  lhsBatch := []
  rhsBatch := []
  wf := dot_S4000x72_S72x64_S4000x64_1_0_0_1_n_n_wf

abbrev win0_0 : Pipeline.Window sig grid0 :=
  Pipeline.Window.ofSpec (Memref.whole main_v12) S4000x144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S4000x51.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S17x17.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S161x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S17x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S64x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S1x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S8x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S72x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v29) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S8x8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg15) S64x8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v30) S1x8.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg17) S8x8.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg18) S72x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v31) S1x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg20) S8x8.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg21) S64x8.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v32) S1x8.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v33_0) S4000x64.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v33_1) S4000x24.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S50000x64 : Shape := ⟨2, ![50000, 64]⟩
abbrev S50000x3x8 : Shape := ⟨3, ![50000, 3, 8]⟩
abbrev S800000x16 : Shape := ⟨2, ![800000, 16]⟩
abbrev S800000x3x1 : Shape := ⟨3, ![800000, 3, 1]⟩
abbrev S2x800000 : Shape := ⟨2, ![2, 800000]⟩
abbrev S17x17 : Shape := ⟨2, ![17, 17]⟩
abbrev S161x64 : Shape := ⟨2, ![161, 64]⟩
abbrev S64 : Shape := ⟨1, ![64]⟩
abbrev S17x8 : Shape := ⟨2, ![17, 8]⟩
abbrev S64x8 : Shape := ⟨2, ![64, 8]⟩
abbrev S8 : Shape := ⟨1, ![8]⟩
abbrev S8x8 : Shape := ⟨2, ![8, 8]⟩
abbrev S72x64 : Shape := ⟨2, ![72, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x144 : Shape := ⟨2, ![800000, 144]⟩
abbrev S800000x3x8 : Shape := ⟨3, ![800000, 3, 8]⟩
abbrev S800000x3x17 : Shape := ⟨3, ![800000, 3, 17]⟩
abbrev S800000x17 : Shape := ⟨2, ![800000, 17]⟩
abbrev S800000x161 : Shape := ⟨2, ![800000, 161]⟩
abbrev S1x64 : Shape := ⟨2, ![1, 64]⟩
abbrev S800000x8 : Shape := ⟨2, ![800000, 8]⟩
abbrev S1x8 : Shape := ⟨2, ![1, 8]⟩
abbrev S800000x1x8 : Shape := ⟨3, ![800000, 1, 8]⟩
abbrev S800000x72 : Shape := ⟨2, ![800000, 72]⟩

abbrev nBuf : Space → Nat
  | .hbm => 158
  | .vmem => 0
  | .smem => 0
  | _ => 0

abbrev hbmTy0_0 (i : Nat) : BufTy := match i % 128 with
  | 0 => ⟨S50000x64, .f32⟩
  | 1 => ⟨S50000x3x8, .f32⟩
  | 2 => ⟨S800000x16, .f32⟩
  | 3 => ⟨S800000x3x1, .f32⟩
  | 4 => ⟨S2x800000, .i32⟩
  | 5 => ⟨S17x17, .f32⟩
  | 6 => ⟨S161x64, .f32⟩
  | 7 => ⟨S64, .f32⟩
  | 8 => ⟨S17x8, .f32⟩
  | 9 => ⟨S64x8, .f32⟩
  | 10 => ⟨S8, .f32⟩
  | 11 => ⟨S8x8, .f32⟩
  | 12 => ⟨S72x64, .f32⟩
  | 13 => ⟨S64, .f32⟩
  | 14 => ⟨S8x8, .f32⟩
  | 15 => ⟨S64x8, .f32⟩
  | 16 => ⟨S8, .f32⟩
  | 17 => ⟨S8x8, .f32⟩
  | 18 => ⟨S72x64, .f32⟩
  | 19 => ⟨S64, .f32⟩
  | 20 => ⟨S8x8, .f32⟩
  | 21 => ⟨S64x8, .f32⟩
  | 22 => ⟨S8, .f32⟩
  | 23 => ⟨S1x800000, .i32⟩
  | 24 => ⟨S800000, .i32⟩
  | 25 => ⟨S1x800000, .i32⟩
  | 26 => ⟨S800000, .i32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x64, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x64, .f32⟩
  | 45 => ⟨S800000x144, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x3x8, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x3x8, .f32⟩
  | 64 => ⟨S800000x3x17, .f32⟩
  | 65 => ⟨S800000x3x17, .f32⟩
  | 66 => ⟨S800000x3x17, .f32⟩
  | 67 => ⟨S_, .f32⟩
  | 68 => ⟨S800000x17, .f32⟩
  | 69 => ⟨S_, .f32⟩
  | 70 => ⟨S800000x17, .f32⟩
  | 71 => ⟨S800000x17, .f32⟩
  | 72 => ⟨S800000x17, .f32⟩
  | 73 => ⟨S800000x161, .f32⟩
  | 74 => ⟨S800000x64, .f32⟩
  | 75 => ⟨S1x64, .f32⟩
  | 76 => ⟨S800000x64, .f32⟩
  | 77 => ⟨S800000x64, .f32⟩
  | 78 => ⟨S800000x3x8, .f32⟩
  | 79 => ⟨S800000x8, .f32⟩
  | 80 => ⟨S1x8, .f32⟩
  | 81 => ⟨S800000x8, .f32⟩
  | 82 => ⟨S800000x8, .f32⟩
  | 83 => ⟨S800000x8, .f32⟩
  | 84 => ⟨S800000x8, .f32⟩
  | 85 => ⟨S_, .f32⟩
  | 86 => ⟨S800000x8, .f32⟩
  | 87 => ⟨S800000x8, .f32⟩
  | 88 => ⟨S_, .f32⟩
  | 89 => ⟨S800000x8, .f32⟩
  | 90 => ⟨S800000x8, .f32⟩
  | 91 => ⟨S800000x1x8, .f32⟩
  | 92 => ⟨S800000x3x8, .f32⟩
  | 93 => ⟨S800000x3x8, .f32⟩
  | 94 => ⟨S_, .f32⟩
  | 95 => ⟨S800000x64, .f32⟩
  | 96 => ⟨S800000x64, .f32⟩
  | 97 => ⟨S800000x3x8, .f32⟩
  | 98 => ⟨S800000x3x8, .f32⟩
  | 99 => ⟨S_, .f32⟩
  | 100 => ⟨S800000x8, .f32⟩
  | 101 => ⟨S_, .f32⟩
  | 102 => ⟨S800000x8, .f32⟩
  | 103 => ⟨S800000x8, .f32⟩
  | 104 => ⟨S800000x8, .f32⟩
  | 105 => ⟨S800000x72, .f32⟩
  | 106 => ⟨S800000x64, .f32⟩
  | 107 => ⟨S1x64, .f32⟩
  | 108 => ⟨S800000x64, .f32⟩
  | 109 => ⟨S800000x64, .f32⟩
  | 110 => ⟨S800000x3x8, .f32⟩
  | 111 => ⟨S800000x8, .f32⟩
  | 112 => ⟨S1x8, .f32⟩
  | 113 => ⟨S800000x8, .f32⟩
  | 114 => ⟨S800000x8, .f32⟩
  | 115 => ⟨S800000x8, .f32⟩
  | 116 => ⟨S800000x8, .f32⟩
  | 117 => ⟨S_, .f32⟩
  | 118 => ⟨S800000x8, .f32⟩
  | 119 => ⟨S800000x8, .f32⟩
  | 120 => ⟨S_, .f32⟩
  | 121 => ⟨S800000x8, .f32⟩
  | 122 => ⟨S800000x8, .f32⟩
  | 123 => ⟨S800000x1x8, .f32⟩
  | 124 => ⟨S800000x3x8, .f32⟩
  | 125 => ⟨S800000x3x8, .f32⟩
  | 126 => ⟨S_, .f32⟩
  | 127 => ⟨S800000x64, .f32⟩
  | _ => ⟨S50000x64, .f32⟩

abbrev hbmTy0_1 (i : Nat) : BufTy := match i % 128 with
  | 0 => ⟨S800000x64, .f32⟩
  | 1 => ⟨S800000x3x8, .f32⟩
  | 2 => ⟨S800000x3x8, .f32⟩
  | 3 => ⟨S_, .f32⟩
  | 4 => ⟨S800000x8, .f32⟩
  | 5 => ⟨S_, .f32⟩
  | 6 => ⟨S800000x8, .f32⟩
  | 7 => ⟨S800000x8, .f32⟩
  | 8 => ⟨S800000x8, .f32⟩
  | 9 => ⟨S800000x72, .f32⟩
  | 10 => ⟨S800000x64, .f32⟩
  | 11 => ⟨S1x64, .f32⟩
  | 12 => ⟨S800000x64, .f32⟩
  | 13 => ⟨S800000x64, .f32⟩
  | 14 => ⟨S800000x3x8, .f32⟩
  | 15 => ⟨S800000x8, .f32⟩
  | 16 => ⟨S1x8, .f32⟩
  | 17 => ⟨S800000x8, .f32⟩
  | 18 => ⟨S800000x8, .f32⟩
  | 19 => ⟨S800000x8, .f32⟩
  | 20 => ⟨S800000x8, .f32⟩
  | 21 => ⟨S_, .f32⟩
  | 22 => ⟨S800000x8, .f32⟩
  | 23 => ⟨S800000x8, .f32⟩
  | 24 => ⟨S_, .f32⟩
  | 25 => ⟨S800000x8, .f32⟩
  | 26 => ⟨S800000x8, .f32⟩
  | 27 => ⟨S800000x1x8, .f32⟩
  | 28 => ⟨S800000x3x8, .f32⟩
  | 29 => ⟨S800000x3x8, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_1 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_3 : Ref sig .tc := ⟨.hbm, 46, rfl⟩
abbrev main_v19 : Ref sig .tc := ⟨.hbm, 47, rfl⟩
abbrev main_v20 : Ref sig .tc := ⟨.hbm, 48, rfl⟩
abbrev main_c_4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_5 : Ref sig .tc := ⟨.hbm, 55, rfl⟩
abbrev main_v26 : Ref sig .tc := ⟨.hbm, 56, rfl⟩
abbrev main_v27 : Ref sig .tc := ⟨.hbm, 57, rfl⟩
abbrev main_c_6 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst : Ref sig .tc := ⟨.hbm, 67, rfl⟩
abbrev main_v36 : Ref sig .tc := ⟨.hbm, 68, rfl⟩
abbrev main_cst_7 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_8 : Ref sig .tc := ⟨.hbm, 85, rfl⟩
abbrev main_v52 : Ref sig .tc := ⟨.hbm, 86, rfl⟩
abbrev main_v53 : Ref sig .tc := ⟨.hbm, 87, rfl⟩
abbrev main_cst_9 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_call0_cst : Ref sig .tc := ⟨.hbm, 94, rfl⟩
abbrev main_call0_v0 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_10 : Ref sig .tc := ⟨.hbm, 99, rfl⟩
abbrev main_v62 : Ref sig .tc := ⟨.hbm, 100, rfl⟩
abbrev main_cst_11 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_12 : Ref sig .tc := ⟨.hbm, 117, rfl⟩
abbrev main_v78 : Ref sig .tc := ⟨.hbm, 118, rfl⟩
abbrev main_v79 : Ref sig .tc := ⟨.hbm, 119, rfl⟩
abbrev main_cst_13 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_call1_cst : Ref sig .tc := ⟨.hbm, 126, rfl⟩
abbrev main_call1_v0 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_14 : Ref sig .tc := ⟨.hbm, 131, rfl⟩
abbrev main_v88 : Ref sig .tc := ⟨.hbm, 132, rfl⟩
abbrev main_cst_15 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_16 : Ref sig .tc := ⟨.hbm, 149, rfl⟩
abbrev main_v104 : Ref sig .tc := ⟨.hbm, 150, rfl⟩
abbrev main_v105 : Ref sig .tc := ⟨.hbm, 151, rfl⟩
abbrev main_cst_17 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x16_S800000x144_d1 : Shape.Concatenates [S800000x64, S800000x64, S800000x16] S800000x144 1
  concatenates_S800000x3x8_S800000x3x8_S800000x3x1_S800000x3x17_d2 : Shape.Concatenates [S800000x3x8, S800000x3x8, S800000x3x1] S800000x3x17 2
  reducesTo_S800000x3x17_S800000x17_d1 : S800000x3x17.ReducesTo [1] S800000x17
  h_S_ : 0 < S_.numel
  bcast_S_S800000x17 : S_.BroadcastsInDim S800000x17 (![] : Fin 0 → Fin S800000x17.rank)
  concatenates_S800000x144_S800000x17_S800000x161_d1 : Shape.Concatenates [S800000x144, S800000x17] S800000x161 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S8_S1x8_1 : S8.BroadcastsInDim S1x8 (![1] : Fin 1 → Fin S1x8.rank)
  bcast_S1x8_S800000x8_0_1 : S1x8.BroadcastsInDim S800000x8 (![0, 1] : Fin 2 → Fin S800000x8.rank)
  bcast_S_S800000x8 : S_.BroadcastsInDim S800000x8 (![] : Fin 0 → Fin S800000x8.rank)
  bcast_S800000x8_S800000x1x8_0_2 : S800000x8.BroadcastsInDim S800000x1x8 (![0, 2] : Fin 2 → Fin S800000x1x8.rank)
  bcast_S800000x1x8_S800000x3x8_0_1_2 : S800000x1x8.BroadcastsInDim S800000x3x8 (![0, 1, 2] : Fin 3 → Fin S800000x3x8.rank)
  bcast_S_S800000x64 : S_.BroadcastsInDim S800000x64 (![] : Fin 0 → Fin S800000x64.rank)
  reducesTo_S800000x3x8_S800000x8_d1 : S800000x3x8.ReducesTo [1] S800000x8
  concatenates_S800000x64_S800000x8_S800000x72_d1 : Shape.Concatenates [S800000x64, S800000x8] S800000x72 1
  gather_S50000x64_S800000x1_S800000x64_1_0_n_n_0_1_164_wf : GatherDims.WF S50000x64 S800000x1 S800000x64 [1] [0] [] [0] [] 1 ![1, 64]
  gather_S50000x3x8_S800000x1_S800000x3x8_12_0_n_n_0_1_138_wf : GatherDims.WF S50000x3x8 S800000x1 S800000x3x8 [1, 2] [0] [] [0] [] 1 ![1, 3, 8]
  dot_S800000x3x17_S17x17_S800000x3x17_2_0_01_1_n_n_wf : DotDims.WF S800000x3x17 S17x17 S800000x3x17 [2] [0] [0, 1] [1] [] []
  dot_S800000x161_S161x64_S800000x64_1_0_0_1_n_n_wf : DotDims.WF S800000x161 S161x64 S800000x64 [1] [0] [0] [1] [] []
  dot_S800000x3x17_S17x8_S800000x3x8_2_0_01_1_n_n_wf : DotDims.WF S800000x3x17 S17x8 S800000x3x8 [2] [0] [0, 1] [1] [] []
  dot_S800000x64_S64x8_S800000x8_1_0_0_1_n_n_wf : DotDims.WF S800000x64 S64x8 S800000x8 [1] [0] [0] [1] [] []
  dot_S800000x3x8_S8x8_S800000x3x8_2_0_01_1_n_n_wf : DotDims.WF S800000x3x8 S8x8 S800000x3x8 [2] [0] [0, 1] [1] [] []
  dot_S800000x72_S72x64_S800000x64_1_0_0_1_n_n_wf : DotDims.WF S800000x72 S72x64 S800000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x3x8_S800000x1_S800000x3x8_12_0_n_n_0_1_138 : GatherDims S50000x3x8 S800000x1 S800000x3x8 where
  offsetDims := [1, 2]
  collapsedSliceDims := [0]
  operandBatchingDims := []
  startIndicesBatchingDims := []
  startIndexMap := [0]
  indexVectorDim := 1
  sliceSizes := ![1, 3, 8]
  wf := gather_S50000x3x8_S800000x1_S800000x3x8_12_0_n_n_0_1_138_wf
def dot_S800000x3x17_S17x17_S800000x3x17_2_0_01_1_n_n : DotDims S800000x3x17 S17x17 S800000x3x17 where
  lhsContracting := [2]
  rhsContracting := [0]
  lhsNonContracting := [0, 1]
  rhsNonContracting := [1]
  lhsBatch := []
  rhsBatch := []
  wf := dot_S800000x3x17_S17x17_S800000x3x17_2_0_01_1_n_n_wf
def dot_S800000x161_S161x64_S800000x64_1_0_0_1_n_n : DotDims S800000x161 S161x64 S800000x64 where
  lhsContracting := [1]
  rhsContracting := [0]
  lhsNonContracting := [0]
  rhsNonContracting := [1]
  lhsBatch := []
  rhsBatch := []
  wf := dot_S800000x161_S161x64_S800000x64_1_0_0_1_n_n_wf
def dot_S800000x3x17_S17x8_S800000x3x8_2_0_01_1_n_n : DotDims S800000x3x17 S17x8 S800000x3x8 where
  lhsContracting := [2]
  rhsContracting := [0]
  lhsNonContracting := [0, 1]
  rhsNonContracting := [1]
  lhsBatch := []
  rhsBatch := []
  wf := dot_S800000x3x17_S17x8_S800000x3x8_2_0_01_1_n_n_wf
def dot_S800000x64_S64x8_S800000x8_1_0_0_1_n_n : DotDims S800000x64 S64x8 S800000x8 where
  lhsContracting := [1]
  rhsContracting := [0]
  lhsNonContracting := [0]
  rhsNonContracting := [1]
  lhsBatch := []
  rhsBatch := []
  wf := dot_S800000x64_S64x8_S800000x8_1_0_0_1_n_n_wf
def dot_S800000x3x8_S8x8_S800000x3x8_2_0_01_1_n_n : DotDims S800000x3x8 S8x8 S800000x3x8 where
  lhsContracting := [2]
  rhsContracting := [0]
  lhsNonContracting := [0, 1]
  rhsNonContracting := [1]
  lhsBatch := []
  rhsBatch := []
  wf := dot_S800000x3x8_S8x8_S800000x3x8_2_0_01_1_n_n_wf
def dot_S800000x72_S72x64_S800000x64_1_0_0_1_n_n : DotDims S800000x72 S72x64 S800000x64 where
  lhsContracting := [1]
  rhsContracting := [0]
  lhsNonContracting := [0]
  rhsNonContracting := [1]
  lhsBatch := []
  rhsBatch := []
  wf := dot_S800000x72_S72x64_S800000x64_1_0_0_1_n_n_wf

class Facts : Prop extends Facts₀ where

variable [Facts]
-- ==== Proof.BBase.lean ====
/-
  The contents the pallas_call finds when it is entered: core `c`'s buffers after the host operations that run
  before it (the index slices, the four row gathers with their in-range masks, the reshapes and the two message
  concatenations with their casts), and each window's block at a grid point read off those contents.
-/
import proofs.«428393_j44160853737513_2_alg».proof.Proof.Gen.Kernel.Launch
import proofs.«428393_j44160853737513_2_alg».proof.Proof.Gen.Kernel.Skeleton
import proofs.«428393_j44160853737513_2_alg».proof.Proof.Gen.Kernel.Points
import Idealize.ShloMosaic.Lib.Pipeline.FrameBody
import Idealize.ShloMosaic.Lib.Pipeline.FrameSuffix

noncomputable section

namespace Cert.Kernel.Fr

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- The seven stretches of host operations before the region, in program order. -/
abbrev pre : List (List (HloOp τ sig (Elt F))) :=
  [hostOps0, hostOps0_1, hostOps0_2, hostOps0_3, hostOps0_4, hostOps0_5, hostOps0_6]

/-- Core `c`'s TensorCore buffer contents when the region is entered, as a valuation. -/
abbrev V0 (c : Dev nD) : Valuation τ sig (Elt F) := StableHlo.after (List.flatten (pre (F := F))) (fun b => m (c, b))

/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Both rows of the edge index address a node of the table: every entry lies in `[0, 50000)`. -/
def InRange (c : Dev nD) : Prop :=
  ∀ i : S2x800000.Idx, 0 ≤ ((m ((c : Thread nD τ).loc main_arg4) : S2x800000.Idx → BitVec 32) i).toInt
    ∧ ((m ((c : Thread nD τ).loc main_arg4) : S2x800000.Idx → BitVec 32) i).toInt < 50000

end Cert.Kernel.Fr

end
-- ==== Proof.BBody.lean ====
/-
  The kernel body's two stored values as functions of the twenty input blocks it loads: the message block
  (4000 edges × 144 scalars), the vector message block (4000 × 3·17), and the six weight blocks of each of the
  three layers.  The terms are the body's own arithmetic, layer after layer, exactly as its statements chain.
-/
import proofs.«428393_j44160853737513_2_alg».proof.Proof.Gen.Kernel.Skeleton

noncomputable section

namespace Cert.Kernel.Fr

open Cert.Kernel Cert.Kernel.Gen
open Idealize.ShloMosaic

variable {F : FTy → Type} [FloatOps F]

/-- The twenty blocks the body loads: the two message blocks, then per layer Wh, Ws, bs (as a row), Wmu, Wg, bg (as a row). -/
structure Ins (F : FTy → Type) [FloatOps F] where
  x0 : Vec F S4000x144 .bf16
  x1 : Vec F S4000x51 .bf16
  x2 : Vec F S17x17 .f32
  x3 : Vec F S161x64 .f32
  x4 : Vec F S1x64 .f32
  x5 : Vec F S17x8 .f32
  x6 : Vec F S64x8 .f32
  x7 : Vec F S1x8 .f32
  x8 : Vec F S8x8 .f32
  x9 : Vec F S72x64 .f32
  x10 : Vec F S1x64 .f32
  x11 : Vec F S8x8 .f32
  x12 : Vec F S64x8 .f32
  x13 : Vec F S1x8 .f32
  x14 : Vec F S8x8 .f32
  x15 : Vec F S72x64 .f32
  x16 : Vec F S1x64 .f32
  x17 : Vec F S8x8 .f32
  x18 : Vec F S64x8 .f32
  x19 : Vec F S1x8 .f32

variable (I : Ins F)

/-! ### Layer 1 -/
/-- The first layer's scalar output before the rectifier. -/
def s1 : FVec F S4000x64 .f32 := k0_pay7 I.x0 I.x1 I.x2 I.x3 I.x4
/-- The first layer's projected hidden vectors, one per spatial row. -/
def m1a : FVec F S4000x8 .f32 := k0_pay8 I.x1 I.x2 I.x5
def m1b : FVec F S4000x8 .f32 := k0_pay9 I.x1 I.x2 I.x5
def m1c : FVec F S4000x8 .f32 := k0_pay10 I.x1 I.x2 I.x5
/-- The first layer's gate bias as the body reads it. -/
def g1 : FVec F S1x8 .f32 := k0_pay3 I.x7

/-! ### Layer 2 -/
def s2 : FVec F S4000x64 .f32 := k0_pay16 I.x6 (g1 I) (s1 I) (m1a I) (m1b I) (m1c I) I.x8 I.x9 I.x10
def m2a : FVec F S4000x8 .f32 := k0_pay17 I.x6 (g1 I) (s1 I) (m1a I) (m1b I) (m1c I) I.x8 I.x11
def m2b : FVec F S4000x8 .f32 := k0_pay18 I.x6 (g1 I) (s1 I) (m1a I) (m1b I) (m1c I) I.x8 I.x11
/-- The second layer's third hidden row, projected only in the next stretch of the body. -/
def h2c : FVec F S4000x8 .f32 := k0_pay15 I.x6 (g1 I) (s1 I) (m1a I) (m1b I) (m1c I) I.x8
def g2 : FVec F S1x8 .f32 := k0_pay12 I.x13
/-- The zero accumulator the second stretch hands on. -/
def z8 : FVec F S4000x8 .f32 := constant S4000x8 .f32 0x00000000#32

/-! ### Layer 3 -/
def s3 : FVec F S4000x64 .f32 := k0_pay24 I.x11 I.x12 (g2 I) (h2c I) (s2 I) (m2a I) (m2b I) (z8 (F := F)) I.x14 I.x15 I.x16
def m3a : FVec F S4000x8 .f32 := k0_pay25 I.x11 I.x12 (g2 I) (h2c I) (s2 I) (m2a I) (m2b I) (z8 (F := F)) I.x14 I.x17
def m3b : FVec F S4000x8 .f32 := k0_pay26 I.x11 I.x12 (g2 I) (h2c I) (s2 I) (m2a I) (m2b I) (z8 (F := F)) I.x14 I.x17
def h3c : FVec F S4000x8 .f32 := k0_pay23 I.x11 I.x12 (g2 I) (h2c I) (s2 I) (m2a I) (m2b I) (z8 (F := F)) I.x14
def g3 : FVec F S1x8 .f32 := k0_pay20 I.x19

/-- What the body stores into the scalar result block. -/
def bodyS : FVec F S4000x64 .f32 := s3 I
/-- What the body stores into the vector result block (three spatial rows of eight, side by side). -/
def bodyV : FVec F S4000x24 .f32 := k0_pay1 I.x17 I.x18 (g3 I) (h3c I) (s3 I) (m3a I) (m3b I)

end Cert.Kernel.Fr

end
-- ==== Proof.BData.lean ====
/-
  The pipeline's proof data: the arrays as the region finds them; after the body at grid point `t` each input
  window's buffer holds its block and each result window's buffer holds the body's stored value of the twenty
  input blocks at `t`.
-/
import proofs.«428393_j44160853737513_2_alg».proof.Proof.BBase
import proofs.«428393_j44160853737513_2_alg».proof.Proof.BBody

noncomputable section

namespace Cert.Kernel.Fr

open Cert.Kernel Cert.Kernel.Gen
open Idealize.ShloMosaic Idealize.ShloMosaic.TcCoe
open Idealize.SL Idealize.SL.RA Idealize.SL.BI Idealize.SL.Sem
open Idealize.ShloMosaic.Rounds
open Idealize.ShloMosaic.Pipeline (Dat Cfg Window)

variable {F : FTy → Type} [FloatOps F]

variable (m : (ℓ : Loc nD τ sig) → Buf (Elt F) ℓ)

/-- The twenty input blocks at grid point `t`. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t⟩

/-- The whole scalar result block, as the one rectangle the body stores through. -/
abbrev rS : Rect S4000x64 := Rect.unit (s := S4000x64) ![0, 0] S4000x64.size inb_S4000x64_S4000x64_0_0
/-- The whole vector result block. -/
abbrev rV : Rect S4000x24 := Rect.unit (s := S4000x24) ![0, 0] S4000x24.size inb_S4000x24_S4000x24_0_0

/-- The scalar result window's buffer after the body: its one store, over the whole block. -/
def outS (I : Ins F) : Vec F S4000x64 .f32 := View.canon [⟨rS, bodyS I⟩]
/-- The vector result window's buffer after the body. -/
def outV (I : Ins F) : Vec F S4000x24 .f32 := View.canon [⟨rV, bodyV I⟩]

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => outS (insAt m c t)
    | ⟨21, _⟩ => outV (insAt m c t)
    | ⟨n + 22, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_20 (c : Dev nD) (t : Fin cfg0.N) : (dats m 0 c).after 20 t = outS (insAt m c t) := by dsimp only [dats]
theorem after0_21 (c : Dev nD) (t : Fin cfg0.N) : (dats m 0 c).after 21 t = outV (insAt m c t) := by dsimp only [dats]

end Cert.Kernel.Fr

end
-- ==== Proof.BArgs.lean ====
/-
  The host operations around the pallas_call write only their own result buffers: every argument array is found by
  the region as launched, and is left as launched by the one reshape that follows the region.
-/
import proofs.«428393_j44160853737513_2_alg».proof.Proof.BData

set_option maxRecDepth 16384

noncomputable section

namespace Cert.Kernel.Fr

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-! ## Before the region -/

/-- The buffers the host operations before the region write, in program order: each operation's one result. -/
def written : List (Ref sig .tc) :=
  [
    main_v0, main_v1, main_v2, main_v3, main_call0_c, main_call0_v0, main_call0_v1, main_call0_c_0,
    main_call0_v2, main_call0_v3, main_call0_v4, main_call0_v5, main_call0_c_1, main_call0_c_2, main_call0_v6, main_call0_v7,
    main_call0_v8, main_call0_v9, main_call0_v10, main_call0_v11, main_call0_c_3, main_call0_v12, main_call0_v13, main_call0_v14,
    main_call0_cst, main_call0_v15, main_v4, main_call1_c, main_call1_v0, main_call1_v1, main_call1_c_0, main_call1_v2,
    main_call1_v3, main_call1_v4, main_call1_v5, main_call1_c_1, main_call1_c_2, main_call1_v6, main_call1_v7, main_call1_v8,
    main_call1_v9, main_call1_v10, main_call1_v11, main_call1_c_3, main_call1_v12, main_call1_v13, main_call1_v14, main_call1_cst,
    main_call1_v15, main_v5, main_call2_c, main_call2_v0, main_call2_v1, main_call2_c_0, main_call2_v2, main_call2_v3,
    main_call2_v4, main_call2_v5, main_call2_c_1, main_call2_c_2, main_call2_v6, main_call2_v7, main_call2_v8, main_call2_v9,
    main_call2_v10, main_call2_v11, main_call2_c_3, main_call2_v12, main_call2_v13, main_call2_v14, main_call2_cst, main_call2_v15,
    main_v6, main_v7, main_call3_c, main_call3_v0, main_call3_v1, main_call3_c_0, main_call3_v2, main_call3_v3,
    main_call3_v4, main_call3_v5, main_call3_c_1, main_call3_c_2, main_call3_v6, main_call3_v7, main_call3_v8, main_call3_v9,
    main_call3_v10, main_call3_v11, main_call3_c_3, main_call3_v12, main_call3_v13, main_call3_v14, main_call3_cst, main_call3_v15,
    main_v8, main_v9, main_v10, main_v11, main_v12, main_v13, main_v14, main_v15,
    main_v16, main_v17, main_v18, main_v19, main_v20, main_v21, main_v22, main_v23,
    main_v24, main_v25, main_v26, main_v27, main_v28, main_v29, main_v30, main_v31,
    main_v32 ]

/-- Every host operation before the region writes one buffer, and that buffer is in the list. -/
theorem pre_writes : (List.flatten (pre (F := F))).Forall fun op =>
    op.writes ⊆ ((written.map (Proc.devRef (τ := τ) .tc)).toFinset) := by
  simp only [pre, hostOps0, hostOps0_1, hostOps0_2, hostOps0_3, hostOps0_4, hostOps0_5, hostOps0_6,
      List.flatten_cons, List.flatten_nil, List.append_nil, List.cons_append, List.nil_append, List.Forall,
      StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes]
  repeat' apply And.intro
  all_goals exact Finset.singleton_subset_iff.mpr (List.mem_toFinset.mpr (List.mem_map.mpr ⟨_, by decide, rfl⟩))

/-- A buffer outside the list is found by the region as launched. -/
theorem V_of_not_written (c : Dev nD) (r : Ref sig .tc) (hr : r ∉ written) :
    V m c r = m ((c : Thread nD τ).loc r) :=
  StableHlo.after_of_writes_sub _ _ pre_writes hr

/-- No host operation before the region writes `main_arg0`. -/
theorem V_main_arg0 (c : Dev nD) : V m c main_arg0 = m ((c : Thread nD τ).loc main_arg0) :=
  V_of_not_written m c _ (by decide)

/-- No host operation before the region writes `main_arg1`. -/
theorem V_main_arg1 (c : Dev nD) : V m c main_arg1 = m ((c : Thread nD τ).loc main_arg1) :=
  V_of_not_written m c _ (by decide)

/-- No host operation before the region writes `main_arg2`. -/
theorem V_main_arg2 (c : Dev nD) : V m c main_arg2 = m ((c : Thread nD τ).loc main_arg2) :=
  V_of_not_written m c _ (by decide)

/-- No host operation before the region writes `main_arg3`. -/
theorem V_main_arg3 (c : Dev nD) : V m c main_arg3 = m ((c : Thread nD τ).loc main_arg3) :=
  V_of_not_written m c _ (by decide)

/-- No host operation before the region writes `main_arg4`. -/
theorem V_main_arg4 (c : Dev nD) : V m c main_arg4 = m ((c : Thread nD τ).loc main_arg4) :=
  V_of_not_written m c _ (by decide)

/-- No host operation before the region writes `main_arg5`. -/
theorem V_main_arg5 (c : Dev nD) : V m c main_arg5 = m ((c : Thread nD τ).loc main_arg5) :=
  V_of_not_written m c _ (by decide)

/-- No host operation before the region writes `main_arg6`. -/
theorem V_main_arg6 (c : Dev nD) : V m c main_arg6 = m ((c : Thread nD τ).loc main_arg6) :=
  V_of_not_written m c _ (by decide)

/-- No host operation before the region writes `main_arg7`. -/
theorem V_main_arg7 (c : Dev nD) : V m c main_arg7 = m ((c : Thread nD τ).loc main_arg7) :=
  V_of_not_written m c _ (by decide)

/-- No host operation before the region writes `main_arg8`. -/
theorem V_main_arg8 (c : Dev nD) : V m c main_arg8 = m ((c : Thread nD τ).loc main_arg8) :=
  V_of_not_written m c _ (by decide)

/-- No host operation before the region writes `main_arg9`. -/
theorem V_main_arg9 (c : Dev nD) : V m c main_arg9 = m ((c : Thread nD τ).loc main_arg9) :=
  V_of_not_written m c _ (by decide)

/-- No host operation before the region writes `main_arg10`. -/
theorem V_main_arg10 (c : Dev nD) : V m c main_arg10 = m ((c : Thread nD τ).loc main_arg10) :=
  V_of_not_written m c _ (by decide)

/-- No host operation before the region writes `main_arg11`. -/
theorem V_main_arg11 (c : Dev nD) : V m c main_arg11 = m ((c : Thread nD τ).loc main_arg11) :=
  V_of_not_written m c _ (by decide)

/-- No host operation before the region writes `main_arg12`. -/
theorem V_main_arg12 (c : Dev nD) : V m c main_arg12 = m ((c : Thread nD τ).loc main_arg12) :=
  V_of_not_written m c _ (by decide)

/-- No host operation before the region writes `main_arg13`. -/
theorem V_main_arg13 (c : Dev nD) : V m c main_arg13 = m ((c : Thread nD τ).loc main_arg13) :=
  V_of_not_written m c _ (by decide)

/-- No host operation before the region writes `main_arg14`. -/
theorem V_main_arg14 (c : Dev nD) : V m c main_arg14 = m ((c : Thread nD τ).loc main_arg14) :=
  V_of_not_written m c _ (by decide)

/-- No host operation before the region writes `main_arg15`. -/
theorem V_main_arg15 (c : Dev nD) : V m c main_arg15 = m ((c : Thread nD τ).loc main_arg15) :=
  V_of_not_written m c _ (by decide)

/-- No host operation before the region writes `main_arg16`. -/
theorem V_main_arg16 (c : Dev nD) : V m c main_arg16 = m ((c : Thread nD τ).loc main_arg16) :=
  V_of_not_written m c _ (by decide)

/-- No host operation before the region writes `main_arg17`. -/
theorem V_main_arg17 (c : Dev nD) : V m c main_arg17 = m ((c : Thread nD τ).loc main_arg17) :=
  V_of_not_written m c _ (by decide)

/-- No host operation before the region writes `main_arg18`. -/
theorem V_main_arg18 (c : Dev nD) : V m c main_arg18 = m ((c : Thread nD τ).loc main_arg18) :=
  V_of_not_written m c _ (by decide)

/-- No host operation before the region writes `main_arg19`. -/
theorem V_main_arg19 (c : Dev nD) : V m c main_arg19 = m ((c : Thread nD τ).loc main_arg19) :=
  V_of_not_written m c _ (by decide)

/-- No host operation before the region writes `main_arg20`. -/
theorem V_main_arg20 (c : Dev nD) : V m c main_arg20 = m ((c : Thread nD τ).loc main_arg20) :=
  V_of_not_written m c _ (by decide)

/-- No host operation before the region writes `main_arg21`. -/
theorem V_main_arg21 (c : Dev nD) : V m c main_arg21 = m ((c : Thread nD τ).loc main_arg21) :=
  V_of_not_written m c _ (by decide)

/-- No host operation before the region writes `main_arg22`. -/
theorem V_main_arg22 (c : Dev nD) : V m c main_arg22 = m ((c : Thread nD τ).loc main_arg22) :=
  V_of_not_written m c _ (by decide)

/-! ## After the region -/

/-- The one reshape after the region writes `main_v34` only. -/
theorem tail_keeps (r : Ref sig .tc) (hr : r ≠ main_v34) :
    ∀ op ∈ List.flatten ([hostOps1] : List (List (HloOp τ sig (Elt F)))), Proc.devRef (τ := τ) .tc r ∉ op.writes := by
  intro op hop
  simp only [hostOps1, List.flatten_cons, List.flatten_nil, List.append_nil, List.mem_cons, List.mem_nil_iff,
    List.not_mem_nil, or_false] at hop
  subst hop
  simp only [StableHlo.reshape_writes, Finset.mem_singleton]
  exact StableHlo.devRef_ne_of_ne hr

/-- A buffer that is no array of the pipeline and is not the reshape's result ends as the region found it. -/
theorem tail_of_rest (c : Dev nD) (r : Ref sig .tc) (hr : r ≠ main_v34) (ha : ∀ w, Pipeline.arrRef spec0 w ≠ r) :
    Pipeline.afterTail₀ cfgs (dats m) 0 (V0 m) [hostOps1] c r = V m c r := by
  unfold Pipeline.afterTail₀
  rw [StableHlo.after_of_forall_not_mem (b := Proc.devRef .tc r) _ _ (tail_keeps r hr),
    Pipeline.withArrays_of_ne _ c (V0 m c) _ r ha]

/-- An input array of the pipeline ends as the region found it: the pipeline only reads it, and the reshape
    after the region does not write it. -/
theorem tail_of_input (c : Dev nD) (w : Fin cfg0.W) (hin : (cfg0.win w).isOut = false)
    (hr : Pipeline.arrRef spec0 w ≠ main_v34) :
    Pipeline.afterTail₀ cfgs (dats m) 0 (V0 m) [hostOps1] c (Pipeline.arrRef spec0 w) = V m c (Pipeline.arrRef spec0 w) := by
  unfold Pipeline.afterTail₀
  rw [StableHlo.after_of_forall_not_mem (b := Proc.devRef .tc (Pipeline.arrRef spec0 w)) _ _ (tail_keeps _ hr)]
  exact (Pipeline.withArrays_arr _ winFacts0.arr_inj c _ _ w).trans
    (((dats m 0 c).arrAt_in w hin _).trans (A_eq m c w))

/-- The reshape after the region does not write `main_arg0`, and no window stages it: it ends as launched. -/
theorem W_main_arg0 (c : Dev nD) :
    Pipeline.afterTail₀ cfgs (dats m) 0 (V0 m) [hostOps1] c main_arg0 = m ((c : Thread nD τ).loc main_arg0) :=
  (tail_of_rest m c main_arg0 (by decide) (by decide)).trans (V_main_arg0 m c)

/-- The reshape after the region does not write `main_arg1`, and no window stages it: it ends as launched. -/
theorem W_main_arg1 (c : Dev nD) :
    Pipeline.afterTail₀ cfgs (dats m) 0 (V0 m) [hostOps1] c main_arg1 = m ((c : Thread nD τ).loc main_arg1) :=
  (tail_of_rest m c main_arg1 (by decide) (by decide)).trans (V_main_arg1 m c)

/-- The reshape after the region does not write `main_arg2`, and no window stages it: it ends as launched. -/
theorem W_main_arg2 (c : Dev nD) :
    Pipeline.afterTail₀ cfgs (dats m) 0 (V0 m) [hostOps1] c main_arg2 = m ((c : Thread nD τ).loc main_arg2) :=
  (tail_of_rest m c main_arg2 (by decide) (by decide)).trans (V_main_arg2 m c)

/-- The reshape after the region does not write `main_arg3`, and no window stages it: it ends as launched. -/
theorem W_main_arg3 (c : Dev nD) :
    Pipeline.afterTail₀ cfgs (dats m) 0 (V0 m) [hostOps1] c main_arg3 = m ((c : Thread nD τ).loc main_arg3) :=
  (tail_of_rest m c main_arg3 (by decide) (by decide)).trans (V_main_arg3 m c)

/-- The reshape after the region does not write `main_arg4`, and no window stages it: it ends as launched. -/
theorem W_main_arg4 (c : Dev nD) :
    Pipeline.afterTail₀ cfgs (dats m) 0 (V0 m) [hostOps1] c main_arg4 = m ((c : Thread nD τ).loc main_arg4) :=
  (tail_of_rest m c main_arg4 (by decide) (by decide)).trans (V_main_arg4 m c)

/-- `main_arg5` is the array of input window 2: it ends as launched. -/
theorem W_main_arg5 (c : Dev nD) :
    Pipeline.afterTail₀ cfgs (dats m) 0 (V0 m) [hostOps1] c main_arg5 = m ((c : Thread nD τ).loc main_arg5) :=
  (tail_of_input m c 2 rfl (by decide)).trans (V_main_arg5 m c)

/-- `main_arg6` is the array of input window 3: it ends as launched. -/
theorem W_main_arg6 (c : Dev nD) :
    Pipeline.afterTail₀ cfgs (dats m) 0 (V0 m) [hostOps1] c main_arg6 = m ((c : Thread nD τ).loc main_arg6) :=
  (tail_of_input m c 3 rfl (by decide)).trans (V_main_arg6 m c)

/-- The reshape after the region does not write `main_arg7`, and no window stages it: it ends as launched. -/
theorem W_main_arg7 (c : Dev nD) :
    Pipeline.afterTail₀ cfgs (dats m) 0 (V0 m) [hostOps1] c main_arg7 = m ((c : Thread nD τ).loc main_arg7) :=
  (tail_of_rest m c main_arg7 (by decide) (by decide)).trans (V_main_arg7 m c)

/-- `main_arg8` is the array of input window 5: it ends as launched. -/
theorem W_main_arg8 (c : Dev nD) :
    Pipeline.afterTail₀ cfgs (dats m) 0 (V0 m) [hostOps1] c main_arg8 = m ((c : Thread nD τ).loc main_arg8) :=
  (tail_of_input m c 5 rfl (by decide)).trans (V_main_arg8 m c)

/-- `main_arg9` is the array of input window 6: it ends as launched. -/
theorem W_main_arg9 (c : Dev nD) :
    Pipeline.afterTail₀ cfgs (dats m) 0 (V0 m) [hostOps1] c main_arg9 = m ((c : Thread nD τ).loc main_arg9) :=
  (tail_of_input m c 6 rfl (by decide)).trans (V_main_arg9 m c)

/-- The reshape after the region does not write `main_arg10`, and no window stages it: it ends as launched. -/
theorem W_main_arg10 (c : Dev nD) :
    Pipeline.afterTail₀ cfgs (dats m) 0 (V0 m) [hostOps1] c main_arg10 = m ((c : Thread nD τ).loc main_arg10) :=
  (tail_of_rest m c main_arg10 (by decide) (by decide)).trans (V_main_arg10 m c)

/-- `main_arg11` is the array of input window 8: it ends as launched. -/
theorem W_main_arg11 (c : Dev nD) :
    Pipeline.afterTail₀ cfgs (dats m) 0 (V0 m) [hostOps1] c main_arg11 = m ((c : Thread nD τ).loc main_arg11) :=
  (tail_of_input m c 8 rfl (by decide)).trans (V_main_arg11 m c)

/-- `main_arg12` is the array of input window 9: it ends as launched. -/
theorem W_main_arg12 (c : Dev nD) :
    Pipeline.afterTail₀ cfgs (dats m) 0 (V0 m) [hostOps1] c main_arg12 = m ((c : Thread nD τ).loc main_arg12) :=
  (tail_of_input m c 9 rfl (by decide)).trans (V_main_arg12 m c)

/-- The reshape after the region does not write `main_arg13`, and no window stages it: it ends as launched. -/
theorem W_main_arg13 (c : Dev nD) :
    Pipeline.afterTail₀ cfgs (dats m) 0 (V0 m) [hostOps1] c main_arg13 = m ((c : Thread nD τ).loc main_arg13) :=
  (tail_of_rest m c main_arg13 (by decide) (by decide)).trans (V_main_arg13 m c)

/-- `main_arg14` is the array of input window 11: it ends as launched. -/
theorem W_main_arg14 (c : Dev nD) :
    Pipeline.afterTail₀ cfgs (dats m) 0 (V0 m) [hostOps1] c main_arg14 = m ((c : Thread nD τ).loc main_arg14) :=
  (tail_of_input m c 11 rfl (by decide)).trans (V_main_arg14 m c)

/-- `main_arg15` is the array of input window 12: it ends as launched. -/
theorem W_main_arg15 (c : Dev nD) :
    Pipeline.afterTail₀ cfgs (dats m) 0 (V0 m) [hostOps1] c main_arg15 = m ((c : Thread nD τ).loc main_arg15) :=
  (tail_of_input m c 12 rfl (by decide)).trans (V_main_arg15 m c)

/-- The reshape after the region does not write `main_arg16`, and no window stages it: it ends as launched. -/
theorem W_main_arg16 (c : Dev nD) :
    Pipeline.afterTail₀ cfgs (dats m) 0 (V0 m) [hostOps1] c main_arg16 = m ((c : Thread nD τ).loc main_arg16) :=
  (tail_of_rest m c main_arg16 (by decide) (by decide)).trans (V_main_arg16 m c)

/-- `main_arg17` is the array of input window 14: it ends as launched. -/
theorem W_main_arg17 (c : Dev nD) :
    Pipeline.afterTail₀ cfgs (dats m) 0 (V0 m) [hostOps1] c main_arg17 = m ((c : Thread nD τ).loc main_arg17) :=
  (tail_of_input m c 14 rfl (by decide)).trans (V_main_arg17 m c)

/-- `main_arg18` is the array of input window 15: it ends as launched. -/
theorem W_main_arg18 (c : Dev nD) :
    Pipeline.afterTail₀ cfgs (dats m) 0 (V0 m) [hostOps1] c main_arg18 = m ((c : Thread nD τ).loc main_arg18) :=
  (tail_of_input m c 15 rfl (by decide)).trans (V_main_arg18 m c)

/-- The reshape after the region does not write `main_arg19`, and no window stages it: it ends as launched. -/
theorem W_main_arg19 (c : Dev nD) :
    Pipeline.afterTail₀ cfgs (dats m) 0 (V0 m) [hostOps1] c main_arg19 = m ((c : Thread nD τ).loc main_arg19) :=
  (tail_of_rest m c main_arg19 (by decide) (by decide)).trans (V_main_arg19 m c)

/-- `main_arg20` is the array of input window 17: it ends as launched. -/
theorem W_main_arg20 (c : Dev nD) :
    Pipeline.afterTail₀ cfgs (dats m) 0 (V0 m) [hostOps1] c main_arg20 = m ((c : Thread nD τ).loc main_arg20) :=
  (tail_of_input m c 17 rfl (by decide)).trans (V_main_arg20 m c)

/-- `main_arg21` is the array of input window 18: it ends as launched. -/
theorem W_main_arg21 (c : Dev nD) :
    Pipeline.afterTail₀ cfgs (dats m) 0 (V0 m) [hostOps1] c main_arg21 = m ((c : Thread nD τ).loc main_arg21) :=
  (tail_of_input m c 18 rfl (by decide)).trans (V_main_arg21 m c)

/-- The reshape after the region does not write `main_arg22`, and no window stages it: it ends as launched. -/
theorem W_main_arg22 (c : Dev nD) :
    Pipeline.afterTail₀ cfgs (dats m) 0 (V0 m) [hostOps1] c main_arg22 = m ((c : Thread nD τ).loc main_arg22) :=
  (tail_of_rest m c main_arg22 (by decide) (by decide)).trans (V_main_arg22 m c)

end Cert.Kernel.Fr

end
-- ==== Proof.BFrame.lean ====
/-
  The frame of the program: @main is seven stretches of host operations, the pallas_call over its 200 grid points,
  and one reshape.  The body loads its twenty input blocks whole, computes, and stores each result block whole, so
  at every point it leaves the inputs' buffers as it found them and the results' buffers at the stored values; the
  pipeline's run then terminates without a fault, and no argument array is written by anything.
-/
import proofs.«428393_j44160853737513_2_alg».proof.Proof.BArgs
import Idealize.ShloMosaic.Lib.Ring
import Idealize.ShloMosaic.Lib.Pipeline.Value
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host operation around the region allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the seven stretches before the region, the region, and the reshape after it: its run reduces to the
    region entered at the contents `V` and continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1]
    (by simp only [pre, List.Forall]
        exact ⟨hostOps0_sub, hostOps0_1_sub, hostOps0_2_sub, hostOps0_3_sub, hostOps0_4_sub, hostOps0_5_sub, hostOps0_6_sub⟩)
    (by simp only [pre, List.Forall]
        exact ⟨hostOps0_fresh, hostOps0_1_fresh, hostOps0_2_fresh, hostOps0_3_fresh, hostOps0_4_fresh, hostOps0_5_fresh, hostOps0_6_fresh⟩)
    main_chain

/-- The reshape after the region touches unscoped TensorCore buffers only: each is an array of the pipeline or a
    buffer that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: its result `main_v34` is none of the 22 arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-! ## The input windows' buffers at a point -/

/-- What the body leaves in each input window's buffer: the block it found. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]

/-- Each input window's current buffer holds its block at every point, fetched there or not: an input not fetched
    at a point has the block index of the point before, whose block the body left in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl)
    (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl)
    (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl)
    (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl)
    (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl)
    (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl)
    (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl)
    (fun t => by rw [after0_16]; unfold Dat.blockOf iblk; rw [A_eq]; try rfl) t d).trans
    (by unfold Dat.fetched Dat.blockOf iblk; rw [A_eq]; try rfl)
theorem before0_17 (c : Dev nD) (t : Fin cfg0.N) (d) : (dats m 0 c).before 17 t d = iblk m c 17 t :=
  ((dats m 0 c).before_in_eq_fetched 17 rfl (fun _ => rfl) (fun _ _ _ => rfl)
    (fun t => by rw [after0_17]; unfold Dat.blockOf iblk; rw [A_eq]; try rfl) t d).trans
    (by unfold Dat.fetched Dat.blockOf iblk; rw [A_eq]; try rfl)
theorem before0_18 (c : Dev nD) (t : Fin cfg0.N) (d) : (dats m 0 c).before 18 t d = iblk m c 18 t :=
  ((dats m 0 c).before_in_eq_fetched 18 rfl (fun _ => rfl) (fun _ _ _ => rfl)
    (fun t => by rw [after0_18]; unfold Dat.blockOf iblk; rw [A_eq]; try rfl) t d).trans
    (by unfold Dat.fetched Dat.blockOf iblk; rw [A_eq]; try rfl)
theorem before0_19 (c : Dev nD) (t : Fin cfg0.N) (d) : (dats m 0 c).before 19 t d = iblk m c 19 t :=
  ((dats m 0 c).before_in_eq_fetched 19 rfl (fun _ => rfl) (fun _ _ _ => rfl)
    (fun t => by rw [after0_19]; unfold Dat.blockOf iblk; rw [A_eq]; try rfl) t d).trans
    (by unfold Dat.fetched Dat.blockOf iblk; rw [A_eq]; try rfl)

/-! ## The body's triple -/

/-- The one store into the scalar result block covers it. -/
theorem coverS (p0 : Vec F S4000x64 .f32) (y : S4000x64.Idx) :
    ∃ pc ∈ ([⟨rS, p0⟩] : List (View.Piece (Elt F) S4000x64 .f32)), y ∈ pc.1.set :=
  View.cover_of_tiled [⟨rS, p0⟩] S4000x64.size (by rfl) y
/-- The one store into the vector result block covers it. -/
theorem coverV (p0 : Vec F S4000x24 .f32) (y : S4000x24.Idx) :
    ∃ pc ∈ ([⟨rV, p0⟩] : List (View.Piece (Elt F) S4000x24 .f32)), y ∈ pc.1.set :=
  View.cover_of_tiled [⟨rV, p0⟩] S4000x24.size (by rfl) y

set_option maxHeartbeats 2000000 in
/-- The body on whole buffers, the twenty inputs' at contents `x0 … x19` and the two results' at anything, runs to
    the continuation with the inputs' as they were and the results' at `outS` / `outV` of the inputs: it loads each
    input block whole, and stores each result block whole after one load of it. -/
theorem sound_kernel (c : Dev nD) (E : Set ℕ) (i : grid0.Coords)
    (arg1 : Memref sig .tc .vmem S4000x144 .bf16) (harg1 : arg1.IsWhole)
    (arg2 : Memref sig .tc .vmem S4000x51 .bf16) (harg2 : arg2.IsWhole)
    (arg3 : Memref sig .tc .vmem S17x17 .f32) (harg3 : arg3.IsWhole)
    (arg4 : Memref sig .tc .vmem S161x64 .f32) (harg4 : arg4.IsWhole)
    (arg5 : Memref sig .tc .vmem S1x64 .f32) (harg5 : arg5.IsWhole)
    (arg6 : Memref sig .tc .vmem S17x8 .f32) (harg6 : arg6.IsWhole)
    (arg7 : Memref sig .tc .vmem S64x8 .f32) (harg7 : arg7.IsWhole)
    (arg8 : Memref sig .tc .vmem S1x8 .f32) (harg8 : arg8.IsWhole)
    (arg9 : Memref sig .tc .vmem S8x8 .f32) (harg9 : arg9.IsWhole)
    (arg10 : Memref sig .tc .vmem S72x64 .f32) (harg10 : arg10.IsWhole)
    (arg11 : Memref sig .tc .vmem S1x64 .f32) (harg11 : arg11.IsWhole)
    (arg12 : Memref sig .tc .vmem S8x8 .f32) (harg12 : arg12.IsWhole)
    (arg13 : Memref sig .tc .vmem S64x8 .f32) (harg13 : arg13.IsWhole)
    (arg14 : Memref sig .tc .vmem S1x8 .f32) (harg14 : arg14.IsWhole)
    (arg15 : Memref sig .tc .vmem S8x8 .f32) (harg15 : arg15.IsWhole)
    (arg16 : Memref sig .tc .vmem S72x64 .f32) (harg16 : arg16.IsWhole)
    (arg17 : Memref sig .tc .vmem S1x64 .f32) (harg17 : arg17.IsWhole)
    (arg18 : Memref sig .tc .vmem S8x8 .f32) (harg18 : arg18.IsWhole)
    (arg19 : Memref sig .tc .vmem S64x8 .f32) (harg19 : arg19.IsWhole)
    (arg20 : Memref sig .tc .vmem S1x8 .f32) (harg20 : arg20.IsWhole)
    (arg21 : Memref sig .tc .vmem S4000x64 .f32) (harg21 : arg21.IsWhole)
    (arg22 : Memref sig .tc .vmem S4000x24 .f32) (harg22 : arg22.IsWhole)
    (x0 : Vec F S4000x144 .bf16) (x1 : Vec F S4000x51 .bf16) (x2 : Vec F S17x17 .f32) (x3 : Vec F S161x64 .f32) (x4 : Vec F S1x64 .f32) (x5 : Vec F S17x8 .f32) (x6 : Vec F S64x8 .f32) (x7 : Vec F S1x8 .f32) (x8 : Vec F S8x8 .f32) (x9 : Vec F S72x64 .f32) (x10 : Vec F S1x64 .f32) (x11 : Vec F S8x8 .f32) (x12 : Vec F S64x8 .f32) (x13 : Vec F S1x8 .f32) (x14 : Vec F S8x8 .f32) (x15 : Vec F S72x64 .f32) (x16 : Vec F S1x64 .f32) (x17 : Vec F S8x8 .f32) (x18 : Vec F S64x8 .f32) (x19 : Vec F S1x8 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ owns (c : Thread nD τ) arg15 fullShare x14
        ∗ owns (c : Thread nD τ) arg16 fullShare x15
        ∗ owns (c : Thread nD τ) arg17 fullShare x16
        ∗ owns (c : Thread nD τ) arg18 fullShare x17
        ∗ owns (c : Thread nD τ) arg19 fullShare x18
        ∗ owns (c : Thread nD τ) arg20 fullShare x19
        ∗ (∃ d, owns (c : Thread nD τ) arg21 fullShare d) ∗ (∃ d, owns (c : Thread nD τ) arg22 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ owns (c : Thread nD τ) arg16 fullShare x15
            ∗ owns (c : Thread nD τ) arg17 fullShare x16
            ∗ owns (c : Thread nD τ) arg18 fullShare x17
            ∗ owns (c : Thread nD τ) arg19 fullShare x18
            ∗ owns (c : Thread nD τ) arg20 fullShare x19
            ∗ owns (c : Thread nD τ) arg21 fullShare (outS ⟨x0, x1, x2, x3, x4, x5, x6, x7, x8, x9, x10, x11, x12, x13, x14, x15, x16, x17, x18, x19⟩)
            ∗ owns (c : Thread nD τ) arg22 fullShare (outV ⟨x0, x1, x2, x3, x4, x5, x6, x7, x8, x9, x10, x11, x12, x13, x14, x15, x16, x17, x18, x19⟩)) -∗ K ⟨⟩))
      ⊢ wp frame (wpE (defs₀ (F := F)) Variants.none c none) E (cc0__gvp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__gvp_kernel_eq_skeleton]; unfold cc0__gvp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, Hk⟩
  subst hf0; subst hf1; subst hf2; subst hf3; subst hf4; subst hf5; subst hf6; subst hf7; subst hf8; subst hf9; subst hf10; subst hf11; subst hf12; subst hf13; subst hf14; subst hf15; subst hf16; subst hf17; subst hf18; subst hf19
  have hz : (![0, 0] : Fin 2 → ℕ) = fun _ => 0 := by funext a; fin_cases a <;> rfl
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    refine (View.read_writes_eq_canon _ _ _ (coverS _)).trans ?_
    try delta sound_kernel.sl.r_19
    try delta sound_kernel.sl.r_18
    try delta sound_kernel.sl.r_17
    try delta sound_kernel.sl.r_16
    try delta sound_kernel.sl.r_15
    try delta sound_kernel.sl.r_14
    try delta sound_kernel.sl.r_13
    try delta sound_kernel.sl.r_12
    try delta sound_kernel.sl.r_11
    try delta sound_kernel.sl.r_10
    try delta sound_kernel.sl.r_9
    try delta sound_kernel.sl.r_8
    try delta sound_kernel.sl.r_7
    try delta sound_kernel.sl.r_6
    try delta sound_kernel.sl.r_5
    try delta sound_kernel.sl.r_4
    try delta sound_kernel.sl.r_3
    try delta sound_kernel.sl.r_2
    try delta sound_kernel.sl.r_1
    try delta sound_kernel.sl.r
    try delta sound_kernel.sl.cst_43
    simp only [View.readAt_eq_ld, View.ld_unit_zero (S := S4000x144) hz, View.ld_unit_zero (S := S4000x51) hz, View.ld_unit_zero (S := S17x17) hz, View.ld_unit_zero (S := S161x64) hz, View.ld_unit_zero (S := S1x64) hz, View.ld_unit_zero (S := S17x8) hz, View.ld_unit_zero (S := S64x8) hz, View.ld_unit_zero (S := S1x8) hz, View.ld_unit_zero (S := S8x8) hz, View.ld_unit_zero (S := S72x64) hz,
      outS, outV, bodyS, bodyV, s3, m3a, m3b, h3c, g3, s2, m2a, m2b, h2c, g2, z8, s1, m1a, m1b, m1c, g1]
  iexists _; isplitr
  swap; · iexact H21
  ipureintro
  refine (View.read_writes_eq_canon _ _ _ (coverV _)).trans ?_
  try delta sound_kernel.sl.r_19
  try delta sound_kernel.sl.r_18
  try delta sound_kernel.sl.r_17
  try delta sound_kernel.sl.r_16
  try delta sound_kernel.sl.r_15
  try delta sound_kernel.sl.r_14
  try delta sound_kernel.sl.r_13
  try delta sound_kernel.sl.r_12
  try delta sound_kernel.sl.r_11
  try delta sound_kernel.sl.r_10
  try delta sound_kernel.sl.r_9
  try delta sound_kernel.sl.r_8
  try delta sound_kernel.sl.r_7
  try delta sound_kernel.sl.r_6
  try delta sound_kernel.sl.r_5
  try delta sound_kernel.sl.r_4
  try delta sound_kernel.sl.r_3
  try delta sound_kernel.sl.r_2
  try delta sound_kernel.sl.r_1
  try delta sound_kernel.sl.r
  try delta sound_kernel.sl.cst_43
  simp only [View.readAt_eq_ld, View.ld_unit_zero (S := S4000x144) hz, View.ld_unit_zero (S := S4000x51) hz, View.ld_unit_zero (S := S17x17) hz, View.ld_unit_zero (S := S161x64) hz, View.ld_unit_zero (S := S1x64) hz, View.ld_unit_zero (S := S17x8) hz, View.ld_unit_zero (S := S64x8) hz, View.ld_unit_zero (S := S1x8) hz, View.ld_unit_zero (S := S8x8) hz, View.ld_unit_zero (S := S72x64) hz,
      outS, outV, bodyS, bodyV, s3, m3a, m3b, h3c, g3, s2, m2a, m2b, h2c, g2, z8, s1, m1a, m1b, m1c, g1]

/-! ## The body obligation, at a generic point -/

/-- What the body is called with at point `t`: the invariant, nothing owed, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

/-- And what it returns: the same with each buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t))

/-- The body at any point: the inputs' buffers hold their blocks, so the body's triple applies; the invariant and
    what is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  unfold insAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel c Set.univ (grid0.coords t) _ _ _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; each pipeline array ends at what the proof data
    compute, every other buffer as the reshape after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- In any final state of the frame run each argument array is as launched: an argument that an input window
    stages is read only by the pipeline; every other argument bypasses the region and is not written by the
    reshape after it. -/
theorem kept_main_arg0 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0) :=
  ((h c).2 main_arg0 (Pipeline.mem_restRefs_of main_arg0 (by decide) (by decide))).trans (W_main_arg0 m c)
theorem kept_main_arg1 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg1) = m ((c.tc : Thread nD τ).loc main_arg1) :=
  ((h c).2 main_arg1 (Pipeline.mem_restRefs_of main_arg1 (by decide) (by decide))).trans (W_main_arg1 m c)
theorem kept_main_arg2 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg2) = m ((c.tc : Thread nD τ).loc main_arg2) :=
  ((h c).2 main_arg2 (Pipeline.mem_restRefs_of main_arg2 (by decide) (by decide))).trans (W_main_arg2 m c)
theorem kept_main_arg3 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg3) = m ((c.tc : Thread nD τ).loc main_arg3) :=
  ((h c).2 main_arg3 (Pipeline.mem_restRefs_of main_arg3 (by decide) (by decide))).trans (W_main_arg3 m c)
theorem kept_main_arg4 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg4) = m ((c.tc : Thread nD τ).loc main_arg4) :=
  ((h c).2 main_arg4 (Pipeline.mem_restRefs_of main_arg4 (by decide) (by decide))).trans (W_main_arg4 m c)
theorem kept_main_arg5 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg5) = m ((c.tc : Thread nD τ).loc main_arg5) :=
  ((h c).1 2).trans (((dats m 0 c).arrAt_in 2 rfl _).trans ((A_eq m c 2).trans (V_main_arg5 m c)))
theorem kept_main_arg6 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg6) = m ((c.tc : Thread nD τ).loc main_arg6) :=
  ((h c).1 3).trans (((dats m 0 c).arrAt_in 3 rfl _).trans ((A_eq m c 3).trans (V_main_arg6 m c)))
theorem kept_main_arg7 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg7) = m ((c.tc : Thread nD τ).loc main_arg7) :=
  ((h c).2 main_arg7 (Pipeline.mem_restRefs_of main_arg7 (by decide) (by decide))).trans (W_main_arg7 m c)
theorem kept_main_arg8 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg8) = m ((c.tc : Thread nD τ).loc main_arg8) :=
  ((h c).1 5).trans (((dats m 0 c).arrAt_in 5 rfl _).trans ((A_eq m c 5).trans (V_main_arg8 m c)))
theorem kept_main_arg9 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg9) = m ((c.tc : Thread nD τ).loc main_arg9) :=
  ((h c).1 6).trans (((dats m 0 c).arrAt_in 6 rfl _).trans ((A_eq m c 6).trans (V_main_arg9 m c)))
theorem kept_main_arg10 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg10) = m ((c.tc : Thread nD τ).loc main_arg10) :=
  ((h c).2 main_arg10 (Pipeline.mem_restRefs_of main_arg10 (by decide) (by decide))).trans (W_main_arg10 m c)
theorem kept_main_arg11 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg11) = m ((c.tc : Thread nD τ).loc main_arg11) :=
  ((h c).1 8).trans (((dats m 0 c).arrAt_in 8 rfl _).trans ((A_eq m c 8).trans (V_main_arg11 m c)))
theorem kept_main_arg12 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg12) = m ((c.tc : Thread nD τ).loc main_arg12) :=
  ((h c).1 9).trans (((dats m 0 c).arrAt_in 9 rfl _).trans ((A_eq m c 9).trans (V_main_arg12 m c)))
theorem kept_main_arg13 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg13) = m ((c.tc : Thread nD τ).loc main_arg13) :=
  ((h c).2 main_arg13 (Pipeline.mem_restRefs_of main_arg13 (by decide) (by decide))).trans (W_main_arg13 m c)
theorem kept_main_arg14 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg14) = m ((c.tc : Thread nD τ).loc main_arg14) :=
  ((h c).1 11).trans (((dats m 0 c).arrAt_in 11 rfl _).trans ((A_eq m c 11).trans (V_main_arg14 m c)))
theorem kept_main_arg15 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg15) = m ((c.tc : Thread nD τ).loc main_arg15) :=
  ((h c).1 12).trans (((dats m 0 c).arrAt_in 12 rfl _).trans ((A_eq m c 12).trans (V_main_arg15 m c)))
theorem kept_main_arg16 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg16) = m ((c.tc : Thread nD τ).loc main_arg16) :=
  ((h c).2 main_arg16 (Pipeline.mem_restRefs_of main_arg16 (by decide) (by decide))).trans (W_main_arg16 m c)
theorem kept_main_arg17 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg17) = m ((c.tc : Thread nD τ).loc main_arg17) :=
  ((h c).1 14).trans (((dats m 0 c).arrAt_in 14 rfl _).trans ((A_eq m c 14).trans (V_main_arg17 m c)))
theorem kept_main_arg18 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg18) = m ((c.tc : Thread nD τ).loc main_arg18) :=
  ((h c).1 15).trans (((dats m 0 c).arrAt_in 15 rfl _).trans ((A_eq m c 15).trans (V_main_arg18 m c)))
theorem kept_main_arg19 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg19) = m ((c.tc : Thread nD τ).loc main_arg19) :=
  ((h c).2 main_arg19 (Pipeline.mem_restRefs_of main_arg19 (by decide) (by decide))).trans (W_main_arg19 m c)
theorem kept_main_arg20 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg20) = m ((c.tc : Thread nD τ).loc main_arg20) :=
  ((h c).1 17).trans (((dats m 0 c).arrAt_in 17 rfl _).trans ((A_eq m c 17).trans (V_main_arg20 m c)))
theorem kept_main_arg21 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg21) = m ((c.tc : Thread nD τ).loc main_arg21) :=
  ((h c).1 18).trans (((dats m 0 c).arrAt_in 18 rfl _).trans ((A_eq m c 18).trans (V_main_arg21 m c)))
theorem kept_main_arg22 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg22) = m ((c.tc : Thread nD τ).loc main_arg22) :=
  ((h c).2 main_arg22 (Pipeline.mem_restRefs_of main_arg22 (by decide) (by decide))).trans (W_main_arg22 m c)

/-- All twenty-three argument arrays at once. -/
theorem args_kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  ⟨kept_main_arg0 m r h c,
    kept_main_arg1 m r h c,
    kept_main_arg2 m r h c,
    kept_main_arg3 m r h c,
    kept_main_arg4 m r h c,
    kept_main_arg5 m r h c,
    kept_main_arg6 m r h c,
    kept_main_arg7 m r h c,
    kept_main_arg8 m r h c,
    kept_main_arg9 m r h c,
    kept_main_arg10 m r h c,
    kept_main_arg11 m r h c,
    kept_main_arg12 m r h c,
    kept_main_arg13 m r h c,
    kept_main_arg14 m r h c,
    kept_main_arg15 m r h c,
    kept_main_arg16 m r h c,
    kept_main_arg17 m r h c,
    kept_main_arg18 m r h c,
    kept_main_arg19 m r h c,
    kept_main_arg20 m r h c,
    kept_main_arg21 m r h c,
    kept_main_arg22 m r h c⟩

/-- The frame claim's statement at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => args_kept m r h c) (run_main m ρ)

end Cert.Kernel.Fr

end
-- ==== Proof.KBase.lean ====
/-
  The contents the pallas_call finds when it is entered: core `c`'s buffers after the host operations that run
  before it (the index slices, the four row gathers with their in-range masks, the reshapes and the two message
  concatenations with their casts), and each window's block at a grid point read off those contents.
-/
import proofs.«428393_j44160853737513_2_alg».proof.Proof.Gen.KernelIdeal.Launch
import proofs.«428393_j44160853737513_2_alg».proof.Proof.Gen.KernelIdeal.Skeleton
import proofs.«428393_j44160853737513_2_alg».proof.Proof.Gen.KernelIdeal.Points
import Idealize.ShloMosaic.Lib.Pipeline.FrameBody
import Idealize.ShloMosaic.Lib.Pipeline.FrameSuffix

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- The seven stretches of host operations before the region, in program order. -/
abbrev pre : List (List (HloOp τ sig (Elt F))) :=
  [hostOps0, hostOps0_1, hostOps0_2, hostOps0_3, hostOps0_4, hostOps0_5, hostOps0_6]

/-- Core `c`'s TensorCore buffer contents when the region is entered, as a valuation. -/
abbrev V0 (c : Dev nD) : Valuation τ sig (Elt F) := StableHlo.after (List.flatten (pre (F := F))) (fun b => m (c, b))

/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Both rows of the edge index address a node of the table: every entry lies in `[0, 50000)`. -/
def InRange (c : Dev nD) : Prop :=
  ∀ i : S2x800000.Idx, 0 ≤ ((m ((c : Thread nD τ).loc main_arg4) : S2x800000.Idx → BitVec 32) i).toInt
    ∧ ((m ((c : Thread nD τ).loc main_arg4) : S2x800000.Idx → BitVec 32) i).toInt < 50000

end Cert.KernelIdeal.Fr

end
-- ==== Proof.KBody.lean ====
/-
  The kernel body's two stored values as functions of the twenty input blocks it loads: the message block
  (4000 edges × 144 scalars), the vector message block (4000 × 3·17), and the six weight blocks of each of the
  three layers.  The terms are the body's own arithmetic, layer after layer, exactly as its statements chain.
-/
import proofs.«428393_j44160853737513_2_alg».proof.Proof.Gen.KernelIdeal.Skeleton

noncomputable section

namespace Cert.KernelIdeal.Fr

open Cert.KernelIdeal Cert.KernelIdeal.Gen
open Idealize.ShloMosaic

variable {F : FTy → Type} [FloatOps F]

/-- The twenty blocks the body loads: the two message blocks, then per layer Wh, Ws, bs (as a row), Wmu, Wg, bg (as a row). -/
structure Ins (F : FTy → Type) [FloatOps F] where
  x0 : Vec F S4000x144 .bf16
  x1 : Vec F S4000x51 .bf16
  x2 : Vec F S17x17 .f32
  x3 : Vec F S161x64 .f32
  x4 : Vec F S1x64 .f32
  x5 : Vec F S17x8 .f32
  x6 : Vec F S64x8 .f32
  x7 : Vec F S1x8 .f32
  x8 : Vec F S8x8 .f32
  x9 : Vec F S72x64 .f32
  x10 : Vec F S1x64 .f32
  x11 : Vec F S8x8 .f32
  x12 : Vec F S64x8 .f32
  x13 : Vec F S1x8 .f32
  x14 : Vec F S8x8 .f32
  x15 : Vec F S72x64 .f32
  x16 : Vec F S1x64 .f32
  x17 : Vec F S8x8 .f32
  x18 : Vec F S64x8 .f32
  x19 : Vec F S1x8 .f32

variable (I : Ins F)

/-! ### Layer 1 -/
/-- The first layer's scalar output before the rectifier. -/
def s1 : FVec F S4000x64 .f32 := k0_pay7 I.x0 I.x1 I.x2 I.x3 I.x4
/-- The first layer's projected hidden vectors, one per spatial row. -/
def m1a : FVec F S4000x8 .f32 := k0_pay8 I.x1 I.x2 I.x5
def m1b : FVec F S4000x8 .f32 := k0_pay9 I.x1 I.x2 I.x5
def m1c : FVec F S4000x8 .f32 := k0_pay10 I.x1 I.x2 I.x5
/-- The first layer's gate bias as the body reads it. -/
def g1 : FVec F S1x8 .f32 := k0_pay3 I.x7

/-! ### Layer 2 -/
def s2 : FVec F S4000x64 .f32 := k0_pay16 I.x6 (g1 I) (s1 I) (m1a I) (m1b I) (m1c I) I.x8 I.x9 I.x10
def m2a : FVec F S4000x8 .f32 := k0_pay17 I.x6 (g1 I) (s1 I) (m1a I) (m1b I) (m1c I) I.x8 I.x11
def m2b : FVec F S4000x8 .f32 := k0_pay18 I.x6 (g1 I) (s1 I) (m1a I) (m1b I) (m1c I) I.x8 I.x11
/-- The second layer's third hidden row, projected only in the next stretch of the body. -/
def h2c : FVec F S4000x8 .f32 := k0_pay15 I.x6 (g1 I) (s1 I) (m1a I) (m1b I) (m1c I) I.x8
def g2 : FVec F S1x8 .f32 := k0_pay12 I.x13
/-- The zero accumulator the second stretch hands on. -/
def z8 : FVec F S4000x8 .f32 := constant S4000x8 .f32 0x00000000#32

/-! ### Layer 3 -/
def s3 : FVec F S4000x64 .f32 := k0_pay24 I.x11 I.x12 (g2 I) (h2c I) (s2 I) (m2a I) (m2b I) (z8 (F := F)) I.x14 I.x15 I.x16
def m3a : FVec F S4000x8 .f32 := k0_pay25 I.x11 I.x12 (g2 I) (h2c I) (s2 I) (m2a I) (m2b I) (z8 (F := F)) I.x14 I.x17
def m3b : FVec F S4000x8 .f32 := k0_pay26 I.x11 I.x12 (g2 I) (h2c I) (s2 I) (m2a I) (m2b I) (z8 (F := F)) I.x14 I.x17
def h3c : FVec F S4000x8 .f32 := k0_pay23 I.x11 I.x12 (g2 I) (h2c I) (s2 I) (m2a I) (m2b I) (z8 (F := F)) I.x14
def g3 : FVec F S1x8 .f32 := k0_pay20 I.x19

/-- What the body stores into the scalar result block. -/
def bodyS : FVec F S4000x64 .f32 := s3 I
/-- What the body stores into the vector result block (three spatial rows of eight, side by side). -/
def bodyV : FVec F S4000x24 .f32 := k0_pay1 I.x17 I.x18 (g3 I) (h3c I) (s3 I) (m3a I) (m3b I)

end Cert.KernelIdeal.Fr

end
-- ==== Proof.KData.lean ====
/-
  The pipeline's proof data: the arrays as the region finds them; after the body at grid point `t` each input
  window's buffer holds its block and each result window's buffer holds the body's stored value of the twenty
  input blocks at `t`.
-/
import proofs.«428393_j44160853737513_2_alg».proof.Proof.KBase
import proofs.«428393_j44160853737513_2_alg».proof.Proof.KBody

noncomputable section

namespace Cert.KernelIdeal.Fr

open Cert.KernelIdeal Cert.KernelIdeal.Gen
open Idealize.ShloMosaic Idealize.ShloMosaic.TcCoe
open Idealize.SL Idealize.SL.RA Idealize.SL.BI Idealize.SL.Sem
open Idealize.ShloMosaic.Rounds
open Idealize.ShloMosaic.Pipeline (Dat Cfg Window)

variable {F : FTy → Type} [FloatOps F]

variable (m : (ℓ : Loc nD τ sig) → Buf (Elt F) ℓ)

/-- The twenty input blocks at grid point `t`. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t⟩

/-- The whole scalar result block, as the one rectangle the body stores through. -/
abbrev rS : Rect S4000x64 := Rect.unit (s := S4000x64) ![0, 0] S4000x64.size inb_S4000x64_S4000x64_0_0
/-- The whole vector result block. -/
abbrev rV : Rect S4000x24 := Rect.unit (s := S4000x24) ![0, 0] S4000x24.size inb_S4000x24_S4000x24_0_0

/-- The scalar result window's buffer after the body: its one store, over the whole block. -/
def outS (I : Ins F) : Vec F S4000x64 .f32 := View.canon [⟨rS, bodyS I⟩]
/-- The vector result window's buffer after the body. -/
def outV (I : Ins F) : Vec F S4000x24 .f32 := View.canon [⟨rV, bodyV I⟩]

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => outS (insAt m c t)
    | ⟨21, _⟩ => outV (insAt m c t)
    | ⟨n + 22, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_20 (c : Dev nD) (t : Fin cfg0.N) : (dats m 0 c).after 20 t = outS (insAt m c t) := by dsimp only [dats]
theorem after0_21 (c : Dev nD) (t : Fin cfg0.N) : (dats m 0 c).after 21 t = outV (insAt m c t) := by dsimp only [dats]

end Cert.KernelIdeal.Fr

end
-- ==== Proof.KArgs.lean ====
/-
  The host operations around the pallas_call write only their own result buffers: every argument array is found by
  the region as launched, and is left as launched by the one reshape that follows the region.
-/
import proofs.«428393_j44160853737513_2_alg».proof.Proof.KData

set_option maxRecDepth 16384

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-! ## Before the region -/

/-- The buffers the host operations before the region write, in program order: each operation's one result. -/
def written : List (Ref sig .tc) :=
  [
    main_v0, main_v1, main_v2, main_v3, main_call0_c, main_call0_v0, main_call0_v1, main_call0_c_0,
    main_call0_v2, main_call0_v3, main_call0_v4, main_call0_v5, main_call0_c_1, main_call0_c_2, main_call0_v6, main_call0_v7,
    main_call0_v8, main_call0_v9, main_call0_v10, main_call0_v11, main_call0_c_3, main_call0_v12, main_call0_v13, main_call0_v14,
    main_call0_cst, main_call0_v15, main_v4, main_call1_c, main_call1_v0, main_call1_v1, main_call1_c_0, main_call1_v2,
    main_call1_v3, main_call1_v4, main_call1_v5, main_call1_c_1, main_call1_c_2, main_call1_v6, main_call1_v7, main_call1_v8,
    main_call1_v9, main_call1_v10, main_call1_v11, main_call1_c_3, main_call1_v12, main_call1_v13, main_call1_v14, main_call1_cst,
    main_call1_v15, main_v5, main_call2_c, main_call2_v0, main_call2_v1, main_call2_c_0, main_call2_v2, main_call2_v3,
    main_call2_v4, main_call2_v5, main_call2_c_1, main_call2_c_2, main_call2_v6, main_call2_v7, main_call2_v8, main_call2_v9,
    main_call2_v10, main_call2_v11, main_call2_c_3, main_call2_v12, main_call2_v13, main_call2_v14, main_call2_cst, main_call2_v15,
    main_v6, main_v7, main_call3_c, main_call3_v0, main_call3_v1, main_call3_c_0, main_call3_v2, main_call3_v3,
    main_call3_v4, main_call3_v5, main_call3_c_1, main_call3_c_2, main_call3_v6, main_call3_v7, main_call3_v8, main_call3_v9,
    main_call3_v10, main_call3_v11, main_call3_c_3, main_call3_v12, main_call3_v13, main_call3_v14, main_call3_cst, main_call3_v15,
    main_v8, main_v9, main_v10, main_v11, main_v12, main_v13, main_v14, main_v15,
    main_v16, main_v17, main_v18, main_v19, main_v20, main_v21, main_v22, main_v23,
    main_v24, main_v25, main_v26, main_v27, main_v28, main_v29, main_v30, main_v31,
    main_v32 ]

/-- Every host operation before the region writes one buffer, and that buffer is in the list. -/
theorem pre_writes : (List.flatten (pre (F := F))).Forall fun op =>
    op.writes ⊆ ((written.map (Proc.devRef (τ := τ) .tc)).toFinset) := by
  simp only [pre, hostOps0, hostOps0_1, hostOps0_2, hostOps0_3, hostOps0_4, hostOps0_5, hostOps0_6,
      List.flatten_cons, List.flatten_nil, List.append_nil, List.cons_append, List.nil_append, List.Forall,
      StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes]
  repeat' apply And.intro
  all_goals exact Finset.singleton_subset_iff.mpr (List.mem_toFinset.mpr (List.mem_map.mpr ⟨_, by decide, rfl⟩))

/-- A buffer outside the list is found by the region as launched. -/
theorem V_of_not_written (c : Dev nD) (r : Ref sig .tc) (hr : r ∉ written) :
    V m c r = m ((c : Thread nD τ).loc r) :=
  StableHlo.after_of_writes_sub _ _ pre_writes hr

/-- No host operation before the region writes `main_arg0`. -/
theorem V_main_arg0 (c : Dev nD) : V m c main_arg0 = m ((c : Thread nD τ).loc main_arg0) :=
  V_of_not_written m c _ (by decide)

/-- No host operation before the region writes `main_arg1`. -/
theorem V_main_arg1 (c : Dev nD) : V m c main_arg1 = m ((c : Thread nD τ).loc main_arg1) :=
  V_of_not_written m c _ (by decide)

/-- No host operation before the region writes `main_arg2`. -/
theorem V_main_arg2 (c : Dev nD) : V m c main_arg2 = m ((c : Thread nD τ).loc main_arg2) :=
  V_of_not_written m c _ (by decide)

/-- No host operation before the region writes `main_arg3`. -/
theorem V_main_arg3 (c : Dev nD) : V m c main_arg3 = m ((c : Thread nD τ).loc main_arg3) :=
  V_of_not_written m c _ (by decide)

/-- No host operation before the region writes `main_arg4`. -/
theorem V_main_arg4 (c : Dev nD) : V m c main_arg4 = m ((c : Thread nD τ).loc main_arg4) :=
  V_of_not_written m c _ (by decide)

/-- No host operation before the region writes `main_arg5`. -/
theorem V_main_arg5 (c : Dev nD) : V m c main_arg5 = m ((c : Thread nD τ).loc main_arg5) :=
  V_of_not_written m c _ (by decide)

/-- No host operation before the region writes `main_arg6`. -/
theorem V_main_arg6 (c : Dev nD) : V m c main_arg6 = m ((c : Thread nD τ).loc main_arg6) :=
  V_of_not_written m c _ (by decide)

/-- No host operation before the region writes `main_arg7`. -/
theorem V_main_arg7 (c : Dev nD) : V m c main_arg7 = m ((c : Thread nD τ).loc main_arg7) :=
  V_of_not_written m c _ (by decide)

/-- No host operation before the region writes `main_arg8`. -/
theorem V_main_arg8 (c : Dev nD) : V m c main_arg8 = m ((c : Thread nD τ).loc main_arg8) :=
  V_of_not_written m c _ (by decide)

/-- No host operation before the region writes `main_arg9`. -/
theorem V_main_arg9 (c : Dev nD) : V m c main_arg9 = m ((c : Thread nD τ).loc main_arg9) :=
  V_of_not_written m c _ (by decide)

/-- No host operation before the region writes `main_arg10`. -/
theorem V_main_arg10 (c : Dev nD) : V m c main_arg10 = m ((c : Thread nD τ).loc main_arg10) :=
  V_of_not_written m c _ (by decide)

/-- No host operation before the region writes `main_arg11`. -/
theorem V_main_arg11 (c : Dev nD) : V m c main_arg11 = m ((c : Thread nD τ).loc main_arg11) :=
  V_of_not_written m c _ (by decide)

/-- No host operation before the region writes `main_arg12`. -/
theorem V_main_arg12 (c : Dev nD) : V m c main_arg12 = m ((c : Thread nD τ).loc main_arg12) :=
  V_of_not_written m c _ (by decide)

/-- No host operation before the region writes `main_arg13`. -/
theorem V_main_arg13 (c : Dev nD) : V m c main_arg13 = m ((c : Thread nD τ).loc main_arg13) :=
  V_of_not_written m c _ (by decide)

/-- No host operation before the region writes `main_arg14`. -/
theorem V_main_arg14 (c : Dev nD) : V m c main_arg14 = m ((c : Thread nD τ).loc main_arg14) :=
  V_of_not_written m c _ (by decide)

/-- No host operation before the region writes `main_arg15`. -/
theorem V_main_arg15 (c : Dev nD) : V m c main_arg15 = m ((c : Thread nD τ).loc main_arg15) :=
  V_of_not_written m c _ (by decide)

/-- No host operation before the region writes `main_arg16`. -/
theorem V_main_arg16 (c : Dev nD) : V m c main_arg16 = m ((c : Thread nD τ).loc main_arg16) :=
  V_of_not_written m c _ (by decide)

/-- No host operation before the region writes `main_arg17`. -/
theorem V_main_arg17 (c : Dev nD) : V m c main_arg17 = m ((c : Thread nD τ).loc main_arg17) :=
  V_of_not_written m c _ (by decide)

/-- No host operation before the region writes `main_arg18`. -/
theorem V_main_arg18 (c : Dev nD) : V m c main_arg18 = m ((c : Thread nD τ).loc main_arg18) :=
  V_of_not_written m c _ (by decide)

/-- No host operation before the region writes `main_arg19`. -/
theorem V_main_arg19 (c : Dev nD) : V m c main_arg19 = m ((c : Thread nD τ).loc main_arg19) :=
  V_of_not_written m c _ (by decide)

/-- No host operation before the region writes `main_arg20`. -/
theorem V_main_arg20 (c : Dev nD) : V m c main_arg20 = m ((c : Thread nD τ).loc main_arg20) :=
  V_of_not_written m c _ (by decide)

/-- No host operation before the region writes `main_arg21`. -/
theorem V_main_arg21 (c : Dev nD) : V m c main_arg21 = m ((c : Thread nD τ).loc main_arg21) :=
  V_of_not_written m c _ (by decide)

/-- No host operation before the region writes `main_arg22`. -/
theorem V_main_arg22 (c : Dev nD) : V m c main_arg22 = m ((c : Thread nD τ).loc main_arg22) :=
  V_of_not_written m c _ (by decide)

/-! ## After the region -/

/-- The one reshape after the region writes `main_v34` only. -/
theorem tail_keeps (r : Ref sig .tc) (hr : r ≠ main_v34) :
    ∀ op ∈ List.flatten ([hostOps1] : List (List (HloOp τ sig (Elt F)))), Proc.devRef (τ := τ) .tc r ∉ op.writes := by
  intro op hop
  simp only [hostOps1, List.flatten_cons, List.flatten_nil, List.append_nil, List.mem_cons, List.mem_nil_iff,
    List.not_mem_nil, or_false] at hop
  subst hop
  simp only [StableHlo.reshape_writes, Finset.mem_singleton]
  exact StableHlo.devRef_ne_of_ne hr

/-- A buffer that is no array of the pipeline and is not the reshape's result ends as the region found it. -/
theorem tail_of_rest (c : Dev nD) (r : Ref sig .tc) (hr : r ≠ main_v34) (ha : ∀ w, Pipeline.arrRef spec0 w ≠ r) :
    Pipeline.afterTail₀ cfgs (dats m) 0 (V0 m) [hostOps1] c r = V m c r := by
  unfold Pipeline.afterTail₀
  rw [StableHlo.after_of_forall_not_mem (b := Proc.devRef .tc r) _ _ (tail_keeps r hr),
    Pipeline.withArrays_of_ne _ c (V0 m c) _ r ha]

/-- An input array of the pipeline ends as the region found it: the pipeline only reads it, and the reshape
    after the region does not write it. -/
theorem tail_of_input (c : Dev nD) (w : Fin cfg0.W) (hin : (cfg0.win w).isOut = false)
    (hr : Pipeline.arrRef spec0 w ≠ main_v34) :
    Pipeline.afterTail₀ cfgs (dats m) 0 (V0 m) [hostOps1] c (Pipeline.arrRef spec0 w) = V m c (Pipeline.arrRef spec0 w) := by
  unfold Pipeline.afterTail₀
  rw [StableHlo.after_of_forall_not_mem (b := Proc.devRef .tc (Pipeline.arrRef spec0 w)) _ _ (tail_keeps _ hr)]
  exact (Pipeline.withArrays_arr _ winFacts0.arr_inj c _ _ w).trans
    (((dats m 0 c).arrAt_in w hin _).trans (A_eq m c w))

/-- The reshape after the region does not write `main_arg0`, and no window stages it: it ends as launched. -/
theorem W_main_arg0 (c : Dev nD) :
    Pipeline.afterTail₀ cfgs (dats m) 0 (V0 m) [hostOps1] c main_arg0 = m ((c : Thread nD τ).loc main_arg0) :=
  (tail_of_rest m c main_arg0 (by decide) (by decide)).trans (V_main_arg0 m c)

/-- The reshape after the region does not write `main_arg1`, and no window stages it: it ends as launched. -/
theorem W_main_arg1 (c : Dev nD) :
    Pipeline.afterTail₀ cfgs (dats m) 0 (V0 m) [hostOps1] c main_arg1 = m ((c : Thread nD τ).loc main_arg1) :=
  (tail_of_rest m c main_arg1 (by decide) (by decide)).trans (V_main_arg1 m c)

/-- The reshape after the region does not write `main_arg2`, and no window stages it: it ends as launched. -/
theorem W_main_arg2 (c : Dev nD) :
    Pipeline.afterTail₀ cfgs (dats m) 0 (V0 m) [hostOps1] c main_arg2 = m ((c : Thread nD τ).loc main_arg2) :=
  (tail_of_rest m c main_arg2 (by decide) (by decide)).trans (V_main_arg2 m c)

/-- The reshape after the region does not write `main_arg3`, and no window stages it: it ends as launched. -/
theorem W_main_arg3 (c : Dev nD) :
    Pipeline.afterTail₀ cfgs (dats m) 0 (V0 m) [hostOps1] c main_arg3 = m ((c : Thread nD τ).loc main_arg3) :=
  (tail_of_rest m c main_arg3 (by decide) (by decide)).trans (V_main_arg3 m c)

/-- The reshape after the region does not write `main_arg4`, and no window stages it: it ends as launched. -/
theorem W_main_arg4 (c : Dev nD) :
    Pipeline.afterTail₀ cfgs (dats m) 0 (V0 m) [hostOps1] c main_arg4 = m ((c : Thread nD τ).loc main_arg4) :=
  (tail_of_rest m c main_arg4 (by decide) (by decide)).trans (V_main_arg4 m c)

/-- `main_arg5` is the array of input window 2: it ends as launched. -/
theorem W_main_arg5 (c : Dev nD) :
    Pipeline.afterTail₀ cfgs (dats m) 0 (V0 m) [hostOps1] c main_arg5 = m ((c : Thread nD τ).loc main_arg5) :=
  (tail_of_input m c 2 rfl (by decide)).trans (V_main_arg5 m c)

/-- `main_arg6` is the array of input window 3: it ends as launched. -/
theorem W_main_arg6 (c : Dev nD) :
    Pipeline.afterTail₀ cfgs (dats m) 0 (V0 m) [hostOps1] c main_arg6 = m ((c : Thread nD τ).loc main_arg6) :=
  (tail_of_input m c 3 rfl (by decide)).trans (V_main_arg6 m c)

/-- The reshape after the region does not write `main_arg7`, and no window stages it: it ends as launched. -/
theorem W_main_arg7 (c : Dev nD) :
    Pipeline.afterTail₀ cfgs (dats m) 0 (V0 m) [hostOps1] c main_arg7 = m ((c : Thread nD τ).loc main_arg7) :=
  (tail_of_rest m c main_arg7 (by decide) (by decide)).trans (V_main_arg7 m c)

/-- `main_arg8` is the array of input window 5: it ends as launched. -/
theorem W_main_arg8 (c : Dev nD) :
    Pipeline.afterTail₀ cfgs (dats m) 0 (V0 m) [hostOps1] c main_arg8 = m ((c : Thread nD τ).loc main_arg8) :=
  (tail_of_input m c 5 rfl (by decide)).trans (V_main_arg8 m c)

/-- `main_arg9` is the array of input window 6: it ends as launched. -/
theorem W_main_arg9 (c : Dev nD) :
    Pipeline.afterTail₀ cfgs (dats m) 0 (V0 m) [hostOps1] c main_arg9 = m ((c : Thread nD τ).loc main_arg9) :=
  (tail_of_input m c 6 rfl (by decide)).trans (V_main_arg9 m c)

/-- The reshape after the region does not write `main_arg10`, and no window stages it: it ends as launched. -/
theorem W_main_arg10 (c : Dev nD) :
    Pipeline.afterTail₀ cfgs (dats m) 0 (V0 m) [hostOps1] c main_arg10 = m ((c : Thread nD τ).loc main_arg10) :=
  (tail_of_rest m c main_arg10 (by decide) (by decide)).trans (V_main_arg10 m c)

/-- `main_arg11` is the array of input window 8: it ends as launched. -/
theorem W_main_arg11 (c : Dev nD) :
    Pipeline.afterTail₀ cfgs (dats m) 0 (V0 m) [hostOps1] c main_arg11 = m ((c : Thread nD τ).loc main_arg11) :=
  (tail_of_input m c 8 rfl (by decide)).trans (V_main_arg11 m c)

/-- `main_arg12` is the array of input window 9: it ends as launched. -/
theorem W_main_arg12 (c : Dev nD) :
    Pipeline.afterTail₀ cfgs (dats m) 0 (V0 m) [hostOps1] c main_arg12 = m ((c : Thread nD τ).loc main_arg12) :=
  (tail_of_input m c 9 rfl (by decide)).trans (V_main_arg12 m c)

/-- The reshape after the region does not write `main_arg13`, and no window stages it: it ends as launched. -/
theorem W_main_arg13 (c : Dev nD) :
    Pipeline.afterTail₀ cfgs (dats m) 0 (V0 m) [hostOps1] c main_arg13 = m ((c : Thread nD τ).loc main_arg13) :=
  (tail_of_rest m c main_arg13 (by decide) (by decide)).trans (V_main_arg13 m c)

/-- `main_arg14` is the array of input window 11: it ends as launched. -/
theorem W_main_arg14 (c : Dev nD) :
    Pipeline.afterTail₀ cfgs (dats m) 0 (V0 m) [hostOps1] c main_arg14 = m ((c : Thread nD τ).loc main_arg14) :=
  (tail_of_input m c 11 rfl (by decide)).trans (V_main_arg14 m c)

/-- `main_arg15` is the array of input window 12: it ends as launched. -/
theorem W_main_arg15 (c : Dev nD) :
    Pipeline.afterTail₀ cfgs (dats m) 0 (V0 m) [hostOps1] c main_arg15 = m ((c : Thread nD τ).loc main_arg15) :=
  (tail_of_input m c 12 rfl (by decide)).trans (V_main_arg15 m c)

/-- The reshape after the region does not write `main_arg16`, and no window stages it: it ends as launched. -/
theorem W_main_arg16 (c : Dev nD) :
    Pipeline.afterTail₀ cfgs (dats m) 0 (V0 m) [hostOps1] c main_arg16 = m ((c : Thread nD τ).loc main_arg16) :=
  (tail_of_rest m c main_arg16 (by decide) (by decide)).trans (V_main_arg16 m c)

/-- `main_arg17` is the array of input window 14: it ends as launched. -/
theorem W_main_arg17 (c : Dev nD) :
    Pipeline.afterTail₀ cfgs (dats m) 0 (V0 m) [hostOps1] c main_arg17 = m ((c : Thread nD τ).loc main_arg17) :=
  (tail_of_input m c 14 rfl (by decide)).trans (V_main_arg17 m c)

/-- `main_arg18` is the array of input window 15: it ends as launched. -/
theorem W_main_arg18 (c : Dev nD) :
    Pipeline.afterTail₀ cfgs (dats m) 0 (V0 m) [hostOps1] c main_arg18 = m ((c : Thread nD τ).loc main_arg18) :=
  (tail_of_input m c 15 rfl (by decide)).trans (V_main_arg18 m c)

/-- The reshape after the region does not write `main_arg19`, and no window stages it: it ends as launched. -/
theorem W_main_arg19 (c : Dev nD) :
    Pipeline.afterTail₀ cfgs (dats m) 0 (V0 m) [hostOps1] c main_arg19 = m ((c : Thread nD τ).loc main_arg19) :=
  (tail_of_rest m c main_arg19 (by decide) (by decide)).trans (V_main_arg19 m c)

/-- `main_arg20` is the array of input window 17: it ends as launched. -/
theorem W_main_arg20 (c : Dev nD) :
    Pipeline.afterTail₀ cfgs (dats m) 0 (V0 m) [hostOps1] c main_arg20 = m ((c : Thread nD τ).loc main_arg20) :=
  (tail_of_input m c 17 rfl (by decide)).trans (V_main_arg20 m c)

/-- `main_arg21` is the array of input window 18: it ends as launched. -/
theorem W_main_arg21 (c : Dev nD) :
    Pipeline.afterTail₀ cfgs (dats m) 0 (V0 m) [hostOps1] c main_arg21 = m ((c : Thread nD τ).loc main_arg21) :=
  (tail_of_input m c 18 rfl (by decide)).trans (V_main_arg21 m c)

/-- The reshape after the region does not write `main_arg22`, and no window stages it: it ends as launched. -/
theorem W_main_arg22 (c : Dev nD) :
    Pipeline.afterTail₀ cfgs (dats m) 0 (V0 m) [hostOps1] c main_arg22 = m ((c : Thread nD τ).loc main_arg22) :=
  (tail_of_rest m c main_arg22 (by decide) (by decide)).trans (V_main_arg22 m c)

end Cert.KernelIdeal.Fr

end
-- ==== Proof.KIFrame.lean ====
/-
  The frame of the program: @main is seven stretches of host operations, the pallas_call over its 200 grid points,
  and one reshape.  The body loads its twenty input blocks whole, computes, and stores each result block whole, so
  at every point it leaves the inputs' buffers as it found them and the results' buffers at the stored values; the
  pipeline's run then terminates without a fault, and no argument array is written by anything.
-/
import proofs.«428393_j44160853737513_2_alg».proof.Proof.KArgs
import Idealize.ShloMosaic.Lib.Ring
import Idealize.ShloMosaic.Lib.Pipeline.Value
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host operation around the region allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the seven stretches before the region, the region, and the reshape after it: its run reduces to the
    region entered at the contents `V` and continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1]
    (by simp only [pre, List.Forall]
        exact ⟨hostOps0_sub, hostOps0_1_sub, hostOps0_2_sub, hostOps0_3_sub, hostOps0_4_sub, hostOps0_5_sub, hostOps0_6_sub⟩)
    (by simp only [pre, List.Forall]
        exact ⟨hostOps0_fresh, hostOps0_1_fresh, hostOps0_2_fresh, hostOps0_3_fresh, hostOps0_4_fresh, hostOps0_5_fresh, hostOps0_6_fresh⟩)
    main_chain

/-- The reshape after the region touches unscoped TensorCore buffers only: each is an array of the pipeline or a
    buffer that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: its result `main_v34` is none of the 22 arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-! ## The input windows' buffers at a point -/

/-- What the body leaves in each input window's buffer: the block it found. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]

/-- Each input window's current buffer holds its block at every point, fetched there or not: an input not fetched
    at a point has the block index of the point before, whose block the body left in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl)
    (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl)
    (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl)
    (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl)
    (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl)
    (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl)
    (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl)
    (fun t => by rw [after0_16]; unfold Dat.blockOf iblk; rw [A_eq]; try rfl) t d).trans
    (by unfold Dat.fetched Dat.blockOf iblk; rw [A_eq]; try rfl)
theorem before0_17 (c : Dev nD) (t : Fin cfg0.N) (d) : (dats m 0 c).before 17 t d = iblk m c 17 t :=
  ((dats m 0 c).before_in_eq_fetched 17 rfl (fun _ => rfl) (fun _ _ _ => rfl)
    (fun t => by rw [after0_17]; unfold Dat.blockOf iblk; rw [A_eq]; try rfl) t d).trans
    (by unfold Dat.fetched Dat.blockOf iblk; rw [A_eq]; try rfl)
theorem before0_18 (c : Dev nD) (t : Fin cfg0.N) (d) : (dats m 0 c).before 18 t d = iblk m c 18 t :=
  ((dats m 0 c).before_in_eq_fetched 18 rfl (fun _ => rfl) (fun _ _ _ => rfl)
    (fun t => by rw [after0_18]; unfold Dat.blockOf iblk; rw [A_eq]; try rfl) t d).trans
    (by unfold Dat.fetched Dat.blockOf iblk; rw [A_eq]; try rfl)
theorem before0_19 (c : Dev nD) (t : Fin cfg0.N) (d) : (dats m 0 c).before 19 t d = iblk m c 19 t :=
  ((dats m 0 c).before_in_eq_fetched 19 rfl (fun _ => rfl) (fun _ _ _ => rfl)
    (fun t => by rw [after0_19]; unfold Dat.blockOf iblk; rw [A_eq]; try rfl) t d).trans
    (by unfold Dat.fetched Dat.blockOf iblk; rw [A_eq]; try rfl)

/-! ## The body's triple -/

/-- The one store into the scalar result block covers it. -/
theorem coverS (p0 : Vec F S4000x64 .f32) (y : S4000x64.Idx) :
    ∃ pc ∈ ([⟨rS, p0⟩] : List (View.Piece (Elt F) S4000x64 .f32)), y ∈ pc.1.set :=
  View.cover_of_tiled [⟨rS, p0⟩] S4000x64.size (by rfl) y
/-- The one store into the vector result block covers it. -/
theorem coverV (p0 : Vec F S4000x24 .f32) (y : S4000x24.Idx) :
    ∃ pc ∈ ([⟨rV, p0⟩] : List (View.Piece (Elt F) S4000x24 .f32)), y ∈ pc.1.set :=
  View.cover_of_tiled [⟨rV, p0⟩] S4000x24.size (by rfl) y

set_option maxHeartbeats 2000000 in
/-- The body on whole buffers, the twenty inputs' at contents `x0 … x19` and the two results' at anything, runs to
    the continuation with the inputs' as they were and the results' at `outS` / `outV` of the inputs: it loads each
    input block whole, and stores each result block whole after one load of it. -/
theorem sound_kernel (c : Dev nD) (E : Set ℕ) (i : grid0.Coords)
    (arg1 : Memref sig .tc .vmem S4000x144 .bf16) (harg1 : arg1.IsWhole)
    (arg2 : Memref sig .tc .vmem S4000x51 .bf16) (harg2 : arg2.IsWhole)
    (arg3 : Memref sig .tc .vmem S17x17 .f32) (harg3 : arg3.IsWhole)
    (arg4 : Memref sig .tc .vmem S161x64 .f32) (harg4 : arg4.IsWhole)
    (arg5 : Memref sig .tc .vmem S1x64 .f32) (harg5 : arg5.IsWhole)
    (arg6 : Memref sig .tc .vmem S17x8 .f32) (harg6 : arg6.IsWhole)
    (arg7 : Memref sig .tc .vmem S64x8 .f32) (harg7 : arg7.IsWhole)
    (arg8 : Memref sig .tc .vmem S1x8 .f32) (harg8 : arg8.IsWhole)
    (arg9 : Memref sig .tc .vmem S8x8 .f32) (harg9 : arg9.IsWhole)
    (arg10 : Memref sig .tc .vmem S72x64 .f32) (harg10 : arg10.IsWhole)
    (arg11 : Memref sig .tc .vmem S1x64 .f32) (harg11 : arg11.IsWhole)
    (arg12 : Memref sig .tc .vmem S8x8 .f32) (harg12 : arg12.IsWhole)
    (arg13 : Memref sig .tc .vmem S64x8 .f32) (harg13 : arg13.IsWhole)
    (arg14 : Memref sig .tc .vmem S1x8 .f32) (harg14 : arg14.IsWhole)
    (arg15 : Memref sig .tc .vmem S8x8 .f32) (harg15 : arg15.IsWhole)
    (arg16 : Memref sig .tc .vmem S72x64 .f32) (harg16 : arg16.IsWhole)
    (arg17 : Memref sig .tc .vmem S1x64 .f32) (harg17 : arg17.IsWhole)
    (arg18 : Memref sig .tc .vmem S8x8 .f32) (harg18 : arg18.IsWhole)
    (arg19 : Memref sig .tc .vmem S64x8 .f32) (harg19 : arg19.IsWhole)
    (arg20 : Memref sig .tc .vmem S1x8 .f32) (harg20 : arg20.IsWhole)
    (arg21 : Memref sig .tc .vmem S4000x64 .f32) (harg21 : arg21.IsWhole)
    (arg22 : Memref sig .tc .vmem S4000x24 .f32) (harg22 : arg22.IsWhole)
    (x0 : Vec F S4000x144 .bf16) (x1 : Vec F S4000x51 .bf16) (x2 : Vec F S17x17 .f32) (x3 : Vec F S161x64 .f32) (x4 : Vec F S1x64 .f32) (x5 : Vec F S17x8 .f32) (x6 : Vec F S64x8 .f32) (x7 : Vec F S1x8 .f32) (x8 : Vec F S8x8 .f32) (x9 : Vec F S72x64 .f32) (x10 : Vec F S1x64 .f32) (x11 : Vec F S8x8 .f32) (x12 : Vec F S64x8 .f32) (x13 : Vec F S1x8 .f32) (x14 : Vec F S8x8 .f32) (x15 : Vec F S72x64 .f32) (x16 : Vec F S1x64 .f32) (x17 : Vec F S8x8 .f32) (x18 : Vec F S64x8 .f32) (x19 : Vec F S1x8 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ owns (c : Thread nD τ) arg15 fullShare x14
        ∗ owns (c : Thread nD τ) arg16 fullShare x15
        ∗ owns (c : Thread nD τ) arg17 fullShare x16
        ∗ owns (c : Thread nD τ) arg18 fullShare x17
        ∗ owns (c : Thread nD τ) arg19 fullShare x18
        ∗ owns (c : Thread nD τ) arg20 fullShare x19
        ∗ (∃ d, owns (c : Thread nD τ) arg21 fullShare d) ∗ (∃ d, owns (c : Thread nD τ) arg22 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ owns (c : Thread nD τ) arg16 fullShare x15
            ∗ owns (c : Thread nD τ) arg17 fullShare x16
            ∗ owns (c : Thread nD τ) arg18 fullShare x17
            ∗ owns (c : Thread nD τ) arg19 fullShare x18
            ∗ owns (c : Thread nD τ) arg20 fullShare x19
            ∗ owns (c : Thread nD τ) arg21 fullShare (outS ⟨x0, x1, x2, x3, x4, x5, x6, x7, x8, x9, x10, x11, x12, x13, x14, x15, x16, x17, x18, x19⟩)
            ∗ owns (c : Thread nD τ) arg22 fullShare (outV ⟨x0, x1, x2, x3, x4, x5, x6, x7, x8, x9, x10, x11, x12, x13, x14, x15, x16, x17, x18, x19⟩)) -∗ K ⟨⟩))
      ⊢ wp frame (wpE (defs₀ (F := F)) Variants.none c none) E (cc0__gvp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__gvp_kernel_eq_skeleton]; unfold cc0__gvp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, Hk⟩
  subst hf0; subst hf1; subst hf2; subst hf3; subst hf4; subst hf5; subst hf6; subst hf7; subst hf8; subst hf9; subst hf10; subst hf11; subst hf12; subst hf13; subst hf14; subst hf15; subst hf16; subst hf17; subst hf18; subst hf19
  have hz : (![0, 0] : Fin 2 → ℕ) = fun _ => 0 := by funext a; fin_cases a <;> rfl
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    refine (View.read_writes_eq_canon _ _ _ (coverS _)).trans ?_
    try delta sound_kernel.sl.r_19
    try delta sound_kernel.sl.r_18
    try delta sound_kernel.sl.r_17
    try delta sound_kernel.sl.r_16
    try delta sound_kernel.sl.r_15
    try delta sound_kernel.sl.r_14
    try delta sound_kernel.sl.r_13
    try delta sound_kernel.sl.r_12
    try delta sound_kernel.sl.r_11
    try delta sound_kernel.sl.r_10
    try delta sound_kernel.sl.r_9
    try delta sound_kernel.sl.r_8
    try delta sound_kernel.sl.r_7
    try delta sound_kernel.sl.r_6
    try delta sound_kernel.sl.r_5
    try delta sound_kernel.sl.r_4
    try delta sound_kernel.sl.r_3
    try delta sound_kernel.sl.r_2
    try delta sound_kernel.sl.r_1
    try delta sound_kernel.sl.r
    try delta sound_kernel.sl.cst_43
    simp only [View.readAt_eq_ld, View.ld_unit_zero (S := S4000x144) hz, View.ld_unit_zero (S := S4000x51) hz, View.ld_unit_zero (S := S17x17) hz, View.ld_unit_zero (S := S161x64) hz, View.ld_unit_zero (S := S1x64) hz, View.ld_unit_zero (S := S17x8) hz, View.ld_unit_zero (S := S64x8) hz, View.ld_unit_zero (S := S1x8) hz, View.ld_unit_zero (S := S8x8) hz, View.ld_unit_zero (S := S72x64) hz,
      outS, outV, bodyS, bodyV, s3, m3a, m3b, h3c, g3, s2, m2a, m2b, h2c, g2, z8, s1, m1a, m1b, m1c, g1]
  iexists _; isplitr
  swap; · iexact H21
  ipureintro
  refine (View.read_writes_eq_canon _ _ _ (coverV _)).trans ?_
  try delta sound_kernel.sl.r_19
  try delta sound_kernel.sl.r_18
  try delta sound_kernel.sl.r_17
  try delta sound_kernel.sl.r_16
  try delta sound_kernel.sl.r_15
  try delta sound_kernel.sl.r_14
  try delta sound_kernel.sl.r_13
  try delta sound_kernel.sl.r_12
  try delta sound_kernel.sl.r_11
  try delta sound_kernel.sl.r_10
  try delta sound_kernel.sl.r_9
  try delta sound_kernel.sl.r_8
  try delta sound_kernel.sl.r_7
  try delta sound_kernel.sl.r_6
  try delta sound_kernel.sl.r_5
  try delta sound_kernel.sl.r_4
  try delta sound_kernel.sl.r_3
  try delta sound_kernel.sl.r_2
  try delta sound_kernel.sl.r_1
  try delta sound_kernel.sl.r
  try delta sound_kernel.sl.cst_43
  simp only [View.readAt_eq_ld, View.ld_unit_zero (S := S4000x144) hz, View.ld_unit_zero (S := S4000x51) hz, View.ld_unit_zero (S := S17x17) hz, View.ld_unit_zero (S := S161x64) hz, View.ld_unit_zero (S := S1x64) hz, View.ld_unit_zero (S := S17x8) hz, View.ld_unit_zero (S := S64x8) hz, View.ld_unit_zero (S := S1x8) hz, View.ld_unit_zero (S := S8x8) hz, View.ld_unit_zero (S := S72x64) hz,
      outS, outV, bodyS, bodyV, s3, m3a, m3b, h3c, g3, s2, m2a, m2b, h2c, g2, z8, s1, m1a, m1b, m1c, g1]

/-! ## The body obligation, at a generic point -/

/-- What the body is called with at point `t`: the invariant, nothing owed, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

/-- And what it returns: the same with each buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t))

/-- The body at any point: the inputs' buffers hold their blocks, so the body's triple applies; the invariant and
    what is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  unfold insAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel c Set.univ (grid0.coords t) _ _ _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; each pipeline array ends at what the proof data
    compute, every other buffer as the reshape after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- In any final state of the frame run each argument array is as launched: an argument that an input window
    stages is read only by the pipeline; every other argument bypasses the region and is not written by the
    reshape after it. -/
theorem kept_main_arg0 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0) :=
  ((h c).2 main_arg0 (Pipeline.mem_restRefs_of main_arg0 (by decide) (by decide))).trans (W_main_arg0 m c)
theorem kept_main_arg1 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg1) = m ((c.tc : Thread nD τ).loc main_arg1) :=
  ((h c).2 main_arg1 (Pipeline.mem_restRefs_of main_arg1 (by decide) (by decide))).trans (W_main_arg1 m c)
theorem kept_main_arg2 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg2) = m ((c.tc : Thread nD τ).loc main_arg2) :=
  ((h c).2 main_arg2 (Pipeline.mem_restRefs_of main_arg2 (by decide) (by decide))).trans (W_main_arg2 m c)
theorem kept_main_arg3 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg3) = m ((c.tc : Thread nD τ).loc main_arg3) :=
  ((h c).2 main_arg3 (Pipeline.mem_restRefs_of main_arg3 (by decide) (by decide))).trans (W_main_arg3 m c)
theorem kept_main_arg4 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg4) = m ((c.tc : Thread nD τ).loc main_arg4) :=
  ((h c).2 main_arg4 (Pipeline.mem_restRefs_of main_arg4 (by decide) (by decide))).trans (W_main_arg4 m c)
theorem kept_main_arg5 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg5) = m ((c.tc : Thread nD τ).loc main_arg5) :=
  ((h c).1 2).trans (((dats m 0 c).arrAt_in 2 rfl _).trans ((A_eq m c 2).trans (V_main_arg5 m c)))
theorem kept_main_arg6 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg6) = m ((c.tc : Thread nD τ).loc main_arg6) :=
  ((h c).1 3).trans (((dats m 0 c).arrAt_in 3 rfl _).trans ((A_eq m c 3).trans (V_main_arg6 m c)))
theorem kept_main_arg7 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg7) = m ((c.tc : Thread nD τ).loc main_arg7) :=
  ((h c).2 main_arg7 (Pipeline.mem_restRefs_of main_arg7 (by decide) (by decide))).trans (W_main_arg7 m c)
theorem kept_main_arg8 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg8) = m ((c.tc : Thread nD τ).loc main_arg8) :=
  ((h c).1 5).trans (((dats m 0 c).arrAt_in 5 rfl _).trans ((A_eq m c 5).trans (V_main_arg8 m c)))
theorem kept_main_arg9 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg9) = m ((c.tc : Thread nD τ).loc main_arg9) :=
  ((h c).1 6).trans (((dats m 0 c).arrAt_in 6 rfl _).trans ((A_eq m c 6).trans (V_main_arg9 m c)))
theorem kept_main_arg10 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg10) = m ((c.tc : Thread nD τ).loc main_arg10) :=
  ((h c).2 main_arg10 (Pipeline.mem_restRefs_of main_arg10 (by decide) (by decide))).trans (W_main_arg10 m c)
theorem kept_main_arg11 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg11) = m ((c.tc : Thread nD τ).loc main_arg11) :=
  ((h c).1 8).trans (((dats m 0 c).arrAt_in 8 rfl _).trans ((A_eq m c 8).trans (V_main_arg11 m c)))
theorem kept_main_arg12 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg12) = m ((c.tc : Thread nD τ).loc main_arg12) :=
  ((h c).1 9).trans (((dats m 0 c).arrAt_in 9 rfl _).trans ((A_eq m c 9).trans (V_main_arg12 m c)))
theorem kept_main_arg13 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg13) = m ((c.tc : Thread nD τ).loc main_arg13) :=
  ((h c).2 main_arg13 (Pipeline.mem_restRefs_of main_arg13 (by decide) (by decide))).trans (W_main_arg13 m c)
theorem kept_main_arg14 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg14) = m ((c.tc : Thread nD τ).loc main_arg14) :=
  ((h c).1 11).trans (((dats m 0 c).arrAt_in 11 rfl _).trans ((A_eq m c 11).trans (V_main_arg14 m c)))
theorem kept_main_arg15 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg15) = m ((c.tc : Thread nD τ).loc main_arg15) :=
  ((h c).1 12).trans (((dats m 0 c).arrAt_in 12 rfl _).trans ((A_eq m c 12).trans (V_main_arg15 m c)))
theorem kept_main_arg16 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg16) = m ((c.tc : Thread nD τ).loc main_arg16) :=
  ((h c).2 main_arg16 (Pipeline.mem_restRefs_of main_arg16 (by decide) (by decide))).trans (W_main_arg16 m c)
theorem kept_main_arg17 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg17) = m ((c.tc : Thread nD τ).loc main_arg17) :=
  ((h c).1 14).trans (((dats m 0 c).arrAt_in 14 rfl _).trans ((A_eq m c 14).trans (V_main_arg17 m c)))
theorem kept_main_arg18 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg18) = m ((c.tc : Thread nD τ).loc main_arg18) :=
  ((h c).1 15).trans (((dats m 0 c).arrAt_in 15 rfl _).trans ((A_eq m c 15).trans (V_main_arg18 m c)))
theorem kept_main_arg19 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg19) = m ((c.tc : Thread nD τ).loc main_arg19) :=
  ((h c).2 main_arg19 (Pipeline.mem_restRefs_of main_arg19 (by decide) (by decide))).trans (W_main_arg19 m c)
theorem kept_main_arg20 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg20) = m ((c.tc : Thread nD τ).loc main_arg20) :=
  ((h c).1 17).trans (((dats m 0 c).arrAt_in 17 rfl _).trans ((A_eq m c 17).trans (V_main_arg20 m c)))
theorem kept_main_arg21 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg21) = m ((c.tc : Thread nD τ).loc main_arg21) :=
  ((h c).1 18).trans (((dats m 0 c).arrAt_in 18 rfl _).trans ((A_eq m c 18).trans (V_main_arg21 m c)))
theorem kept_main_arg22 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg22) = m ((c.tc : Thread nD τ).loc main_arg22) :=
  ((h c).2 main_arg22 (Pipeline.mem_restRefs_of main_arg22 (by decide) (by decide))).trans (W_main_arg22 m c)

/-- All twenty-three argument arrays at once. -/
theorem args_kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  ⟨kept_main_arg0 m r h c,
    kept_main_arg1 m r h c,
    kept_main_arg2 m r h c,
    kept_main_arg3 m r h c,
    kept_main_arg4 m r h c,
    kept_main_arg5 m r h c,
    kept_main_arg6 m r h c,
    kept_main_arg7 m r h c,
    kept_main_arg8 m r h c,
    kept_main_arg9 m r h c,
    kept_main_arg10 m r h c,
    kept_main_arg11 m r h c,
    kept_main_arg12 m r h c,
    kept_main_arg13 m r h c,
    kept_main_arg14 m r h c,
    kept_main_arg15 m r h c,
    kept_main_arg16 m r h c,
    kept_main_arg17 m r h c,
    kept_main_arg18 m r h c,
    kept_main_arg19 m r h c,
    kept_main_arg20 m r h c,
    kept_main_arg21 m r h c,
    kept_main_arg22 m r h c⟩

/-- The frame claim's statement at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => args_kept m r h c) (run_main m ρ)

end Cert.KernelIdeal.Fr

end
-- ==== Proof.Spec.lean ====
/-
  One GVP (geometric vector perceptron) layer on ONE edge, over the extended reals, and the three-layer network
  built from it.  An edge carries a scalar feature row `s : Fin ds → EReal` and three spatial vector rows
  `v : Fin 3 → Fin dv → EReal`.  A layer with weights `W` maps them to

    hid r k   = ∑ d, v r d · Wh d k                      (the hidden vector channels)
    nrm k     = √(hid 0 k² + hid 1 k² + hid 2 k² + ε)    (their norm over the three spatial rows)
    sPre j    = ∑ i, [s ‖ nrm] i · Ws i j + bs j          (the scalar output before the rectifier)
    gate o    = logistic (∑ j, sPre j · Wg j o + bg o)
    vOut r o  = (∑ k, hid r k · Wmu k o) · gate o
    sRelu j   = max (sPre j) 0

  Nothing here mentions a program: both programs' results are shown to be these functions of the argument arrays.
-/
import Idealize.ShloMosaic.PureOps.Ideal
import Idealize.ShloMosaic.Lib.ValueIdx

noncomputable section

namespace Cert.Gvp

open Idealize.ShloMosaic

/-- The literal ε both programs carry (the f32 nearest 1e-8), read as the extended real it denotes. -/
def eps : EReal := Ideal.ofBits .f32 0x322BCC77#32

/-- The weights of one layer as plain index functions. `K` is the joined scalar width `ds + h`. -/
structure Wts (dv h K dso dvo : Nat) where
  Wh : Fin dv → Fin h → EReal
  Ws : Fin K → Fin dso → EReal
  bs : Fin dso → EReal
  Wmu : Fin h → Fin dvo → EReal
  Wg : Fin dso → Fin dvo → EReal
  bg : Fin dvo → EReal

variable {dv h K dso dvo ds : Nat}

/-- Hidden vector channel `k` of spatial row `r`. -/
def hid (W : Wts dv h K dso dvo) (v : Fin 3 → Fin dv → EReal) (r : Fin 3) (k : Fin h) : EReal :=
  ∑ d : Fin dv, v r d * W.Wh d k

/-- The sum of the three squares, grouped as the kernel adds them. -/
def sq3 (a : Fin 3 → EReal) : EReal := (a 0 * a 0 + a 1 * a 1) + a 2 * a 2

/-- The norm of hidden channel `k` over the three spatial rows, with ε under the root. -/
def nrm (W : Wts dv h K dso dvo) (v : Fin 3 → Fin dv → EReal) (k : Fin h) : EReal :=
  Ideal.sqrt (sq3 (fun r => hid W v r k) + eps)

/-- The scalar row joined with the norms: entry `i` is `s i` below `ds` and `n (i - ds)` from there on. -/
def joined (s : Fin ds → EReal) (n : Fin h → EReal) (i : Fin K) : EReal :=
  if hi : i.val < ds then s ⟨i.val, hi⟩ else if hn : i.val - ds < h then n ⟨i.val - ds, hn⟩ else 0

/-- The scalar output before the rectifier. -/
def sPre (W : Wts dv h K dso dvo) (s : Fin ds → EReal) (v : Fin 3 → Fin dv → EReal) (j : Fin dso) : EReal :=
  (∑ i : Fin K, joined s (nrm W v) i * W.Ws i j) + W.bs j

/-- The rectified scalar output. -/
def sRelu (W : Wts dv h K dso dvo) (s : Fin ds → EReal) (v : Fin 3 → Fin dv → EReal) (j : Fin dso) : EReal :=
  max (sPre W s v j) 0

/-- The vector gate of output channel `o`. -/
def gate (W : Wts dv h K dso dvo) (s : Fin ds → EReal) (v : Fin 3 → Fin dv → EReal) (o : Fin dvo) : EReal :=
  Ideal.logistic ((∑ j : Fin dso, sPre W s v j * W.Wg j o) + W.bg o)

/-- The projected hidden vectors before gating. -/
def vMu (W : Wts dv h K dso dvo) (v : Fin 3 → Fin dv → EReal) (r : Fin 3) (o : Fin dvo) : EReal :=
  ∑ k : Fin h, hid W v r k * W.Wmu k o

/-- The gated vector output. -/
def vOut (W : Wts dv h K dso dvo) (s : Fin ds → EReal) (v : Fin 3 → Fin dv → EReal) (r : Fin 3) (o : Fin dvo) : EReal :=
  vMu W v r o * gate W s v o

/-! ## The network: three layers, the last without the rectifier -/

/-- Scalar result of the network on one edge. -/
def netS (W1 : Wts 17 17 161 64 8) (W2 W3 : Wts 8 8 72 64 8) (s0 : Fin 144 → EReal) (v0 : Fin 3 → Fin 17 → EReal) (j : Fin 64) : EReal :=
  sPre W3 (sRelu W2 (sRelu W1 s0 v0) (vOut W1 s0 v0)) (vOut W2 (sRelu W1 s0 v0) (vOut W1 s0 v0)) j

/-- Vector result of the network on one edge. -/
def netV (W1 : Wts 17 17 161 64 8) (W2 W3 : Wts 8 8 72 64 8) (s0 : Fin 144 → EReal) (v0 : Fin 3 → Fin 17 → EReal) (r : Fin 3) (o : Fin 8) : EReal :=
  vOut W3 (sRelu W2 (sRelu W1 s0 v0) (vOut W1 s0 v0)) (vOut W2 (sRelu W1 s0 v0) (vOut W1 s0 v0)) r o

/-! ## The message rows of an edge -/

/-- A node index word with Python's wrap of a negative index applied (as both programs print it). -/
def wrapW (x : BitVec 32) : BitVec 32 := Scalar.select (IntOp.cmpi .slt x 0#32) (IntOp.addi x 50000#32) x

/-- The node a (wrapped) index word addresses, clamped into the table as a gather clamps it. -/
def node (w : BitVec 32) : Fin 50000 := ⟨min w.toInt.toNat 49999, by omega⟩

/-- The scalar message row: source node's scalars, destination node's scalars, the edge's own scalars. -/
def rowS (s : Fin 50000 → Fin 64 → EReal) (se : Fin 16 → EReal) (a b : Fin 50000) (j : Fin 144) : EReal :=
  if h1 : j.val < 64 then s a ⟨j.val, h1⟩
  else if h2 : j.val < 128 then s b ⟨j.val - 64, by omega⟩
  else se ⟨j.val - 128, by omega⟩

/-- The vector message rows: per spatial row, source node's vectors, destination node's, the edge's own one. -/
def rowV (V : Fin 50000 → Fin 3 → Fin 8 → EReal) (ve : Fin 3 → EReal) (a b : Fin 50000) (r : Fin 3) (d : Fin 17) : EReal :=
  if h1 : d.val < 8 then V a r ⟨d.val, h1⟩
  else if h2 : d.val < 16 then V b r ⟨d.val - 8, by omega⟩
  else ve r

/-! ## The network over the argument arrays -/

section Arrays
open Idealize.ShloMosaic.ValueIdx

/-- A layer's weights read off its six argument arrays. -/
def mkW {dv h K dso dvo : Nat}
    (Wh : (⟨2, ![dv, h]⟩ : Shape).Idx → EReal) (Ws : (⟨2, ![K, dso]⟩ : Shape).Idx → EReal) (bs : (⟨1, ![dso]⟩ : Shape).Idx → EReal)
    (Wmu : (⟨2, ![h, dvo]⟩ : Shape).Idx → EReal) (Wg : (⟨2, ![dso, dvo]⟩ : Shape).Idx → EReal) (bg : (⟨1, ![dvo]⟩ : Shape).Idx → EReal) :
    Wts dv h K dso dvo where
  Wh d k := Wh (ix2 d k)
  Ws i j := Ws (ix2 i j)
  bs j := bs (ix1 j)
  Wmu k o := Wmu (ix2 k o)
  Wg j o := Wg (ix2 j o)
  bg o := bg (ix1 o)

/-- The scalar message row of edge `e`, from the node scalars, the edge scalars and the edge index. -/
def edgeS (s : (⟨2, ![50000, 64]⟩ : Shape).Idx → EReal) (se : (⟨2, ![800000, 16]⟩ : Shape).Idx → EReal)
    (idx : (⟨2, ![2, 800000]⟩ : Shape).Idx → BitVec 32) (e : Fin 800000) : Fin 144 → EReal :=
  rowS (fun a b => s (ix2 a b)) (fun b => se (ix2 e b))
    (node (wrapW (idx (ix2 (0 : Fin 2) e)))) (node (wrapW (idx (ix2 (1 : Fin 2) e))))

/-- The vector message rows of edge `e`. -/
def edgeV (V : (⟨3, ![50000, 3, 8]⟩ : Shape).Idx → EReal) (ve : (⟨3, ![800000, 3, 1]⟩ : Shape).Idx → EReal)
    (idx : (⟨2, ![2, 800000]⟩ : Shape).Idx → BitVec 32) (e : Fin 800000) : Fin 3 → Fin 17 → EReal :=
  rowV (fun a r d => V (ix3 a r d)) (fun r => ve (ix3 e r (0 : Fin 1)))
    (node (wrapW (idx (ix2 (0 : Fin 2) e)))) (node (wrapW (idx (ix2 (1 : Fin 2) e))))

variable (x0 : (⟨2, ![50000, 64]⟩ : Shape).Idx → EReal) (x1 : (⟨3, ![50000, 3, 8]⟩ : Shape).Idx → EReal)
  (x2 : (⟨2, ![800000, 16]⟩ : Shape).Idx → EReal) (x3 : (⟨3, ![800000, 3, 1]⟩ : Shape).Idx → EReal)
  (x4 : (⟨2, ![2, 800000]⟩ : Shape).Idx → BitVec 32)
  (x5 : (⟨2, ![17, 17]⟩ : Shape).Idx → EReal) (x6 : (⟨2, ![161, 64]⟩ : Shape).Idx → EReal) (x7 : (⟨1, ![64]⟩ : Shape).Idx → EReal)
  (x8 : (⟨2, ![17, 8]⟩ : Shape).Idx → EReal) (x9 : (⟨2, ![64, 8]⟩ : Shape).Idx → EReal) (x10 : (⟨1, ![8]⟩ : Shape).Idx → EReal)
  (x11 : (⟨2, ![8, 8]⟩ : Shape).Idx → EReal) (x12 : (⟨2, ![72, 64]⟩ : Shape).Idx → EReal) (x13 : (⟨1, ![64]⟩ : Shape).Idx → EReal)
  (x14 : (⟨2, ![8, 8]⟩ : Shape).Idx → EReal) (x15 : (⟨2, ![64, 8]⟩ : Shape).Idx → EReal) (x16 : (⟨1, ![8]⟩ : Shape).Idx → EReal)
  (x17 : (⟨2, ![8, 8]⟩ : Shape).Idx → EReal) (x18 : (⟨2, ![72, 64]⟩ : Shape).Idx → EReal) (x19 : (⟨1, ![64]⟩ : Shape).Idx → EReal)
  (x20 : (⟨2, ![8, 8]⟩ : Shape).Idx → EReal) (x21 : (⟨2, ![64, 8]⟩ : Shape).Idx → EReal) (x22 : (⟨1, ![8]⟩ : Shape).Idx → EReal)

/-- The scalar result array: entry `(e, j)` is the network's scalar output `j` on edge `e`. -/
def GS : (⟨2, ![800000, 64]⟩ : Shape).Idx → EReal := fun i =>
  netS (mkW x5 x6 x7 x8 x9 x10) (mkW x11 x12 x13 x14 x15 x16) (mkW x17 x18 x19 x20 x21 x22)
    (edgeS x0 x2 x4 (i 0)) (edgeV x1 x3 x4 (i 0)) (i 1)

/-- The vector result array: entry `(e, r, o)` is the network's vector output `(r, o)` on edge `e`. -/
def GV : (⟨3, ![800000, 3, 8]⟩ : Shape).Idx → EReal := fun i =>
  netV (mkW x5 x6 x7 x8 x9 x10) (mkW x11 x12 x13 x14 x15 x16) (mkW x17 x18 x19 x20 x21 x22)
    (edgeS x0 x2 x4 (i 0)) (edgeV x1 x3 x4 (i 0)) (i 1) (i 2)

end Arrays

end Cert.Gvp

end
-- ==== Proof.VecLemmas.lean ====
/-
  The body's vector operations read at an index, at the extended reals: each matrix product into a zero accumulator is
  the plain sum over the contracted axis; a column slice, a column concatenation and a row broadcast move an index.
-/
import proofs.«428393_j44160853737513_2_alg».proof.Proof.Spec
import proofs.«428393_j44160853737513_2_alg».proof.Proof.Gen.KernelIdeal
import Idealize.ShloMosaic.PureOps.Ideal.Laws
import Idealize.ShloMosaic.Lib.Pipeline.Value
import Idealize.ShloMosaic.Lib.ValueLayout

noncomputable section

namespace Cert.KernelIdeal.VL

open Cert.KernelIdeal Cert.KernelIdeal.Gen
open Idealize.ShloMosaic Idealize.ShloMosaic.ValueIdx

/-! ## Matrix products -/
private theorem lhs_a_0 (i : S4000x17.Idx) (q : dot_S4000x17_S17x17_S4000x17_1_0_0_1_n_n.contr.Idx) :
    (dot_S4000x17_S17x17_S4000x17_1_0_0_1_n_n.lhsIdx i q 0).val = (i 0).val := by
  unfold DotDims.lhsIdx
  rw [dif_neg (show ¬(0 : Fin S4000x17.rank) ∈ dot_S4000x17_S17x17_S4000x17_1_0_0_1_n_n.lhsBatch by decide), dif_pos (show (0 : Fin S4000x17.rank) ∈ dot_S4000x17_S17x17_S4000x17_1_0_0_1_n_n.lhsNonContracting by decide)]
  rfl
private theorem lhs_a_1 (i : S4000x17.Idx) (q : dot_S4000x17_S17x17_S4000x17_1_0_0_1_n_n.contr.Idx) :
    (dot_S4000x17_S17x17_S4000x17_1_0_0_1_n_n.lhsIdx i q 1).val = (q ⟨0, by decide⟩).val :=
  dot_S4000x17_S17x17_S4000x17_1_0_0_1_n_n.lhsIdx_val_of_single rfl i q
private theorem rhs_a_0 (i : S4000x17.Idx) (q : dot_S4000x17_S17x17_S4000x17_1_0_0_1_n_n.contr.Idx) :
    (dot_S4000x17_S17x17_S4000x17_1_0_0_1_n_n.rhsIdx i q 0).val = (q ⟨0, by decide⟩).val :=
  dot_S4000x17_S17x17_S4000x17_1_0_0_1_n_n.rhsIdx_val_of_single rfl i q
private theorem rhs_a_1 (i : S4000x17.Idx) (q : dot_S4000x17_S17x17_S4000x17_1_0_0_1_n_n.contr.Idx) :
    (dot_S4000x17_S17x17_S4000x17_1_0_0_1_n_n.rhsIdx i q 1).val = (i 1).val := by
  unfold DotDims.rhsIdx
  rw [dif_neg (show ¬(1 : Fin S17x17.rank) ∈ dot_S4000x17_S17x17_S4000x17_1_0_0_1_n_n.rhsBatch by decide), dif_pos (show (1 : Fin S17x17.rank) ∈ dot_S4000x17_S17x17_S4000x17_1_0_0_1_n_n.rhsNonContracting by decide)]
  rfl

/-- Entry (p, q) of the product: the sum over the 17 contracted columns of x's row p against w's column q. -/
theorem mm_S4000x17_S17x17 (x : FVec Ideal S4000x17 .f32) (w : FVec Ideal S17x17 .f32) (p : Fin 4000) (q : Fin 17) :
    matmul dot_S4000x17_S17x17_S4000x17_1_0_0_1_n_n none x w (constant S4000x17 .f32 0x00000000#32) (ix2 p q)
      = ∑ k : Fin 17, x (ix2 p k) * w (ix2 k q) := by
  simp only [matmul]
  rw [Ideal.matmul_constant_zero_apply, ← Equiv.sum_comp (contrEquiv1 dot_S4000x17_S17x17_S4000x17_1_0_0_1_n_n 17 rfl rfl).symm]
  refine Finset.sum_congr rfl fun k _ => ?_
  have hk := contrEquiv1_symm_val dot_S4000x17_S17x17_S4000x17_1_0_0_1_n_n 17 rfl rfl k
  have el : dot_S4000x17_S17x17_S4000x17_1_0_0_1_n_n.lhsIdx (ix2 p q) ((contrEquiv1 dot_S4000x17_S17x17_S4000x17_1_0_0_1_n_n 17 rfl rfl).symm k) = ix2 p k := funext fun a => Fin.ext (by
    match a with
    | ⟨0, _⟩ => exact lhs_a_0 _ _
    | ⟨1, _⟩ => exact (lhs_a_1 _ _).trans hk)
  have er : dot_S4000x17_S17x17_S4000x17_1_0_0_1_n_n.rhsIdx (ix2 p q) ((contrEquiv1 dot_S4000x17_S17x17_S4000x17_1_0_0_1_n_n 17 rfl rfl).symm k) = ix2 k q := funext fun a => Fin.ext (by
    match a with
    | ⟨0, _⟩ => exact (rhs_a_0 _ _).trans hk
    | ⟨1, _⟩ => exact rhs_a_1 _ _)
  rw [el, er]

private theorem lhs_b_0 (i : S4000x64.Idx) (q : dot_S4000x161_S161x64_S4000x64_1_0_0_1_n_n.contr.Idx) :
    (dot_S4000x161_S161x64_S4000x64_1_0_0_1_n_n.lhsIdx i q 0).val = (i 0).val := by
  unfold DotDims.lhsIdx
  rw [dif_neg (show ¬(0 : Fin S4000x161.rank) ∈ dot_S4000x161_S161x64_S4000x64_1_0_0_1_n_n.lhsBatch by decide), dif_pos (show (0 : Fin S4000x161.rank) ∈ dot_S4000x161_S161x64_S4000x64_1_0_0_1_n_n.lhsNonContracting by decide)]
  rfl
private theorem lhs_b_1 (i : S4000x64.Idx) (q : dot_S4000x161_S161x64_S4000x64_1_0_0_1_n_n.contr.Idx) :
    (dot_S4000x161_S161x64_S4000x64_1_0_0_1_n_n.lhsIdx i q 1).val = (q ⟨0, by decide⟩).val :=
  dot_S4000x161_S161x64_S4000x64_1_0_0_1_n_n.lhsIdx_val_of_single rfl i q
private theorem rhs_b_0 (i : S4000x64.Idx) (q : dot_S4000x161_S161x64_S4000x64_1_0_0_1_n_n.contr.Idx) :
    (dot_S4000x161_S161x64_S4000x64_1_0_0_1_n_n.rhsIdx i q 0).val = (q ⟨0, by decide⟩).val :=
  dot_S4000x161_S161x64_S4000x64_1_0_0_1_n_n.rhsIdx_val_of_single rfl i q
private theorem rhs_b_1 (i : S4000x64.Idx) (q : dot_S4000x161_S161x64_S4000x64_1_0_0_1_n_n.contr.Idx) :
    (dot_S4000x161_S161x64_S4000x64_1_0_0_1_n_n.rhsIdx i q 1).val = (i 1).val := by
  unfold DotDims.rhsIdx
  rw [dif_neg (show ¬(1 : Fin S161x64.rank) ∈ dot_S4000x161_S161x64_S4000x64_1_0_0_1_n_n.rhsBatch by decide), dif_pos (show (1 : Fin S161x64.rank) ∈ dot_S4000x161_S161x64_S4000x64_1_0_0_1_n_n.rhsNonContracting by decide)]
  rfl

/-- Entry (p, q) of the product: the sum over the 161 contracted columns of x's row p against w's column q. -/
theorem mm_S4000x161_S161x64 (x : FVec Ideal S4000x161 .f32) (w : FVec Ideal S161x64 .f32) (p : Fin 4000) (q : Fin 64) :
    matmul dot_S4000x161_S161x64_S4000x64_1_0_0_1_n_n none x w (constant S4000x64 .f32 0x00000000#32) (ix2 p q)
      = ∑ k : Fin 161, x (ix2 p k) * w (ix2 k q) := by
  simp only [matmul]
  rw [Ideal.matmul_constant_zero_apply, ← Equiv.sum_comp (contrEquiv1 dot_S4000x161_S161x64_S4000x64_1_0_0_1_n_n 161 rfl rfl).symm]
  refine Finset.sum_congr rfl fun k _ => ?_
  have hk := contrEquiv1_symm_val dot_S4000x161_S161x64_S4000x64_1_0_0_1_n_n 161 rfl rfl k
  have el : dot_S4000x161_S161x64_S4000x64_1_0_0_1_n_n.lhsIdx (ix2 p q) ((contrEquiv1 dot_S4000x161_S161x64_S4000x64_1_0_0_1_n_n 161 rfl rfl).symm k) = ix2 p k := funext fun a => Fin.ext (by
    match a with
    | ⟨0, _⟩ => exact lhs_b_0 _ _
    | ⟨1, _⟩ => exact (lhs_b_1 _ _).trans hk)
  have er : dot_S4000x161_S161x64_S4000x64_1_0_0_1_n_n.rhsIdx (ix2 p q) ((contrEquiv1 dot_S4000x161_S161x64_S4000x64_1_0_0_1_n_n 161 rfl rfl).symm k) = ix2 k q := funext fun a => Fin.ext (by
    match a with
    | ⟨0, _⟩ => exact (rhs_b_0 _ _).trans hk
    | ⟨1, _⟩ => exact rhs_b_1 _ _)
  rw [el, er]

private theorem lhs_c_0 (i : S4000x8.Idx) (q : dot_S4000x17_S17x8_S4000x8_1_0_0_1_n_n.contr.Idx) :
    (dot_S4000x17_S17x8_S4000x8_1_0_0_1_n_n.lhsIdx i q 0).val = (i 0).val := by
  unfold DotDims.lhsIdx
  rw [dif_neg (show ¬(0 : Fin S4000x17.rank) ∈ dot_S4000x17_S17x8_S4000x8_1_0_0_1_n_n.lhsBatch by decide), dif_pos (show (0 : Fin S4000x17.rank) ∈ dot_S4000x17_S17x8_S4000x8_1_0_0_1_n_n.lhsNonContracting by decide)]
  rfl
private theorem lhs_c_1 (i : S4000x8.Idx) (q : dot_S4000x17_S17x8_S4000x8_1_0_0_1_n_n.contr.Idx) :
    (dot_S4000x17_S17x8_S4000x8_1_0_0_1_n_n.lhsIdx i q 1).val = (q ⟨0, by decide⟩).val :=
  dot_S4000x17_S17x8_S4000x8_1_0_0_1_n_n.lhsIdx_val_of_single rfl i q
private theorem rhs_c_0 (i : S4000x8.Idx) (q : dot_S4000x17_S17x8_S4000x8_1_0_0_1_n_n.contr.Idx) :
    (dot_S4000x17_S17x8_S4000x8_1_0_0_1_n_n.rhsIdx i q 0).val = (q ⟨0, by decide⟩).val :=
  dot_S4000x17_S17x8_S4000x8_1_0_0_1_n_n.rhsIdx_val_of_single rfl i q
private theorem rhs_c_1 (i : S4000x8.Idx) (q : dot_S4000x17_S17x8_S4000x8_1_0_0_1_n_n.contr.Idx) :
    (dot_S4000x17_S17x8_S4000x8_1_0_0_1_n_n.rhsIdx i q 1).val = (i 1).val := by
  unfold DotDims.rhsIdx
  rw [dif_neg (show ¬(1 : Fin S17x8.rank) ∈ dot_S4000x17_S17x8_S4000x8_1_0_0_1_n_n.rhsBatch by decide), dif_pos (show (1 : Fin S17x8.rank) ∈ dot_S4000x17_S17x8_S4000x8_1_0_0_1_n_n.rhsNonContracting by decide)]
  rfl

/-- Entry (p, q) of the product: the sum over the 17 contracted columns of x's row p against w's column q. -/
theorem mm_S4000x17_S17x8 (x : FVec Ideal S4000x17 .f32) (w : FVec Ideal S17x8 .f32) (p : Fin 4000) (q : Fin 8) :
    matmul dot_S4000x17_S17x8_S4000x8_1_0_0_1_n_n none x w (constant S4000x8 .f32 0x00000000#32) (ix2 p q)
      = ∑ k : Fin 17, x (ix2 p k) * w (ix2 k q) := by
  simp only [matmul]
  rw [Ideal.matmul_constant_zero_apply, ← Equiv.sum_comp (contrEquiv1 dot_S4000x17_S17x8_S4000x8_1_0_0_1_n_n 17 rfl rfl).symm]
  refine Finset.sum_congr rfl fun k _ => ?_
  have hk := contrEquiv1_symm_val dot_S4000x17_S17x8_S4000x8_1_0_0_1_n_n 17 rfl rfl k
  have el : dot_S4000x17_S17x8_S4000x8_1_0_0_1_n_n.lhsIdx (ix2 p q) ((contrEquiv1 dot_S4000x17_S17x8_S4000x8_1_0_0_1_n_n 17 rfl rfl).symm k) = ix2 p k := funext fun a => Fin.ext (by
    match a with
    | ⟨0, _⟩ => exact lhs_c_0 _ _
    | ⟨1, _⟩ => exact (lhs_c_1 _ _).trans hk)
  have er : dot_S4000x17_S17x8_S4000x8_1_0_0_1_n_n.rhsIdx (ix2 p q) ((contrEquiv1 dot_S4000x17_S17x8_S4000x8_1_0_0_1_n_n 17 rfl rfl).symm k) = ix2 k q := funext fun a => Fin.ext (by
    match a with
    | ⟨0, _⟩ => exact (rhs_c_0 _ _).trans hk
    | ⟨1, _⟩ => exact rhs_c_1 _ _)
  rw [el, er]

private theorem lhs_d_0 (i : S4000x8.Idx) (q : dot_S4000x64_S64x8_S4000x8_1_0_0_1_n_n.contr.Idx) :
    (dot_S4000x64_S64x8_S4000x8_1_0_0_1_n_n.lhsIdx i q 0).val = (i 0).val := by
  unfold DotDims.lhsIdx
  rw [dif_neg (show ¬(0 : Fin S4000x64.rank) ∈ dot_S4000x64_S64x8_S4000x8_1_0_0_1_n_n.lhsBatch by decide), dif_pos (show (0 : Fin S4000x64.rank) ∈ dot_S4000x64_S64x8_S4000x8_1_0_0_1_n_n.lhsNonContracting by decide)]
  rfl
private theorem lhs_d_1 (i : S4000x8.Idx) (q : dot_S4000x64_S64x8_S4000x8_1_0_0_1_n_n.contr.Idx) :
    (dot_S4000x64_S64x8_S4000x8_1_0_0_1_n_n.lhsIdx i q 1).val = (q ⟨0, by decide⟩).val :=
  dot_S4000x64_S64x8_S4000x8_1_0_0_1_n_n.lhsIdx_val_of_single rfl i q
private theorem rhs_d_0 (i : S4000x8.Idx) (q : dot_S4000x64_S64x8_S4000x8_1_0_0_1_n_n.contr.Idx) :
    (dot_S4000x64_S64x8_S4000x8_1_0_0_1_n_n.rhsIdx i q 0).val = (q ⟨0, by decide⟩).val :=
  dot_S4000x64_S64x8_S4000x8_1_0_0_1_n_n.rhsIdx_val_of_single rfl i q
private theorem rhs_d_1 (i : S4000x8.Idx) (q : dot_S4000x64_S64x8_S4000x8_1_0_0_1_n_n.contr.Idx) :
    (dot_S4000x64_S64x8_S4000x8_1_0_0_1_n_n.rhsIdx i q 1).val = (i 1).val := by
  unfold DotDims.rhsIdx
  rw [dif_neg (show ¬(1 : Fin S64x8.rank) ∈ dot_S4000x64_S64x8_S4000x8_1_0_0_1_n_n.rhsBatch by decide), dif_pos (show (1 : Fin S64x8.rank) ∈ dot_S4000x64_S64x8_S4000x8_1_0_0_1_n_n.rhsNonContracting by decide)]
  rfl

/-- Entry (p, q) of the product: the sum over the 64 contracted columns of x's row p against w's column q. -/
theorem mm_S4000x64_S64x8 (x : FVec Ideal S4000x64 .f32) (w : FVec Ideal S64x8 .f32) (p : Fin 4000) (q : Fin 8) :
    matmul dot_S4000x64_S64x8_S4000x8_1_0_0_1_n_n none x w (constant S4000x8 .f32 0x00000000#32) (ix2 p q)
      = ∑ k : Fin 64, x (ix2 p k) * w (ix2 k q) := by
  simp only [matmul]
  rw [Ideal.matmul_constant_zero_apply, ← Equiv.sum_comp (contrEquiv1 dot_S4000x64_S64x8_S4000x8_1_0_0_1_n_n 64 rfl rfl).symm]
  refine Finset.sum_congr rfl fun k _ => ?_
  have hk := contrEquiv1_symm_val dot_S4000x64_S64x8_S4000x8_1_0_0_1_n_n 64 rfl rfl k
  have el : dot_S4000x64_S64x8_S4000x8_1_0_0_1_n_n.lhsIdx (ix2 p q) ((contrEquiv1 dot_S4000x64_S64x8_S4000x8_1_0_0_1_n_n 64 rfl rfl).symm k) = ix2 p k := funext fun a => Fin.ext (by
    match a with
    | ⟨0, _⟩ => exact lhs_d_0 _ _
    | ⟨1, _⟩ => exact (lhs_d_1 _ _).trans hk)
  have er : dot_S4000x64_S64x8_S4000x8_1_0_0_1_n_n.rhsIdx (ix2 p q) ((contrEquiv1 dot_S4000x64_S64x8_S4000x8_1_0_0_1_n_n 64 rfl rfl).symm k) = ix2 k q := funext fun a => Fin.ext (by
    match a with
    | ⟨0, _⟩ => exact (rhs_d_0 _ _).trans hk
    | ⟨1, _⟩ => exact rhs_d_1 _ _)
  rw [el, er]

private theorem lhs_e_0 (i : S4000x8.Idx) (q : dot_S4000x8_S8x8_S4000x8_1_0_0_1_n_n.contr.Idx) :
    (dot_S4000x8_S8x8_S4000x8_1_0_0_1_n_n.lhsIdx i q 0).val = (i 0).val := by
  unfold DotDims.lhsIdx
  rw [dif_neg (show ¬(0 : Fin S4000x8.rank) ∈ dot_S4000x8_S8x8_S4000x8_1_0_0_1_n_n.lhsBatch by decide), dif_pos (show (0 : Fin S4000x8.rank) ∈ dot_S4000x8_S8x8_S4000x8_1_0_0_1_n_n.lhsNonContracting by decide)]
  rfl
private theorem lhs_e_1 (i : S4000x8.Idx) (q : dot_S4000x8_S8x8_S4000x8_1_0_0_1_n_n.contr.Idx) :
    (dot_S4000x8_S8x8_S4000x8_1_0_0_1_n_n.lhsIdx i q 1).val = (q ⟨0, by decide⟩).val :=
  dot_S4000x8_S8x8_S4000x8_1_0_0_1_n_n.lhsIdx_val_of_single rfl i q
private theorem rhs_e_0 (i : S4000x8.Idx) (q : dot_S4000x8_S8x8_S4000x8_1_0_0_1_n_n.contr.Idx) :
    (dot_S4000x8_S8x8_S4000x8_1_0_0_1_n_n.rhsIdx i q 0).val = (q ⟨0, by decide⟩).val :=
  dot_S4000x8_S8x8_S4000x8_1_0_0_1_n_n.rhsIdx_val_of_single rfl i q
private theorem rhs_e_1 (i : S4000x8.Idx) (q : dot_S4000x8_S8x8_S4000x8_1_0_0_1_n_n.contr.Idx) :
    (dot_S4000x8_S8x8_S4000x8_1_0_0_1_n_n.rhsIdx i q 1).val = (i 1).val := by
  unfold DotDims.rhsIdx
  rw [dif_neg (show ¬(1 : Fin S8x8.rank) ∈ dot_S4000x8_S8x8_S4000x8_1_0_0_1_n_n.rhsBatch by decide), dif_pos (show (1 : Fin S8x8.rank) ∈ dot_S4000x8_S8x8_S4000x8_1_0_0_1_n_n.rhsNonContracting by decide)]
  rfl

/-- Entry (p, q) of the product: the sum over the 8 contracted columns of x's row p against w's column q. -/
theorem mm_S4000x8_S8x8 (x : FVec Ideal S4000x8 .f32) (w : FVec Ideal S8x8 .f32) (p : Fin 4000) (q : Fin 8) :
    matmul dot_S4000x8_S8x8_S4000x8_1_0_0_1_n_n none x w (constant S4000x8 .f32 0x00000000#32) (ix2 p q)
      = ∑ k : Fin 8, x (ix2 p k) * w (ix2 k q) := by
  simp only [matmul]
  rw [Ideal.matmul_constant_zero_apply, ← Equiv.sum_comp (contrEquiv1 dot_S4000x8_S8x8_S4000x8_1_0_0_1_n_n 8 rfl rfl).symm]
  refine Finset.sum_congr rfl fun k _ => ?_
  have hk := contrEquiv1_symm_val dot_S4000x8_S8x8_S4000x8_1_0_0_1_n_n 8 rfl rfl k
  have el : dot_S4000x8_S8x8_S4000x8_1_0_0_1_n_n.lhsIdx (ix2 p q) ((contrEquiv1 dot_S4000x8_S8x8_S4000x8_1_0_0_1_n_n 8 rfl rfl).symm k) = ix2 p k := funext fun a => Fin.ext (by
    match a with
    | ⟨0, _⟩ => exact lhs_e_0 _ _
    | ⟨1, _⟩ => exact (lhs_e_1 _ _).trans hk)
  have er : dot_S4000x8_S8x8_S4000x8_1_0_0_1_n_n.rhsIdx (ix2 p q) ((contrEquiv1 dot_S4000x8_S8x8_S4000x8_1_0_0_1_n_n 8 rfl rfl).symm k) = ix2 k q := funext fun a => Fin.ext (by
    match a with
    | ⟨0, _⟩ => exact (rhs_e_0 _ _).trans hk
    | ⟨1, _⟩ => exact rhs_e_1 _ _)
  rw [el, er]

private theorem lhs_f_0 (i : S4000x64.Idx) (q : dot_S4000x72_S72x64_S4000x64_1_0_0_1_n_n.contr.Idx) :
    (dot_S4000x72_S72x64_S4000x64_1_0_0_1_n_n.lhsIdx i q 0).val = (i 0).val := by
  unfold DotDims.lhsIdx
  rw [dif_neg (show ¬(0 : Fin S4000x72.rank) ∈ dot_S4000x72_S72x64_S4000x64_1_0_0_1_n_n.lhsBatch by decide), dif_pos (show (0 : Fin S4000x72.rank) ∈ dot_S4000x72_S72x64_S4000x64_1_0_0_1_n_n.lhsNonContracting by decide)]
  rfl
private theorem lhs_f_1 (i : S4000x64.Idx) (q : dot_S4000x72_S72x64_S4000x64_1_0_0_1_n_n.contr.Idx) :
    (dot_S4000x72_S72x64_S4000x64_1_0_0_1_n_n.lhsIdx i q 1).val = (q ⟨0, by decide⟩).val :=
  dot_S4000x72_S72x64_S4000x64_1_0_0_1_n_n.lhsIdx_val_of_single rfl i q
private theorem rhs_f_0 (i : S4000x64.Idx) (q : dot_S4000x72_S72x64_S4000x64_1_0_0_1_n_n.contr.Idx) :
    (dot_S4000x72_S72x64_S4000x64_1_0_0_1_n_n.rhsIdx i q 0).val = (q ⟨0, by decide⟩).val :=
  dot_S4000x72_S72x64_S4000x64_1_0_0_1_n_n.rhsIdx_val_of_single rfl i q
private theorem rhs_f_1 (i : S4000x64.Idx) (q : dot_S4000x72_S72x64_S4000x64_1_0_0_1_n_n.contr.Idx) :
    (dot_S4000x72_S72x64_S4000x64_1_0_0_1_n_n.rhsIdx i q 1).val = (i 1).val := by
  unfold DotDims.rhsIdx
  rw [dif_neg (show ¬(1 : Fin S72x64.rank) ∈ dot_S4000x72_S72x64_S4000x64_1_0_0_1_n_n.rhsBatch by decide), dif_pos (show (1 : Fin S72x64.rank) ∈ dot_S4000x72_S72x64_S4000x64_1_0_0_1_n_n.rhsNonContracting by decide)]
  rfl

/-- Entry (p, q) of the product: the sum over the 72 contracted columns of x's row p against w's column q. -/
theorem mm_S4000x72_S72x64 (x : FVec Ideal S4000x72 .f32) (w : FVec Ideal S72x64 .f32) (p : Fin 4000) (q : Fin 64) :
    matmul dot_S4000x72_S72x64_S4000x64_1_0_0_1_n_n none x w (constant S4000x64 .f32 0x00000000#32) (ix2 p q)
      = ∑ k : Fin 72, x (ix2 p k) * w (ix2 k q) := by
  simp only [matmul]
  rw [Ideal.matmul_constant_zero_apply, ← Equiv.sum_comp (contrEquiv1 dot_S4000x72_S72x64_S4000x64_1_0_0_1_n_n 72 rfl rfl).symm]
  refine Finset.sum_congr rfl fun k _ => ?_
  have hk := contrEquiv1_symm_val dot_S4000x72_S72x64_S4000x64_1_0_0_1_n_n 72 rfl rfl k
  have el : dot_S4000x72_S72x64_S4000x64_1_0_0_1_n_n.lhsIdx (ix2 p q) ((contrEquiv1 dot_S4000x72_S72x64_S4000x64_1_0_0_1_n_n 72 rfl rfl).symm k) = ix2 p k := funext fun a => Fin.ext (by
    match a with
    | ⟨0, _⟩ => exact lhs_f_0 _ _
    | ⟨1, _⟩ => exact (lhs_f_1 _ _).trans hk)
  have er : dot_S4000x72_S72x64_S4000x64_1_0_0_1_n_n.rhsIdx (ix2 p q) ((contrEquiv1 dot_S4000x72_S72x64_S4000x64_1_0_0_1_n_n 72 rfl rfl).symm k) = ix2 k q := funext fun a => Fin.ext (by
    match a with
    | ⟨0, _⟩ => exact (rhs_f_0 _ _).trans hk
    | ⟨1, _⟩ => exact rhs_f_1 _ _)
  rw [el, er]

/-! ## Column slices -/
/-- Column d of the slice is column 0 + d of the operand, on the same row. -/
theorem slice51_0 (x : FVec Ideal S4000x51 .f32) (p : Fin 4000) (d : Fin 17) :
    extractStridedSlice S4000x17 ![0, 0] x slices_S4000x51_o0_0_S4000x17 (ix2 p d) = x (ix2 p (⟨0 + d.val, by omega⟩ : Fin 51)) := by
  refine extractStridedSlice_apply _ x _ _ _ fun a => ?_
  match a with
  | ⟨0, _⟩ => exact (Nat.zero_add _).symm
  | ⟨1, _⟩ => rfl

/-- Column d of the slice is column 17 + d of the operand, on the same row. -/
theorem slice51_17 (x : FVec Ideal S4000x51 .f32) (p : Fin 4000) (d : Fin 17) :
    extractStridedSlice S4000x17 ![0, 17] x slices_S4000x51_o0_17_S4000x17 (ix2 p d) = x (ix2 p (⟨17 + d.val, by omega⟩ : Fin 51)) := by
  refine extractStridedSlice_apply _ x _ _ _ fun a => ?_
  match a with
  | ⟨0, _⟩ => exact (Nat.zero_add _).symm
  | ⟨1, _⟩ => rfl

/-- Column d of the slice is column 34 + d of the operand, on the same row. -/
theorem slice51_34 (x : FVec Ideal S4000x51 .f32) (p : Fin 4000) (d : Fin 17) :
    extractStridedSlice S4000x17 ![0, 34] x slices_S4000x51_o0_34_S4000x17 (ix2 p d) = x (ix2 p (⟨34 + d.val, by omega⟩ : Fin 51)) := by
  refine extractStridedSlice_apply _ x _ _ _ fun a => ?_
  match a with
  | ⟨0, _⟩ => exact (Nat.zero_add _).symm
  | ⟨1, _⟩ => rfl

/-- Column d of the slice is column 0 + d of the operand, on the same row. -/
theorem slice24_0 (x : FVec Ideal S4000x24 .f32) (p : Fin 4000) (d : Fin 8) :
    extractStridedSlice S4000x8 ![0, 0] x slices_S4000x24_o0_0_S4000x8 (ix2 p d) = x (ix2 p (⟨0 + d.val, by omega⟩ : Fin 24)) := by
  refine extractStridedSlice_apply _ x _ _ _ fun a => ?_
  match a with
  | ⟨0, _⟩ => exact (Nat.zero_add _).symm
  | ⟨1, _⟩ => rfl

/-- Column d of the slice is column 8 + d of the operand, on the same row. -/
theorem slice24_8 (x : FVec Ideal S4000x24 .f32) (p : Fin 4000) (d : Fin 8) :
    extractStridedSlice S4000x8 ![0, 8] x slices_S4000x24_o0_8_S4000x8 (ix2 p d) = x (ix2 p (⟨8 + d.val, by omega⟩ : Fin 24)) := by
  refine extractStridedSlice_apply _ x _ _ _ fun a => ?_
  match a with
  | ⟨0, _⟩ => exact (Nat.zero_add _).symm
  | ⟨1, _⟩ => rfl

/-- Column d of the slice is column 16 + d of the operand, on the same row. -/
theorem slice24_16 (x : FVec Ideal S4000x24 .f32) (p : Fin 4000) (d : Fin 8) :
    extractStridedSlice S4000x8 ![0, 16] x slices_S4000x24_o0_16_S4000x8 (ix2 p d) = x (ix2 p (⟨16 + d.val, by omega⟩ : Fin 24)) := by
  refine extractStridedSlice_apply _ x _ _ _ fun a => ?_
  match a with
  | ⟨0, _⟩ => exact (Nat.zero_add _).symm
  | ⟨1, _⟩ => rfl

/-! ## Column concatenations -/
/-- Column i of the joined row is column i of the first piece below 144, column i - 144 of the second from there on. -/
theorem cat161 (a : FVec Ideal S4000x144 .f32) (b : FVec Ideal S4000x17 .f32) (p : Fin 4000) (i : Fin 161) :
    concatenate S4000x161 1 [⟨S4000x144, a⟩, ⟨S4000x17, b⟩] concatenates_S4000x144_S4000x17_S4000x161_d1 (ix2 p i)
      = Cert.Gvp.joined (fun j : Fin 144 => a (ix2 p j)) (fun k : Fin 17 => b (ix2 p k)) i := by
  unfold Cert.Gvp.joined
  by_cases hi : i.val < 144
  · rw [dif_pos hi]
    refine concatenate_pair_apply_left 1 a b _ (ix2 p i) rfl (ix2 p ⟨i.val, hi⟩) fun c => ?_
    match c with
    | ⟨0, _⟩ => rfl
    | ⟨1, _⟩ => rfl
  · have hn : i.val - 144 < 17 := by have := i.isLt; omega
    rw [dif_neg hi, dif_pos hn]
    refine concatenate_pair_apply_right 1 a b _ (ix2 p i) rfl rfl (ix2 p ⟨i.val - 144, hn⟩) (fun c hc => ?_) ?_
    · match c with
      | ⟨0, _⟩ => rfl
      | ⟨1, _⟩ => exact absurd rfl hc
    · show (i.val - 144) + 144 = i.val
      omega

/-- Column i of the joined row is column i of the first piece below 64, column i - 64 of the second from there on. -/
theorem cat72 (a : FVec Ideal S4000x64 .f32) (b : FVec Ideal S4000x8 .f32) (p : Fin 4000) (i : Fin 72) :
    concatenate S4000x72 1 [⟨S4000x64, a⟩, ⟨S4000x8, b⟩] concatenates_S4000x64_S4000x8_S4000x72_d1 (ix2 p i)
      = Cert.Gvp.joined (fun j : Fin 64 => a (ix2 p j)) (fun k : Fin 8 => b (ix2 p k)) i := by
  unfold Cert.Gvp.joined
  by_cases hi : i.val < 64
  · rw [dif_pos hi]
    refine concatenate_pair_apply_left 1 a b _ (ix2 p i) rfl (ix2 p ⟨i.val, hi⟩) fun c => ?_
    match c with
    | ⟨0, _⟩ => rfl
    | ⟨1, _⟩ => rfl
  · have hn : i.val - 64 < 8 := by have := i.isLt; omega
    rw [dif_neg hi, dif_pos hn]
    refine concatenate_pair_apply_right 1 a b _ (ix2 p i) rfl rfl (ix2 p ⟨i.val - 64, hn⟩) (fun c hc => ?_) ?_
    · match c with
      | ⟨0, _⟩ => rfl
      | ⟨1, _⟩ => exact absurd rfl hc
    · show (i.val - 64) + 64 = i.val
      omega

/-- Column 8 r + o of the three-piece row is column o of piece r. -/
theorem cat24 (a b c : FVec Ideal S4000x8 .f32) (p : Fin 4000) (r : Fin 3) (o : Fin 8) :
    concatenate S4000x24 1 [⟨S4000x8, a⟩, ⟨S4000x8, b⟩, ⟨S4000x8, c⟩] concatenates_S4000x8_S4000x8_S4000x8_S4000x24_d1 (ix2 p (⟨8 * r.val + o.val, by omega⟩ : Fin 24))
      = (![a, b, c] r) (ix2 p o) := by
  have key : ∀ (k : Nat) (hk : k < 3) (x₁ : FVec Ideal S4000x8 .f32)
      (hx : ([⟨S4000x8, a⟩, ⟨S4000x8, b⟩, ⟨S4000x8, c⟩] : List ((s : Shape) × (s.Idx → Elt Ideal .f32)))[k]'hk = ⟨S4000x8, x₁⟩)
      (hlt : 8 * k + o.val < 24),
      concatenate S4000x24 1 [⟨S4000x8, a⟩, ⟨S4000x8, b⟩, ⟨S4000x8, c⟩] concatenates_S4000x8_S4000x8_S4000x8_S4000x24_d1 (ix2 p (⟨8 * k + o.val, hlt⟩ : Fin 24))
        = x₁ (ix2 p o) := by
    intro k hk x₁ hx hlt
    refine concatenate_apply_piece 1 [⟨S4000x8, a⟩, ⟨S4000x8, b⟩, ⟨S4000x8, c⟩] concatenates_S4000x8_S4000x8_S4000x8_S4000x24_d1 _ k hk S4000x8 x₁ hx rfl (8 * k) ?_ (ix2 p o) (fun c hc => ?_) rfl
    · match k, hk with
      | 0, _ => rfl
      | 1, _ => rfl
      | 2, _ => rfl
    · match c with
      | ⟨0, _⟩ => rfl
      | ⟨1, _⟩ => exact absurd rfl hc
  match r with
  | ⟨0, _⟩ => exact key 0 (by omega) a rfl _
  | ⟨1, _⟩ => exact key 1 (by omega) b rfl _
  | ⟨2, _⟩ => exact key 2 (by omega) c rfl _

/-! ## Row broadcasts and identity casts -/
/-- Every row of the broadcast is the operand's single row. -/
theorem bcast64 (v : FVec Ideal S1x64 .f32) (p : Fin 4000) (j : Fin 64) :
    broadcastTo S4000x64 v broadcasts_S1x64_S4000x64 (ix2 p j) = v (ix2 (0 : Fin 1) j) := by
  refine broadcastTo_apply v _ _ _ fun a => ?_
  match a with
  | ⟨0, _⟩ => rfl
  | ⟨1, _⟩ => rfl

/-- Every row of the broadcast is the operand's single row. -/
theorem bcast8 (v : FVec Ideal S1x8 .f32) (p : Fin 4000) (j : Fin 8) :
    broadcastTo S4000x8 v broadcasts_S1x8_S4000x8 (ix2 p j) = v (ix2 (0 : Fin 1) j) := by
  refine broadcastTo_apply v _ _ _ fun a => ?_
  match a with
  | ⟨0, _⟩ => rfl
  | ⟨1, _⟩ => rfl

end Cert.KernelIdeal.VL

end
-- ==== Proof.KBodyVal.lean ====
/-
  The kernel body's stored blocks, read at an index, are the three-layer network of `Cert.Gvp` applied to that edge's
  message rows: row `p` of the scalar block is `netS` of row `p` of the two message blocks, and entry `8·r + o` of row
  `p` of the vector block is `netV … r o`.
-/
import proofs.«428393_j44160853737513_2_alg».proof.Proof.Spec
import proofs.«428393_j44160853737513_2_alg».proof.Proof.KBody
import proofs.«428393_j44160853737513_2_alg».proof.Proof.VecLemmas
import Idealize.ShloMosaic.PureOps.Ideal.Laws

noncomputable section

namespace Cert.KernelIdeal.Fr

open Cert.KernelIdeal Cert.KernelIdeal.Gen
open Idealize.ShloMosaic Idealize.ShloMosaic.ValueIdx

/-- Layer weights read off the body's weight blocks (a bias block is one row). -/
def W1 (I : Ins Ideal) : Cert.Gvp.Wts 17 17 161 64 8 where
  Wh d k := I.x2 (ix2 d k)
  Ws i j := I.x3 (ix2 i j)
  bs j := I.x4 (ix2 (0 : Fin 1) j)
  Wmu k o := I.x5 (ix2 k o)
  Wg j o := I.x6 (ix2 j o)
  bg o := I.x7 (ix2 (0 : Fin 1) o)
def W2 (I : Ins Ideal) : Cert.Gvp.Wts 8 8 72 64 8 where
  Wh d k := I.x8 (ix2 d k)
  Ws i j := I.x9 (ix2 i j)
  bs j := I.x10 (ix2 (0 : Fin 1) j)
  Wmu k o := I.x11 (ix2 k o)
  Wg j o := I.x12 (ix2 j o)
  bg o := I.x13 (ix2 (0 : Fin 1) o)
def W3 (I : Ins Ideal) : Cert.Gvp.Wts 8 8 72 64 8 where
  Wh d k := I.x14 (ix2 d k)
  Ws i j := I.x15 (ix2 i j)
  bs j := I.x16 (ix2 (0 : Fin 1) j)
  Wmu k o := I.x17 (ix2 k o)
  Wg j o := I.x18 (ix2 j o)
  bg o := I.x19 (ix2 (0 : Fin 1) o)

/-- Row `p` of the scalar message block. -/
def bs0 (I : Ins Ideal) (p : Fin 4000) : Fin 144 → EReal := fun j => I.x0 (ix2 p j)
/-- Row `p` of the vector message block: spatial row `r` is the 17 entries from `17·r`. -/
def bv0 (I : Ins Ideal) (p : Fin 4000) : Fin 3 → Fin 17 → EReal := fun r d => I.x1 (ix2 p (⟨17 * r.val + d.val, by omega⟩ : Fin 51))

open Cert.KernelIdeal.VL
open Cert.Gvp (hid nrm joined sPre sRelu gate vMu vOut sq3 eps)

/-! ### The body's repeated vector terms, read at an index

  Each term below is one stretch of the body's arithmetic over arbitrary input vectors; the layers instantiate them. -/

private theorem sqrt_at {s : Shape} (x : FVec Ideal s .f32) (i : s.Idx) : sqrt x i = Ideal.sqrt (x i) := rfl
private theorem logistic_at {s : Shape} (x : FVec Ideal s .f32) (i : s.Idx) : logistic x i = Ideal.logistic (x i) := rfl

/-- Two joined rows agree when their two parts agree entry by entry. -/
private theorem joined_congr {ds h K : Nat} {s s' : Fin ds → EReal} {n n' : Fin h → EReal}
    (hs : ∀ j, s j = s' j) (hn : ∀ k, n k = n' k) (i : Fin K) : joined s n i = joined s' n' i := by
  have e1 : s = s' := funext hs
  have e2 : n = n' := funext hn
  subst e1; subst e2; rfl

/-- The gate of the eight output channels: the logistic of (scalar row · gate weights + gate bias). -/
private def gateV (s : FVec Ideal S4000x64 .f32) (wg : FVec Ideal S64x8 .f32) (bg : FVec Ideal S1x8 .f32) : FVec Ideal S4000x8 .f32 :=
  logistic (addf (matmul dot_S4000x64_S64x8_S4000x8_1_0_0_1_n_n none s wg (constant S4000x8 .f32 0x00000000#32))
    (broadcastTo S4000x8 bg broadcasts_S1x8_S4000x8))

private theorem gateV_apply (s : FVec Ideal S4000x64 .f32) (wg : FVec Ideal S64x8 .f32) (bg : FVec Ideal S1x8 .f32)
    (p : Fin 4000) (o : Fin 8) :
    gateV s wg bg (ix2 p o) = Ideal.logistic ((∑ j : Fin 64, s (ix2 p j) * wg (ix2 j o)) + bg (ix2 (0 : Fin 1) o)) := by
  unfold gateV
  rw [logistic_at, addf_apply, mm_S4000x64_S64x8, bcast8]

/-- The three projected rows, each multiplied by the gate, side by side: entry `8·r + o` is row `r`'s channel `o` gated. -/
private def gatedV (s : FVec Ideal S4000x64 .f32) (wg : FVec Ideal S64x8 .f32) (bg : FVec Ideal S1x8 .f32)
    (a b c : FVec Ideal S4000x8 .f32) : FVec Ideal S4000x24 .f32 :=
  concatenate S4000x24 1 [⟨S4000x8, mulf a (gateV s wg bg)⟩, ⟨S4000x8, mulf b (gateV s wg bg)⟩, ⟨S4000x8, mulf c (gateV s wg bg)⟩]
    concatenates_S4000x8_S4000x8_S4000x8_S4000x24_d1

private theorem gatedV_apply (s : FVec Ideal S4000x64 .f32) (wg : FVec Ideal S64x8 .f32) (bg : FVec Ideal S1x8 .f32)
    (a b c : FVec Ideal S4000x8 .f32) (p : Fin 4000) (r : Fin 3) (o : Fin 8) :
    gatedV s wg bg a b c (ix2 p (⟨8 * r.val + o.val, by omega⟩ : Fin 24))
      = (![a, b, c] r) (ix2 p o) * Ideal.logistic ((∑ j : Fin 64, s (ix2 p j) * wg (ix2 j o)) + bg (ix2 (0 : Fin 1) o)) := by
  unfold gatedV
  rw [cat24, ← gateV_apply]
  fin_cases r <;> rfl

/-- The hidden channels of spatial row 0, 1, 2 of a 3·8-wide block: its 8-wide slice times the hidden weights. -/
private def hid8_0 (x : FVec Ideal S4000x24 .f32) (w : FVec Ideal S8x8 .f32) : FVec Ideal S4000x8 .f32 :=
  matmul dot_S4000x8_S8x8_S4000x8_1_0_0_1_n_n none (extractStridedSlice S4000x8 ![0, 0] x slices_S4000x24_o0_0_S4000x8) w
    (constant S4000x8 .f32 0x00000000#32)
private def hid8_1 (x : FVec Ideal S4000x24 .f32) (w : FVec Ideal S8x8 .f32) : FVec Ideal S4000x8 .f32 :=
  matmul dot_S4000x8_S8x8_S4000x8_1_0_0_1_n_n none (extractStridedSlice S4000x8 ![0, 8] x slices_S4000x24_o0_8_S4000x8) w
    (constant S4000x8 .f32 0x00000000#32)
private def hid8_2 (x : FVec Ideal S4000x24 .f32) (w : FVec Ideal S8x8 .f32) : FVec Ideal S4000x8 .f32 :=
  matmul dot_S4000x8_S8x8_S4000x8_1_0_0_1_n_n none (extractStridedSlice S4000x8 ![0, 16] x slices_S4000x24_o0_16_S4000x8) w
    (constant S4000x8 .f32 0x00000000#32)

section Hid8
variable (x : FVec Ideal S4000x24 .f32) (w : FVec Ideal S8x8 .f32) (p : Fin 4000) (vin : Fin 3 → Fin 8 → EReal)
  (hx : ∀ (r : Fin 3) (d : Fin 8), x (ix2 p (⟨8 * r.val + d.val, by omega⟩ : Fin 24)) = vin r d)
include hx

private theorem hid8_0_apply (k : Fin 8) : hid8_0 x w (ix2 p k) = ∑ d : Fin 8, vin 0 d * w (ix2 d k) := by
  unfold hid8_0
  rw [mm_S4000x8_S8x8]
  refine Finset.sum_congr rfl fun d _ => ?_
  rw [slice24_0, ← hx 0 d]
  exact congrArg (fun q : Fin 24 => x (ix2 p q) * w (ix2 d k)) (Fin.ext (by simp))

private theorem hid8_1_apply (k : Fin 8) : hid8_1 x w (ix2 p k) = ∑ d : Fin 8, vin 1 d * w (ix2 d k) := by
  unfold hid8_1
  rw [mm_S4000x8_S8x8]
  refine Finset.sum_congr rfl fun d _ => ?_
  rw [slice24_8, ← hx 1 d]
  exact congrArg (fun q : Fin 24 => x (ix2 p q) * w (ix2 d k)) (Fin.ext (by simp))

private theorem hid8_2_apply (k : Fin 8) : hid8_2 x w (ix2 p k) = ∑ d : Fin 8, vin 2 d * w (ix2 d k) := by
  unfold hid8_2
  rw [mm_S4000x8_S8x8]
  refine Finset.sum_congr rfl fun d _ => ?_
  rw [slice24_16, ← hx 2 d]
  exact congrArg (fun q : Fin 24 => x (ix2 p q) * w (ix2 d k)) (Fin.ext (by simp))

end Hid8

/-- The scalar output of an 8-channel layer before the rectifier: the rectified incoming scalars joined with the hidden
    norms, times the scalar weights, plus the scalar bias. -/
private def sPre8 (s : FVec Ideal S4000x64 .f32) (h0 h1 h2 : FVec Ideal S4000x8 .f32) (ws : FVec Ideal S72x64 .f32)
    (b : FVec Ideal S1x64 .f32) : FVec Ideal S4000x64 .f32 :=
  addf (matmul dot_S4000x72_S72x64_S4000x64_1_0_0_1_n_n none
      (concatenate S4000x72 1
        [⟨S4000x64, maximumf s (broadcast S4000x64 (Scalar.ofBits .f32 0x00000000#32))⟩,
         ⟨S4000x8, sqrt (addf (addf (addf (mulf h0 h0) (mulf h1 h1)) (mulf h2 h2)) (broadcast S4000x8 (Scalar.ofBits .f32 0x322BCC77#32)))⟩]
        concatenates_S4000x64_S4000x8_S4000x72_d1)
      ws (constant S4000x64 .f32 0x00000000#32))
    (broadcastTo S4000x64 (shapeCast S1x64 b shapeCasts_S1x64_S1x64) broadcasts_S1x64_S4000x64)

private theorem sPre8_apply (s : FVec Ideal S4000x64 .f32) (h0 h1 h2 : FVec Ideal S4000x8 .f32) (ws : FVec Ideal S72x64 .f32)
    (b : FVec Ideal S1x64 .f32) (p : Fin 4000) (j : Fin 64) :
    sPre8 s h0 h1 h2 ws b (ix2 p j)
      = (∑ i : Fin 72, joined (fun j : Fin 64 => max (s (ix2 p j)) 0)
            (fun k : Fin 8 => Ideal.sqrt (((h0 (ix2 p k) * h0 (ix2 p k) + h1 (ix2 p k) * h1 (ix2 p k)) + h2 (ix2 p k) * h2 (ix2 p k)) + eps)) i
          * ws (ix2 i j)) + b (ix2 (0 : Fin 1) j) := by
  unfold sPre8
  rw [addf_apply, mm_S4000x72_S72x64, bcast64, shapeCast_self]
  refine congrArg (· + b (ix2 (0 : Fin 1) j)) (Finset.sum_congr rfl fun i _ => ?_)
  rw [cat72]
  refine congrArg (· * ws (ix2 i j)) (joined_congr (fun j => ?_) (fun k => rfl) i)
  rw [maximumf_apply, broadcast_apply]
  exact congrArg (max (s (ix2 p j))) Ideal.ofBits_zero_f32

/-! ### Layer 1 -/

/-- The widened vector message block reads as the block itself. -/
private theorem pay2_apply (x : Vec Ideal S4000x51 .bf16) (i : S4000x51.Idx) : k0_pay2 x i = x i := by
  unfold k0_pay2
  exact congrFun (shapeCast_self x shapeCasts_S4000x51_S4000x51) i

private def hid17_0 (x : FVec Ideal S4000x51 .f32) (w : FVec Ideal S17x17 .f32) : FVec Ideal S4000x17 .f32 :=
  matmul dot_S4000x17_S17x17_S4000x17_1_0_0_1_n_n none (extractStridedSlice S4000x17 ![0, 0] x slices_S4000x51_o0_0_S4000x17) w
    (constant S4000x17 .f32 0x00000000#32)
private def hid17_1 (x : FVec Ideal S4000x51 .f32) (w : FVec Ideal S17x17 .f32) : FVec Ideal S4000x17 .f32 :=
  matmul dot_S4000x17_S17x17_S4000x17_1_0_0_1_n_n none (extractStridedSlice S4000x17 ![0, 17] x slices_S4000x51_o0_17_S4000x17) w
    (constant S4000x17 .f32 0x00000000#32)
private def hid17_2 (x : FVec Ideal S4000x51 .f32) (w : FVec Ideal S17x17 .f32) : FVec Ideal S4000x17 .f32 :=
  matmul dot_S4000x17_S17x17_S4000x17_1_0_0_1_n_n none (extractStridedSlice S4000x17 ![0, 34] x slices_S4000x51_o0_34_S4000x17) w
    (constant S4000x17 .f32 0x00000000#32)

section Hid17
variable (x : FVec Ideal S4000x51 .f32) (w : FVec Ideal S17x17 .f32) (p : Fin 4000) (vin : Fin 3 → Fin 17 → EReal)
  (hx : ∀ (r : Fin 3) (d : Fin 17), x (ix2 p (⟨17 * r.val + d.val, by omega⟩ : Fin 51)) = vin r d)
include hx

private theorem hid17_0_apply (k : Fin 17) : hid17_0 x w (ix2 p k) = ∑ d : Fin 17, vin 0 d * w (ix2 d k) := by
  unfold hid17_0
  rw [mm_S4000x17_S17x17]
  refine Finset.sum_congr rfl fun d _ => ?_
  rw [slice51_0, ← hx 0 d]
  exact congrArg (fun q : Fin 51 => x (ix2 p q) * w (ix2 d k)) (Fin.ext (by simp))

private theorem hid17_1_apply (k : Fin 17) : hid17_1 x w (ix2 p k) = ∑ d : Fin 17, vin 1 d * w (ix2 d k) := by
  unfold hid17_1
  rw [mm_S4000x17_S17x17]
  refine Finset.sum_congr rfl fun d _ => ?_
  rw [slice51_17, ← hx 1 d]
  exact congrArg (fun q : Fin 51 => x (ix2 p q) * w (ix2 d k)) (Fin.ext (by simp))

private theorem hid17_2_apply (k : Fin 17) : hid17_2 x w (ix2 p k) = ∑ d : Fin 17, vin 2 d * w (ix2 d k) := by
  unfold hid17_2
  rw [mm_S4000x17_S17x17]
  refine Finset.sum_congr rfl fun d _ => ?_
  rw [slice51_34, ← hx 2 d]
  exact congrArg (fun q : Fin 51 => x (ix2 p q) * w (ix2 d k)) (Fin.ext (by simp))

end Hid17

/-- The first layer's scalar output before the rectifier: the widened scalar message row joined with the hidden norms,
    times the scalar weights, plus the scalar bias. -/
private def sPre17 (x0 : Vec Ideal S4000x144 .bf16) (h0 h1 h2 : FVec Ideal S4000x17 .f32) (ws : FVec Ideal S161x64 .f32)
    (b : FVec Ideal S1x64 .f32) : FVec Ideal S4000x64 .f32 :=
  addf (matmul dot_S4000x161_S161x64_S4000x64_1_0_0_1_n_n none
      (concatenate S4000x161 1
        [⟨S4000x144, extf .f32 (shapeCast S4000x144 x0 shapeCasts_S4000x144_S4000x144) bitsLt_bf16_f32⟩,
         ⟨S4000x17, sqrt (addf (addf (addf (mulf h0 h0) (mulf h1 h1)) (mulf h2 h2)) (broadcast S4000x17 (Scalar.ofBits .f32 0x322BCC77#32)))⟩]
        concatenates_S4000x144_S4000x17_S4000x161_d1)
      ws (constant S4000x64 .f32 0x00000000#32))
    (broadcastTo S4000x64 (shapeCast S1x64 b shapeCasts_S1x64_S1x64) broadcasts_S1x64_S4000x64)

private theorem sPre17_apply (x0 : Vec Ideal S4000x144 .bf16) (h0 h1 h2 : FVec Ideal S4000x17 .f32) (ws : FVec Ideal S161x64 .f32)
    (b : FVec Ideal S1x64 .f32) (p : Fin 4000) (j : Fin 64) :
    sPre17 x0 h0 h1 h2 ws b (ix2 p j)
      = (∑ i : Fin 161, joined (fun j : Fin 144 => (x0 (ix2 p j) : EReal))
            (fun k : Fin 17 => Ideal.sqrt (((h0 (ix2 p k) * h0 (ix2 p k) + h1 (ix2 p k) * h1 (ix2 p k)) + h2 (ix2 p k) * h2 (ix2 p k)) + eps)) i
          * ws (ix2 i j)) + b (ix2 (0 : Fin 1) j) := by
  unfold sPre17
  rw [addf_apply, mm_S4000x161_S161x64, bcast64, shapeCast_self b]
  refine congrArg (· + b (ix2 (0 : Fin 1) j)) (Finset.sum_congr rfl fun i _ => ?_)
  rw [cat161]
  refine congrArg (· * ws (ix2 i j)) (joined_congr (fun j => ?_) (fun k => rfl) i)
  rw [extf_apply, shapeCast_self]

/-! ### The three layers on row `p` -/

section Layers
variable (I : Ins Ideal) (p : Fin 4000)

/-- The scalar and vector rows entering layers 2 and 3. -/
private abbrev S1r : Fin 64 → EReal := sRelu (W1 I) (bs0 I p) (bv0 I p)
private abbrev V1r : Fin 3 → Fin 8 → EReal := vOut (W1 I) (bs0 I p) (bv0 I p)
private abbrev S2r : Fin 64 → EReal := sRelu (W2 I) (S1r I p) (V1r I p)
private abbrev V2r : Fin 3 → Fin 8 → EReal := vOut (W2 I) (S1r I p) (V1r I p)

/-! #### Layer 1 -/

private theorem x1_row (r : Fin 3) (d : Fin 17) :
    k0_pay2 I.x1 (ix2 p (⟨17 * r.val + d.val, by omega⟩ : Fin 51)) = bv0 I p r d := pay2_apply I.x1 _

private theorem h1a_apply (k : Fin 17) : k0_pay4 I.x1 I.x2 (ix2 p k) = hid (W1 I) (bv0 I p) 0 k :=
  hid17_0_apply (k0_pay2 I.x1) I.x2 p (bv0 I p) (x1_row I p) k
private theorem h1b_apply (k : Fin 17) : k0_pay5 I.x1 I.x2 (ix2 p k) = hid (W1 I) (bv0 I p) 1 k :=
  hid17_1_apply (k0_pay2 I.x1) I.x2 p (bv0 I p) (x1_row I p) k
private theorem h1c_apply (k : Fin 17) : k0_pay6 I.x1 I.x2 (ix2 p k) = hid (W1 I) (bv0 I p) 2 k :=
  hid17_2_apply (k0_pay2 I.x1) I.x2 p (bv0 I p) (x1_row I p) k

private theorem s1_apply (j : Fin 64) : s1 I (ix2 p j) = sPre (W1 I) (bs0 I p) (bv0 I p) j := by
  refine (sPre17_apply I.x0 (k0_pay4 I.x1 I.x2) (k0_pay5 I.x1 I.x2) (k0_pay6 I.x1 I.x2) I.x3 I.x4 p j).trans ?_
  simp only [h1a_apply I p, h1b_apply I p, h1c_apply I p]
  rfl

private theorem m1a_apply (o : Fin 8) : m1a I (ix2 p o) = vMu (W1 I) (bv0 I p) 0 o :=
  (mm_S4000x17_S17x8 (k0_pay4 I.x1 I.x2) I.x5 p o).trans
    (Finset.sum_congr rfl fun k _ => congrArg (fun t : EReal => t * (I.x5 (ix2 k o) : EReal)) (h1a_apply I p k))
private theorem m1b_apply (o : Fin 8) : m1b I (ix2 p o) = vMu (W1 I) (bv0 I p) 1 o :=
  (mm_S4000x17_S17x8 (k0_pay5 I.x1 I.x2) I.x5 p o).trans
    (Finset.sum_congr rfl fun k _ => congrArg (fun t : EReal => t * (I.x5 (ix2 k o) : EReal)) (h1b_apply I p k))
private theorem m1c_apply (o : Fin 8) : m1c I (ix2 p o) = vMu (W1 I) (bv0 I p) 2 o :=
  (mm_S4000x17_S17x8 (k0_pay6 I.x1 I.x2) I.x5 p o).trans
    (Finset.sum_congr rfl fun k _ => congrArg (fun t : EReal => t * (I.x5 (ix2 k o) : EReal)) (h1c_apply I p k))

private theorem g1_eq : g1 I = I.x7 := shapeCast_self I.x7 shapeCasts_S1x8_S1x8

/-- The first layer's gated vectors, as the second stretch of the body lays them side by side. -/
private abbrev P11 : FVec Ideal S4000x24 .f32 := k0_pay11 I.x6 (g1 I) (s1 I) (m1a I) (m1b I) (m1c I)

private theorem v1_apply (r : Fin 3) (o : Fin 8) :
    P11 I (ix2 p (⟨8 * r.val + o.val, by omega⟩ : Fin 24)) = V1r I p r o := by
  refine (gatedV_apply (s1 I) I.x6 (g1 I) (m1a I) (m1b I) (m1c I) p r o).trans ?_
  have hm : (![m1a I, m1b I, m1c I] r) (ix2 p o) = vMu (W1 I) (bv0 I p) r o := by
    fin_cases r
    · exact m1a_apply I p o
    · exact m1b_apply I p o
    · exact m1c_apply I p o
  rw [hm, g1_eq]
  simp only [s1_apply I p]
  rfl

/-! #### Layer 2 -/

private abbrev H2a : FVec Ideal S4000x8 .f32 := k0_pay13 I.x6 (g1 I) (s1 I) (m1a I) (m1b I) (m1c I) I.x8
private abbrev H2b : FVec Ideal S4000x8 .f32 := k0_pay14 I.x6 (g1 I) (s1 I) (m1a I) (m1b I) (m1c I) I.x8

private theorem h2a_apply (k : Fin 8) : H2a I (ix2 p k) = hid (W2 I) (V1r I p) 0 k :=
  hid8_0_apply (P11 I) I.x8 p (V1r I p) (v1_apply I p) k
private theorem h2b_apply (k : Fin 8) : H2b I (ix2 p k) = hid (W2 I) (V1r I p) 1 k :=
  hid8_1_apply (P11 I) I.x8 p (V1r I p) (v1_apply I p) k
private theorem h2c_apply (k : Fin 8) : h2c I (ix2 p k) = hid (W2 I) (V1r I p) 2 k :=
  hid8_2_apply (P11 I) I.x8 p (V1r I p) (v1_apply I p) k

private theorem s2_apply (j : Fin 64) : s2 I (ix2 p j) = sPre (W2 I) (S1r I p) (V1r I p) j := by
  refine (sPre8_apply (s1 I) (H2a I) (H2b I) (h2c I) I.x9 I.x10 p j).trans ?_
  simp only [s1_apply I p, h2a_apply I p, h2b_apply I p, h2c_apply I p]
  rfl

private theorem m2a_apply (o : Fin 8) : m2a I (ix2 p o) = vMu (W2 I) (V1r I p) 0 o :=
  (mm_S4000x8_S8x8 (H2a I) I.x11 p o).trans
    (Finset.sum_congr rfl fun k _ => congrArg (fun t : EReal => t * (I.x11 (ix2 k o) : EReal)) (h2a_apply I p k))
private theorem m2b_apply (o : Fin 8) : m2b I (ix2 p o) = vMu (W2 I) (V1r I p) 1 o :=
  (mm_S4000x8_S8x8 (H2b I) I.x11 p o).trans
    (Finset.sum_congr rfl fun k _ => congrArg (fun t : EReal => t * (I.x11 (ix2 k o) : EReal)) (h2b_apply I p k))

/-- The second layer's third projected row, formed at the head of the third stretch. -/
private abbrev M2c : FVec Ideal S4000x8 .f32 :=
  matmul (φ₂ := .f32) dot_S4000x8_S8x8_S4000x8_1_0_0_1_n_n none (h2c I) I.x11 (constant S4000x8 .f32 0x00000000#32)
private theorem m2c_apply (o : Fin 8) : M2c I (ix2 p o) = vMu (W2 I) (V1r I p) 2 o :=
  (mm_S4000x8_S8x8 (h2c I) I.x11 p o).trans
    (Finset.sum_congr rfl fun k _ => congrArg (fun t : EReal => t * (I.x11 (ix2 k o) : EReal)) (h2c_apply I p k))

private theorem g2_eq : g2 I = I.x13 := shapeCast_self I.x13 shapeCasts_S1x8_S1x8

private abbrev P19 : FVec Ideal S4000x24 .f32 :=
  k0_pay19 I.x11 I.x12 (g2 I) (h2c I) (s2 I) (m2a I) (m2b I) (z8 (F := Ideal))

private theorem v2_apply (r : Fin 3) (o : Fin 8) :
    P19 I (ix2 p (⟨8 * r.val + o.val, by omega⟩ : Fin 24)) = V2r I p r o := by
  refine (gatedV_apply (s2 I) I.x12 (g2 I) (m2a I) (m2b I) (M2c I) p r o).trans ?_
  have hm : (![m2a I, m2b I, M2c I] r) (ix2 p o) = vMu (W2 I) (V1r I p) r o := by
    fin_cases r
    · exact m2a_apply I p o
    · exact m2b_apply I p o
    · exact m2c_apply I p o
  rw [hm, g2_eq]
  simp only [s2_apply I p]
  rfl

/-! #### Layer 3 -/

private abbrev H3a : FVec Ideal S4000x8 .f32 :=
  k0_pay21 I.x11 I.x12 (g2 I) (h2c I) (s2 I) (m2a I) (m2b I) (z8 (F := Ideal)) I.x14
private abbrev H3b : FVec Ideal S4000x8 .f32 :=
  k0_pay22 I.x11 I.x12 (g2 I) (h2c I) (s2 I) (m2a I) (m2b I) (z8 (F := Ideal)) I.x14

private theorem h3a_apply (k : Fin 8) : H3a I (ix2 p k) = hid (W3 I) (V2r I p) 0 k :=
  hid8_0_apply (P19 I) I.x14 p (V2r I p) (v2_apply I p) k
private theorem h3b_apply (k : Fin 8) : H3b I (ix2 p k) = hid (W3 I) (V2r I p) 1 k :=
  hid8_1_apply (P19 I) I.x14 p (V2r I p) (v2_apply I p) k
private theorem h3c_apply (k : Fin 8) : h3c I (ix2 p k) = hid (W3 I) (V2r I p) 2 k :=
  hid8_2_apply (P19 I) I.x14 p (V2r I p) (v2_apply I p) k

private theorem s3_apply (j : Fin 64) : s3 I (ix2 p j) = sPre (W3 I) (S2r I p) (V2r I p) j := by
  refine (sPre8_apply (s2 I) (H3a I) (H3b I) (h3c I) I.x15 I.x16 p j).trans ?_
  simp only [s2_apply I p, h3a_apply I p, h3b_apply I p, h3c_apply I p]
  rfl

private theorem m3a_apply (o : Fin 8) : m3a I (ix2 p o) = vMu (W3 I) (V2r I p) 0 o :=
  (mm_S4000x8_S8x8 (H3a I) I.x17 p o).trans
    (Finset.sum_congr rfl fun k _ => congrArg (fun t : EReal => t * (I.x17 (ix2 k o) : EReal)) (h3a_apply I p k))
private theorem m3b_apply (o : Fin 8) : m3b I (ix2 p o) = vMu (W3 I) (V2r I p) 1 o :=
  (mm_S4000x8_S8x8 (H3b I) I.x17 p o).trans
    (Finset.sum_congr rfl fun k _ => congrArg (fun t : EReal => t * (I.x17 (ix2 k o) : EReal)) (h3b_apply I p k))

/-- The third layer's third projected row, formed where the vector block is assembled. -/
private abbrev M3c : FVec Ideal S4000x8 .f32 :=
  matmul (φ₂ := .f32) dot_S4000x8_S8x8_S4000x8_1_0_0_1_n_n none (h3c I) I.x17 (constant S4000x8 .f32 0x00000000#32)
private theorem m3c_apply (o : Fin 8) : M3c I (ix2 p o) = vMu (W3 I) (V2r I p) 2 o :=
  (mm_S4000x8_S8x8 (h3c I) I.x17 p o).trans
    (Finset.sum_congr rfl fun k _ => congrArg (fun t : EReal => t * (I.x17 (ix2 k o) : EReal)) (h3c_apply I p k))

private theorem g3_eq : g3 I = I.x19 := shapeCast_self I.x19 shapeCasts_S1x8_S1x8

private theorem v3_apply (r : Fin 3) (o : Fin 8) :
    bodyV I (ix2 p (⟨8 * r.val + o.val, by omega⟩ : Fin 24)) = vOut (W3 I) (S2r I p) (V2r I p) r o := by
  refine (gatedV_apply (s3 I) I.x18 (g3 I) (m3a I) (m3b I) (M3c I) p r o).trans ?_
  have hm : (![m3a I, m3b I, M3c I] r) (ix2 p o) = vMu (W3 I) (V2r I p) r o := by
    fin_cases r
    · exact m3a_apply I p o
    · exact m3b_apply I p o
    · exact m3c_apply I p o
  rw [hm, g3_eq]
  simp only [s3_apply I p]
  rfl

end Layers

theorem bodyS_apply (I : Ins Ideal) (p : Fin 4000) (j : Fin 64) :
    bodyS I (ix2 p j) = Cert.Gvp.netS (W1 I) (W2 I) (W3 I) (bs0 I p) (bv0 I p) j := by
  exact s3_apply I p j

theorem bodyV_apply (I : Ins Ideal) (p : Fin 4000) (r : Fin 3) (o : Fin 8) :
    bodyV I (ix2 p (⟨8 * r.val + o.val, by omega⟩ : Fin 24)) = Cert.Gvp.netV (W1 I) (W2 I) (W3 I) (bs0 I p) (bv0 I p) r o := by
  exact v3_apply I p r o

end Cert.KernelIdeal.Fr

end
-- ==== Proof.GatherLemmas.lean ====
/-
  A row gather read at an index: `x[idx]` along the leading axis of a table of rows.  Result entry `(e, …)` is the
  table's entry `(n, …)` where `n` is the start index word `idx[e, 0]` read signed and clamped into the table.
-/
import Idealize.ShloMosaic.Lib.ValueIdx
import Idealize.ShloMosaic.PureOps.ShapeOps

noncomputable section

namespace Cert.GatherRows

open Idealize.ShloMosaic Idealize.ShloMosaic.ValueIdx

variable {α : Type}

/-- Rows of a rank-2 table. -/
theorem gather_rows2 {N E C w : Nat} (hN : 0 < N) (G : GatherDims ⟨2, ![N, C]⟩ ⟨2, ![E, 1]⟩ ⟨2, ![E, C]⟩)
    (h1 : G.offsetDims = [1]) (h2 : G.collapsedSliceDims = [0]) (h3 : G.operandBatchingDims = [])
    (h4 : G.startIndicesBatchingDims = []) (h5 : G.startIndexMap = [0]) (h6 : G.indexVectorDim = 1)
    (h7 : G.sliceSizes = ![1, C])
    (x : (⟨2, ![N, C]⟩ : Shape).Idx → α) (idx : IVec ⟨2, ![E, 1]⟩ w) (e : Fin E) (j : Fin C) :
    Host.gather G x idx (ix2 e j) = x (ix2 (⟨min (idx (ix2 e (0 : Fin 1))).toInt.toNat (N - 1), by omega⟩ : Fin N) j) := by
  obtain ⟨od, cd, ob, sb, sm, iv, ss, wf⟩ := G
  simp only at h1 h2 h3 h4 h5 h6 h7
  subst h1 h2 h3 h4 h5 h6 h7
  unfold Host.gather
  congr 1
  funext a
  refine Fin.ext ?_
  match a with
  | ⟨0, _⟩ =>
    -- row axis: the clamped start index word idx[e, 0]; no batch part, no offset part
    show GatherDims.start _ (ix2 e j) idx 0 + GatherDims.batchCoord _ (ix2 e j) 0 + GatherDims.offCoord _ (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    refine congrArg₂ min (congrArg (fun v => (idx v).toInt.toNat) ?_) rfl
    -- the start-indices index read is (e, 0): e from the result's leading coordinate, 0 on the index-vector axis
    funext b
    refine Fin.ext ?_
    match b with
    | ⟨0, _⟩ => rfl
    | ⟨1, _⟩ => rfl
  | ⟨1, _⟩ =>
    -- column axis: start 0, no batch part, the offset is the result's trailing coordinate j
    show GatherDims.start _ (ix2 e j) idx 1 + GatherDims.batchCoord _ (ix2 e j) 1 + GatherDims.offCoord _ (ix2 e j) 1 = _
    rw [GatherDims.batchCoord_eq_zero _ _ _ List.not_mem_nil]
    unfold GatherDims.start
    rw [dif_neg (show ¬ (1 : Fin 2) ∈ [(0 : Fin 2)] from by decide)]
    simp only [Nat.add_zero, Nat.zero_add]
    unfold GatherDims.offCoord
    rw [dif_pos ((GatherDims.mem_sKept _ _).mpr ⟨show ¬ (1 : Fin 2) ∈ [(0 : Fin 2)] from by decide, List.not_mem_nil⟩)]
    rfl

/-- Rows of a rank-3 table. -/
theorem gather_rows3 {N E B C w : Nat} (hN : 0 < N) (G : GatherDims ⟨3, ![N, B, C]⟩ ⟨2, ![E, 1]⟩ ⟨3, ![E, B, C]⟩)
    (h1 : G.offsetDims = [1, 2]) (h2 : G.collapsedSliceDims = [0]) (h3 : G.operandBatchingDims = [])
    (h4 : G.startIndicesBatchingDims = []) (h5 : G.startIndexMap = [0]) (h6 : G.indexVectorDim = 1)
    (h7 : G.sliceSizes = ![1, B, C])
    (x : (⟨3, ![N, B, C]⟩ : Shape).Idx → α) (idx : IVec ⟨2, ![E, 1]⟩ w) (e : Fin E) (r : Fin B) (j : Fin C) :
    Host.gather G x idx (ix3 e r j) = x (ix3 (⟨min (idx (ix2 e (0 : Fin 1))).toInt.toNat (N - 1), by omega⟩ : Fin N) r j) := by
  obtain ⟨od, cd, ob, sb, sm, iv, ss, wf⟩ := G
  simp only at h1 h2 h3 h4 h5 h6 h7
  subst h1 h2 h3 h4 h5 h6 h7
  unfold Host.gather
  congr 1
  funext a
  refine Fin.ext ?_
  match a with
  | ⟨0, _⟩ =>
    -- row axis: the clamped start index word idx[e, 0]; no batch part, no offset part
    show GatherDims.start _ (ix3 e r j) idx 0 + GatherDims.batchCoord _ (ix3 e r j) 0 + GatherDims.offCoord _ (ix3 e r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ [(0 : Fin 3)] from List.mem_singleton.mpr rfl)]
    refine congrArg₂ min (congrArg (fun v => (idx v).toInt.toNat) ?_) rfl
    -- the start-indices index read is (e, 0): e from the result's leading coordinate, 0 on the index-vector axis
    funext b
    refine Fin.ext ?_
    match b with
    | ⟨0, _⟩ => rfl
    | ⟨1, _⟩ => rfl
  | ⟨1, _⟩ =>
    -- middle axis: start 0, no batch part, the offset is the result's middle coordinate r
    show GatherDims.start _ (ix3 e r j) idx 1 + GatherDims.batchCoord _ (ix3 e r j) 1 + GatherDims.offCoord _ (ix3 e r j) 1 = _
    rw [GatherDims.batchCoord_eq_zero _ _ _ List.not_mem_nil]
    unfold GatherDims.start
    rw [dif_neg (show ¬ (1 : Fin 3) ∈ [(0 : Fin 3)] from by decide)]
    simp only [Nat.add_zero, Nat.zero_add]
    unfold GatherDims.offCoord
    rw [dif_pos ((GatherDims.mem_sKept _ _).mpr ⟨show ¬ (1 : Fin 3) ∈ [(0 : Fin 3)] from by decide, List.not_mem_nil⟩)]
    rfl
  | ⟨2, _⟩ =>
    -- last axis: start 0, no batch part, the offset is the result's last coordinate j
    show GatherDims.start _ (ix3 e r j) idx 2 + GatherDims.batchCoord _ (ix3 e r j) 2 + GatherDims.offCoord _ (ix3 e r j) 2 = _
    rw [GatherDims.batchCoord_eq_zero _ _ _ List.not_mem_nil]
    unfold GatherDims.start
    rw [dif_neg (show ¬ (2 : Fin 3) ∈ [(0 : Fin 3)] from by decide)]
    simp only [Nat.add_zero, Nat.zero_add]
    unfold GatherDims.offCoord
    rw [dif_pos ((GatherDims.mem_sKept _ _).mpr ⟨show ¬ (2 : Fin 3) ∈ [(0 : Fin 3)] from by decide, List.not_mem_nil⟩)]
    rfl

end Cert.GatherRows

end
-- ==== Proof.KInputs.lean ====
/-
  What the pallas_call's two message arrays hold when it is entered, under the index-range precondition: row `e` of
  the scalar message array is edge `e`'s message row (source scalars, destination scalars, edge scalars), and row `e`
  of the vector message array holds, for each spatial row, source vectors, destination vectors and the edge vector.
  With every index in range the row gathers' in-range masks are all set, so no fill value is ever selected, and the
  casts to the narrow float format are the identity at the extended reals.  The bias rows are the bias arrays.
-/
import proofs.«428393_j44160853737513_2_alg».proof.Proof.Spec
import proofs.«428393_j44160853737513_2_alg».proof.Proof.KArgs
import proofs.«428393_j44160853737513_2_alg».proof.Proof.GatherLemmas
import Idealize.ShloMosaic.Lib.Pipeline.Value
import Idealize.ShloMosaic.Lib.ValueLayout
import Idealize.ShloMosaic.Lib.StableHlo.Run
import Idealize.ShloMosaic.Lib.StableHlo.Predicate

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem

/-! ## Words in range -/

section Words

/-- Reducing ones by `and` from one gives one. -/
private theorem foldl_andi_ones {ι : Type} (f : ι → BitVec 1) (hf : ∀ i, f i = 1#1) :
    ∀ (l : List ι), l.foldl (fun r n => IntOp.andi r (f n)) 1#1 = 1#1
  | [] => rfl
  | a :: l => by
    rw [List.foldl_cons, hf a]
    exact foldl_andi_ones f hf l

/-- A reduction by `and` of an array of ones, from one, is one at every result index. -/
private theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_ones x hx _

/-- A word in `[0, 50000)` is its own wrap. -/
private theorem wrapW_of_nonneg (x : BitVec 32) (h0 : 0 ≤ x.toInt) : Cert.Gvp.wrapW x = x := by
  unfold Cert.Gvp.wrapW Scalar.select
  have hc : IntOp.cmpi .slt x 0#32 ≠ 1 := by
    intro hc
    have := IntOp.cmpi_slt.1 hc
    have h00 : (0#32 : BitVec 32).toInt = 0 := by decide
    omega
  rw [if_neg hc]

end Words

/-! ## A row gather with Python's wrap and the in-range mask, read at an index -/

section Take

/-- The start-index column of a row gather: the index words with a negative one wrapped, as a column. -/
private abbrev idxCol (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

/-- The in-range mask column: `0 ≤ w` and `w ≤ 49999` of each start index `w`. -/
private abbrev maskCol (x : IVec S800000 32) : IVec S800000x1 1 :=
  andi (cmpi .sge (idxCol x) (broadcastInDim S800000x1 ![] bcast_S_S800000x1 (constantI S_ 32 0#32)))
    (cmpi .sle (idxCol x) (broadcastInDim S800000x1 ![0, 1] bcast_S1x1_S800000x1_0_1
      (broadcastInDim S1x1 ![1] bcast_S1_S1x1_1 (constantI S1 32 49999#32))))

/-- Every entry of the column is the wrap of some index word. -/
private theorem idxCol_eq (x : IVec S800000 32) (i : S800000x1.Idx) : ∃ i', idxCol x i = Cert.Gvp.wrapW (x i') := ⟨_, rfl⟩

/-- Row `e` of the column is the wrap of word `e`. -/
private theorem idxCol_row (x : IVec S800000 32) (e : Fin 800000) : idxCol x (ix2 e (0 : Fin 1)) = Cert.Gvp.wrapW (x (ix1 e)) := by
  show broadcastInDim (s := S800000) S800000x1 ![0] bcast_S800000_S800000x1_0 _ _ = _
  rw [broadcastInDim_apply (s := S800000) (![0]) bcast_S800000_S800000x1_0 _ (ix2 e (0 : Fin 1)) (ix1 e)
    (by intro a; match a with | ⟨0, _⟩ => rfl)]
  rfl

/-- With every index word in range the mask column is all ones. -/
private theorem maskCol_ones (x : IVec S800000 32) (hx : ∀ i, 0 ≤ (x i).toInt ∧ (x i).toInt < 50000) (i : S800000x1.Idx) :
    maskCol x i = 1#1 := by
  obtain ⟨i', hi'⟩ := idxCol_eq x i
  show IntOp.andi (IntOp.cmpi .sge (idxCol x i) 0#32) (IntOp.cmpi .sle (idxCol x i) 49999#32) = 1#1
  rw [hi', wrapW_of_nonneg _ (hx i').1, IntOp.andi_eq_one]
  have h0 : (0#32 : BitVec 32).toInt = 0 := by decide
  have h1 : (49999#32 : BitVec 32).toInt = 49999 := by decide
  have := hx i'
  exact ⟨IntOp.cmpi_sge.2 (by omega), IntOp.cmpi_sle.2 (by omega)⟩

/-- The reduced mask is one at every row. -/
private theorem maskRow_ones (x : IVec S800000 32) (hx : ∀ i, 0 ≤ (x i).toInt ∧ (x i).toInt < 50000) (k : S800000.Idx) :
    Host.reduce IntOp.andi (maskCol x) (constantI S_ 1 1#1) reducesTo_S800000x1_S800000_d1 h_S_ k = 1#1 :=
  reduce_andi_ones _ _ _ _ (maskCol_ones x hx) (fun _ => rfl) k

variable {α : Type}

/-- Rows of the node scalars: with every index word in range, row `e` is the addressed node's row. -/
private theorem take2_apply (x : IVec S800000 32) (tbl : S50000x64.Idx → α) (fill : S800000x64.Idx → α)
    (hx : ∀ i, 0 ≤ (x i).toInt ∧ (x i).toInt < 50000) (e : Fin 800000) (j : Fin 64) :
    select (broadcastInDim S800000x64 ![0] bcast_S800000_S800000x64_0
        (Host.reduce IntOp.andi (maskCol x) (constantI S_ 1 1#1) reducesTo_S800000x1_S800000_d1 h_S_))
      (Host.gather gather_S50000x64_S800000x1_S800000x64_1_0_n_n_0_1_164 tbl (idxCol x)) fill (ix2 e j)
    = tbl (ix2 (Cert.Gvp.node (Cert.Gvp.wrapW (x (ix1 e)))) j) := by
  rw [select_apply]
  have hm : broadcastInDim S800000x64 ![0] bcast_S800000_S800000x64_0
      (Host.reduce IntOp.andi (maskCol x) (constantI S_ 1 1#1) reducesTo_S800000x1_S800000_d1 h_S_) (ix2 e j) = 1#1 :=
    maskRow_ones x hx _
  rw [hm]
  show (if (1#1 : BitVec 1) = 1 then _ else _) = _
  rw [if_pos (by decide), Cert.GatherRows.gather_rows2 (by decide) _ rfl rfl rfl rfl rfl rfl rfl]
  refine congrArg tbl (congrArg (fun a => ix2 a j) (Fin.ext ?_))
  show min (idxCol x (ix2 e (0 : Fin 1))).toInt.toNat (50000 - 1) = min (Cert.Gvp.wrapW (x (ix1 e))).toInt.toNat 49999
  rw [idxCol_row]

/-- Rows of the node vectors, likewise. -/
private theorem take3_apply (x : IVec S800000 32) (tbl : S50000x3x8.Idx → α) (fill : S800000x3x8.Idx → α)
    (hx : ∀ i, 0 ≤ (x i).toInt ∧ (x i).toInt < 50000) (e : Fin 800000) (r : Fin 3) (j : Fin 8) :
    select (broadcastInDim S800000x3x8 ![0] bcast_S800000_S800000x3x8_0
        (Host.reduce IntOp.andi (maskCol x) (constantI S_ 1 1#1) reducesTo_S800000x1_S800000_d1 h_S_))
      (Host.gather gather_S50000x3x8_S800000x1_S800000x3x8_12_0_n_n_0_1_138 tbl (idxCol x)) fill (ix3 e r j)
    = tbl (ix3 (Cert.Gvp.node (Cert.Gvp.wrapW (x (ix1 e)))) r j) := by
  rw [select_apply]
  have hm : broadcastInDim S800000x3x8 ![0] bcast_S800000_S800000x3x8_0
      (Host.reduce IntOp.andi (maskCol x) (constantI S_ 1 1#1) reducesTo_S800000x1_S800000_d1 h_S_) (ix3 e r j) = 1#1 :=
    maskRow_ones x hx _
  rw [hm]
  show (if (1#1 : BitVec 1) = 1 then _ else _) = _
  rw [if_pos (by decide), Cert.GatherRows.gather_rows3 (by decide) _ rfl rfl rfl rfl rfl rfl rfl]
  refine congrArg tbl (congrArg (fun a => ix3 a r j) (Fin.ext ?_))
  show min (idxCol x (ix2 e (0 : Fin 1))).toInt.toNat (50000 - 1) = min (Cert.Gvp.wrapW (x (ix1 e))).toInt.toNat 49999
  rw [idxCol_row]

end Take

/-! ## The message concatenations, the column slices and the reshapes, read at an index -/

section Cat
variable {α : Type}

/-- The scalar message row: columns `[0, 64)` from the first piece, `[64, 128)` from the second, `[128, 144)` from the third. -/
private theorem cat144_apply (A B : S800000x64.Idx → α) (C : S800000x16.Idx → α) (e : Fin 800000) (j : Fin 144) :
    concatenate S800000x144 1 [⟨S800000x64, A⟩, ⟨S800000x64, B⟩, ⟨S800000x16, C⟩]
        concatenates_S800000x64_S800000x64_S800000x16_S800000x144_d1 (ix2 e j)
      = if h1 : j.val < 64 then A (ix2 e ⟨j.val, h1⟩)
        else if h2 : j.val < 128 then B (ix2 e ⟨j.val - 64, by omega⟩)
        else C (ix2 e ⟨j.val - 128, by omega⟩) := by
  by_cases h1 : j.val < 64
  · rw [dif_pos h1]
    exact concatenate_apply_piece (t := S800000x144) (1 : Fin 2) [⟨S800000x64, A⟩, ⟨S800000x64, B⟩, ⟨S800000x16, C⟩] concatenates_S800000x64_S800000x64_S800000x16_S800000x144_d1 (ix2 e j) 0 (by simp) S800000x64 A rfl rfl 0 rfl (ix2 e ⟨j.val, h1⟩)
        (fun b hb => by match b with
          | ⟨0, _⟩ => rfl
          | ⟨1, _⟩ => exact absurd rfl hb) (by show 0 + j.val = j.val; omega)
  · rw [dif_neg h1]
    by_cases h2 : j.val < 128
    · rw [dif_pos h2]
      exact concatenate_apply_piece (t := S800000x144) (1 : Fin 2) [⟨S800000x64, A⟩, ⟨S800000x64, B⟩, ⟨S800000x16, C⟩] concatenates_S800000x64_S800000x64_S800000x16_S800000x144_d1 (ix2 e j) 1 (by simp) S800000x64 B rfl rfl 64 rfl (ix2 e ⟨j.val - 64, by omega⟩)
        (fun b hb => by match b with
          | ⟨0, _⟩ => rfl
          | ⟨1, _⟩ => exact absurd rfl hb) (by show 64 + (j.val - 64) = j.val; omega)
    · rw [dif_neg h2]
      exact concatenate_apply_piece (t := S800000x144) (1 : Fin 2) [⟨S800000x64, A⟩, ⟨S800000x64, B⟩, ⟨S800000x16, C⟩] concatenates_S800000x64_S800000x64_S800000x16_S800000x144_d1 (ix2 e j) 2 (by simp) S800000x16 C rfl rfl 128 rfl (ix2 e ⟨j.val - 128, by omega⟩)
        (fun b hb => by match b with
          | ⟨0, _⟩ => rfl
          | ⟨1, _⟩ => exact absurd rfl hb) (by show 128 + (j.val - 128) = j.val; omega)

/-- One spatial row of the vector message: 8 source channels, 8 destination channels, the edge's own entry. -/
private theorem cat17_apply (A B : S800000x8.Idx → α) (C : S800000x1.Idx → α) (e : Fin 800000) (d : Fin 17) :
    concatenate S800000x17 1 [⟨S800000x8, A⟩, ⟨S800000x8, B⟩, ⟨S800000x1, C⟩]
        concatenates_S800000x8_S800000x8_S800000x1_S800000x17_d1 (ix2 e d)
      = if h1 : d.val < 8 then A (ix2 e ⟨d.val, h1⟩)
        else if h2 : d.val < 16 then B (ix2 e ⟨d.val - 8, by omega⟩)
        else C (ix2 e (0 : Fin 1)) := by
  by_cases h1 : d.val < 8
  · rw [dif_pos h1]
    exact concatenate_apply_piece (t := S800000x17) (1 : Fin 2) [⟨S800000x8, A⟩, ⟨S800000x8, B⟩, ⟨S800000x1, C⟩] concatenates_S800000x8_S800000x8_S800000x1_S800000x17_d1 (ix2 e d) 0 (by simp) S800000x8 A rfl rfl 0 rfl (ix2 e ⟨d.val, h1⟩)
        (fun b hb => by match b with
          | ⟨0, _⟩ => rfl
          | ⟨1, _⟩ => exact absurd rfl hb) (by show 0 + d.val = d.val; omega)
  · rw [dif_neg h1]
    by_cases h2 : d.val < 16
    · rw [dif_pos h2]
      exact concatenate_apply_piece (t := S800000x17) (1 : Fin 2) [⟨S800000x8, A⟩, ⟨S800000x8, B⟩, ⟨S800000x1, C⟩] concatenates_S800000x8_S800000x8_S800000x1_S800000x17_d1 (ix2 e d) 1 (by simp) S800000x8 B rfl rfl 8 rfl (ix2 e ⟨d.val - 8, by omega⟩)
        (fun b hb => by match b with
          | ⟨0, _⟩ => rfl
          | ⟨1, _⟩ => exact absurd rfl hb) (by show 8 + (d.val - 8) = d.val; omega)
    · rw [dif_neg h2]
      exact concatenate_apply_piece (t := S800000x17) (1 : Fin 2) [⟨S800000x8, A⟩, ⟨S800000x8, B⟩, ⟨S800000x1, C⟩] concatenates_S800000x8_S800000x8_S800000x1_S800000x17_d1 (ix2 e d) 2 (by simp) S800000x1 C rfl rfl 16 rfl (ix2 e (0 : Fin 1))
        (fun b hb => by match b with
          | ⟨0, _⟩ => rfl
          | ⟨1, _⟩ => exact absurd rfl hb) (by show 16 + 0 = d.val; omega)

/-- The three spatial rows side by side: column `17·r + d` is column `d` of row `r`'s piece. -/
private theorem cat51_apply (C0 C1 C2 : S800000x17.Idx → α) (e : Fin 800000) (r : Fin 3) (d : Fin 17) :
    concatenate S800000x51 1 [⟨S800000x17, C0⟩, ⟨S800000x17, C1⟩, ⟨S800000x17, C2⟩]
        concatenates_S800000x17_S800000x17_S800000x17_S800000x51_d1 (ix2 e (⟨17 * r.val + d.val, by omega⟩ : Fin 51))
      = if r.val = 0 then C0 (ix2 e d) else if r.val = 1 then C1 (ix2 e d) else C2 (ix2 e d) := by
  by_cases h1 : r.val = 0
  · rw [if_pos h1]
    exact concatenate_apply_piece (t := S800000x51) (1 : Fin 2) [⟨S800000x17, C0⟩, ⟨S800000x17, C1⟩, ⟨S800000x17, C2⟩] concatenates_S800000x17_S800000x17_S800000x17_S800000x51_d1 (ix2 e (⟨17 * r.val + d.val, by omega⟩ : Fin 51)) 0 (by simp) S800000x17 C0 rfl rfl 0 rfl (ix2 e d)
        (fun b hb => by match b with
          | ⟨0, _⟩ => rfl
          | ⟨1, _⟩ => exact absurd rfl hb) (by show 0 + d.val = 17 * r.val + d.val; omega)
  · rw [if_neg h1]
    by_cases h2 : r.val = 1
    · rw [if_pos h2]
      exact concatenate_apply_piece (t := S800000x51) (1 : Fin 2) [⟨S800000x17, C0⟩, ⟨S800000x17, C1⟩, ⟨S800000x17, C2⟩] concatenates_S800000x17_S800000x17_S800000x17_S800000x51_d1 (ix2 e (⟨17 * r.val + d.val, by omega⟩ : Fin 51)) 1 (by simp) S800000x17 C1 rfl rfl 17 rfl (ix2 e d)
        (fun b hb => by match b with
          | ⟨0, _⟩ => rfl
          | ⟨1, _⟩ => exact absurd rfl hb) (by show 17 + d.val = 17 * r.val + d.val; omega)
    · rw [if_neg h2]
      exact concatenate_apply_piece (t := S800000x51) (1 : Fin 2) [⟨S800000x17, C0⟩, ⟨S800000x17, C1⟩, ⟨S800000x17, C2⟩] concatenates_S800000x17_S800000x17_S800000x17_S800000x51_d1 (ix2 e (⟨17 * r.val + d.val, by omega⟩ : Fin 51)) 2 (by simp) S800000x17 C2 rfl rfl 34 rfl (ix2 e d)
        (fun b hb => by match b with
          | ⟨0, _⟩ => rfl
          | ⟨1, _⟩ => exact absurd rfl hb) (by show 34 + d.val = 17 * r.val + d.val; omega)

/-- A column block of the flattened node vectors: column `q` of the block at offset `o` is column `o + q`. -/
private theorem slice24_apply (o : Nat) (ho : o + 8 ≤ 24) (v : S800000x24.Idx → α) (h : S800000x24.Slices ![0, o] S800000x8)
    (e : Fin 800000) (q : Fin 8) :
    extractStridedSlice S800000x8 ![0, o] v h (ix2 e q) = v (ix2 e (⟨o + q.val, by omega⟩ : Fin 24)) :=
  extractStridedSlice_apply _ v h (ix2 e q) (ix2 e (⟨o + q.val, by omega⟩ : Fin 24))
    (fun a => by match a with
      | ⟨0, _⟩ => show e.val = 0 + e.val; omega
      | ⟨1, _⟩ => rfl)

/-- One column of the edge vectors' flattened array. -/
private theorem slice3_apply (o : Nat) (ho : o + 1 ≤ 3) (v : S800000x3.Idx → α) (h : S800000x3.Slices ![0, o] S800000x1)
    (e : Fin 800000) :
    extractStridedSlice S800000x1 ![0, o] v h (ix2 e (0 : Fin 1)) = v (ix2 e (⟨o, by omega⟩ : Fin 3)) :=
  extractStridedSlice_apply _ v h (ix2 e (0 : Fin 1)) (ix2 e (⟨o, by omega⟩ : Fin 3))
    (fun a => by match a with
      | ⟨0, _⟩ => show e.val = 0 + e.val; omega
      | ⟨1, _⟩ => rfl)

/-- The node vectors flattened: column `8·r + q` is entry `(r, q)`. -/
private theorem flat24_apply (v : S800000x3x8.Idx → α) (h : S800000x3x8.ShapeCasts S800000x24) (e : Fin 800000) (r : Fin 3) (q : Fin 8) :
    shapeCast S800000x24 v h (ix2 e (⟨8 * r.val + q.val, by omega⟩ : Fin 24)) = v (ix3 e r q) :=
  shapeCast_apply v h _ (ix3 e r q) (by
    rw [Shape.rowMajor_val_two, Shape.rowMajor_val_three]
    show (e.val * 3 + r.val) * 8 + q.val = e.val * 24 + (8 * r.val + q.val)
    omega)

/-- A bias vector as a one-row array. -/
private theorem row_apply {n : Nat} (v : (⟨1, ![n]⟩ : Shape).Idx → α) (h : (⟨1, ![n]⟩ : Shape).ShapeCasts ⟨2, ![1, n]⟩) (j : Fin n) :
    shapeCast (⟨2, ![1, n]⟩ : Shape) v h (ix2 (0 : Fin 1) j) = v (ix1 j) :=
  shapeCast_apply v h _ (ix1 j) (by
    rw [Shape.rowMajor_val_two, Shape.rowMajor_val_one]
    show j.val = 0 * n + j.val
    omega)

/-- A row of the index array as a vector. -/
private theorem idxrow_apply (o : Nat) (ho : o + 1 ≤ 2) (v : S2x800000.Idx → α) (h : S2x800000.Slices ![o, 0] S1x800000)
    (h' : S1x800000.ShapeCasts S800000) (e : Fin 800000) :
    shapeCast S800000 (extractStridedSlice S1x800000 ![o, 0] v h) h' (ix1 e) = v (ix2 (⟨o, by omega⟩ : Fin 2) e) := by
  rw [shapeCast_apply _ h' (ix1 e) (ix2 (0 : Fin 1) e) (by
    rw [Shape.rowMajor_val_two, Shape.rowMajor_val_one]
    show 0 * 800000 + e.val = e.val
    omega)]
  exact extractStridedSlice_apply _ v h (ix2 (0 : Fin 1) e) (ix2 (⟨o, by omega⟩ : Fin 2) e)
    (fun a => by match a with
      | ⟨0, _⟩ => rfl
      | ⟨1, _⟩ => show e.val = 0 + e.val; omega)

end Cat

section VCat

/-- The vector message array: column `17·r + d` of row `e` is spatial row `r`'s entry `d`: a source channel, a
    destination channel, or the edge's own entry. -/
private theorem vcat_apply (X7 : S800000x24.Idx → EReal) (X8 : S800000x3x8.Idx → EReal) (X3 : S800000x3x1.Idx → EReal)
    (e : Fin 800000) (r : Fin 3) (d : Fin 17) :
    (truncf .bf16 (concatenate S800000x51 1 [⟨S800000x17, concatenate S800000x17 1 [⟨S800000x8, extractStridedSlice S800000x8 ![0, 0] X7 slices_S800000x24_S800000x8_0_0⟩, ⟨S800000x8, extractStridedSlice S800000x8 ![0, 0] (shapeCast S800000x24 X8 shapeCasts_S800000x3x8_S800000x24) slices_S800000x24_S800000x8_0_0⟩, ⟨S800000x1, extractStridedSlice S800000x1 ![0, 0] (shapeCast S800000x3 X3 shapeCasts_S800000x3x1_S800000x3) slices_S800000x3_S800000x1_0_0⟩] concatenates_S800000x8_S800000x8_S800000x1_S800000x17_d1⟩,
        ⟨S800000x17, concatenate S800000x17 1 [⟨S800000x8, extractStridedSlice S800000x8 ![0, 8] X7 slices_S800000x24_S800000x8_0_8⟩, ⟨S800000x8, extractStridedSlice S800000x8 ![0, 8] (shapeCast S800000x24 X8 shapeCasts_S800000x3x8_S800000x24) slices_S800000x24_S800000x8_0_8⟩, ⟨S800000x1, extractStridedSlice S800000x1 ![0, 1] (shapeCast S800000x3 X3 shapeCasts_S800000x3x1_S800000x3) slices_S800000x3_S800000x1_0_1⟩] concatenates_S800000x8_S800000x8_S800000x1_S800000x17_d1⟩,
        ⟨S800000x17, concatenate S800000x17 1 [⟨S800000x8, extractStridedSlice S800000x8 ![0, 16] X7 slices_S800000x24_S800000x8_0_16⟩, ⟨S800000x8, extractStridedSlice S800000x8 ![0, 16] (shapeCast S800000x24 X8 shapeCasts_S800000x3x8_S800000x24) slices_S800000x24_S800000x8_0_16⟩, ⟨S800000x1, extractStridedSlice S800000x1 ![0, 2] (shapeCast S800000x3 X3 shapeCasts_S800000x3x1_S800000x3) slices_S800000x3_S800000x1_0_2⟩] concatenates_S800000x8_S800000x8_S800000x1_S800000x17_d1⟩] concatenates_S800000x17_S800000x17_S800000x17_S800000x51_d1) bitsLt_bf16_f32 : FVec Ideal S800000x51 .bf16)
        (ix2 e (⟨17 * r.val + d.val, by omega⟩ : Fin 51))
      = if h1 : d.val < 8 then X7 (ix2 e (⟨8 * r.val + d.val, by omega⟩ : Fin 24))
        else if h2 : d.val < 16 then X8 (ix3 e r ⟨d.val - 8, by omega⟩)
        else X3 (ix3 e r (0 : Fin 1)) := by
  rw [truncf_apply, cat51_apply]
  have hr : r.val = 0 ∨ r.val = 1 ∨ r.val = 2 := by omega
  rcases hr with hr | hr | hr
  · rw [if_pos hr]
    rw [cat17_apply]
    by_cases h1 : d.val < 8
    · rw [dif_pos h1, dif_pos h1, slice24_apply 0 (by omega)]
      refine congrArg X7 (congrArg (ix2 e) (Fin.ext ?_))
      show 0 + d.val = 8 * r.val + d.val
      omega
    · rw [dif_neg h1, dif_neg h1]
      by_cases h2 : d.val < 16
      · rw [dif_pos h2, dif_pos h2, slice24_apply 0 (by omega)]
        exact shapeCast_apply X8 _ _ (ix3 e r ⟨d.val - 8, by omega⟩) (by
          rw [Shape.rowMajor_val_two, Shape.rowMajor_val_three]
          show (e.val * 3 + r.val) * 8 + (d.val - 8) = e.val * 24 + (0 + (d.val - 8))
          omega)
      · rw [dif_neg h2, dif_neg h2, slice3_apply 0 (by omega)]
        exact shapeCast_apply X3 _ _ (ix3 e r (0 : Fin 1)) (by
          rw [Shape.rowMajor_val_two, Shape.rowMajor_val_three]
          show (e.val * 3 + r.val) * 1 + 0 = e.val * 3 + 0
          omega)
  · rw [if_neg (by omega), if_pos hr]
    rw [cat17_apply]
    by_cases h1 : d.val < 8
    · rw [dif_pos h1, dif_pos h1, slice24_apply 8 (by omega)]
      refine congrArg X7 (congrArg (ix2 e) (Fin.ext ?_))
      show 8 + d.val = 8 * r.val + d.val
      omega
    · rw [dif_neg h1, dif_neg h1]
      by_cases h2 : d.val < 16
      · rw [dif_pos h2, dif_pos h2, slice24_apply 8 (by omega)]
        exact shapeCast_apply X8 _ _ (ix3 e r ⟨d.val - 8, by omega⟩) (by
          rw [Shape.rowMajor_val_two, Shape.rowMajor_val_three]
          show (e.val * 3 + r.val) * 8 + (d.val - 8) = e.val * 24 + (8 + (d.val - 8))
          omega)
      · rw [dif_neg h2, dif_neg h2, slice3_apply 1 (by omega)]
        exact shapeCast_apply X3 _ _ (ix3 e r (0 : Fin 1)) (by
          rw [Shape.rowMajor_val_two, Shape.rowMajor_val_three]
          show (e.val * 3 + r.val) * 1 + 0 = e.val * 3 + 1
          omega)
  · rw [if_neg (by omega), if_neg (by omega)]
    rw [cat17_apply]
    by_cases h1 : d.val < 8
    · rw [dif_pos h1, dif_pos h1, slice24_apply 16 (by omega)]
      refine congrArg X7 (congrArg (ix2 e) (Fin.ext ?_))
      show 16 + d.val = 8 * r.val + d.val
      omega
    · rw [dif_neg h1, dif_neg h1]
      by_cases h2 : d.val < 16
      · rw [dif_pos h2, dif_pos h2, slice24_apply 16 (by omega)]
        exact shapeCast_apply X8 _ _ (ix3 e r ⟨d.val - 8, by omega⟩) (by
          rw [Shape.rowMajor_val_two, Shape.rowMajor_val_three]
          show (e.val * 3 + r.val) * 8 + (d.val - 8) = e.val * 24 + (16 + (d.val - 8))
          omega)
      · rw [dif_neg h2, dif_neg h2, slice3_apply 2 (by omega)]
        exact shapeCast_apply X3 _ _ (ix3 e r (0 : Fin 1)) (by
          rw [Shape.rowMajor_val_two, Shape.rowMajor_val_three]
          show (e.val * 3 + r.val) * 1 + 0 = e.val * 3 + 2
          omega)

end VCat

/-! ## The host operations before the region, stretch by stretch -/

section Stage

variable {F : FTy → Type} [FloatOps F]

/-- A three-piece operation's result with each operand's contents at its own reference. -/
private theorem nary3_result {x a b y : Ref sig .tc}
    (f : ((k : Fin 3) → ((![x, a, b] : Fin 3 → Ref sig .tc) k).ty.Contents (Elt F)) → y.ty.Contents (Elt F)) (hxs hy)
    (G : Valuation τ sig (Elt F)) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-- The seven stretches applied one after the other. -/
private theorem V0_stages (M : Valuation τ sig (Elt F)) :
    StableHlo.after (List.flatten (pre (F := F))) M
      = StableHlo.after hostOps0_6 (StableHlo.after hostOps0_5 (StableHlo.after hostOps0_4 (StableHlo.after hostOps0_3
          (StableHlo.after hostOps0_2 (StableHlo.after hostOps0_1 (StableHlo.after hostOps0 M)))))) := by
  simp only [pre, List.flatten_cons, List.flatten_nil, List.append_nil, StableHlo.after_append]

/-- The references stretch 0 writes. -/
private abbrev W0 : List (Ref sig .tc) := [main_v0, main_v1, main_v2, main_v3]
private theorem writes0 : (hostOps0 : List (HloOp τ sig (Elt F))).Forall fun op => op.writes ⊆ (W0.map (Proc.devRef (τ := τ) .tc)).toFinset := by
  simp only [List.Forall]
  refine ⟨?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 0 does not write keeps its contents. -/
private theorem keep0 (G : Valuation τ sig (Elt F)) (r : Ref sig .tc) (h : r ∉ W0) :
    StableHlo.after hostOps0 G (Proc.devRef .tc r) = G (Proc.devRef .tc r) :=
  StableHlo.after_of_writes_sub hostOps0 G writes0 h

/-- The references stretch 1 writes. -/
private abbrev W1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
private theorem writes1 : (hostOps0_1 : List (HloOp τ sig (Elt F))).Forall fun op => op.writes ⊆ (W1.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 1 does not write keeps its contents. -/
private theorem keep1 (G : Valuation τ sig (Elt F)) (r : Ref sig .tc) (h : r ∉ W1) :
    StableHlo.after hostOps0_1 G (Proc.devRef .tc r) = G (Proc.devRef .tc r) :=
  StableHlo.after_of_writes_sub hostOps0_1 G writes1 h

/-- The references stretch 2 writes. -/
private abbrev W2 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]
private theorem writes2 : (hostOps0_2 : List (HloOp τ sig (Elt F))).Forall fun op => op.writes ⊆ (W2.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 2 does not write keeps its contents. -/
private theorem keep2 (G : Valuation τ sig (Elt F)) (r : Ref sig .tc) (h : r ∉ W2) :
    StableHlo.after hostOps0_2 G (Proc.devRef .tc r) = G (Proc.devRef .tc r) :=
  StableHlo.after_of_writes_sub hostOps0_2 G writes2 h

/-- The references stretch 3 writes. -/
private abbrev W3 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v6]
private theorem writes3 : (hostOps0_3 : List (HloOp τ sig (Elt F))).Forall fun op => op.writes ⊆ (W3.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 3 does not write keeps its contents. -/
private theorem keep3 (G : Valuation τ sig (Elt F)) (r : Ref sig .tc) (h : r ∉ W3) :
    StableHlo.after hostOps0_3 G (Proc.devRef .tc r) = G (Proc.devRef .tc r) :=
  StableHlo.after_of_writes_sub hostOps0_3 G writes3 h

/-- The references stretch 4 writes. -/
private abbrev W4 : List (Ref sig .tc) := [main_v7]
private theorem writes4 : (hostOps0_4 : List (HloOp τ sig (Elt F))).Forall fun op => op.writes ⊆ (W4.map (Proc.devRef (τ := τ) .tc)).toFinset := by
  simp only [List.Forall]
  exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 4 does not write keeps its contents. -/
private theorem keep4 (G : Valuation τ sig (Elt F)) (r : Ref sig .tc) (h : r ∉ W4) :
    StableHlo.after hostOps0_4 G (Proc.devRef .tc r) = G (Proc.devRef .tc r) :=
  StableHlo.after_of_writes_sub hostOps0_4 G writes4 h

/-- The references stretch 5 writes. -/
private abbrev W5 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v8]
private theorem writes5 : (hostOps0_5 : List (HloOp τ sig (Elt F))).Forall fun op => op.writes ⊆ (W5.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 5 does not write keeps its contents. -/
private theorem keep5 (G : Valuation τ sig (Elt F)) (r : Ref sig .tc) (h : r ∉ W5) :
    StableHlo.after hostOps0_5 G (Proc.devRef .tc r) = G (Proc.devRef .tc r) :=
  StableHlo.after_of_writes_sub hostOps0_5 G writes5 h

/-- The references stretch 6 writes. -/
private abbrev W6 : List (Ref sig .tc) := [main_v9, main_v10, main_v11, main_v12, main_v13, main_v14, main_v15, main_v16, main_v17, main_v18, main_v19, main_v20, main_v21, main_v22, main_v23, main_v24, main_v25, main_v26, main_v27, main_v28, main_v29, main_v30, main_v31, main_v32]
private theorem writes6 : (hostOps0_6 : List (HloOp τ sig (Elt F))).Forall fun op => op.writes ⊆ (W6.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference stretch 6 does not write keeps its contents. -/
private theorem keep6 (G : Valuation τ sig (Elt F)) (r : Ref sig .tc) (h : r ∉ W6) :
    StableHlo.after hostOps0_6 G (Proc.devRef .tc r) = G (Proc.devRef .tc r) :=
  StableHlo.after_of_writes_sub hostOps0_6 G writes6 h

end Stage

section Casts
variable {F : FTy → Type} [FloatOps F]

/-- Contents carried to a buffer's own type and back are unchanged. -/
private theorem ofBuf_toBuf {T : BufTy} (x : StableHlo.TRef sig T) (v : T.Contents (Elt F)) : x.ofBuf (x.toBuf v) = v := by
  obtain ⟨ref, rfl, h2, h3⟩ := x
  rfl

private theorem ofBuf_v1 (h1 : main_v1.ty = ⟨S800000, .i32⟩) (h2 h3)
    (v : main_v1.ty.Contents (Elt F)) :
    (StableHlo.TRef.of main_v1 h1 h2 h3 : StableHlo.TRef sig ⟨S800000, .i32⟩).ofBuf v = v := rfl

private theorem ofBuf_v3 (h1 : main_v3.ty = ⟨S800000, .i32⟩) (h2 h3)
    (v : main_v3.ty.Contents (Elt F)) :
    (StableHlo.TRef.of main_v3 h1 h2 h3 : StableHlo.TRef sig ⟨S800000, .i32⟩).ofBuf v = v := rfl

private theorem ofBuf_arg0 (h1 : main_arg0.ty = ⟨S50000x64, .f32⟩) (h2 h3)
    (v : main_arg0.ty.Contents (Elt F)) :
    (StableHlo.TRef.of main_arg0 h1 h2 h3 : StableHlo.TRef sig ⟨S50000x64, .f32⟩).ofBuf v = v := rfl

private theorem ofBuf_arg1 (h1 : main_arg1.ty = ⟨S50000x3x8, .f32⟩) (h2 h3)
    (v : main_arg1.ty.Contents (Elt F)) :
    (StableHlo.TRef.of main_arg1 h1 h2 h3 : StableHlo.TRef sig ⟨S50000x3x8, .f32⟩).ofBuf v = v := rfl

private theorem toBuf_v4_apply (h1 : main_v4.ty = ⟨S800000x64, .f32⟩) (h2 h3)
    (v : (⟨S800000x64, .f32⟩ : BufTy).Contents (Elt F)) (i : S800000x64.Idx) :
    ((StableHlo.TRef.of main_v4 h1 h2 h3 : StableHlo.TRef sig ⟨S800000x64, .f32⟩).toBuf v : S800000x64.Idx → F .f32) i
      = (v : S800000x64.Idx → F .f32) i := rfl

private theorem toBuf_v5_apply (h1 : main_v5.ty = ⟨S800000x64, .f32⟩) (h2 h3)
    (v : (⟨S800000x64, .f32⟩ : BufTy).Contents (Elt F)) (i : S800000x64.Idx) :
    ((StableHlo.TRef.of main_v5 h1 h2 h3 : StableHlo.TRef sig ⟨S800000x64, .f32⟩).toBuf v : S800000x64.Idx → F .f32) i
      = (v : S800000x64.Idx → F .f32) i := rfl

private theorem toBuf_v6_apply (h1 : main_v6.ty = ⟨S800000x3x8, .f32⟩) (h2 h3)
    (v : (⟨S800000x3x8, .f32⟩ : BufTy).Contents (Elt F)) (i : S800000x3x8.Idx) :
    ((StableHlo.TRef.of main_v6 h1 h2 h3 : StableHlo.TRef sig ⟨S800000x3x8, .f32⟩).toBuf v : S800000x3x8.Idx → F .f32) i
      = (v : S800000x3x8.Idx → F .f32) i := rfl

private theorem toBuf_v8_apply (h1 : main_v8.ty = ⟨S800000x3x8, .f32⟩) (h2 h3)
    (v : (⟨S800000x3x8, .f32⟩ : BufTy).Contents (Elt F)) (i : S800000x3x8.Idx) :
    ((StableHlo.TRef.of main_v8 h1 h2 h3 : StableHlo.TRef sig ⟨S800000x3x8, .f32⟩).toBuf v : S800000x3x8.Idx → F .f32) i
      = (v : S800000x3x8.Idx → F .f32) i := rfl

end Casts

section Stage2

variable {F : FTy → Type} [FloatOps F]

/-- Stretch 0: the source words are row 0 of the edge index. -/
private theorem st0_v1 (G : Valuation τ sig (Elt F)) (e : Fin 800000) :
    (StableHlo.after hostOps0 G (Proc.devRef .tc main_v1) : S800000.Idx → BitVec 32) (ix1 e)
      = (G (Proc.devRef .tc main_arg4) : S2x800000.Idx → BitVec 32) (ix2 (0 : Fin 2) e) := by
  simp (disch := decide) only [StableHlo.after_cons, StableHlo.after_nil, StableHlo.nullary_result', StableHlo.unary_result', StableHlo.binary_result', StableHlo.ternary_result', StableHlo.reshape_result', nary3_result, StableHlo.nullary_result_ne', StableHlo.unary_result_ne', StableHlo.binary_result_ne', StableHlo.ternary_result_ne', StableHlo.reshape_result_ne', StableHlo.nary_result_ne']
  exact idxrow_apply 0 (by omega) _ _ _ e

/-- Stretch 0: the destination words are row 1 of the edge index. -/
private theorem st0_v3 (G : Valuation τ sig (Elt F)) (e : Fin 800000) :
    (StableHlo.after hostOps0 G (Proc.devRef .tc main_v3) : S800000.Idx → BitVec 32) (ix1 e)
      = (G (Proc.devRef .tc main_arg4) : S2x800000.Idx → BitVec 32) (ix2 (1 : Fin 2) e) := by
  simp (disch := decide) only [StableHlo.after_cons, StableHlo.after_nil, StableHlo.nullary_result', StableHlo.unary_result', StableHlo.binary_result', StableHlo.ternary_result', StableHlo.reshape_result', nary3_result, StableHlo.nullary_result_ne', StableHlo.unary_result_ne', StableHlo.binary_result_ne', StableHlo.ternary_result_ne', StableHlo.reshape_result_ne', StableHlo.nary_result_ne']
  exact idxrow_apply 1 (by omega) _ _ _ e

/-- Stretch 0: every source word is some entry of the edge index. -/
private theorem st0_v1_ex (G : Valuation τ sig (Elt F)) (i : S800000.Idx) :
    ∃ i', (StableHlo.after hostOps0 G (Proc.devRef .tc main_v1) : S800000.Idx → BitVec 32) i
      = (G (Proc.devRef .tc main_arg4) : S2x800000.Idx → BitVec 32) i' := by
  simp (disch := decide) only [StableHlo.after_cons, StableHlo.after_nil, StableHlo.nullary_result', StableHlo.unary_result', StableHlo.binary_result', StableHlo.ternary_result', StableHlo.reshape_result', nary3_result, StableHlo.nullary_result_ne', StableHlo.unary_result_ne', StableHlo.binary_result_ne', StableHlo.ternary_result_ne', StableHlo.reshape_result_ne', StableHlo.nary_result_ne']
  exact ⟨_, rfl⟩

/-- Stretch 0: every destination word is some entry of the edge index. -/
private theorem st0_v3_ex (G : Valuation τ sig (Elt F)) (i : S800000.Idx) :
    ∃ i', (StableHlo.after hostOps0 G (Proc.devRef .tc main_v3) : S800000.Idx → BitVec 32) i
      = (G (Proc.devRef .tc main_arg4) : S2x800000.Idx → BitVec 32) i' := by
  simp (disch := decide) only [StableHlo.after_cons, StableHlo.after_nil, StableHlo.nullary_result', StableHlo.unary_result', StableHlo.binary_result', StableHlo.ternary_result', StableHlo.reshape_result', nary3_result, StableHlo.nullary_result_ne', StableHlo.unary_result_ne', StableHlo.binary_result_ne', StableHlo.ternary_result_ne', StableHlo.reshape_result_ne', StableHlo.nary_result_ne']
  exact ⟨_, rfl⟩

/-- Stretch 1: the rows of the node scalars the index words address. -/
private theorem st1_v4 (G : Valuation τ sig (Elt F))
    (hx : ∀ i, 0 ≤ ((G (Proc.devRef .tc main_v1) : S800000.Idx → BitVec 32) i).toInt
      ∧ ((G (Proc.devRef .tc main_v1) : S800000.Idx → BitVec 32) i).toInt < 50000)
    (e : Fin 800000) (j : Fin 64) :
    (StableHlo.after hostOps0_1 G (Proc.devRef .tc main_v4) : S800000x64.Idx → F .f32) (ix2 e j)
      = (G (Proc.devRef .tc main_arg0) : S50000x64.Idx → F .f32)
          (ix2 (Cert.Gvp.node (Cert.Gvp.wrapW ((G (Proc.devRef .tc main_v1) : S800000.Idx → BitVec 32) (ix1 e)))) j) := by
  simp (disch := decide) only [StableHlo.after_cons, StableHlo.after_nil, StableHlo.nullary_result', StableHlo.unary_result', StableHlo.binary_result', StableHlo.ternary_result', StableHlo.reshape_result', nary3_result, StableHlo.nullary_result_ne', StableHlo.unary_result_ne', StableHlo.binary_result_ne', StableHlo.ternary_result_ne', StableHlo.reshape_result_ne', StableHlo.nary_result_ne']
  simp only [ofBuf_toBuf]
  rw [toBuf_v4_apply]
  have hx' : ∀ i, 0 ≤ ((((StableHlo.TRef.of main_v1 : StableHlo.TRef sig ⟨S800000, .i32⟩).ofBuf (G (Proc.devRef .tc main_v1))) : S800000.Idx → BitVec 32) i).toInt
      ∧ ((((StableHlo.TRef.of main_v1 : StableHlo.TRef sig ⟨S800000, .i32⟩).ofBuf (G (Proc.devRef .tc main_v1))) : S800000.Idx → BitVec 32) i).toInt < 50000 := fun i => by
    rw [ofBuf_v1]; exact hx i
  refine (take2_apply ((StableHlo.TRef.of main_v1 : StableHlo.TRef sig ⟨S800000, .i32⟩).ofBuf (G (Proc.devRef .tc main_v1))) ((StableHlo.TRef.of main_arg0 : StableHlo.TRef sig ⟨S50000x64, .f32⟩).ofBuf (G (Proc.devRef .tc main_arg0))) _ hx' e j).trans ?_
  rw [ofBuf_v1, ofBuf_arg0]

/-- Stretch 2: the rows of the node scalars the index words address. -/
private theorem st2_v5 (G : Valuation τ sig (Elt F))
    (hx : ∀ i, 0 ≤ ((G (Proc.devRef .tc main_v3) : S800000.Idx → BitVec 32) i).toInt
      ∧ ((G (Proc.devRef .tc main_v3) : S800000.Idx → BitVec 32) i).toInt < 50000)
    (e : Fin 800000) (j : Fin 64) :
    (StableHlo.after hostOps0_2 G (Proc.devRef .tc main_v5) : S800000x64.Idx → F .f32) (ix2 e j)
      = (G (Proc.devRef .tc main_arg0) : S50000x64.Idx → F .f32)
          (ix2 (Cert.Gvp.node (Cert.Gvp.wrapW ((G (Proc.devRef .tc main_v3) : S800000.Idx → BitVec 32) (ix1 e)))) j) := by
  simp (disch := decide) only [StableHlo.after_cons, StableHlo.after_nil, StableHlo.nullary_result', StableHlo.unary_result', StableHlo.binary_result', StableHlo.ternary_result', StableHlo.reshape_result', nary3_result, StableHlo.nullary_result_ne', StableHlo.unary_result_ne', StableHlo.binary_result_ne', StableHlo.ternary_result_ne', StableHlo.reshape_result_ne', StableHlo.nary_result_ne']
  simp only [ofBuf_toBuf]
  rw [toBuf_v5_apply]
  have hx' : ∀ i, 0 ≤ ((((StableHlo.TRef.of main_v3 : StableHlo.TRef sig ⟨S800000, .i32⟩).ofBuf (G (Proc.devRef .tc main_v3))) : S800000.Idx → BitVec 32) i).toInt
      ∧ ((((StableHlo.TRef.of main_v3 : StableHlo.TRef sig ⟨S800000, .i32⟩).ofBuf (G (Proc.devRef .tc main_v3))) : S800000.Idx → BitVec 32) i).toInt < 50000 := fun i => by
    rw [ofBuf_v3]; exact hx i
  refine (take2_apply ((StableHlo.TRef.of main_v3 : StableHlo.TRef sig ⟨S800000, .i32⟩).ofBuf (G (Proc.devRef .tc main_v3))) ((StableHlo.TRef.of main_arg0 : StableHlo.TRef sig ⟨S50000x64, .f32⟩).ofBuf (G (Proc.devRef .tc main_arg0))) _ hx' e j).trans ?_
  rw [ofBuf_v3, ofBuf_arg0]

/-- Stretch 3: the rows of the node vectors the index words address. -/
private theorem st3_v6 (G : Valuation τ sig (Elt F))
    (hx : ∀ i, 0 ≤ ((G (Proc.devRef .tc main_v1) : S800000.Idx → BitVec 32) i).toInt
      ∧ ((G (Proc.devRef .tc main_v1) : S800000.Idx → BitVec 32) i).toInt < 50000)
    (e : Fin 800000) (r : Fin 3) (j : Fin 8) :
    (StableHlo.after hostOps0_3 G (Proc.devRef .tc main_v6) : S800000x3x8.Idx → F .f32) (ix3 e r j)
      = (G (Proc.devRef .tc main_arg1) : S50000x3x8.Idx → F .f32)
          (ix3 (Cert.Gvp.node (Cert.Gvp.wrapW ((G (Proc.devRef .tc main_v1) : S800000.Idx → BitVec 32) (ix1 e)))) r j) := by
  simp (disch := decide) only [StableHlo.after_cons, StableHlo.after_nil, StableHlo.nullary_result', StableHlo.unary_result', StableHlo.binary_result', StableHlo.ternary_result', StableHlo.reshape_result', nary3_result, StableHlo.nullary_result_ne', StableHlo.unary_result_ne', StableHlo.binary_result_ne', StableHlo.ternary_result_ne', StableHlo.reshape_result_ne', StableHlo.nary_result_ne']
  simp only [ofBuf_toBuf]
  rw [toBuf_v6_apply]
  have hx' : ∀ i, 0 ≤ ((((StableHlo.TRef.of main_v1 : StableHlo.TRef sig ⟨S800000, .i32⟩).ofBuf (G (Proc.devRef .tc main_v1))) : S800000.Idx → BitVec 32) i).toInt
      ∧ ((((StableHlo.TRef.of main_v1 : StableHlo.TRef sig ⟨S800000, .i32⟩).ofBuf (G (Proc.devRef .tc main_v1))) : S800000.Idx → BitVec 32) i).toInt < 50000 := fun i => by
    rw [ofBuf_v1]; exact hx i
  refine (take3_apply ((StableHlo.TRef.of main_v1 : StableHlo.TRef sig ⟨S800000, .i32⟩).ofBuf (G (Proc.devRef .tc main_v1))) ((StableHlo.TRef.of main_arg1 : StableHlo.TRef sig ⟨S50000x3x8, .f32⟩).ofBuf (G (Proc.devRef .tc main_arg1))) _ hx' e r j).trans ?_
  rw [ofBuf_v1, ofBuf_arg1]

/-- Stretch 5: the rows of the node vectors the index words address. -/
private theorem st5_v8 (G : Valuation τ sig (Elt F))
    (hx : ∀ i, 0 ≤ ((G (Proc.devRef .tc main_v3) : S800000.Idx → BitVec 32) i).toInt
      ∧ ((G (Proc.devRef .tc main_v3) : S800000.Idx → BitVec 32) i).toInt < 50000)
    (e : Fin 800000) (r : Fin 3) (j : Fin 8) :
    (StableHlo.after hostOps0_5 G (Proc.devRef .tc main_v8) : S800000x3x8.Idx → F .f32) (ix3 e r j)
      = (G (Proc.devRef .tc main_arg1) : S50000x3x8.Idx → F .f32)
          (ix3 (Cert.Gvp.node (Cert.Gvp.wrapW ((G (Proc.devRef .tc main_v3) : S800000.Idx → BitVec 32) (ix1 e)))) r j) := by
  simp (disch := decide) only [StableHlo.after_cons, StableHlo.after_nil, StableHlo.nullary_result', StableHlo.unary_result', StableHlo.binary_result', StableHlo.ternary_result', StableHlo.reshape_result', nary3_result, StableHlo.nullary_result_ne', StableHlo.unary_result_ne', StableHlo.binary_result_ne', StableHlo.ternary_result_ne', StableHlo.reshape_result_ne', StableHlo.nary_result_ne']
  simp only [ofBuf_toBuf]
  rw [toBuf_v8_apply]
  have hx' : ∀ i, 0 ≤ ((((StableHlo.TRef.of main_v3 : StableHlo.TRef sig ⟨S800000, .i32⟩).ofBuf (G (Proc.devRef .tc main_v3))) : S800000.Idx → BitVec 32) i).toInt
      ∧ ((((StableHlo.TRef.of main_v3 : StableHlo.TRef sig ⟨S800000, .i32⟩).ofBuf (G (Proc.devRef .tc main_v3))) : S800000.Idx → BitVec 32) i).toInt < 50000 := fun i => by
    rw [ofBuf_v3]; exact hx i
  refine (take3_apply ((StableHlo.TRef.of main_v3 : StableHlo.TRef sig ⟨S800000, .i32⟩).ofBuf (G (Proc.devRef .tc main_v3))) ((StableHlo.TRef.of main_arg1 : StableHlo.TRef sig ⟨S50000x3x8, .f32⟩).ofBuf (G (Proc.devRef .tc main_arg1))) _ hx' e r j).trans ?_
  rw [ofBuf_v3, ofBuf_arg1]
/-- Stretch 4: the source vectors flattened. -/
private theorem st4_v7 (G : Valuation τ sig (Elt F)) (e : Fin 800000) (r : Fin 3) (q : Fin 8) :
    (StableHlo.after hostOps0_4 G (Proc.devRef .tc main_v7) : S800000x24.Idx → F .f32) (ix2 e (⟨8 * r.val + q.val, by omega⟩ : Fin 24))
      = (G (Proc.devRef .tc main_v6) : S800000x3x8.Idx → F .f32) (ix3 e r q) := by
  simp (disch := decide) only [StableHlo.after_cons, StableHlo.after_nil, StableHlo.nullary_result', StableHlo.unary_result', StableHlo.binary_result', StableHlo.ternary_result', StableHlo.reshape_result', nary3_result, StableHlo.nullary_result_ne', StableHlo.unary_result_ne', StableHlo.binary_result_ne', StableHlo.ternary_result_ne', StableHlo.reshape_result_ne', StableHlo.nary_result_ne']
  exact flat24_apply _ _ e r q

end Stage2

section Stage6

/-- Stretch 6: the scalar message array is the three pieces side by side. -/
private theorem st6_v12 (G : Valuation τ sig (Elt Ideal)) (e : Fin 800000) (j : Fin 144) :
    (StableHlo.after hostOps0_6 G (Proc.devRef .tc main_v12) : S800000x144.Idx → EReal) (ix2 e j)
      = if h1 : j.val < 64 then (G (Proc.devRef .tc main_v4) : S800000x64.Idx → EReal) (ix2 e ⟨j.val, h1⟩)
        else if h2 : j.val < 128 then (G (Proc.devRef .tc main_v5) : S800000x64.Idx → EReal) (ix2 e ⟨j.val - 64, by omega⟩)
        else (G (Proc.devRef .tc main_arg2) : S800000x16.Idx → EReal) (ix2 e ⟨j.val - 128, by omega⟩) := by
  simp only [StableHlo.after_cons, StableHlo.after_nil]
  repeat (first
    | rw [StableHlo.unary_result] | rw [StableHlo.reshape_result] | rw [nary3_result]
    | (rw [StableHlo.unary_result_ne]; rotate_left; decide)
    | (rw [StableHlo.reshape_result_ne]; rotate_left; decide)
    | (rw [StableHlo.nary_result_ne]; rotate_left; decide))
  rw [truncf_apply]
  exact cat144_apply _ _ _ e j

set_option maxHeartbeats 4000000 in
/-- Stretch 6: the vector message array, per spatial row the source, destination and edge entries. -/
private theorem st6_v26 (G : Valuation τ sig (Elt Ideal)) (e : Fin 800000) (r : Fin 3) (d : Fin 17) :
    (StableHlo.after hostOps0_6 G (Proc.devRef .tc main_v26) : S800000x51.Idx → EReal) (ix2 e (⟨17 * r.val + d.val, by omega⟩ : Fin 51))
      = if h1 : d.val < 8 then (G (Proc.devRef .tc main_v7) : S800000x24.Idx → EReal) (ix2 e (⟨8 * r.val + d.val, by omega⟩ : Fin 24))
        else if h2 : d.val < 16 then (G (Proc.devRef .tc main_v8) : S800000x3x8.Idx → EReal) (ix3 e r ⟨d.val - 8, by omega⟩)
        else (G (Proc.devRef .tc main_arg3) : S800000x3x1.Idx → EReal) (ix3 e r (0 : Fin 1)) := by
  simp only [StableHlo.after_cons, StableHlo.after_nil]
  iterate 6 (rw [StableHlo.reshape_result_ne]; rotate_left; decide)
  rw [StableHlo.unary_result, nary3_result]
  repeat (first | rw [nary3_result] | (rw [StableHlo.nary_result_ne]; rotate_left; decide))
  repeat (first | rw [StableHlo.unary_result] | (rw [StableHlo.unary_result_ne]; rotate_left; decide))
  iterate 3 (rw [StableHlo.nary_result_ne]; rotate_left; decide)
  repeat (first | rw [StableHlo.reshape_result] | (rw [StableHlo.reshape_result_ne]; rotate_left; decide))
  exact vcat_apply (G (Proc.devRef .tc main_v7)) (G (Proc.devRef .tc main_v8)) (G (Proc.devRef .tc main_arg3)) e r d

private theorem st6_v27 (G : Valuation τ sig (Elt Ideal)) (j : Fin 64) :
    (StableHlo.after hostOps0_6 G (Proc.devRef .tc main_v27) : S1x64.Idx → EReal) (ix2 (0 : Fin 1) j)
      = (G (Proc.devRef .tc main_arg7) : S64.Idx → EReal) (ix1 j) := by
  simp only [StableHlo.after_cons, StableHlo.after_nil]
  repeat (first
    | rw [StableHlo.unary_result] | rw [StableHlo.reshape_result] | rw [nary3_result]
    | (rw [StableHlo.unary_result_ne]; rotate_left; decide)
    | (rw [StableHlo.reshape_result_ne]; rotate_left; decide)
    | (rw [StableHlo.nary_result_ne]; rotate_left; decide))
  exact row_apply (G (Proc.devRef .tc main_arg7)) _ j

private theorem st6_v28 (G : Valuation τ sig (Elt Ideal)) (j : Fin 8) :
    (StableHlo.after hostOps0_6 G (Proc.devRef .tc main_v28) : S1x8.Idx → EReal) (ix2 (0 : Fin 1) j)
      = (G (Proc.devRef .tc main_arg10) : S8.Idx → EReal) (ix1 j) := by
  simp only [StableHlo.after_cons, StableHlo.after_nil]
  repeat (first
    | rw [StableHlo.unary_result] | rw [StableHlo.reshape_result] | rw [nary3_result]
    | (rw [StableHlo.unary_result_ne]; rotate_left; decide)
    | (rw [StableHlo.reshape_result_ne]; rotate_left; decide)
    | (rw [StableHlo.nary_result_ne]; rotate_left; decide))
  exact row_apply (G (Proc.devRef .tc main_arg10)) _ j

private theorem st6_v29 (G : Valuation τ sig (Elt Ideal)) (j : Fin 64) :
    (StableHlo.after hostOps0_6 G (Proc.devRef .tc main_v29) : S1x64.Idx → EReal) (ix2 (0 : Fin 1) j)
      = (G (Proc.devRef .tc main_arg13) : S64.Idx → EReal) (ix1 j) := by
  simp only [StableHlo.after_cons, StableHlo.after_nil]
  repeat (first
    | rw [StableHlo.unary_result] | rw [StableHlo.reshape_result] | rw [nary3_result]
    | (rw [StableHlo.unary_result_ne]; rotate_left; decide)
    | (rw [StableHlo.reshape_result_ne]; rotate_left; decide)
    | (rw [StableHlo.nary_result_ne]; rotate_left; decide))
  exact row_apply (G (Proc.devRef .tc main_arg13)) _ j

private theorem st6_v30 (G : Valuation τ sig (Elt Ideal)) (j : Fin 8) :
    (StableHlo.after hostOps0_6 G (Proc.devRef .tc main_v30) : S1x8.Idx → EReal) (ix2 (0 : Fin 1) j)
      = (G (Proc.devRef .tc main_arg16) : S8.Idx → EReal) (ix1 j) := by
  simp only [StableHlo.after_cons, StableHlo.after_nil]
  repeat (first
    | rw [StableHlo.unary_result] | rw [StableHlo.reshape_result] | rw [nary3_result]
    | (rw [StableHlo.unary_result_ne]; rotate_left; decide)
    | (rw [StableHlo.reshape_result_ne]; rotate_left; decide)
    | (rw [StableHlo.nary_result_ne]; rotate_left; decide))
  exact row_apply (G (Proc.devRef .tc main_arg16)) _ j

private theorem st6_v31 (G : Valuation τ sig (Elt Ideal)) (j : Fin 64) :
    (StableHlo.after hostOps0_6 G (Proc.devRef .tc main_v31) : S1x64.Idx → EReal) (ix2 (0 : Fin 1) j)
      = (G (Proc.devRef .tc main_arg19) : S64.Idx → EReal) (ix1 j) := by
  simp only [StableHlo.after_cons, StableHlo.after_nil]
  repeat (first
    | rw [StableHlo.unary_result] | rw [StableHlo.reshape_result] | rw [nary3_result]
    | (rw [StableHlo.unary_result_ne]; rotate_left; decide)
    | (rw [StableHlo.reshape_result_ne]; rotate_left; decide)
    | (rw [StableHlo.nary_result_ne]; rotate_left; decide))
  exact row_apply (G (Proc.devRef .tc main_arg19)) _ j

private theorem st6_v32 (G : Valuation τ sig (Elt Ideal)) (j : Fin 8) :
    (StableHlo.after hostOps0_6 G (Proc.devRef .tc main_v32) : S1x8.Idx → EReal) (ix2 (0 : Fin 1) j)
      = (G (Proc.devRef .tc main_arg22) : S8.Idx → EReal) (ix1 j) := by
  simp only [StableHlo.after_cons, StableHlo.after_nil]
  repeat (first
    | rw [StableHlo.unary_result] | rw [StableHlo.reshape_result] | rw [nary3_result]
    | (rw [StableHlo.unary_result_ne]; rotate_left; decide)
    | (rw [StableHlo.reshape_result_ne]; rotate_left; decide)
    | (rw [StableHlo.nary_result_ne]; rotate_left; decide))
  exact row_apply (G (Proc.devRef .tc main_arg22)) _ j

end Stage6

/-! ## The contents the region finds, from the launch contents -/

section Chain

variable (M : Valuation τ sig (Elt Ideal))

local notation "G0" => StableHlo.after hostOps0 M
local notation "G1" => StableHlo.after hostOps0_1 (StableHlo.after hostOps0 M)
local notation "G2" => StableHlo.after hostOps0_2 (StableHlo.after hostOps0_1 (StableHlo.after hostOps0 M))
local notation "G3" => StableHlo.after hostOps0_3 (StableHlo.after hostOps0_2 (StableHlo.after hostOps0_1 (StableHlo.after hostOps0 M)))
local notation "G4" => StableHlo.after hostOps0_4 (StableHlo.after hostOps0_3 (StableHlo.after hostOps0_2 (StableHlo.after hostOps0_1 (StableHlo.after hostOps0 M))))
local notation "G5" => StableHlo.after hostOps0_5 (StableHlo.after hostOps0_4 (StableHlo.after hostOps0_3 (StableHlo.after hostOps0_2 (StableHlo.after hostOps0_1 (StableHlo.after hostOps0 M)))))

/-- The source words lie in range. -/
private theorem rng1 (hM : (∀ i : S2x800000.Idx, 0 ≤ ((M (Proc.devRef .tc main_arg4) : S2x800000.Idx → BitVec 32) i).toInt ∧ ((M (Proc.devRef .tc main_arg4) : S2x800000.Idx → BitVec 32) i).toInt < 50000)) (i : S800000.Idx) :
    0 ≤ ((G0 (Proc.devRef .tc main_v1) : S800000.Idx → BitVec 32) i).toInt
      ∧ ((G0 (Proc.devRef .tc main_v1) : S800000.Idx → BitVec 32) i).toInt < 50000 := by
  obtain ⟨i', hi'⟩ := st0_v1_ex M i
  rw [hi']; exact hM i'

/-- The destination words lie in range. -/
private theorem rng3 (hM : (∀ i : S2x800000.Idx, 0 ≤ ((M (Proc.devRef .tc main_arg4) : S2x800000.Idx → BitVec 32) i).toInt ∧ ((M (Proc.devRef .tc main_arg4) : S2x800000.Idx → BitVec 32) i).toInt < 50000)) (i : S800000.Idx) :
    0 ≤ ((G0 (Proc.devRef .tc main_v3) : S800000.Idx → BitVec 32) i).toInt
      ∧ ((G0 (Proc.devRef .tc main_v3) : S800000.Idx → BitVec 32) i).toInt < 50000 := by
  obtain ⟨i', hi'⟩ := st0_v3_ex M i
  rw [hi']; exact hM i'

/-- The gathered source scalars, as the region finds them. -/
private theorem g_v4 (hM : (∀ i : S2x800000.Idx, 0 ≤ ((M (Proc.devRef .tc main_arg4) : S2x800000.Idx → BitVec 32) i).toInt ∧ ((M (Proc.devRef .tc main_arg4) : S2x800000.Idx → BitVec 32) i).toInt < 50000)) (e : Fin 800000) (j : Fin 64) :
    (G5 (Proc.devRef .tc main_v4) : S800000x64.Idx → EReal) (ix2 e j)
      = (M (Proc.devRef .tc main_arg0) : S50000x64.Idx → EReal) (ix2 (Cert.Gvp.node (Cert.Gvp.wrapW ((M (Proc.devRef .tc main_arg4) : S2x800000.Idx → BitVec 32) (ix2 (0 : Fin 2) e)))) j) := by
  rw [(keep5 G4 main_v4 (by decide)).trans ((keep4 G3 main_v4 (by decide)).trans ((keep3 G2 main_v4 (by decide)).trans ((keep2 G1 main_v4 (by decide))))), st1_v4 G0 (rng1 M hM) e j, keep0 M main_arg0 (by decide), st0_v1 M e]

/-- The gathered destination scalars. -/
private theorem g_v5 (hM : (∀ i : S2x800000.Idx, 0 ≤ ((M (Proc.devRef .tc main_arg4) : S2x800000.Idx → BitVec 32) i).toInt ∧ ((M (Proc.devRef .tc main_arg4) : S2x800000.Idx → BitVec 32) i).toInt < 50000)) (e : Fin 800000) (j : Fin 64) :
    (G5 (Proc.devRef .tc main_v5) : S800000x64.Idx → EReal) (ix2 e j)
      = (M (Proc.devRef .tc main_arg0) : S50000x64.Idx → EReal) (ix2 (Cert.Gvp.node (Cert.Gvp.wrapW ((M (Proc.devRef .tc main_arg4) : S2x800000.Idx → BitVec 32) (ix2 (1 : Fin 2) e)))) j) := by
  have hx : ∀ i, 0 ≤ ((G1 (Proc.devRef .tc main_v3) : S800000.Idx → BitVec 32) i).toInt
      ∧ ((G1 (Proc.devRef .tc main_v3) : S800000.Idx → BitVec 32) i).toInt < 50000 := fun i => by
    rw [keep1 G0 main_v3 (by decide)]; exact rng3 M hM i
  rw [(keep5 G4 main_v5 (by decide)).trans ((keep4 G3 main_v5 (by decide)).trans ((keep3 G2 main_v5 (by decide)))), st2_v5 G1 hx e j, (keep1 G0 main_arg0 (by decide)).trans ((keep0 M main_arg0 (by decide))), keep1 G0 main_v3 (by decide), st0_v3 M e]

/-- The edge scalars are untouched. -/
private theorem g_arg2 : G5 (Proc.devRef .tc main_arg2) = M (Proc.devRef .tc main_arg2) :=
  (keep5 G4 main_arg2 (by decide)).trans ((keep4 G3 main_arg2 (by decide)).trans ((keep3 G2 main_arg2 (by decide)).trans ((keep2 G1 main_arg2 (by decide)).trans ((keep1 G0 main_arg2 (by decide)).trans ((keep0 M main_arg2 (by decide)))))))

/-- The gathered source vectors, flattened. -/
private theorem g_v7 (hM : (∀ i : S2x800000.Idx, 0 ≤ ((M (Proc.devRef .tc main_arg4) : S2x800000.Idx → BitVec 32) i).toInt ∧ ((M (Proc.devRef .tc main_arg4) : S2x800000.Idx → BitVec 32) i).toInt < 50000)) (e : Fin 800000) (r : Fin 3) (q : Fin 8) :
    (G5 (Proc.devRef .tc main_v7) : S800000x24.Idx → EReal) (ix2 e (⟨8 * r.val + q.val, by omega⟩ : Fin 24))
      = (M (Proc.devRef .tc main_arg1) : S50000x3x8.Idx → EReal) (ix3 (Cert.Gvp.node (Cert.Gvp.wrapW ((M (Proc.devRef .tc main_arg4) : S2x800000.Idx → BitVec 32) (ix2 (0 : Fin 2) e)))) r q) := by
  have hx : ∀ i, 0 ≤ ((G2 (Proc.devRef .tc main_v1) : S800000.Idx → BitVec 32) i).toInt
      ∧ ((G2 (Proc.devRef .tc main_v1) : S800000.Idx → BitVec 32) i).toInt < 50000 := fun i => by
    rw [(keep2 G1 main_v1 (by decide)).trans ((keep1 G0 main_v1 (by decide)))]; exact rng1 M hM i
  rw [keep5 G4 main_v7 (by decide), st4_v7 G3 e r q, st3_v6 G2 hx e r q, (keep2 G1 main_arg1 (by decide)).trans ((keep1 G0 main_arg1 (by decide)).trans ((keep0 M main_arg1 (by decide)))), (keep2 G1 main_v1 (by decide)).trans ((keep1 G0 main_v1 (by decide))), st0_v1 M e]

/-- The gathered destination vectors. -/
private theorem g_v8 (hM : (∀ i : S2x800000.Idx, 0 ≤ ((M (Proc.devRef .tc main_arg4) : S2x800000.Idx → BitVec 32) i).toInt ∧ ((M (Proc.devRef .tc main_arg4) : S2x800000.Idx → BitVec 32) i).toInt < 50000)) (e : Fin 800000) (r : Fin 3) (q : Fin 8) :
    (G5 (Proc.devRef .tc main_v8) : S800000x3x8.Idx → EReal) (ix3 e r q)
      = (M (Proc.devRef .tc main_arg1) : S50000x3x8.Idx → EReal) (ix3 (Cert.Gvp.node (Cert.Gvp.wrapW ((M (Proc.devRef .tc main_arg4) : S2x800000.Idx → BitVec 32) (ix2 (1 : Fin 2) e)))) r q) := by
  have hx : ∀ i, 0 ≤ ((G4 (Proc.devRef .tc main_v3) : S800000.Idx → BitVec 32) i).toInt
      ∧ ((G4 (Proc.devRef .tc main_v3) : S800000.Idx → BitVec 32) i).toInt < 50000 := fun i => by
    rw [(keep4 G3 main_v3 (by decide)).trans ((keep3 G2 main_v3 (by decide)).trans ((keep2 G1 main_v3 (by decide)).trans ((keep1 G0 main_v3 (by decide)))))]; exact rng3 M hM i
  rw [st5_v8 G4 hx e r q, (keep4 G3 main_arg1 (by decide)).trans ((keep3 G2 main_arg1 (by decide)).trans ((keep2 G1 main_arg1 (by decide)).trans ((keep1 G0 main_arg1 (by decide)).trans ((keep0 M main_arg1 (by decide)))))), (keep4 G3 main_v3 (by decide)).trans ((keep3 G2 main_v3 (by decide)).trans ((keep2 G1 main_v3 (by decide)).trans ((keep1 G0 main_v3 (by decide))))), st0_v3 M e]

/-- The edge vectors are untouched. -/
private theorem g_arg3 : G5 (Proc.devRef .tc main_arg3) = M (Proc.devRef .tc main_arg3) :=
  (keep5 G4 main_arg3 (by decide)).trans ((keep4 G3 main_arg3 (by decide)).trans ((keep3 G2 main_arg3 (by decide)).trans ((keep2 G1 main_arg3 (by decide)).trans ((keep1 G0 main_arg3 (by decide)).trans ((keep0 M main_arg3 (by decide)))))))

/-- The scalar message array at `(e, j)`, from the launch contents. -/
private theorem scat_of (hM : (∀ i : S2x800000.Idx, 0 ≤ ((M (Proc.devRef .tc main_arg4) : S2x800000.Idx → BitVec 32) i).toInt ∧ ((M (Proc.devRef .tc main_arg4) : S2x800000.Idx → BitVec 32) i).toInt < 50000)) (e : Fin 800000) (j : Fin 144) :
    (StableHlo.after hostOps0_6 G5 (Proc.devRef .tc main_v12) : S800000x144.Idx → EReal) (ix2 e j)
      = Cert.Gvp.edgeS (M (Proc.devRef .tc main_arg0)) (M (Proc.devRef .tc main_arg2)) (M (Proc.devRef .tc main_arg4) : S2x800000.Idx → BitVec 32) e j := by
  rw [st6_v12]
  unfold Cert.Gvp.edgeS Cert.Gvp.rowS
  by_cases h1 : j.val < 64
  · rw [dif_pos h1, dif_pos h1]
    exact g_v4 M hM e ⟨j.val, h1⟩
  · rw [dif_neg h1, dif_neg h1]
    by_cases h2 : j.val < 128
    · rw [dif_pos h2, dif_pos h2]
      exact g_v5 M hM e ⟨j.val - 64, by omega⟩
    · rw [dif_neg h2, dif_neg h2, g_arg2 M]

/-- The vector message array at `(e, 17·r + d)`, from the launch contents. -/
private theorem vcat_of (hM : (∀ i : S2x800000.Idx, 0 ≤ ((M (Proc.devRef .tc main_arg4) : S2x800000.Idx → BitVec 32) i).toInt ∧ ((M (Proc.devRef .tc main_arg4) : S2x800000.Idx → BitVec 32) i).toInt < 50000)) (e : Fin 800000) (r : Fin 3) (d : Fin 17) :
    (StableHlo.after hostOps0_6 G5 (Proc.devRef .tc main_v26) : S800000x51.Idx → EReal) (ix2 e (⟨17 * r.val + d.val, by omega⟩ : Fin 51))
      = Cert.Gvp.edgeV (M (Proc.devRef .tc main_arg1)) (M (Proc.devRef .tc main_arg3)) (M (Proc.devRef .tc main_arg4) : S2x800000.Idx → BitVec 32) e r d := by
  rw [st6_v26]
  unfold Cert.Gvp.edgeV Cert.Gvp.rowV
  by_cases h1 : d.val < 8
  · rw [dif_pos h1, dif_pos h1]
    exact g_v7 M hM e r ⟨d.val, h1⟩
  · rw [dif_neg h1, dif_neg h1]
    by_cases h2 : d.val < 16
    · rw [dif_pos h2, dif_pos h2]
      exact g_v8 M hM e r ⟨d.val - 8, by omega⟩
    · rw [dif_neg h2, dif_neg h2, g_arg3 M]

/-- Bias row 1. -/
private theorem b27_of (j : Fin 64) :
    (StableHlo.after hostOps0_6 G5 (Proc.devRef .tc main_v27) : S1x64.Idx → EReal) (ix2 (0 : Fin 1) j)
      = (M (Proc.devRef .tc main_arg7) : S64.Idx → EReal) (ix1 j) := by
  rw [st6_v27, (keep5 G4 main_arg7 (by decide)).trans ((keep4 G3 main_arg7 (by decide)).trans ((keep3 G2 main_arg7 (by decide)).trans ((keep2 G1 main_arg7 (by decide)).trans ((keep1 G0 main_arg7 (by decide)).trans ((keep0 M main_arg7 (by decide)))))))]

/-- Bias row 2. -/
private theorem b28_of (j : Fin 8) :
    (StableHlo.after hostOps0_6 G5 (Proc.devRef .tc main_v28) : S1x8.Idx → EReal) (ix2 (0 : Fin 1) j)
      = (M (Proc.devRef .tc main_arg10) : S8.Idx → EReal) (ix1 j) := by
  rw [st6_v28, (keep5 G4 main_arg10 (by decide)).trans ((keep4 G3 main_arg10 (by decide)).trans ((keep3 G2 main_arg10 (by decide)).trans ((keep2 G1 main_arg10 (by decide)).trans ((keep1 G0 main_arg10 (by decide)).trans ((keep0 M main_arg10 (by decide)))))))]

/-- Bias row 3. -/
private theorem b29_of (j : Fin 64) :
    (StableHlo.after hostOps0_6 G5 (Proc.devRef .tc main_v29) : S1x64.Idx → EReal) (ix2 (0 : Fin 1) j)
      = (M (Proc.devRef .tc main_arg13) : S64.Idx → EReal) (ix1 j) := by
  rw [st6_v29, (keep5 G4 main_arg13 (by decide)).trans ((keep4 G3 main_arg13 (by decide)).trans ((keep3 G2 main_arg13 (by decide)).trans ((keep2 G1 main_arg13 (by decide)).trans ((keep1 G0 main_arg13 (by decide)).trans ((keep0 M main_arg13 (by decide)))))))]

/-- Bias row 4. -/
private theorem b30_of (j : Fin 8) :
    (StableHlo.after hostOps0_6 G5 (Proc.devRef .tc main_v30) : S1x8.Idx → EReal) (ix2 (0 : Fin 1) j)
      = (M (Proc.devRef .tc main_arg16) : S8.Idx → EReal) (ix1 j) := by
  rw [st6_v30, (keep5 G4 main_arg16 (by decide)).trans ((keep4 G3 main_arg16 (by decide)).trans ((keep3 G2 main_arg16 (by decide)).trans ((keep2 G1 main_arg16 (by decide)).trans ((keep1 G0 main_arg16 (by decide)).trans ((keep0 M main_arg16 (by decide)))))))]

/-- Bias row 5. -/
private theorem b31_of (j : Fin 64) :
    (StableHlo.after hostOps0_6 G5 (Proc.devRef .tc main_v31) : S1x64.Idx → EReal) (ix2 (0 : Fin 1) j)
      = (M (Proc.devRef .tc main_arg19) : S64.Idx → EReal) (ix1 j) := by
  rw [st6_v31, (keep5 G4 main_arg19 (by decide)).trans ((keep4 G3 main_arg19 (by decide)).trans ((keep3 G2 main_arg19 (by decide)).trans ((keep2 G1 main_arg19 (by decide)).trans ((keep1 G0 main_arg19 (by decide)).trans ((keep0 M main_arg19 (by decide)))))))]

/-- Bias row 6. -/
private theorem b32_of (j : Fin 8) :
    (StableHlo.after hostOps0_6 G5 (Proc.devRef .tc main_v32) : S1x8.Idx → EReal) (ix2 (0 : Fin 1) j)
      = (M (Proc.devRef .tc main_arg22) : S8.Idx → EReal) (ix1 j) := by
  rw [st6_v32, (keep5 G4 main_arg22 (by decide)).trans ((keep4 G3 main_arg22 (by decide)).trans ((keep3 G2 main_arg22 (by decide)).trans ((keep2 G1 main_arg22 (by decide)).trans ((keep1 G0 main_arg22 (by decide)).trans ((keep0 M main_arg22 (by decide)))))))]

end Chain

variable (m : (ℓ : Loc nD τ sig) → Buf (Elt Ideal) ℓ) (c : Dev nD)

/-- The scalar message array at `(e, j)`. -/
theorem V_scat (hr : InRange m c) (e : Fin 800000) (j : Fin 144) :
    (V m c main_v12 : S800000x144.Idx → EReal) (ix2 e j)
      = Cert.Gvp.edgeS (m ((c : Thread nD τ).loc main_arg0) : S50000x64.Idx → EReal) (m ((c : Thread nD τ).loc main_arg2) : S800000x16.Idx → EReal) (m ((c : Thread nD τ).loc main_arg4) : S2x800000.Idx → BitVec 32) e j := by
  show (StableHlo.after (List.flatten (pre (F := Ideal))) (fun b => m (c, b)) (Proc.devRef .tc main_v12) : S800000x144.Idx → EReal) (ix2 e j) = _
  rw [V0_stages]
  exact scat_of (fun b => m (c, b)) hr e j

/-- The vector message array at `(e, 17·r + d)`. -/
theorem V_vcat (hr : InRange m c) (e : Fin 800000) (r : Fin 3) (d : Fin 17) :
    (V m c main_v26 : S800000x51.Idx → EReal) (ix2 e (⟨17 * r.val + d.val, by omega⟩ : Fin 51))
      = Cert.Gvp.edgeV (m ((c : Thread nD τ).loc main_arg1) : S50000x3x8.Idx → EReal) (m ((c : Thread nD τ).loc main_arg3) : S800000x3x1.Idx → EReal) (m ((c : Thread nD τ).loc main_arg4) : S2x800000.Idx → BitVec 32) e r d := by
  show (StableHlo.after (List.flatten (pre (F := Ideal))) (fun b => m (c, b)) (Proc.devRef .tc main_v26) : S800000x51.Idx → EReal) (ix2 e (⟨17 * r.val + d.val, by omega⟩ : Fin 51)) = _
  rw [V0_stages]
  exact vcat_of (fun b => m (c, b)) hr e r d

/-- The six bias rows are the bias arrays. -/
theorem V_main_v27_apply (j : Fin 64) :
    (V m c main_v27 : S1x64.Idx → EReal) (ix2 (0 : Fin 1) j) = (m ((c : Thread nD τ).loc main_arg7) : S64.Idx → EReal) (ix1 j) := by
  show (StableHlo.after (List.flatten (pre (F := Ideal))) (fun b => m (c, b)) (Proc.devRef .tc main_v27) : S1x64.Idx → EReal) (ix2 (0 : Fin 1) j) = _
  rw [V0_stages]
  exact b27_of (fun b => m (c, b)) j

theorem V_main_v28_apply (j : Fin 8) :
    (V m c main_v28 : S1x8.Idx → EReal) (ix2 (0 : Fin 1) j) = (m ((c : Thread nD τ).loc main_arg10) : S8.Idx → EReal) (ix1 j) := by
  show (StableHlo.after (List.flatten (pre (F := Ideal))) (fun b => m (c, b)) (Proc.devRef .tc main_v28) : S1x8.Idx → EReal) (ix2 (0 : Fin 1) j) = _
  rw [V0_stages]
  exact b28_of (fun b => m (c, b)) j

theorem V_main_v29_apply (j : Fin 64) :
    (V m c main_v29 : S1x64.Idx → EReal) (ix2 (0 : Fin 1) j) = (m ((c : Thread nD τ).loc main_arg13) : S64.Idx → EReal) (ix1 j) := by
  show (StableHlo.after (List.flatten (pre (F := Ideal))) (fun b => m (c, b)) (Proc.devRef .tc main_v29) : S1x64.Idx → EReal) (ix2 (0 : Fin 1) j) = _
  rw [V0_stages]
  exact b29_of (fun b => m (c, b)) j

theorem V_main_v30_apply (j : Fin 8) :
    (V m c main_v30 : S1x8.Idx → EReal) (ix2 (0 : Fin 1) j) = (m ((c : Thread nD τ).loc main_arg16) : S8.Idx → EReal) (ix1 j) := by
  show (StableHlo.after (List.flatten (pre (F := Ideal))) (fun b => m (c, b)) (Proc.devRef .tc main_v30) : S1x8.Idx → EReal) (ix2 (0 : Fin 1) j) = _
  rw [V0_stages]
  exact b30_of (fun b => m (c, b)) j

theorem V_main_v31_apply (j : Fin 64) :
    (V m c main_v31 : S1x64.Idx → EReal) (ix2 (0 : Fin 1) j) = (m ((c : Thread nD τ).loc main_arg19) : S64.Idx → EReal) (ix1 j) := by
  show (StableHlo.after (List.flatten (pre (F := Ideal))) (fun b => m (c, b)) (Proc.devRef .tc main_v31) : S1x64.Idx → EReal) (ix2 (0 : Fin 1) j) = _
  rw [V0_stages]
  exact b31_of (fun b => m (c, b)) j

theorem V_main_v32_apply (j : Fin 8) :
    (V m c main_v32 : S1x8.Idx → EReal) (ix2 (0 : Fin 1) j) = (m ((c : Thread nD τ).loc main_arg22) : S8.Idx → EReal) (ix1 j) := by
  show (StableHlo.after (List.flatten (pre (F := Ideal))) (fun b => m (c, b)) (Proc.devRef .tc main_v32) : S1x8.Idx → EReal) (ix2 (0 : Fin 1) j) = _
  rw [V0_stages]
  exact b32_of (fun b => m (c, b)) j

end Cert.KernelIdeal.Fr

end
-- ==== Proof.KValueA.lean ====
/-
  The kernel's results as whole arrays.  Grid point `t` writes back rows `4000·t … 4000·t + 3999` of both result
  arrays; row `p` of what it writes is the network of `Cert.Gvp` on edge `4000·t + p`, because the point's input
  blocks are rows `4000·t …` of the two message arrays and the weight windows are the whole weight arrays.  The 200
  points' blocks tile the result arrays, so each ends as one function of the argument arrays: the scalar result is
  `GS`; the vector result, three spatial rows of eight side by side, becomes `GV` under the final reshape.
-/
import proofs.«428393_j44160853737513_2_alg».proof.Proof.Spec
import proofs.«428393_j44160853737513_2_alg».proof.Proof.KArgs
import proofs.«428393_j44160853737513_2_alg».proof.Proof.KBodyVal
import proofs.«428393_j44160853737513_2_alg».proof.Proof.KInputs
import Idealize.ShloMosaic.Lib.Pipeline.Value
import Idealize.ShloMosaic.Lib.ValueLayout
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The scalar result array as a function of the argument arrays. -/
def GSk (c : Dev nD) : S800000x64.Idx → EReal :=
  Cert.Gvp.GS
    (m ((c : Thread nD τ).loc main_arg0) : S50000x64.Idx → EReal)
    (m ((c : Thread nD τ).loc main_arg1) : S50000x3x8.Idx → EReal)
    (m ((c : Thread nD τ).loc main_arg2) : S800000x16.Idx → EReal)
    (m ((c : Thread nD τ).loc main_arg3) : S800000x3x1.Idx → EReal)
    (m ((c : Thread nD τ).loc main_arg4) : S2x800000.Idx → BitVec 32)
    (m ((c : Thread nD τ).loc main_arg5) : S17x17.Idx → EReal)
    (m ((c : Thread nD τ).loc main_arg6) : S161x64.Idx → EReal)
    (m ((c : Thread nD τ).loc main_arg7) : S64.Idx → EReal)
    (m ((c : Thread nD τ).loc main_arg8) : S17x8.Idx → EReal)
    (m ((c : Thread nD τ).loc main_arg9) : S64x8.Idx → EReal)
    (m ((c : Thread nD τ).loc main_arg10) : S8.Idx → EReal)
    (m ((c : Thread nD τ).loc main_arg11) : S8x8.Idx → EReal)
    (m ((c : Thread nD τ).loc main_arg12) : S72x64.Idx → EReal)
    (m ((c : Thread nD τ).loc main_arg13) : S64.Idx → EReal)
    (m ((c : Thread nD τ).loc main_arg14) : S8x8.Idx → EReal)
    (m ((c : Thread nD τ).loc main_arg15) : S64x8.Idx → EReal)
    (m ((c : Thread nD τ).loc main_arg16) : S8.Idx → EReal)
    (m ((c : Thread nD τ).loc main_arg17) : S8x8.Idx → EReal)
    (m ((c : Thread nD τ).loc main_arg18) : S72x64.Idx → EReal)
    (m ((c : Thread nD τ).loc main_arg19) : S64.Idx → EReal)
    (m ((c : Thread nD τ).loc main_arg20) : S8x8.Idx → EReal)
    (m ((c : Thread nD τ).loc main_arg21) : S64x8.Idx → EReal)
    (m ((c : Thread nD τ).loc main_arg22) : S8.Idx → EReal)

/-- The vector result array as a function of the argument arrays. -/
def GVk (c : Dev nD) : S800000x3x8.Idx → EReal :=
  Cert.Gvp.GV
    (m ((c : Thread nD τ).loc main_arg0) : S50000x64.Idx → EReal)
    (m ((c : Thread nD τ).loc main_arg1) : S50000x3x8.Idx → EReal)
    (m ((c : Thread nD τ).loc main_arg2) : S800000x16.Idx → EReal)
    (m ((c : Thread nD τ).loc main_arg3) : S800000x3x1.Idx → EReal)
    (m ((c : Thread nD τ).loc main_arg4) : S2x800000.Idx → BitVec 32)
    (m ((c : Thread nD τ).loc main_arg5) : S17x17.Idx → EReal)
    (m ((c : Thread nD τ).loc main_arg6) : S161x64.Idx → EReal)
    (m ((c : Thread nD τ).loc main_arg7) : S64.Idx → EReal)
    (m ((c : Thread nD τ).loc main_arg8) : S17x8.Idx → EReal)
    (m ((c : Thread nD τ).loc main_arg9) : S64x8.Idx → EReal)
    (m ((c : Thread nD τ).loc main_arg10) : S8.Idx → EReal)
    (m ((c : Thread nD τ).loc main_arg11) : S8x8.Idx → EReal)
    (m ((c : Thread nD τ).loc main_arg12) : S72x64.Idx → EReal)
    (m ((c : Thread nD τ).loc main_arg13) : S64.Idx → EReal)
    (m ((c : Thread nD τ).loc main_arg14) : S8x8.Idx → EReal)
    (m ((c : Thread nD τ).loc main_arg15) : S64x8.Idx → EReal)
    (m ((c : Thread nD τ).loc main_arg16) : S8.Idx → EReal)
    (m ((c : Thread nD τ).loc main_arg17) : S8x8.Idx → EReal)
    (m ((c : Thread nD τ).loc main_arg18) : S72x64.Idx → EReal)
    (m ((c : Thread nD τ).loc main_arg19) : S64.Idx → EReal)
    (m ((c : Thread nD τ).loc main_arg20) : S8x8.Idx → EReal)
    (m ((c : Thread nD τ).loc main_arg21) : S64x8.Idx → EReal)
    (m ((c : Thread nD τ).loc main_arg22) : S8.Idx → EReal)

/-- The vector result before the final reshape: column `8·r + o` of row `e` is entry `(e, r, o)`. -/
def GVflat (c : Dev nD) : S800000x24.Idx → EReal := fun i =>
  GVk m c (ix3 (i 0) (⟨(i 1).val / 8, by have h : (i 1).val < 24 := (i 1).isLt; omega⟩ : Fin 3) (⟨(i 1).val % 8, Nat.mod_lt _ (by omega)⟩ : Fin 8))

/-! ## The windows' block index maps, in closed form -/

theorem hz : (![0, 0] : Fin 2 → Nat) = fun _ => 0 := funext fun a => by fin_cases a <;> rfl

/-- The two message windows and the two result windows move one block of 4000 rows per grid point. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_20.index t (0 : Fin 2) = t.val ∧ win0_20.index t (1 : Fin 2) = 0)
    ∧ (win0_21.index t (0 : Fin 2) = t.val ∧ win0_21.index t (1 : Fin 2) = 0) :=
  (by decide +kernel : ∀ t : Fin grid0.N, _)

/-- The weight windows stay on their one block. -/
theorem idx_wts : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0)
    ∧ (win0_17.index t (0 : Fin 2) = 0 ∧ win0_17.index t (1 : Fin 2) = 0)
    ∧ (win0_18.index t (0 : Fin 2) = 0 ∧ win0_18.index t (1 : Fin 2) = 0)
    ∧ (win0_19.index t (0 : Fin 2) = 0 ∧ win0_19.index t (1 : Fin 2) = 0) :=
  (by decide +kernel : ∀ t : Fin grid0.N, _)

theorem t_lt (t : Fin cfg0.N) : t.val < 200 := by have := t.isLt; have h := N_0; simp only [Pipeline.Cfg.N] at this; omega

/-! ## The input blocks of a point, read at an index -/

/-- Row `p` of the scalar message block at point `t` is row `4000·t + p` of the scalar message array. -/
theorem iblk0_apply (c : Dev nD) (t : Fin cfg0.N) (p : Fin 4000) (j : Fin 144) :
    (iblk m c 0 t : S4000x144.Idx → EReal) (ix2 p j)
      = (V m c main_v12 : S800000x144.Idx → EReal) (ix2 (⟨4000 * t.val + p.val, by have := t_lt t; omega⟩ : Fin 800000) j) := by
  obtain ⟨⟨e0, e1⟩, -⟩ := idx_rows t
  unfold iblk
  rw [View.read_apply]
  show (V m c main_v12 : S800000x144.Idx → EReal) _ = _
  congr 1
  funext a; apply Fin.ext
  match a with
  | ⟨0, _⟩ => show win0_0.index t (0 : Fin 2) * 4000 + 1 * p.val = 4000 * t.val + p.val; omega
  | ⟨1, _⟩ => show win0_0.index t (1 : Fin 2) * 144 + 1 * j.val = j.val; omega

/-- Row `p` of the vector message block at point `t` is row `4000·t + p` of the vector message array. -/
theorem iblk1_apply (c : Dev nD) (t : Fin cfg0.N) (p : Fin 4000) (j : Fin 51) :
    (iblk m c 1 t : S4000x51.Idx → EReal) (ix2 p j)
      = (V m c main_v26 : S800000x51.Idx → EReal) (ix2 (⟨4000 * t.val + p.val, by have := t_lt t; omega⟩ : Fin 800000) j) := by
  obtain ⟨-, ⟨e0, e1⟩, -⟩ := idx_rows t
  unfold iblk
  rw [View.read_apply]
  show (V m c main_v26 : S800000x51.Idx → EReal) _ = _
  congr 1
  funext a; apply Fin.ext
  match a with
  | ⟨0, _⟩ => show win0_1.index t (0 : Fin 2) * 4000 + 1 * p.val = 4000 * t.val + p.val; omega
  | ⟨1, _⟩ => show win0_1.index t (1 : Fin 2) * 51 + 1 * j.val = j.val; omega

/-- A weight window's block is the whole weight array. -/
theorem iblk2_apply (c : Dev nD) (t : Fin cfg0.N) (a : Fin 17) (b : Fin 17) :
    (iblk m c 2 t : S17x17.Idx → EReal) (ix2 a b) = (V m c main_arg5 : S17x17.Idx → EReal) (ix2 a b) := by
  obtain ⟨⟨e0, e1⟩, -, -, -, -, -, -, -, -, -, -, -, -, -, -, -, -, -⟩ := idx_wts t
  unfold iblk
  rw [View.read_apply]
  show (V m c main_arg5 : S17x17.Idx → EReal) _ = _
  congr 1
  funext d; apply Fin.ext
  match d with
  | ⟨0, _⟩ => show win0_2.index t (0 : Fin 2) * 17 + 1 * a.val = a.val; omega
  | ⟨1, _⟩ => show win0_2.index t (1 : Fin 2) * 17 + 1 * b.val = b.val; omega

theorem iblk3_apply (c : Dev nD) (t : Fin cfg0.N) (a : Fin 161) (b : Fin 64) :
    (iblk m c 3 t : S161x64.Idx → EReal) (ix2 a b) = (V m c main_arg6 : S161x64.Idx → EReal) (ix2 a b) := by
  obtain ⟨-, ⟨e0, e1⟩, -, -, -, -, -, -, -, -, -, -, -, -, -, -, -, -⟩ := idx_wts t
  unfold iblk
  rw [View.read_apply]
  show (V m c main_arg6 : S161x64.Idx → EReal) _ = _
  congr 1
  funext d; apply Fin.ext
  match d with
  | ⟨0, _⟩ => show win0_3.index t (0 : Fin 2) * 161 + 1 * a.val = a.val; omega
  | ⟨1, _⟩ => show win0_3.index t (1 : Fin 2) * 64 + 1 * b.val = b.val; omega

theorem iblk4_apply (c : Dev nD) (t : Fin cfg0.N) (a : Fin 1) (b : Fin 64) :
    (iblk m c 4 t : S1x64.Idx → EReal) (ix2 a b) = (V m c main_v27 : S1x64.Idx → EReal) (ix2 a b) := by
  obtain ⟨-, -, ⟨e0, e1⟩, -, -, -, -, -, -, -, -, -, -, -, -, -, -, -⟩ := idx_wts t
  unfold iblk
  rw [View.read_apply]
  show (V m c main_v27 : S1x64.Idx → EReal) _ = _
  congr 1
  funext d; apply Fin.ext
  match d with
  | ⟨0, _⟩ => show win0_4.index t (0 : Fin 2) * 1 + 1 * a.val = a.val; omega
  | ⟨1, _⟩ => show win0_4.index t (1 : Fin 2) * 64 + 1 * b.val = b.val; omega

theorem iblk5_apply (c : Dev nD) (t : Fin cfg0.N) (a : Fin 17) (b : Fin 8) :
    (iblk m c 5 t : S17x8.Idx → EReal) (ix2 a b) = (V m c main_arg8 : S17x8.Idx → EReal) (ix2 a b) := by
  obtain ⟨-, -, -, ⟨e0, e1⟩, -, -, -, -, -, -, -, -, -, -, -, -, -, -⟩ := idx_wts t
  unfold iblk
  rw [View.read_apply]
  show (V m c main_arg8 : S17x8.Idx → EReal) _ = _
  congr 1
  funext d; apply Fin.ext
  match d with
  | ⟨0, _⟩ => show win0_5.index t (0 : Fin 2) * 17 + 1 * a.val = a.val; omega
  | ⟨1, _⟩ => show win0_5.index t (1 : Fin 2) * 8 + 1 * b.val = b.val; omega

theorem iblk6_apply (c : Dev nD) (t : Fin cfg0.N) (a : Fin 64) (b : Fin 8) :
    (iblk m c 6 t : S64x8.Idx → EReal) (ix2 a b) = (V m c main_arg9 : S64x8.Idx → EReal) (ix2 a b) := by
  obtain ⟨-, -, -, -, ⟨e0, e1⟩, -, -, -, -, -, -, -, -, -, -, -, -, -⟩ := idx_wts t
  unfold iblk
  rw [View.read_apply]
  show (V m c main_arg9 : S64x8.Idx → EReal) _ = _
  congr 1
  funext d; apply Fin.ext
  match d with
  | ⟨0, _⟩ => show win0_6.index t (0 : Fin 2) * 64 + 1 * a.val = a.val; omega
  | ⟨1, _⟩ => show win0_6.index t (1 : Fin 2) * 8 + 1 * b.val = b.val; omega

theorem iblk7_apply (c : Dev nD) (t : Fin cfg0.N) (a : Fin 1) (b : Fin 8) :
    (iblk m c 7 t : S1x8.Idx → EReal) (ix2 a b) = (V m c main_v28 : S1x8.Idx → EReal) (ix2 a b) := by
  obtain ⟨-, -, -, -, -, ⟨e0, e1⟩, -, -, -, -, -, -, -, -, -, -, -, -⟩ := idx_wts t
  unfold iblk
  rw [View.read_apply]
  show (V m c main_v28 : S1x8.Idx → EReal) _ = _
  congr 1
  funext d; apply Fin.ext
  match d with
  | ⟨0, _⟩ => show win0_7.index t (0 : Fin 2) * 1 + 1 * a.val = a.val; omega
  | ⟨1, _⟩ => show win0_7.index t (1 : Fin 2) * 8 + 1 * b.val = b.val; omega

theorem iblk8_apply (c : Dev nD) (t : Fin cfg0.N) (a : Fin 8) (b : Fin 8) :
    (iblk m c 8 t : S8x8.Idx → EReal) (ix2 a b) = (V m c main_arg11 : S8x8.Idx → EReal) (ix2 a b) := by
  obtain ⟨-, -, -, -, -, -, ⟨e0, e1⟩, -, -, -, -, -, -, -, -, -, -, -⟩ := idx_wts t
  unfold iblk
  rw [View.read_apply]
  show (V m c main_arg11 : S8x8.Idx → EReal) _ = _
  congr 1
  funext d; apply Fin.ext
  match d with
  | ⟨0, _⟩ => show win0_8.index t (0 : Fin 2) * 8 + 1 * a.val = a.val; omega
  | ⟨1, _⟩ => show win0_8.index t (1 : Fin 2) * 8 + 1 * b.val = b.val; omega

theorem iblk9_apply (c : Dev nD) (t : Fin cfg0.N) (a : Fin 72) (b : Fin 64) :
    (iblk m c 9 t : S72x64.Idx → EReal) (ix2 a b) = (V m c main_arg12 : S72x64.Idx → EReal) (ix2 a b) := by
  obtain ⟨-, -, -, -, -, -, -, ⟨e0, e1⟩, -, -, -, -, -, -, -, -, -, -⟩ := idx_wts t
  unfold iblk
  rw [View.read_apply]
  show (V m c main_arg12 : S72x64.Idx → EReal) _ = _
  congr 1
  funext d; apply Fin.ext
  match d with
  | ⟨0, _⟩ => show win0_9.index t (0 : Fin 2) * 72 + 1 * a.val = a.val; omega
  | ⟨1, _⟩ => show win0_9.index t (1 : Fin 2) * 64 + 1 * b.val = b.val; omega

theorem iblk10_apply (c : Dev nD) (t : Fin cfg0.N) (a : Fin 1) (b : Fin 64) :
    (iblk m c 10 t : S1x64.Idx → EReal) (ix2 a b) = (V m c main_v29 : S1x64.Idx → EReal) (ix2 a b) := by
  obtain ⟨-, -, -, -, -, -, -, -, ⟨e0, e1⟩, -, -, -, -, -, -, -, -, -⟩ := idx_wts t
  unfold iblk
  rw [View.read_apply]
  show (V m c main_v29 : S1x64.Idx → EReal) _ = _
  congr 1
  funext d; apply Fin.ext
  match d with
  | ⟨0, _⟩ => show win0_10.index t (0 : Fin 2) * 1 + 1 * a.val = a.val; omega
  | ⟨1, _⟩ => show win0_10.index t (1 : Fin 2) * 64 + 1 * b.val = b.val; omega

theorem iblk11_apply (c : Dev nD) (t : Fin cfg0.N) (a : Fin 8) (b : Fin 8) :
    (iblk m c 11 t : S8x8.Idx → EReal) (ix2 a b) = (V m c main_arg14 : S8x8.Idx → EReal) (ix2 a b) := by
  obtain ⟨-, -, -, -, -, -, -, -, -, ⟨e0, e1⟩, -, -, -, -, -, -, -, -⟩ := idx_wts t
  unfold iblk
  rw [View.read_apply]
  show (V m c main_arg14 : S8x8.Idx → EReal) _ = _
  congr 1
  funext d; apply Fin.ext
  match d with
  | ⟨0, _⟩ => show win0_11.index t (0 : Fin 2) * 8 + 1 * a.val = a.val; omega
  | ⟨1, _⟩ => show win0_11.index t (1 : Fin 2) * 8 + 1 * b.val = b.val; omega

theorem iblk12_apply (c : Dev nD) (t : Fin cfg0.N) (a : Fin 64) (b : Fin 8) :
    (iblk m c 12 t : S64x8.Idx → EReal) (ix2 a b) = (V m c main_arg15 : S64x8.Idx → EReal) (ix2 a b) := by
  obtain ⟨-, -, -, -, -, -, -, -, -, -, ⟨e0, e1⟩, -, -, -, -, -, -, -⟩ := idx_wts t
  unfold iblk
  rw [View.read_apply]
  show (V m c main_arg15 : S64x8.Idx → EReal) _ = _
  congr 1
  funext d; apply Fin.ext
  match d with
  | ⟨0, _⟩ => show win0_12.index t (0 : Fin 2) * 64 + 1 * a.val = a.val; omega
  | ⟨1, _⟩ => show win0_12.index t (1 : Fin 2) * 8 + 1 * b.val = b.val; omega

theorem iblk13_apply (c : Dev nD) (t : Fin cfg0.N) (a : Fin 1) (b : Fin 8) :
    (iblk m c 13 t : S1x8.Idx → EReal) (ix2 a b) = (V m c main_v30 : S1x8.Idx → EReal) (ix2 a b) := by
  obtain ⟨-, -, -, -, -, -, -, -, -, -, -, ⟨e0, e1⟩, -, -, -, -, -, -⟩ := idx_wts t
  unfold iblk
  rw [View.read_apply]
  show (V m c main_v30 : S1x8.Idx → EReal) _ = _
  congr 1
  funext d; apply Fin.ext
  match d with
  | ⟨0, _⟩ => show win0_13.index t (0 : Fin 2) * 1 + 1 * a.val = a.val; omega
  | ⟨1, _⟩ => show win0_13.index t (1 : Fin 2) * 8 + 1 * b.val = b.val; omega

theorem iblk14_apply (c : Dev nD) (t : Fin cfg0.N) (a : Fin 8) (b : Fin 8) :
    (iblk m c 14 t : S8x8.Idx → EReal) (ix2 a b) = (V m c main_arg17 : S8x8.Idx → EReal) (ix2 a b) := by
  obtain ⟨-, -, -, -, -, -, -, -, -, -, -, -, ⟨e0, e1⟩, -, -, -, -, -⟩ := idx_wts t
  unfold iblk
  rw [View.read_apply]
  show (V m c main_arg17 : S8x8.Idx → EReal) _ = _
  congr 1
  funext d; apply Fin.ext
  match d with
  | ⟨0, _⟩ => show win0_14.index t (0 : Fin 2) * 8 + 1 * a.val = a.val; omega
  | ⟨1, _⟩ => show win0_14.index t (1 : Fin 2) * 8 + 1 * b.val = b.val; omega

theorem iblk15_apply (c : Dev nD) (t : Fin cfg0.N) (a : Fin 72) (b : Fin 64) :
    (iblk m c 15 t : S72x64.Idx → EReal) (ix2 a b) = (V m c main_arg18 : S72x64.Idx → EReal) (ix2 a b) := by
  obtain ⟨-, -, -, -, -, -, -, -, -, -, -, -, -, ⟨e0, e1⟩, -, -, -, -⟩ := idx_wts t
  unfold iblk
  rw [View.read_apply]
  show (V m c main_arg18 : S72x64.Idx → EReal) _ = _
  congr 1
  funext d; apply Fin.ext
  match d with
  | ⟨0, _⟩ => show win0_15.index t (0 : Fin 2) * 72 + 1 * a.val = a.val; omega
  | ⟨1, _⟩ => show win0_15.index t (1 : Fin 2) * 64 + 1 * b.val = b.val; omega

theorem iblk16_apply (c : Dev nD) (t : Fin cfg0.N) (a : Fin 1) (b : Fin 64) :
    (iblk m c 16 t : S1x64.Idx → EReal) (ix2 a b) = (V m c main_v31 : S1x64.Idx → EReal) (ix2 a b) := by
  obtain ⟨-, -, -, -, -, -, -, -, -, -, -, -, -, -, ⟨e0, e1⟩, -, -, -⟩ := idx_wts t
  unfold iblk
  rw [View.read_apply]
  show (V m c main_v31 : S1x64.Idx → EReal) _ = _
  congr 1
  funext d; apply Fin.ext
  match d with
  | ⟨0, _⟩ => show win0_16.index t (0 : Fin 2) * 1 + 1 * a.val = a.val; omega
  | ⟨1, _⟩ => show win0_16.index t (1 : Fin 2) * 64 + 1 * b.val = b.val; omega

theorem iblk17_apply (c : Dev nD) (t : Fin cfg0.N) (a : Fin 8) (b : Fin 8) :
    (iblk m c 17 t : S8x8.Idx → EReal) (ix2 a b) = (V m c main_arg20 : S8x8.Idx → EReal) (ix2 a b) := by
  obtain ⟨-, -, -, -, -, -, -, -, -, -, -, -, -, -, -, ⟨e0, e1⟩, -, -⟩ := idx_wts t
  unfold iblk
  rw [View.read_apply]
  show (V m c main_arg20 : S8x8.Idx → EReal) _ = _
  congr 1
  funext d; apply Fin.ext
  match d with
  | ⟨0, _⟩ => show win0_17.index t (0 : Fin 2) * 8 + 1 * a.val = a.val; omega
  | ⟨1, _⟩ => show win0_17.index t (1 : Fin 2) * 8 + 1 * b.val = b.val; omega

theorem iblk18_apply (c : Dev nD) (t : Fin cfg0.N) (a : Fin 64) (b : Fin 8) :
    (iblk m c 18 t : S64x8.Idx → EReal) (ix2 a b) = (V m c main_arg21 : S64x8.Idx → EReal) (ix2 a b) := by
  obtain ⟨-, -, -, -, -, -, -, -, -, -, -, -, -, -, -, -, ⟨e0, e1⟩, -⟩ := idx_wts t
  unfold iblk
  rw [View.read_apply]
  show (V m c main_arg21 : S64x8.Idx → EReal) _ = _
  congr 1
  funext d; apply Fin.ext
  match d with
  | ⟨0, _⟩ => show win0_18.index t (0 : Fin 2) * 64 + 1 * a.val = a.val; omega
  | ⟨1, _⟩ => show win0_18.index t (1 : Fin 2) * 8 + 1 * b.val = b.val; omega

theorem iblk19_apply (c : Dev nD) (t : Fin cfg0.N) (a : Fin 1) (b : Fin 8) :
    (iblk m c 19 t : S1x8.Idx → EReal) (ix2 a b) = (V m c main_v32 : S1x8.Idx → EReal) (ix2 a b) := by
  obtain ⟨-, -, -, -, -, -, -, -, -, -, -, -, -, -, -, -, -, ⟨e0, e1⟩⟩ := idx_wts t
  unfold iblk
  rw [View.read_apply]
  show (V m c main_v32 : S1x8.Idx → EReal) _ = _
  congr 1
  funext d; apply Fin.ext
  match d with
  | ⟨0, _⟩ => show win0_19.index t (0 : Fin 2) * 1 + 1 * a.val = a.val; omega
  | ⟨1, _⟩ => show win0_19.index t (1 : Fin 2) * 8 + 1 * b.val = b.val; omega

/-! ## The layer weights and the message rows a point's body sees -/

variable (c : Dev nD)

theorem W1_of (I : Ins Ideal) (wh : (⟨2, ![17, 17]⟩ : Shape).Idx → EReal) (ws : (⟨2, ![161, 64]⟩ : Shape).Idx → EReal) (bs : (⟨1, ![64]⟩ : Shape).Idx → EReal)
    (wmu : (⟨2, ![17, 8]⟩ : Shape).Idx → EReal) (wg : (⟨2, ![64, 8]⟩ : Shape).Idx → EReal) (bg : (⟨1, ![8]⟩ : Shape).Idx → EReal)
    (h1 : ∀ (d : Fin 17) (k : Fin 17), I.x2 (ix2 d k) = wh (ix2 d k)) (h2 : ∀ (i : Fin 161) (j : Fin 64), I.x3 (ix2 i j) = ws (ix2 i j))
    (h3 : ∀ j : Fin 64, I.x4 (ix2 (0 : Fin 1) j) = bs (ix1 j)) (h4 : ∀ (k : Fin 17) (o : Fin 8), I.x5 (ix2 k o) = wmu (ix2 k o))
    (h5 : ∀ (j : Fin 64) (o : Fin 8), I.x6 (ix2 j o) = wg (ix2 j o)) (h6 : ∀ o : Fin 8, I.x7 (ix2 (0 : Fin 1) o) = bg (ix1 o)) :
    W1 I = Cert.Gvp.mkW wh ws bs wmu wg bg := by
  unfold W1 Cert.Gvp.mkW
  congr 1
  · funext d k; exact h1 d k
  · funext i j; exact h2 i j
  · funext j; exact h3 j
  · funext k o; exact h4 k o
  · funext j o; exact h5 j o
  · funext o; exact h6 o

theorem W2_of (I : Ins Ideal) (wh : (⟨2, ![8, 8]⟩ : Shape).Idx → EReal) (ws : (⟨2, ![72, 64]⟩ : Shape).Idx → EReal) (bs : (⟨1, ![64]⟩ : Shape).Idx → EReal)
    (wmu : (⟨2, ![8, 8]⟩ : Shape).Idx → EReal) (wg : (⟨2, ![64, 8]⟩ : Shape).Idx → EReal) (bg : (⟨1, ![8]⟩ : Shape).Idx → EReal)
    (h1 : ∀ (d : Fin 8) (k : Fin 8), I.x8 (ix2 d k) = wh (ix2 d k)) (h2 : ∀ (i : Fin 72) (j : Fin 64), I.x9 (ix2 i j) = ws (ix2 i j))
    (h3 : ∀ j : Fin 64, I.x10 (ix2 (0 : Fin 1) j) = bs (ix1 j)) (h4 : ∀ (k : Fin 8) (o : Fin 8), I.x11 (ix2 k o) = wmu (ix2 k o))
    (h5 : ∀ (j : Fin 64) (o : Fin 8), I.x12 (ix2 j o) = wg (ix2 j o)) (h6 : ∀ o : Fin 8, I.x13 (ix2 (0 : Fin 1) o) = bg (ix1 o)) :
    W2 I = Cert.Gvp.mkW wh ws bs wmu wg bg := by
  unfold W2 Cert.Gvp.mkW
  congr 1
  · funext d k; exact h1 d k
  · funext i j; exact h2 i j
  · funext j; exact h3 j
  · funext k o; exact h4 k o
  · funext j o; exact h5 j o
  · funext o; exact h6 o

theorem W3_of (I : Ins Ideal) (wh : (⟨2, ![8, 8]⟩ : Shape).Idx → EReal) (ws : (⟨2, ![72, 64]⟩ : Shape).Idx → EReal) (bs : (⟨1, ![64]⟩ : Shape).Idx → EReal)
    (wmu : (⟨2, ![8, 8]⟩ : Shape).Idx → EReal) (wg : (⟨2, ![64, 8]⟩ : Shape).Idx → EReal) (bg : (⟨1, ![8]⟩ : Shape).Idx → EReal)
    (h1 : ∀ (d : Fin 8) (k : Fin 8), I.x14 (ix2 d k) = wh (ix2 d k)) (h2 : ∀ (i : Fin 72) (j : Fin 64), I.x15 (ix2 i j) = ws (ix2 i j))
    (h3 : ∀ j : Fin 64, I.x16 (ix2 (0 : Fin 1) j) = bs (ix1 j)) (h4 : ∀ (k : Fin 8) (o : Fin 8), I.x17 (ix2 k o) = wmu (ix2 k o))
    (h5 : ∀ (j : Fin 64) (o : Fin 8), I.x18 (ix2 j o) = wg (ix2 j o)) (h6 : ∀ o : Fin 8, I.x19 (ix2 (0 : Fin 1) o) = bg (ix1 o)) :
    W3 I = Cert.Gvp.mkW wh ws bs wmu wg bg := by
  unfold W3 Cert.Gvp.mkW
  congr 1
  · funext d k; exact h1 d k
  · funext i j; exact h2 i j
  · funext j; exact h3 j
  · funext k o; exact h4 k o
  · funext j o; exact h5 j o
  · funext o; exact h6 o

theorem W1_eq (t : Fin cfg0.N) :
    W1 (insAt m c t) = Cert.Gvp.mkW (m ((c : Thread nD τ).loc main_arg5) : S17x17.Idx → EReal) (m ((c : Thread nD τ).loc main_arg6) : S161x64.Idx → EReal) (m ((c : Thread nD τ).loc main_arg7) : S64.Idx → EReal) (m ((c : Thread nD τ).loc main_arg8) : S17x8.Idx → EReal) (m ((c : Thread nD τ).loc main_arg9) : S64x8.Idx → EReal) (m ((c : Thread nD τ).loc main_arg10) : S8.Idx → EReal) := by
  apply W1_of
  · intro d k; dsimp only [insAt]; rw [iblk2_apply, V_main_arg5]
  · intro i j; dsimp only [insAt]; rw [iblk3_apply, V_main_arg6]
  · intro j; dsimp only [insAt]; rw [iblk4_apply, V_main_v27_apply]
  · intro k o; dsimp only [insAt]; rw [iblk5_apply, V_main_arg8]
  · intro j o; dsimp only [insAt]; rw [iblk6_apply, V_main_arg9]
  · intro o; dsimp only [insAt]; rw [iblk7_apply, V_main_v28_apply]

theorem W2_eq (t : Fin cfg0.N) :
    W2 (insAt m c t) = Cert.Gvp.mkW (m ((c : Thread nD τ).loc main_arg11) : S8x8.Idx → EReal) (m ((c : Thread nD τ).loc main_arg12) : S72x64.Idx → EReal) (m ((c : Thread nD τ).loc main_arg13) : S64.Idx → EReal) (m ((c : Thread nD τ).loc main_arg14) : S8x8.Idx → EReal) (m ((c : Thread nD τ).loc main_arg15) : S64x8.Idx → EReal) (m ((c : Thread nD τ).loc main_arg16) : S8.Idx → EReal) := by
  apply W2_of
  · intro d k; dsimp only [insAt]; rw [iblk8_apply, V_main_arg11]
  · intro i j; dsimp only [insAt]; rw [iblk9_apply, V_main_arg12]
  · intro j; dsimp only [insAt]; rw [iblk10_apply, V_main_v29_apply]
  · intro k o; dsimp only [insAt]; rw [iblk11_apply, V_main_arg14]
  · intro j o; dsimp only [insAt]; rw [iblk12_apply, V_main_arg15]
  · intro o; dsimp only [insAt]; rw [iblk13_apply, V_main_v30_apply]

theorem W3_eq (t : Fin cfg0.N) :
    W3 (insAt m c t) = Cert.Gvp.mkW (m ((c : Thread nD τ).loc main_arg17) : S8x8.Idx → EReal) (m ((c : Thread nD τ).loc main_arg18) : S72x64.Idx → EReal) (m ((c : Thread nD τ).loc main_arg19) : S64.Idx → EReal) (m ((c : Thread nD τ).loc main_arg20) : S8x8.Idx → EReal) (m ((c : Thread nD τ).loc main_arg21) : S64x8.Idx → EReal) (m ((c : Thread nD τ).loc main_arg22) : S8.Idx → EReal) := by
  apply W3_of
  · intro d k; dsimp only [insAt]; rw [iblk14_apply, V_main_arg17]
  · intro i j; dsimp only [insAt]; rw [iblk15_apply, V_main_arg18]
  · intro j; dsimp only [insAt]; rw [iblk16_apply, V_main_v31_apply]
  · intro k o; dsimp only [insAt]; rw [iblk17_apply, V_main_arg20]
  · intro j o; dsimp only [insAt]; rw [iblk18_apply, V_main_arg21]
  · intro o; dsimp only [insAt]; rw [iblk19_apply, V_main_v32_apply]

/-- Row `p` of point `t`'s scalar message block is edge `4000·t + p`'s scalar message row. -/
theorem bs0_eq (hr : InRange m c) (t : Fin cfg0.N) (p : Fin 4000) :
    bs0 (insAt m c t) p = Cert.Gvp.edgeS (m ((c : Thread nD τ).loc main_arg0) : S50000x64.Idx → EReal) (m ((c : Thread nD τ).loc main_arg2) : S800000x16.Idx → EReal) (m ((c : Thread nD τ).loc main_arg4) : S2x800000.Idx → BitVec 32) (⟨4000 * t.val + p.val, by have := t_lt t; omega⟩ : Fin 800000) := by
  funext j
  unfold bs0
  dsimp only [insAt]
  rw [iblk0_apply, V_scat m c hr]

/-- Row `p` of point `t`'s vector message block holds edge `4000·t + p`'s vector message rows. -/
theorem bv0_eq (hr : InRange m c) (t : Fin cfg0.N) (p : Fin 4000) :
    bv0 (insAt m c t) p = Cert.Gvp.edgeV (m ((c : Thread nD τ).loc main_arg1) : S50000x3x8.Idx → EReal) (m ((c : Thread nD τ).loc main_arg3) : S800000x3x1.Idx → EReal) (m ((c : Thread nD τ).loc main_arg4) : S2x800000.Idx → BitVec 32) (⟨4000 * t.val + p.val, by have := t_lt t; omega⟩ : Fin 800000) := by
  funext r d
  unfold bv0
  dsimp only [insAt]
  rw [iblk1_apply, V_vcat m c hr]

/-! ## What a point writes back -/

/-- Point `t` writes back block `t` of `GSk`. -/
theorem flushed20_eq (hr : InRange m c) (t : Fin cfg0.N) :
    (dats m 0 c).flushed 20 t = ((cfg0.win 20).blk t).view.read (Elt Ideal) (GSk m c) := by
  obtain ⟨-, -, ⟨e0, e1⟩, -⟩ := idx_rows t
  show (cfg0.win 20).cut (grid0.coords t) ((dats m 0 c).after 20 t) = _
  rw [after0_20]
  unfold outS
  rw [View.canon_unit_zero hz]
  funext j
  obtain ⟨p, q, rfl⟩ : ∃ (p : Fin 4000) (q : Fin 64), j = ix2 p q := ⟨j 0, j 1, eq_ix2 j⟩
  rw [View.read_apply]
  have h0 : (((cfg0.win 20).blk t).view.emb (ix2 p q)) 0 = (⟨4000 * t.val + p.val, by have := t_lt t; omega⟩ : Fin 800000) := by
    apply Fin.ext
    show win0_20.index t (0 : Fin 2) * 4000 + 1 * p.val = 4000 * t.val + p.val; omega
  have h1 : (((cfg0.win 20).blk t).view.emb (ix2 p q)) 1 = q := by
    apply Fin.ext
    show win0_20.index t (1 : Fin 2) * 64 + 1 * q.val = q.val; omega
  refine (bodyS_apply (insAt m c t) p q).trans ?_
  rw [W1_eq, W2_eq, W3_eq, bs0_eq m c hr, bv0_eq m c hr]
  unfold GSk Cert.Gvp.GS
  dsimp only
  rw [h0, h1]
  exact (cast_eq _ _).symm

/-- An index of the scalar result array is in point `t`'s block iff each coordinate is in the block's range. -/
theorem mem_blk20 (t : Fin cfg0.N) (i : S800000x64.Idx) :
    i ∈ ((cfg0.win 20).blk t).view.set ↔ ∀ a : Fin 2, win0_20.index t a * S4000x64.size a ≤ (i a).val ∧ (i a).val < win0_20.index t a * S4000x64.size a + S4000x64.size a := by
  show i ∈ ((View.whole main_v33_0).slice (win0_20.rect t)).set ↔ _
  rw [View.set_slice_whole, Rect.mem_set_unit]
  exact Iff.rfl

/-- Row `e` lies in the block of point `e / 4000`: the 200 blocks tile the scalar result array. -/
theorem cover20 (i : S800000x64.Idx) :
    ∃ t : Fin cfg0.N, (cfg0.win 20).flush t = true ∧ i ∈ ((cfg0.win 20).blk t).view.set := by
  have hi0 : (i 0).val < 800000 := (i 0).isLt
  have hi1 : (i 1).val < 64 := (i 1).isLt
  have hN : (i 0).val / 4000 < cfg0.N := by show _ < grid0.N; rw [N_0]; omega
  obtain ⟨-, -, ⟨e0, e1⟩, -⟩ := idx_rows ⟨(i 0).val / 4000, hN⟩
  refine ⟨⟨(i 0).val / 4000, hN⟩, flush0_20 _, ?_⟩
  rw [mem_blk20]
  intro a
  match a with
  | ⟨0, _⟩ =>
    show win0_20.index ⟨(i 0).val / 4000, hN⟩ (0 : Fin 2) * 4000 ≤ (i 0).val ∧ (i 0).val < win0_20.index ⟨(i 0).val / 4000, hN⟩ (0 : Fin 2) * 4000 + 4000
    have : (⟨(i 0).val / 4000, hN⟩ : Fin cfg0.N).val = (i 0).val / 4000 := rfl
    omega
  | ⟨1, _⟩ =>
    show win0_20.index ⟨(i 0).val / 4000, hN⟩ (1 : Fin 2) * 64 ≤ (i 1).val ∧ (i 1).val < win0_20.index ⟨(i 0).val / 4000, hN⟩ (1 : Fin 2) * 64 + 64
    omega

/-- The scalar result array after the run. -/
theorem final20 (hr : InRange m c) : (dats m 0 c).arrAt 20 cfg0.N = GSk m c :=
  (dats m 0 c).arrAt_eq_of_cover 20 (GSk m c) (fun t _ => flushed20_eq m c hr t) (cover20)

/-- Point `t` writes back block `t` of the vector result in its side-by-side layout. -/
theorem flushed21_eq (hr : InRange m c) (t : Fin cfg0.N) :
    (dats m 0 c).flushed 21 t = ((cfg0.win 21).blk t).view.read (Elt Ideal) (GVflat m c) := by
  obtain ⟨-, -, -, ⟨e0, e1⟩⟩ := idx_rows t
  show (cfg0.win 21).cut (grid0.coords t) ((dats m 0 c).after 21 t) = _
  rw [after0_21]
  unfold outV
  rw [View.canon_unit_zero hz]
  funext j
  obtain ⟨p, q, rfl⟩ : ∃ (p : Fin 4000) (q : Fin 24), j = ix2 p q := ⟨j 0, j 1, eq_ix2 j⟩
  obtain ⟨r, o, rfl⟩ : ∃ (r : Fin 3) (o : Fin 8), q = (⟨8 * r.val + o.val, by omega⟩ : Fin 24) :=
    ⟨⟨q.val / 8, by have := q.isLt; omega⟩, ⟨q.val % 8, Nat.mod_lt _ (by omega)⟩, Fin.ext (by show q.val = 8 * (q.val / 8) + q.val % 8; omega)⟩
  rw [View.read_apply]
  refine (bodyV_apply (insAt m c t) p r o).trans ?_
  rw [W1_eq, W2_eq, W3_eq, bs0_eq m c hr, bv0_eq m c hr]
  have h0 : (((cfg0.win 21).blk t).view.emb (ix2 p (⟨8 * r.val + o.val, by omega⟩ : Fin 24))) 0 = (⟨4000 * t.val + p.val, by have := t_lt t; omega⟩ : Fin 800000) := by
    apply Fin.ext
    show win0_21.index t (0 : Fin 2) * 4000 + 1 * p.val = 4000 * t.val + p.val; omega
  have h1 : ((((cfg0.win 21).blk t).view.emb (ix2 p (⟨8 * r.val + o.val, by omega⟩ : Fin 24))) 1).val = 8 * r.val + o.val := by
    show win0_21.index t (1 : Fin 2) * 24 + 1 * (8 * r.val + o.val) = 8 * r.val + o.val; omega
  have hr' : (⟨((((cfg0.win 21).blk t).view.emb (ix2 p (⟨8 * r.val + o.val, by omega⟩ : Fin 24))) 1).val / 8, by omega⟩ : Fin 3) = r := by
    apply Fin.ext; show _ / 8 = r.val; omega
  have ho' : (⟨((((cfg0.win 21).blk t).view.emb (ix2 p (⟨8 * r.val + o.val, by omega⟩ : Fin 24))) 1).val % 8, Nat.mod_lt _ (by omega)⟩ : Fin 8) = o := by
    apply Fin.ext; show _ % 8 = o.val; omega
  unfold GVflat GVk Cert.Gvp.GV
  show _ = Cert.Gvp.netV _ _ _ (Cert.Gvp.edgeS _ _ _ ((((cfg0.win 21).blk t).view.emb (ix2 p (⟨8 * r.val + o.val, by omega⟩ : Fin 24))) 0))
      (Cert.Gvp.edgeV _ _ _ ((((cfg0.win 21).blk t).view.emb (ix2 p (⟨8 * r.val + o.val, by omega⟩ : Fin 24))) 0))
      (⟨((((cfg0.win 21).blk t).view.emb (ix2 p (⟨8 * r.val + o.val, by omega⟩ : Fin 24))) 1).val / 8, by omega⟩ : Fin 3)
      (⟨((((cfg0.win 21).blk t).view.emb (ix2 p (⟨8 * r.val + o.val, by omega⟩ : Fin 24))) 1).val % 8, Nat.mod_lt _ (by omega)⟩ : Fin 8)
  rw [h0, hr', ho']

theorem mem_blk21 (t : Fin cfg0.N) (i : S800000x24.Idx) :
    i ∈ ((cfg0.win 21).blk t).view.set ↔ ∀ a : Fin 2, win0_21.index t a * S4000x24.size a ≤ (i a).val ∧ (i a).val < win0_21.index t a * S4000x24.size a + S4000x24.size a := by
  show i ∈ ((View.whole main_v33_1).slice (win0_21.rect t)).set ↔ _
  rw [View.set_slice_whole, Rect.mem_set_unit]
  exact Iff.rfl

theorem cover21 (i : S800000x24.Idx) :
    ∃ t : Fin cfg0.N, (cfg0.win 21).flush t = true ∧ i ∈ ((cfg0.win 21).blk t).view.set := by
  have hi0 : (i 0).val < 800000 := (i 0).isLt
  have hi1 : (i 1).val < 24 := (i 1).isLt
  have hN : (i 0).val / 4000 < cfg0.N := by show _ < grid0.N; rw [N_0]; omega
  obtain ⟨-, -, -, ⟨e0, e1⟩⟩ := idx_rows ⟨(i 0).val / 4000, hN⟩
  refine ⟨⟨(i 0).val / 4000, hN⟩, flush0_21 _, ?_⟩
  rw [mem_blk21]
  intro a
  match a with
  | ⟨0, _⟩ =>
    show win0_21.index ⟨(i 0).val / 4000, hN⟩ (0 : Fin 2) * 4000 ≤ (i 0).val ∧ (i 0).val < win0_21.index ⟨(i 0).val / 4000, hN⟩ (0 : Fin 2) * 4000 + 4000
    have : (⟨(i 0).val / 4000, hN⟩ : Fin cfg0.N).val = (i 0).val / 4000 := rfl
    omega
  | ⟨1, _⟩ =>
    show win0_21.index ⟨(i 0).val / 4000, hN⟩ (1 : Fin 2) * 24 ≤ (i 1).val ∧ (i 1).val < win0_21.index ⟨(i 0).val / 4000, hN⟩ (1 : Fin 2) * 24 + 24
    omega

/-- The vector result array before the final reshape. -/
theorem final21 (hr : InRange m c) : (dats m 0 c).arrAt 21 cfg0.N = GVflat m c :=
  (dats m 0 c).arrAt_eq_of_cover 21 (GVflat m c) (fun t _ => flushed21_eq m c hr t) (cover21)

/-! ## The reshape after the region -/

/-- The final reshape turns the side-by-side layout into `GVk`: entry `(e, r, o)` is column `8·r + o` of row `e`. -/
theorem reshape_flat : shapeCast S800000x3x8 (GVflat m c) shapeCasts_S800000x24_S800000x3x8 = GVk m c := by
  funext i
  obtain ⟨e, r, o, rfl⟩ : ∃ (e : Fin 800000) (r : Fin 3) (o : Fin 8), i = ix3 e r o := ⟨i 0, i 1, i 2, eq_ix3 i⟩
  rw [shapeCast_apply (GVflat m c) shapeCasts_S800000x24_S800000x3x8 (ix3 e r o) (ix2 e (⟨8 * r.val + o.val, by omega⟩ : Fin 24))
    (by rw [Shape.rowMajor_val_two, Shape.rowMajor_val_three]
        show e.val * 24 + (8 * r.val + o.val) = (e.val * 3 + r.val) * 8 + o.val
        omega)]
  unfold GVflat
  have hr' : (⟨((ix2 e (⟨8 * r.val + o.val, by omega⟩ : Fin 24) : S800000x24.Idx) 1).val / 8, by show (8 * r.val + o.val) / 8 < 3; omega⟩ : Fin 3) = r := by
    apply Fin.ext; show (8 * r.val + o.val) / 8 = r.val; omega
  have ho' : (⟨((ix2 e (⟨8 * r.val + o.val, by omega⟩ : Fin 24) : S800000x24.Idx) 1).val % 8, Nat.mod_lt _ (by omega)⟩ : Fin 8) = o := by
    apply Fin.ext; show (8 * r.val + o.val) % 8 = o.val; omega
  show GVk m c (ix3 e _ _) = _
  rw [hr', ho']

/-- What the reshape after the region leaves in the vector result buffer. -/
theorem tail_v34 : Pipeline.afterTail₀ cfgs (dats m) 0 (V0 m) [hostOps1] c main_v34
    = shapeCast S800000x3x8 ((dats m 0 c).arrAt 21 cfg0.N) shapeCasts_S800000x24_S800000x3x8 := by
  unfold Pipeline.afterTail₀
  show StableHlo.after hostOps1 _ (Proc.devRef .tc main_v34) = _
  after_results
  have hw := Pipeline.withArrays_arr spec0 launch0.win.arr_inj c (V0 m c) (fun w => (dats m 0 c).arrAt w (cfgs 0).N) 21
  funext i
  exact congrArg (fun A => shapeCast S800000x3x8 A shapeCasts_S800000x24_S800000x3x8 i) hw

end Cert.KernelIdeal.Fr

end
-- ==== Proof.KValue.lean ====
/-
  The kernel program's run with both results named: the frame run's final state holds the scalar result window's
  array at `GSk` (its 200 blocks tile it), the vector result after the final reshape at `GVk`, and every argument
  array as launched.
-/
import proofs.«428393_j44160853737513_2_alg».proof.Proof.KIFrame
import proofs.«428393_j44160853737513_2_alg».proof.Proof.KValueA

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)
/-- The kernel program's run at the extended reals: it terminates without a fault, the scalar result is `GSk`, the
    vector result is `GVk`, and no argument array has changed. -/
theorem run_value (hr : ∀ c, InRange m c) :
    θ_run defs (onTc (τ := τ) (main (F := Ideal))) ⟨m, fun _ => 0, ρ⟩ (fun r => ∀ c : Dev nD,
      r.2.mem ((c.tc : Thread nD τ).loc main_v33_0) = GSk m c
      ∧ r.2.mem ((c.tc : Thread nD τ).loc main_v34) = GVk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨((h c).1 20).trans (final20 m c (hr c)),
      ((h c).2 main_v34 (Pipeline.mem_restRefs_of main_v34 (by decide) (by decide))).trans
        ((tail_v34 m c).trans ((congrArg (fun A => shapeCast S800000x3x8 A shapeCasts_S800000x24_S800000x3x8) (final21 m c (hr c))).trans
          (reshape_flat m c))),
      args_kept m r h c⟩) (run_main m ρ)

end Cert.KernelIdeal.Fr

end
-- ==== Proof.PreFacts.lean ====
/-
  The precondition's last two conjuncts, decoded: every entry of the edge index is at least 0 and below 50000.
-/
import proofs.«428393_j44160853737513_2_alg».proof.Defs
import proofs.«428393_j44160853737513_2_alg».proof.Proof.Gen.Pre_finite_inputs
import proofs.«428393_j44160853737513_2_alg».proof.Proof.KBase
import Idealize.ShloMosaic.Lib.ReduceAll
import Idealize.ShloMosaic.Lib.ValueIdx
import Idealize.ShloMosaic.Lib.StableHlo.Predicate

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem

/-- The rank-0 shape has exactly one index. -/
private instance subsingleton_scalarIdx : Subsingleton Cert.Pre_finite_inputs.S_.Idx :=
  ⟨fun a b => funext fun d => d.elim0⟩

/-- The last part of the predicate ends in the conjunction of three bits: whatever came before, then
    "every entry of the edge index `x` is at least 0", then "every entry of `x` is below 50000", the last two
    each an and-reduction over both axes of `x`. If that conjunction is 1 at the one index `j`, then each
    entry `i` satisfies `0 ≤ x i < 50000` read as a signed word. The other arguments `b p q r` only feed the
    first bit and stay arbitrary. -/
private theorem part6_range [hF : Cert.Pre_finite_inputs.Facts] {F : FTy → Type} [FloatOps F]
    (x : IVec Cert.Pre_finite_inputs.S2x800000 32) (b : FVec F Cert.Pre_finite_inputs.S8 .f32)
    (p : IVec Cert.Pre_finite_inputs.S_ 1) (q : IVec Cert.Pre_finite_inputs.S64x8 1)
    (r : IVec Cert.Pre_finite_inputs.S_ 1) (j : Cert.Pre_finite_inputs.S_.Idx)
    (e : Cert.Pre_finite_inputs.fn_part6 (F := F) x b p q r j = 1#1) (i : Cert.Pre_finite_inputs.S2x800000.Idx) :
    0 ≤ (x i).toInt ∧ (x i).toInt < 50000 := by
  -- the result at the one index: (rest ∧ all (x ≥ 0)) ∧ all (x < 50000)
  change IntOp.andi (IntOp.andi _ (Host.reduce IntOp.andi _ _ _ _ j)) (Host.reduce IntOp.andi _ _ _ _ j) = 1#1 at e
  obtain ⟨e1, hlt⟩ := IntOp.andi_eq_one.1 e
  obtain ⟨-, hge⟩ := IntOp.andi_eq_one.1 e1
  -- an and-reduction over all axes that is 1 had a 1 at entry i
  have g0 := Host.reduce_andi_all _ _ _ _ j hge i
  have g1 := Host.reduce_andi_all _ _ _ _ j hlt i
  -- the compared words at entry i: x i against the constants 0 and 50000 broadcast to every entry
  have k0 : (0#32 : BitVec 32).toInt ≤ (x i).toInt := IntOp.cmpi_sge.1 g0
  have k1 : (x i).toInt < (50000#32 : BitVec 32).toInt := IntOp.cmpi_slt.1 g1
  have z0 : (0#32 : BitVec 32).toInt = 0 := by decide
  have z1 : (50000#32 : BitVec 32).toInt = 50000 := by decide
  rw [z0] at k0
  rw [z1] at k1
  exact ⟨k0, k1⟩

theorem inRange_of_pre (m : (ℓ : Loc nD τ sig) → Buf (Elt Ideal) ℓ)
    (h : Cert.Pre_KernelIdeal (hPre_finite_inputs := Cert.Pre_finite_inputs.Gen.facts) m) (c : Dev nD) : InRange m c := by
  intro i
  -- the predicate's one result bit on core c, at the one index of the rank-0 shape; the predicate's parts
  -- each end by calling the next, so this bit is the last part's result at the edge index of core c
  have h0 := congrFun (h c) ix0
  exact part6_range (hF := Cert.Pre_finite_inputs.Gen.facts) _ _ _ _ _ ix0 h0 i

end Cert.KernelIdeal.Fr

end
-- ==== Proof.RInputs.lean ====
/-
  The reference's two message arrays read at an index: its scalar message array's row `e` is edge `e`'s message row
  (source scalars, destination scalars, edge scalars), and its vector message array's entry `(e, r, d)` is the source
  vector, the destination vector or the edge vector of spatial row `r`.  A row gather clamps its start index into the
  table, and the index words carry Python's wrap of a negative index.
-/
import proofs.«428393_j44160853737513_2_alg».proof.Proof.Spec
import proofs.«428393_j44160853737513_2_alg».proof.Proof.RRead
import proofs.«428393_j44160853737513_2_alg».proof.Proof.GatherLemmas
import Idealize.ShloMosaic.Lib.Pipeline.Value
import Idealize.ShloMosaic.Lib.ValueLayout

set_option maxRecDepth 16384

noncomputable section

namespace Cert.ReferenceIdeal.RV

open Cert.ReferenceIdeal Cert.ReferenceIdeal.Gen Cert.ReferenceIdeal.ReadP
open Idealize.ShloMosaic Idealize.ShloMosaic.ValueIdx

/-- The source index word of edge `e`: row 0 of the edge index at `e`, with the wrap of a negative index. -/
private theorem word_v9 (x4 : (⟨S2x800000, .i32⟩ : BufTy).Contents (Elt Ideal)) (e : Fin 800000) :
    val_main_v9 (F := Ideal) x4 (ix2 e (0 : Fin 1)) = Cert.Gvp.wrapW (x4 (ix2 (0 : Fin 2) e)) := by
  rw [val_main_v9_apply, val_main_v8_apply, val_main_v5_apply, val_main_v7_apply, val_main_v4_apply, val_main_c_apply,
    val_main_v6_apply, val_main_c_0_apply, val_main_v1_apply, val_main_v0_apply]
  have hI : idx_main_v0 (idx_main_v1 (idx_main_v9 (ix2 e (0 : Fin 1)))) = ix2 (0 : Fin 2) e := by
    funext a
    match a with
    | ⟨0, _⟩ => rfl
    | ⟨1, _⟩ => exact Fin.ext (Nat.mod_eq_of_lt e.isLt)
  rw [hI]
  rfl

/-- The destination index word of edge `e`: row 1 of the edge index at `e`, with the wrap of a negative index. -/
private theorem word_v16 (x4 : (⟨S2x800000, .i32⟩ : BufTy).Contents (Elt Ideal)) (e : Fin 800000) :
    val_main_v16 (F := Ideal) x4 (ix2 e (0 : Fin 1)) = Cert.Gvp.wrapW (x4 (ix2 (1 : Fin 2) e)) := by
  rw [val_main_v16_apply, val_main_v15_apply, val_main_v12_apply, val_main_v14_apply, val_main_v11_apply, val_main_c_1_apply,
    val_main_v13_apply, val_main_c_2_apply, val_main_v3_apply, val_main_v2_apply]
  have hI : idx_main_v2 (idx_main_v3 (idx_main_v16 (ix2 e (0 : Fin 1)))) = ix2 (1 : Fin 2) e := by
    funext a
    match a with
    | ⟨0, _⟩ => rfl
    | ⟨1, _⟩ => exact Fin.ext (Nat.mod_eq_of_lt e.isLt)
  rw [hI]
  rfl

/-- The source index word again, as the vector gather reads it. -/
private theorem word_v24 (x4 : (⟨S2x800000, .i32⟩ : BufTy).Contents (Elt Ideal)) (e : Fin 800000) :
    val_main_v24 (F := Ideal) x4 (ix2 e (0 : Fin 1)) = Cert.Gvp.wrapW (x4 (ix2 (0 : Fin 2) e)) := by
  rw [val_main_v24_apply, val_main_v23_apply, val_main_v20_apply, val_main_v22_apply, val_main_v19_apply, val_main_c_3_apply,
    val_main_v21_apply, val_main_c_4_apply, val_main_v1_apply, val_main_v0_apply]
  have hI : idx_main_v0 (idx_main_v1 (idx_main_v24 (ix2 e (0 : Fin 1)))) = ix2 (0 : Fin 2) e := by
    funext a
    match a with
    | ⟨0, _⟩ => rfl
    | ⟨1, _⟩ => exact Fin.ext (Nat.mod_eq_of_lt e.isLt)
  rw [hI]
  rfl

/-- The destination index word again, as the vector gather reads it. -/
private theorem word_v31 (x4 : (⟨S2x800000, .i32⟩ : BufTy).Contents (Elt Ideal)) (e : Fin 800000) :
    val_main_v31 (F := Ideal) x4 (ix2 e (0 : Fin 1)) = Cert.Gvp.wrapW (x4 (ix2 (1 : Fin 2) e)) := by
  rw [val_main_v31_apply, val_main_v30_apply, val_main_v27_apply, val_main_v29_apply, val_main_v26_apply, val_main_c_5_apply,
    val_main_v28_apply, val_main_c_6_apply, val_main_v3_apply, val_main_v2_apply]
  have hI : idx_main_v2 (idx_main_v3 (idx_main_v31 (ix2 e (0 : Fin 1)))) = ix2 (1 : Fin 2) e := by
    funext a
    match a with
    | ⟨0, _⟩ => rfl
    | ⟨1, _⟩ => exact Fin.ext (Nat.mod_eq_of_lt e.isLt)
  rw [hI]
  rfl

theorem val_main_v18_apply (x0 : (⟨S50000x64, .f32⟩ : BufTy).Contents (Elt Ideal)) (x2 : (⟨S800000x16, .f32⟩ : BufTy).Contents (Elt Ideal)) (x4 : (⟨S2x800000, .i32⟩ : BufTy).Contents (Elt Ideal)) (e : Fin 800000) (j : Fin 144) :
    val_main_v18 (F := Ideal) x0 x2 x4 (ix2 e j) = Cert.Gvp.edgeS x0 x2 x4 e j := by
  unfold Cert.Gvp.edgeS Cert.Gvp.rowS val_main_v18
  by_cases h1 : j.val < 64
  · -- columns 0..63: the source node's scalar row
    rw [dif_pos h1]
    refine (concatenate_apply_piece (1 : Fin 2) _ _ (ix2 e j) 0 (by show (0 : Nat) < 3; omega) S800000x64 (val_main_v10 (F := Ideal) x0 x4) rfl rfl 0 rfl
      (ix2 e (⟨j.val, h1⟩ : Fin 64)) (fun b hb => match b, hb with
        | ⟨0, _⟩, _ => rfl
        | ⟨1, _⟩, hb => (hb (Fin.ext rfl)).elim) (by show 0 + j.val = j.val; omega)).trans ?_
    unfold val_main_v10
    rw [Cert.GatherRows.gather_rows2 (by decide) _ rfl rfl rfl rfl rfl rfl rfl]
    refine congrArg (fun n : Fin 50000 => x0 (ix2 n (⟨j.val, h1⟩ : Fin 64))) (Fin.ext ?_)
    show min (val_main_v9 (F := Ideal) x4 (ix2 e (0 : Fin 1))).toInt.toNat (50000 - 1) = _
    rw [word_v9]
    rfl
  · rw [dif_neg h1]
    by_cases h2 : j.val < 128
    · -- columns 64..127: the destination node's scalar row
      rw [dif_pos h2]
      refine (concatenate_apply_piece (1 : Fin 2) _ _ (ix2 e j) 1 (by show (1 : Nat) < 3; omega) S800000x64 (val_main_v17 (F := Ideal) x0 x4) rfl rfl 64 rfl
        (ix2 e (⟨j.val - 64, by omega⟩ : Fin 64)) (fun b hb => match b, hb with
          | ⟨0, _⟩, _ => rfl
          | ⟨1, _⟩, hb => (hb (Fin.ext rfl)).elim) (by show 64 + (j.val - 64) = j.val; omega)).trans ?_
      unfold val_main_v17
      rw [Cert.GatherRows.gather_rows2 (by decide) _ rfl rfl rfl rfl rfl rfl rfl]
      refine congrArg (fun n : Fin 50000 => x0 (ix2 n (⟨j.val - 64, by omega⟩ : Fin 64))) (Fin.ext ?_)
      show min (val_main_v16 (F := Ideal) x4 (ix2 e (0 : Fin 1))).toInt.toNat (50000 - 1) = _
      rw [word_v16]
      rfl
    · -- columns 128..143: the edge's own scalars
      rw [dif_neg h2]
      have hj := j.isLt
      exact concatenate_apply_piece (1 : Fin 2) _ _ (ix2 e j) 2 (by show (2 : Nat) < 3; omega) S800000x16 x2 rfl rfl 128 rfl
        (ix2 e (⟨j.val - 128, by omega⟩ : Fin 16)) (fun b hb => match b, hb with
          | ⟨0, _⟩, _ => rfl
          | ⟨1, _⟩, hb => (hb (Fin.ext rfl)).elim) (by show 128 + (j.val - 128) = j.val; omega)

theorem val_main_v33_apply (x1 : (⟨S50000x3x8, .f32⟩ : BufTy).Contents (Elt Ideal)) (x3 : (⟨S800000x3x1, .f32⟩ : BufTy).Contents (Elt Ideal)) (x4 : (⟨S2x800000, .i32⟩ : BufTy).Contents (Elt Ideal)) (e : Fin 800000) (r : Fin 3) (d : Fin 17) :
    val_main_v33 (F := Ideal) x1 x3 x4 (ix3 e r d) = Cert.Gvp.edgeV x1 x3 x4 e r d := by
  unfold Cert.Gvp.edgeV Cert.Gvp.rowV val_main_v33
  by_cases h1 : d.val < 8
  · -- channels 0..7: the source node's vectors
    rw [dif_pos h1]
    refine (concatenate_apply_piece (2 : Fin 3) _ _ (ix3 e r d) 0 (by show (0 : Nat) < 3; omega) S800000x3x8 (val_main_v25 (F := Ideal) x1 x4) rfl rfl 0 rfl
      (ix3 e r (⟨d.val, h1⟩ : Fin 8)) (fun b hb => match b, hb with
        | ⟨0, _⟩, _ => rfl
        | ⟨1, _⟩, _ => rfl
        | ⟨2, _⟩, hb => (hb (Fin.ext rfl)).elim) (by show 0 + d.val = d.val; omega)).trans ?_
    unfold val_main_v25
    rw [Cert.GatherRows.gather_rows3 (by decide) _ rfl rfl rfl rfl rfl rfl rfl]
    refine congrArg (fun n : Fin 50000 => x1 (ix3 n r (⟨d.val, h1⟩ : Fin 8))) (Fin.ext ?_)
    show min (val_main_v24 (F := Ideal) x4 (ix2 e (0 : Fin 1))).toInt.toNat (50000 - 1) = _
    rw [word_v24]
    rfl
  · rw [dif_neg h1]
    by_cases h2 : d.val < 16
    · -- channels 8..15: the destination node's vectors
      rw [dif_pos h2]
      refine (concatenate_apply_piece (2 : Fin 3) _ _ (ix3 e r d) 1 (by show (1 : Nat) < 3; omega) S800000x3x8 (val_main_v32 (F := Ideal) x1 x4) rfl rfl 8 rfl
        (ix3 e r (⟨d.val - 8, by omega⟩ : Fin 8)) (fun b hb => match b, hb with
          | ⟨0, _⟩, _ => rfl
          | ⟨1, _⟩, _ => rfl
          | ⟨2, _⟩, hb => (hb (Fin.ext rfl)).elim) (by show 8 + (d.val - 8) = d.val; omega)).trans ?_
      unfold val_main_v32
      rw [Cert.GatherRows.gather_rows3 (by decide) _ rfl rfl rfl rfl rfl rfl rfl]
      refine congrArg (fun n : Fin 50000 => x1 (ix3 n r (⟨d.val - 8, by omega⟩ : Fin 8))) (Fin.ext ?_)
      show min (val_main_v31 (F := Ideal) x4 (ix2 e (0 : Fin 1))).toInt.toNat (50000 - 1) = _
      rw [word_v31]
      rfl
    · -- channel 16: the edge's own vector
      rw [dif_neg h2]
      have hd := d.isLt
      exact concatenate_apply_piece (2 : Fin 3) _ _ (ix3 e r d) 2 (by show (2 : Nat) < 3; omega) S800000x3x1 x3 rfl rfl 16 rfl
        (ix3 e r (0 : Fin 1)) (fun b hb => match b, hb with
          | ⟨0, _⟩, _ => rfl
          | ⟨1, _⟩, _ => rfl
          | ⟨2, _⟩, hb => (hb (Fin.ext rfl)).elim) (by show 16 + 0 = d.val; omega)

end Cert.ReferenceIdeal.RV

end
-- ==== Proof.RLayer1.lean ====
/-
  The reference's layer 1 read at an index: on every edge its scalar output row and its vector output rows are the
  GVP layer of `Cert.Gvp` applied to that edge's input rows.  The einsum over the vector channels is the sum over the
  contracted channel; the sum over the spatial axis starts from zero and adds the three squares; the sigmoid is printed
  as its quotient form `1 / (1 + exp (-x))`; the rectifier is the maximum with zero.
-/
import proofs.«428393_j44160853737513_2_alg».proof.Proof.Spec
import proofs.«428393_j44160853737513_2_alg».proof.Proof.RRead
import Idealize.ShloMosaic.PureOps.Ideal.Laws
import Idealize.ShloMosaic.Lib.Pipeline.Value
import Idealize.ShloMosaic.Lib.ValueLayout
import Idealize.ShloMosaic.Lib.IdealHost

set_option maxRecDepth 16384

noncomputable section

namespace Cert.ReferenceIdeal.RV

open Cert.ReferenceIdeal Cert.ReferenceIdeal.Gen Cert.ReferenceIdeal.ReadP
open Idealize.ShloMosaic Idealize.ShloMosaic.ValueIdx

/-- The hidden channel `k` of spatial row `r` on edge `e`: the sum over the 17 input channels `d` of the
    vector message `(e, r, d)` times the weight `(d, k)`. -/
private theorem v34_at (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (e : Fin 800000) (r : Fin 3) (k : Fin 17) :
    val_main_v34 (F := Ideal) x1 x3 x4 x5 (ix3 e r k) = Cert.Gvp.hid (Cert.Gvp.mkW x5 x6 x7 x8 x9 x10) (fun r d => val_main_v33 (F := Ideal) x1 x3 x4 (ix3 e r d)) r k := by
  rw [ReadP.val_main_v34_apply]
  unfold Cert.Gvp.hid
  refine Finset.sum_congr rfl fun d _ => ?_
  have hl : lidx_main_v34 (ix3 e r k) d = ix3 e r d :=
    funext fun a => Fin.ext (by match a with | ⟨0, _⟩ => rfl | ⟨1, _⟩ => rfl | ⟨2, _⟩ => rfl)
  have hr : ridx_main_v34 (ix3 e r k) d = ix2 d k :=
    funext fun a => Fin.ext (by match a with | ⟨0, _⟩ => rfl | ⟨1, _⟩ => rfl)
  rw [hl, hr]
  rfl

/-- The sum over the three spatial rows `r` of the squared hidden channel `(e, r, k)`, from zero. -/
private theorem v36_at (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (e : Fin 800000) (k : Fin 17) :
    val_main_v36 (F := Ideal) x1 x3 x4 x5 (ix2 e k)
      = Cert.Gvp.sq3 (fun r => Cert.Gvp.hid (Cert.Gvp.mkW x5 x6 x7 x8 x9 x10) (fun r d => val_main_v33 (F := Ideal) x1 x3 x4 (ix3 e r d)) r k) := by
  have hi : ∀ r : Fin 3, idx_main_v36 (ix2 e k) r = ix3 e r k := fun r =>
    funext fun a => Fin.ext (by match a with | ⟨0, _⟩ => rfl | ⟨1, _⟩ => rfl | ⟨2, _⟩ => rfl)
  rw [ReadP.val_main_v36_apply, ReadP.val_main_cst_apply, Ideal.ofBits_def, Ideal.ofBits_zero_f32, zero_add,
    Fin.sum_univ_three, hi, hi, hi]
  simp only [ReadP.val_main_v35_apply, Ideal.mulf_def, v34_at x0 x1 x2 x3 x4 x5 x6 x7 x8 x9 x10]
  rfl

/-- The norm of hidden channel `k` on edge `e`: the root of the three squares plus ε. -/
private theorem v39_at (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (e : Fin 800000) (k : Fin 17) :
    val_main_v39 (F := Ideal) x1 x3 x4 x5 (ix2 e k) = Cert.Gvp.nrm (Cert.Gvp.mkW x5 x6 x7 x8 x9 x10) (fun r d => val_main_v33 (F := Ideal) x1 x3 x4 (ix3 e r d)) k := by
  rw [ReadP.val_main_v39_apply, Ideal.hostUnary_sqrt_def, ReadP.val_main_v38_apply, Ideal.addf_def,
    v36_at x0 x1 x2 x3 x4 x5 x6 x7 x8 x9 x10, ReadP.val_main_v37_apply, ReadP.val_main_cst_7_apply, Ideal.ofBits_def]
  rfl

/-- The joined row on edge `e`: entry `i` is the scalar message `(e, i)` below 144 and the norm `i - 144` from there on. -/
private theorem v40_at (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (e : Fin 800000) (i : Fin 161) :
    val_main_v40 (F := Ideal) x0 x1 x2 x3 x4 x5 (ix2 e i)
      = Cert.Gvp.joined (fun j' => val_main_v18 (F := Ideal) x0 x2 x4 (ix2 e j')) (Cert.Gvp.nrm (Cert.Gvp.mkW x5 x6 x7 x8 x9 x10) (fun r d => val_main_v33 (F := Ideal) x1 x3 x4 (ix3 e r d))) i := by
  unfold val_main_v40 Cert.Gvp.joined
  by_cases hi : i.val < 144
  · rw [dif_pos hi]
    exact concatenate_pair_apply_left (s₁ := S800000x144) (s₂ := S800000x17) 1 _ _ _ (ix2 e i) rfl
      (ix2 e (⟨i.val, hi⟩ : Fin 144)) (fun b => by match b with | ⟨0, _⟩ => rfl | ⟨1, _⟩ => rfl)
  · have hn : i.val - 144 < 17 := by have := i.isLt; omega
    rw [dif_neg hi, dif_pos hn, ← v39_at x0 x1 x2 x3 x4 x5 x6 x7 x8 x9 x10 e ⟨i.val - 144, hn⟩]
    exact concatenate_pair_apply_right (s₁ := S800000x144) (s₂ := S800000x17) 1 _ _ _ (ix2 e i) rfl rfl
      (ix2 e (⟨i.val - 144, hn⟩ : Fin 17))
      (fun b hb => by match b, hb with | ⟨0, _⟩, _ => rfl | ⟨1, _⟩, hb => exact absurd rfl hb)
      (by show i.val - 144 + 144 = i.val; omega)

/-- The scalar output before the rectifier: the joined row times the weights `(i, j)`, plus the bias `j`. -/
private theorem v44_at (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (e : Fin 800000) (j : Fin 64) :
    val_main_v44 (F := Ideal) x0 x1 x2 x3 x4 x5 x6 x7 (ix2 e j) = Cert.Gvp.sPre (Cert.Gvp.mkW x5 x6 x7 x8 x9 x10) (fun j' => val_main_v18 (F := Ideal) x0 x2 x4 (ix2 e j')) (fun r d => val_main_v33 (F := Ideal) x1 x3 x4 (ix3 e r d)) j := by
  rw [ReadP.val_main_v44_apply, Ideal.addf_def, ReadP.val_main_v41_apply, ReadP.val_main_v43_apply, ReadP.val_main_v42_apply]
  unfold Cert.Gvp.sPre
  refine congrArg₂ (· + ·) (Finset.sum_congr rfl fun i _ => ?_) ?_
  · have hl : lidx_main_v41 (ix2 e j) i = ix2 e i :=
      funext fun a => Fin.ext (by match a with | ⟨0, _⟩ => rfl | ⟨1, _⟩ => rfl)
    have hr : ridx_main_v41 (ix2 e j) i = ix2 i j :=
      funext fun a => Fin.ext (by match a with | ⟨0, _⟩ => rfl | ⟨1, _⟩ => rfl)
    rw [hl, hr, v40_at x0 x1 x2 x3 x4 x5 x6 x7 x8 x9 x10]
    rfl
  · exact congrArg x7 (funext fun a => Fin.ext (by match a with | ⟨0, _⟩ => rfl))

/-- The projected hidden vectors: the sum over the hidden channels `k` of `(e, r, k)` times the weight `(k, o)`. -/
private theorem v45_at (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (e : Fin 800000) (r : Fin 3) (o : Fin 8) :
    val_main_v45 (F := Ideal) x1 x3 x4 x5 x8 (ix3 e r o) = Cert.Gvp.vMu (Cert.Gvp.mkW x5 x6 x7 x8 x9 x10) (fun r d => val_main_v33 (F := Ideal) x1 x3 x4 (ix3 e r d)) r o := by
  rw [ReadP.val_main_v45_apply]
  unfold Cert.Gvp.vMu
  refine Finset.sum_congr rfl fun k _ => ?_
  have hl : lidx_main_v45 (ix3 e r o) k = ix3 e r k :=
    funext fun a => Fin.ext (by match a with | ⟨0, _⟩ => rfl | ⟨1, _⟩ => rfl | ⟨2, _⟩ => rfl)
  have hr : ridx_main_v45 (ix3 e r o) k = ix2 k o :=
    funext fun a => Fin.ext (by match a with | ⟨0, _⟩ => rfl | ⟨1, _⟩ => rfl)
  rw [hl, hr, v34_at x0 x1 x2 x3 x4 x5 x6 x7 x8 x9 x10]
  rfl

/-- The gate's argument: the scalar outputs `j` times the weights `(j, o)`, plus the bias `o`. -/
private theorem v49_at (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (e : Fin 800000) (o : Fin 8) :
    val_main_v49 (F := Ideal) x0 x1 x2 x3 x4 x5 x6 x7 x9 x10 (ix2 e o)
      = (∑ j : Fin 64, Cert.Gvp.sPre (Cert.Gvp.mkW x5 x6 x7 x8 x9 x10) (fun j' => val_main_v18 (F := Ideal) x0 x2 x4 (ix2 e j')) (fun r d => val_main_v33 (F := Ideal) x1 x3 x4 (ix3 e r d)) j * x9 (ix2 j o)) + x10 (ix1 o) := by
  rw [ReadP.val_main_v49_apply, Ideal.addf_def, ReadP.val_main_v46_apply, ReadP.val_main_v48_apply, ReadP.val_main_v47_apply]
  refine congrArg₂ (· + ·) (Finset.sum_congr rfl fun j _ => ?_) ?_
  · have hl : lidx_main_v46 (ix2 e o) j = ix2 e j :=
      funext fun a => Fin.ext (by match a with | ⟨0, _⟩ => rfl | ⟨1, _⟩ => rfl)
    have hr : ridx_main_v46 (ix2 e o) j = ix2 j o :=
      funext fun a => Fin.ext (by match a with | ⟨0, _⟩ => rfl | ⟨1, _⟩ => rfl)
    rw [hl, hr, v44_at x0 x1 x2 x3 x4 x5 x6 x7 x8 x9 x10]
  · exact congrArg x10 (funext fun a => Fin.ext (by match a with | ⟨0, _⟩ => rfl))

/-- The gate of output channel `o`: one over one plus the exponential of minus the argument. -/
private theorem v55_at (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (e : Fin 800000) (o : Fin 8) :
    val_main_v55 (F := Ideal) x0 x1 x2 x3 x4 x5 x6 x7 x9 x10 (ix2 e o) = Cert.Gvp.gate (Cert.Gvp.mkW x5 x6 x7 x8 x9 x10) (fun j' => val_main_v18 (F := Ideal) x0 x2 x4 (ix2 e j')) (fun r d => val_main_v33 (F := Ideal) x1 x3 x4 (ix3 e r d)) o := by
  rw [ReadP.val_main_v55_apply, Ideal.hostDivf_def, ReadP.val_main_v54_apply, ReadP.val_main_cst_9_apply,
    ReadP.val_main_v53_apply, Ideal.addf_def, ReadP.val_main_v52_apply, ReadP.val_main_cst_8_apply,
    ReadP.val_main_v51_apply, Ideal.hostUnary_exp_def, ReadP.val_main_v50_apply, Ideal.hostNegf_def, Ideal.negf_def,
    v49_at x0 x1 x2 x3 x4 x5 x6 x7 x8 x9 x10, Ideal.ofBits_def, Ideal.ofBits_one_f32]
  rfl

theorem val_main_v59_apply (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (e : Fin 800000) (j : Fin 64) :
    val_main_v59 (F := Ideal) x0 x1 x2 x3 x4 x5 x6 x7 (ix2 e j)
      = Cert.Gvp.sRelu (Cert.Gvp.mkW x5 x6 x7 x8 x9 x10) (fun j' => val_main_v18 (F := Ideal) x0 x2 x4 (ix2 e j'))
          (fun r d => val_main_v33 (F := Ideal) x1 x3 x4 (ix3 e r d)) j := by
  rw [ReadP.val_main_v59_apply, Ideal.maximumf_def, v44_at x0 x1 x2 x3 x4 x5 x6 x7 x8 x9 x10, ReadP.val_main_call0_v0_apply,
    ReadP.val_main_call0_cst_apply, Ideal.ofBits_def, Ideal.ofBits_zero_f32]
  rfl

theorem val_main_v58_apply (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (e : Fin 800000) (r : Fin 3) (o : Fin 8) :
    val_main_v58 (F := Ideal) x0 x1 x2 x3 x4 x5 x6 x7 x8 x9 x10 (ix3 e r o)
      = Cert.Gvp.vOut (Cert.Gvp.mkW x5 x6 x7 x8 x9 x10) (fun j' => val_main_v18 (F := Ideal) x0 x2 x4 (ix2 e j'))
          (fun r d => val_main_v33 (F := Ideal) x1 x3 x4 (ix3 e r d)) r o := by
  have hi : idx_main_v56 (idx_main_v57 (ix3 e r o)) = ix2 e o :=
    funext fun a => Fin.ext (by match a with | ⟨0, _⟩ => rfl | ⟨1, _⟩ => rfl)
  rw [ReadP.val_main_v58_apply, Ideal.mulf_def, v45_at x0 x1 x2 x3 x4 x5 x6 x7 x8 x9 x10, ReadP.val_main_v57_apply, ReadP.val_main_v56_apply, hi,
    v55_at x0 x1 x2 x3 x4 x5 x6 x7 x8 x9 x10]
  rfl

end Cert.ReferenceIdeal.RV

end
-- ==== Proof.RLayer2.lean ====
/-
  The reference's layer 2 read at an index: on every edge its scalar output row and its vector output rows are the
  GVP layer of `Cert.Gvp` applied to that edge's input rows.  The einsum over the vector channels is the sum over the
  contracted channel; the sum over the spatial axis starts from zero and adds the three squares; the sigmoid is printed
  as its quotient form `1 / (1 + exp (-x))`; the rectifier is the maximum with zero.
-/
import proofs.«428393_j44160853737513_2_alg».proof.Proof.Spec
import proofs.«428393_j44160853737513_2_alg».proof.Proof.RRead
import Idealize.ShloMosaic.PureOps.Ideal.Laws
import Idealize.ShloMosaic.Lib.Pipeline.Value
import Idealize.ShloMosaic.Lib.ValueLayout

set_option maxRecDepth 16384

noncomputable section

namespace Cert.ReferenceIdeal.RV

open Cert.ReferenceIdeal Cert.ReferenceIdeal.Gen Cert.ReferenceIdeal.ReadP
open Idealize.ShloMosaic Idealize.ShloMosaic.ValueIdx

/-- The joined row read at an index: below 64 it is the scalar piece, from 64 on the norm piece at the coordinate less 64. -/
private theorem concat72_apply (a : S800000x64.Idx → EReal) (b : S800000x8.Idx → EReal) (e : Fin 800000) (i : Fin 72) :
    concatenate S800000x72 1 [⟨S800000x64, a⟩, ⟨S800000x8, b⟩] concatenates_S800000x64_S800000x8_S800000x72_d1 (ix2 e i)
      = Cert.Gvp.joined (fun j => a (ix2 e j)) (fun k => b (ix2 e k)) i := by
  unfold Cert.Gvp.joined
  by_cases hi : i.val < 64
  · rw [dif_pos hi]
    exact concatenate_pair_apply_left (1 : Fin 2) a b _ (ix2 e i) rfl (ix2 e ⟨i.val, hi⟩)
      (fun c => by match c with | ⟨0, _⟩ => rfl | ⟨1, _⟩ => rfl)
  · have hn : i.val - 64 < 8 := by have := i.isLt; omega
    rw [dif_neg hi, dif_pos hn]
    exact concatenate_pair_apply_right (1 : Fin 2) a b _ (ix2 e i) rfl rfl (ix2 e ⟨i.val - 64, hn⟩)
      (fun c hc => by match c, hc with | ⟨0, _⟩, _ => rfl | ⟨1, _⟩, hc => exact absurd rfl hc)
      (by show (i.val - 64) + 64 = i.val; omega)

/-- The literal one. -/
private theorem ofBits_one_f32 : Ideal.ofBits .f32 0x3F800000#32 = 1 := by
  simp [Ideal.ofBits, Ideal.ieee, -EReal.coe_mul]; norm_num

/-- The hidden channels: the einsum over the vector channel is the sum over the contracted channel `d`. -/
private theorem hid_at (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (x11 : (⟨S8x8, .f32⟩ : BufTy).Contents (Elt Ideal)) (x12 : (⟨S72x64, .f32⟩ : BufTy).Contents (Elt Ideal)) (x13 : (⟨S64, .f32⟩ : BufTy).Contents (Elt Ideal)) (x14 : (⟨S8x8, .f32⟩ : BufTy).Contents (Elt Ideal)) (x15 : (⟨S64x8, .f32⟩ : BufTy).Contents (Elt Ideal)) (x16 : (⟨S8, .f32⟩ : BufTy).Contents (Elt Ideal)) (e : Fin 800000) (r : Fin 3) (k : Fin 8) :
    val_main_v60 (F := Ideal) x0 x1 x2 x3 x4 x5 x6 x7 x8 x9 x10 x11 (ix3 e r k) = Cert.Gvp.hid (Cert.Gvp.mkW x11 x12 x13 x14 x15 x16) (fun r d => val_main_v58 (F := Ideal) x0 x1 x2 x3 x4 x5 x6 x7 x8 x9 x10 (ix3 e r d)) r k := by
  rw [ReadP.val_main_v60_apply]
  unfold Cert.Gvp.hid
  refine Finset.sum_congr rfl fun d _ => ?_
  have el : lidx_main_v60 (ix3 e r k) d = ix3 e r d := funext fun a => Fin.ext (by match a with | ⟨0, _⟩ => rfl | ⟨1, _⟩ => rfl | ⟨2, _⟩ => rfl)
  have er : ridx_main_v60 (ix3 e r k) d = ix2 d k := funext fun a => Fin.ext (by match a with | ⟨0, _⟩ => rfl | ⟨1, _⟩ => rfl)
  rw [el, er]
  rfl

/-- The norm: the sum over the spatial axis starts from zero and adds the three squares, then ε and the root. -/
private theorem nrm_at (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (x11 : (⟨S8x8, .f32⟩ : BufTy).Contents (Elt Ideal)) (x12 : (⟨S72x64, .f32⟩ : BufTy).Contents (Elt Ideal)) (x13 : (⟨S64, .f32⟩ : BufTy).Contents (Elt Ideal)) (x14 : (⟨S8x8, .f32⟩ : BufTy).Contents (Elt Ideal)) (x15 : (⟨S64x8, .f32⟩ : BufTy).Contents (Elt Ideal)) (x16 : (⟨S8, .f32⟩ : BufTy).Contents (Elt Ideal)) (e : Fin 800000) (k : Fin 8) :
    val_main_v65 (F := Ideal) x0 x1 x2 x3 x4 x5 x6 x7 x8 x9 x10 x11 (ix2 e k) = Cert.Gvp.nrm (Cert.Gvp.mkW x11 x12 x13 x14 x15 x16) (fun r d => val_main_v58 (F := Ideal) x0 x1 x2 x3 x4 x5 x6 x7 x8 x9 x10 (ix3 e r d)) k := by
  rw [ReadP.val_main_v65_apply, ReadP.val_main_v64_apply, ReadP.val_main_v62_apply, ReadP.val_main_v63_apply,
    ReadP.val_main_cst_11_apply, ReadP.val_main_cst_10_apply, Fin.sum_univ_three]
  simp only [ReadP.val_main_v61_apply]
  have h0 : idx_main_v62 (ix2 e k) 0 = ix3 e (0 : Fin 3) k := funext fun a => Fin.ext (by match a with | ⟨0, _⟩ => rfl | ⟨1, _⟩ => rfl | ⟨2, _⟩ => rfl)
  have h1 : idx_main_v62 (ix2 e k) 1 = ix3 e (1 : Fin 3) k := funext fun a => Fin.ext (by match a with | ⟨0, _⟩ => rfl | ⟨1, _⟩ => rfl | ⟨2, _⟩ => rfl)
  have h2 : idx_main_v62 (ix2 e k) 2 = ix3 e (2 : Fin 3) k := funext fun a => Fin.ext (by match a with | ⟨0, _⟩ => rfl | ⟨1, _⟩ => rfl | ⟨2, _⟩ => rfl)
  rw [h0, h1, h2, hid_at x0 x1 x2 x3 x4 x5 x6 x7 x8 x9 x10 x11 x12 x13 x14 x15 x16 e, hid_at x0 x1 x2 x3 x4 x5 x6 x7 x8 x9 x10 x11 x12 x13 x14 x15 x16 e, hid_at x0 x1 x2 x3 x4 x5 x6 x7 x8 x9 x10 x11 x12 x13 x14 x15 x16 e]
  simp only [Ideal.ofBits_def, Ideal.addf_def, Ideal.mulf_def, Ideal.hostUnary_sqrt_def, Ideal.ofBits_zero_f32, zero_add]
  rfl

/-- The joined row: the scalar input row followed by the eight norms. -/
private theorem joined_at (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (x11 : (⟨S8x8, .f32⟩ : BufTy).Contents (Elt Ideal)) (x12 : (⟨S72x64, .f32⟩ : BufTy).Contents (Elt Ideal)) (x13 : (⟨S64, .f32⟩ : BufTy).Contents (Elt Ideal)) (x14 : (⟨S8x8, .f32⟩ : BufTy).Contents (Elt Ideal)) (x15 : (⟨S64x8, .f32⟩ : BufTy).Contents (Elt Ideal)) (x16 : (⟨S8, .f32⟩ : BufTy).Contents (Elt Ideal)) (e : Fin 800000) (i : Fin 72) :
    val_main_v66 (F := Ideal) x0 x1 x2 x3 x4 x5 x6 x7 x8 x9 x10 x11 (ix2 e i) = Cert.Gvp.joined (fun j' => val_main_v59 (F := Ideal) x0 x1 x2 x3 x4 x5 x6 x7 (ix2 e j')) (Cert.Gvp.nrm (Cert.Gvp.mkW x11 x12 x13 x14 x15 x16) (fun r d => val_main_v58 (F := Ideal) x0 x1 x2 x3 x4 x5 x6 x7 x8 x9 x10 (ix3 e r d))) i := by
  unfold ReadP.val_main_v66
  rw [concat72_apply]
  simp only [nrm_at x0 x1 x2 x3 x4 x5 x6 x7 x8 x9 x10 x11 x12 x13 x14 x15 x16 e]

/-- The scalar output before the rectifier: the joined row against the scalar weights, plus the bias. -/
private theorem sPre_at (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (x11 : (⟨S8x8, .f32⟩ : BufTy).Contents (Elt Ideal)) (x12 : (⟨S72x64, .f32⟩ : BufTy).Contents (Elt Ideal)) (x13 : (⟨S64, .f32⟩ : BufTy).Contents (Elt Ideal)) (x14 : (⟨S8x8, .f32⟩ : BufTy).Contents (Elt Ideal)) (x15 : (⟨S64x8, .f32⟩ : BufTy).Contents (Elt Ideal)) (x16 : (⟨S8, .f32⟩ : BufTy).Contents (Elt Ideal)) (e : Fin 800000) (j : Fin 64) :
    val_main_v70 (F := Ideal) x0 x1 x2 x3 x4 x5 x6 x7 x8 x9 x10 x11 x12 x13 (ix2 e j) = Cert.Gvp.sPre (Cert.Gvp.mkW x11 x12 x13 x14 x15 x16) (fun j' => val_main_v59 (F := Ideal) x0 x1 x2 x3 x4 x5 x6 x7 (ix2 e j')) (fun r d => val_main_v58 (F := Ideal) x0 x1 x2 x3 x4 x5 x6 x7 x8 x9 x10 (ix3 e r d)) j := by
  rw [ReadP.val_main_v70_apply, ReadP.val_main_v67_apply, ReadP.val_main_v69_apply, ReadP.val_main_v68_apply]
  unfold Cert.Gvp.sPre
  have hb : idx_main_v68 (idx_main_v69 (ix2 e j)) = ix1 j := funext fun a => Fin.ext (by match a with | ⟨0, _⟩ => rfl)
  rw [hb, Ideal.addf_def]
  refine congrArg₂ (· + ·) (Finset.sum_congr rfl fun i _ => ?_) rfl
  have el : lidx_main_v67 (ix2 e j) i = ix2 e i := funext fun a => Fin.ext (by match a with | ⟨0, _⟩ => rfl | ⟨1, _⟩ => rfl)
  have er : ridx_main_v67 (ix2 e j) i = ix2 i j := funext fun a => Fin.ext (by match a with | ⟨0, _⟩ => rfl | ⟨1, _⟩ => rfl)
  rw [el, er, joined_at x0 x1 x2 x3 x4 x5 x6 x7 x8 x9 x10 x11 x12 x13 x14 x15 x16 e]
  rfl

/-- The projected hidden vectors: the sum over the hidden channel `k`. -/
private theorem vMu_at (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (x11 : (⟨S8x8, .f32⟩ : BufTy).Contents (Elt Ideal)) (x12 : (⟨S72x64, .f32⟩ : BufTy).Contents (Elt Ideal)) (x13 : (⟨S64, .f32⟩ : BufTy).Contents (Elt Ideal)) (x14 : (⟨S8x8, .f32⟩ : BufTy).Contents (Elt Ideal)) (x15 : (⟨S64x8, .f32⟩ : BufTy).Contents (Elt Ideal)) (x16 : (⟨S8, .f32⟩ : BufTy).Contents (Elt Ideal)) (e : Fin 800000) (r : Fin 3) (o : Fin 8) :
    val_main_v71 (F := Ideal) x0 x1 x2 x3 x4 x5 x6 x7 x8 x9 x10 x11 x14 (ix3 e r o) = Cert.Gvp.vMu (Cert.Gvp.mkW x11 x12 x13 x14 x15 x16) (fun r d => val_main_v58 (F := Ideal) x0 x1 x2 x3 x4 x5 x6 x7 x8 x9 x10 (ix3 e r d)) r o := by
  rw [ReadP.val_main_v71_apply]
  unfold Cert.Gvp.vMu
  refine Finset.sum_congr rfl fun k _ => ?_
  have el : lidx_main_v71 (ix3 e r o) k = ix3 e r k := funext fun a => Fin.ext (by match a with | ⟨0, _⟩ => rfl | ⟨1, _⟩ => rfl | ⟨2, _⟩ => rfl)
  have er : ridx_main_v71 (ix3 e r o) k = ix2 k o := funext fun a => Fin.ext (by match a with | ⟨0, _⟩ => rfl | ⟨1, _⟩ => rfl)
  rw [el, er, hid_at x0 x1 x2 x3 x4 x5 x6 x7 x8 x9 x10 x11 x12 x13 x14 x15 x16 e]
  rfl

/-- The gate: the quotient form `1 / (1 + exp (-x))` of the sigmoid of the scalar output against the gate weights plus bias. -/
private theorem gate_at (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (x11 : (⟨S8x8, .f32⟩ : BufTy).Contents (Elt Ideal)) (x12 : (⟨S72x64, .f32⟩ : BufTy).Contents (Elt Ideal)) (x13 : (⟨S64, .f32⟩ : BufTy).Contents (Elt Ideal)) (x14 : (⟨S8x8, .f32⟩ : BufTy).Contents (Elt Ideal)) (x15 : (⟨S64x8, .f32⟩ : BufTy).Contents (Elt Ideal)) (x16 : (⟨S8, .f32⟩ : BufTy).Contents (Elt Ideal)) (e : Fin 800000) (o : Fin 8) :
    val_main_v81 (F := Ideal) x0 x1 x2 x3 x4 x5 x6 x7 x8 x9 x10 x11 x12 x13 x15 x16 (ix2 e o) = Cert.Gvp.gate (Cert.Gvp.mkW x11 x12 x13 x14 x15 x16) (fun j' => val_main_v59 (F := Ideal) x0 x1 x2 x3 x4 x5 x6 x7 (ix2 e j')) (fun r d => val_main_v58 (F := Ideal) x0 x1 x2 x3 x4 x5 x6 x7 x8 x9 x10 (ix3 e r d)) o := by
  rw [ReadP.val_main_v81_apply, ReadP.val_main_v80_apply, ReadP.val_main_cst_13_apply, ReadP.val_main_v79_apply,
    ReadP.val_main_v78_apply, ReadP.val_main_cst_12_apply, ReadP.val_main_v77_apply, ReadP.val_main_v76_apply,
    ReadP.val_main_v75_apply, ReadP.val_main_v72_apply, ReadP.val_main_v74_apply, ReadP.val_main_v73_apply]
  unfold Cert.Gvp.gate Ideal.logistic
  have hb : idx_main_v73 (idx_main_v74 (ix2 e o)) = ix1 o := funext fun a => Fin.ext (by match a with | ⟨0, _⟩ => rfl)
  rw [hb]
  simp only [Ideal.ofBits_def, Ideal.addf_def, Ideal.hostDivf_def, Ideal.hostUnary_exp_def, Ideal.hostNegf_def, Ideal.negf_def, ofBits_one_f32]
  have hs : (∑ k : Fin 64, val_main_v70 (F := Ideal) x0 x1 x2 x3 x4 x5 x6 x7 x8 x9 x10 x11 x12 x13 (lidx_main_v72 (ix2 e o) k) * x15 (ridx_main_v72 (ix2 e o) k))
      = ∑ j : Fin 64, Cert.Gvp.sPre (Cert.Gvp.mkW x11 x12 x13 x14 x15 x16) (fun j' => val_main_v59 (F := Ideal) x0 x1 x2 x3 x4 x5 x6 x7 (ix2 e j')) (fun r d => val_main_v58 (F := Ideal) x0 x1 x2 x3 x4 x5 x6 x7 x8 x9 x10 (ix3 e r d)) j * (Cert.Gvp.mkW x11 x12 x13 x14 x15 x16).Wg j o := by
    refine Finset.sum_congr rfl fun k _ => ?_
    have el : lidx_main_v72 (ix2 e o) k = ix2 e k := funext fun a => Fin.ext (by match a with | ⟨0, _⟩ => rfl | ⟨1, _⟩ => rfl)
    have er : ridx_main_v72 (ix2 e o) k = ix2 k o := funext fun a => Fin.ext (by match a with | ⟨0, _⟩ => rfl | ⟨1, _⟩ => rfl)
    rw [el, er, sPre_at x0 x1 x2 x3 x4 x5 x6 x7 x8 x9 x10 x11 x12 x13 x14 x15 x16 e]
    rfl
  rw [hs]
  rfl

theorem val_main_v85_apply (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (x11 : (⟨S8x8, .f32⟩ : BufTy).Contents (Elt Ideal)) (x12 : (⟨S72x64, .f32⟩ : BufTy).Contents (Elt Ideal)) (x13 : (⟨S64, .f32⟩ : BufTy).Contents (Elt Ideal)) (x14 : (⟨S8x8, .f32⟩ : BufTy).Contents (Elt Ideal)) (x15 : (⟨S64x8, .f32⟩ : BufTy).Contents (Elt Ideal)) (x16 : (⟨S8, .f32⟩ : BufTy).Contents (Elt Ideal)) (e : Fin 800000) (j : Fin 64) :
    val_main_v85 (F := Ideal) x0 x1 x2 x3 x4 x5 x6 x7 x8 x9 x10 x11 x12 x13 (ix2 e j)
      = Cert.Gvp.sRelu (Cert.Gvp.mkW x11 x12 x13 x14 x15 x16) (fun j' => val_main_v59 (F := Ideal) x0 x1 x2 x3 x4 x5 x6 x7 (ix2 e j'))
          (fun r d => val_main_v58 (F := Ideal) x0 x1 x2 x3 x4 x5 x6 x7 x8 x9 x10 (ix3 e r d)) j := by
  rw [ReadP.val_main_v85_apply, ReadP.val_main_call1_v0_apply, ReadP.val_main_call1_cst_apply, sPre_at x0 x1 x2 x3 x4 x5 x6 x7 x8 x9 x10 x11 x12 x13 x14 x15 x16 e]
  unfold Cert.Gvp.sRelu
  simp only [Ideal.maximumf_def, Ideal.ofBits_def, Ideal.ofBits_zero_f32]

theorem val_main_v84_apply (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (x11 : (⟨S8x8, .f32⟩ : BufTy).Contents (Elt Ideal)) (x12 : (⟨S72x64, .f32⟩ : BufTy).Contents (Elt Ideal)) (x13 : (⟨S64, .f32⟩ : BufTy).Contents (Elt Ideal)) (x14 : (⟨S8x8, .f32⟩ : BufTy).Contents (Elt Ideal)) (x15 : (⟨S64x8, .f32⟩ : BufTy).Contents (Elt Ideal)) (x16 : (⟨S8, .f32⟩ : BufTy).Contents (Elt Ideal)) (e : Fin 800000) (r : Fin 3) (o : Fin 8) :
    val_main_v84 (F := Ideal) x0 x1 x2 x3 x4 x5 x6 x7 x8 x9 x10 x11 x12 x13 x14 x15 x16 (ix3 e r o)
      = Cert.Gvp.vOut (Cert.Gvp.mkW x11 x12 x13 x14 x15 x16) (fun j' => val_main_v59 (F := Ideal) x0 x1 x2 x3 x4 x5 x6 x7 (ix2 e j'))
          (fun r d => val_main_v58 (F := Ideal) x0 x1 x2 x3 x4 x5 x6 x7 x8 x9 x10 (ix3 e r d)) r o := by
  rw [ReadP.val_main_v84_apply, ReadP.val_main_v83_apply, ReadP.val_main_v82_apply]
  have hi : idx_main_v82 (idx_main_v83 (ix3 e r o)) = ix2 e o := funext fun a => Fin.ext (by match a with | ⟨0, _⟩ => rfl | ⟨1, _⟩ => rfl)
  rw [hi, vMu_at x0 x1 x2 x3 x4 x5 x6 x7 x8 x9 x10 x11 x12 x13 x14 x15 x16 e, gate_at x0 x1 x2 x3 x4 x5 x6 x7 x8 x9 x10 x11 x12 x13 x14 x15 x16 e]
  rfl

end Cert.ReferenceIdeal.RV

end
-- ==== Proof.RLayer3.lean ====
/-
  The reference's layer 3 read at an index: on every edge its scalar output row and its vector output rows are the
  GVP layer of `Cert.Gvp` applied to that edge's input rows.  The einsum over the vector channels is the sum over the
  contracted channel; the sum over the spatial axis starts from zero and adds the three squares; the sigmoid is printed
  as its quotient form `1 / (1 + exp (-x))`; the rectifier is the maximum with zero.
  The last layer's scalar output is taken before the rectifier.
-/
import proofs.«428393_j44160853737513_2_alg».proof.Proof.Spec
import proofs.«428393_j44160853737513_2_alg».proof.Proof.RRead
import Idealize.ShloMosaic.PureOps.Ideal.Laws
import Idealize.ShloMosaic.Lib.Pipeline.Value
import Idealize.ShloMosaic.Lib.ValueLayout

set_option maxRecDepth 16384

noncomputable section

namespace Cert.ReferenceIdeal.RV

open Cert.ReferenceIdeal Cert.ReferenceIdeal.Gen Cert.ReferenceIdeal.ReadP
open Idealize.ShloMosaic Idealize.ShloMosaic.ValueIdx

/-- The joined row read at an index: below 64 it is the scalar piece, from 64 on the norm piece at the coordinate less 64. -/
private theorem concat72_apply (a : S800000x64.Idx → EReal) (b : S800000x8.Idx → EReal) (e : Fin 800000) (i : Fin 72) :
    concatenate S800000x72 1 [⟨S800000x64, a⟩, ⟨S800000x8, b⟩] concatenates_S800000x64_S800000x8_S800000x72_d1 (ix2 e i)
      = Cert.Gvp.joined (fun j => a (ix2 e j)) (fun k => b (ix2 e k)) i := by
  unfold Cert.Gvp.joined
  by_cases hi : i.val < 64
  · rw [dif_pos hi]
    exact concatenate_pair_apply_left (1 : Fin 2) a b _ (ix2 e i) rfl (ix2 e ⟨i.val, hi⟩)
      (fun c => by match c with | ⟨0, _⟩ => rfl | ⟨1, _⟩ => rfl)
  · have hn : i.val - 64 < 8 := by have := i.isLt; omega
    rw [dif_neg hi, dif_pos hn]
    exact concatenate_pair_apply_right (1 : Fin 2) a b _ (ix2 e i) rfl rfl (ix2 e ⟨i.val - 64, hn⟩)
      (fun c hc => by match c, hc with | ⟨0, _⟩, _ => rfl | ⟨1, _⟩, hc => exact absurd rfl hc)
      (by show (i.val - 64) + 64 = i.val; omega)

/-- The literal one. -/
private theorem ofBits_one_f32 : Ideal.ofBits .f32 0x3F800000#32 = 1 := by
  simp [Ideal.ofBits, Ideal.ieee, -EReal.coe_mul]; norm_num

/-- The hidden channels: the einsum over the vector channel is the sum over the contracted channel `d`. -/
private theorem hid_at (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (x11 : (⟨S8x8, .f32⟩ : BufTy).Contents (Elt Ideal)) (x12 : (⟨S72x64, .f32⟩ : BufTy).Contents (Elt Ideal)) (x13 : (⟨S64, .f32⟩ : BufTy).Contents (Elt Ideal)) (x14 : (⟨S8x8, .f32⟩ : BufTy).Contents (Elt Ideal)) (x15 : (⟨S64x8, .f32⟩ : BufTy).Contents (Elt Ideal)) (x16 : (⟨S8, .f32⟩ : BufTy).Contents (Elt Ideal)) (x17 : (⟨S8x8, .f32⟩ : BufTy).Contents (Elt Ideal)) (x18 : (⟨S72x64, .f32⟩ : BufTy).Contents (Elt Ideal)) (x19 : (⟨S64, .f32⟩ : BufTy).Contents (Elt Ideal)) (x20 : (⟨S8x8, .f32⟩ : BufTy).Contents (Elt Ideal)) (x21 : (⟨S64x8, .f32⟩ : BufTy).Contents (Elt Ideal)) (x22 : (⟨S8, .f32⟩ : BufTy).Contents (Elt Ideal)) (e : Fin 800000) (r : Fin 3) (k : Fin 8) :
    val_main_v86 (F := Ideal) x0 x1 x2 x3 x4 x5 x6 x7 x8 x9 x10 x11 x12 x13 x14 x15 x16 x17 (ix3 e r k) = Cert.Gvp.hid (Cert.Gvp.mkW x17 x18 x19 x20 x21 x22) (fun r d => val_main_v84 (F := Ideal) x0 x1 x2 x3 x4 x5 x6 x7 x8 x9 x10 x11 x12 x13 x14 x15 x16 (ix3 e r d)) r k := by
  rw [ReadP.val_main_v86_apply]
  unfold Cert.Gvp.hid
  refine Finset.sum_congr rfl fun d _ => ?_
  have el : lidx_main_v86 (ix3 e r k) d = ix3 e r d := funext fun a => Fin.ext (by match a with | ⟨0, _⟩ => rfl | ⟨1, _⟩ => rfl | ⟨2, _⟩ => rfl)
  have er : ridx_main_v86 (ix3 e r k) d = ix2 d k := funext fun a => Fin.ext (by match a with | ⟨0, _⟩ => rfl | ⟨1, _⟩ => rfl)
  rw [el, er]
  rfl

/-- The norm: the sum over the spatial axis starts from zero and adds the three squares, then ε and the root. -/
private theorem nrm_at (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (x11 : (⟨S8x8, .f32⟩ : BufTy).Contents (Elt Ideal)) (x12 : (⟨S72x64, .f32⟩ : BufTy).Contents (Elt Ideal)) (x13 : (⟨S64, .f32⟩ : BufTy).Contents (Elt Ideal)) (x14 : (⟨S8x8, .f32⟩ : BufTy).Contents (Elt Ideal)) (x15 : (⟨S64x8, .f32⟩ : BufTy).Contents (Elt Ideal)) (x16 : (⟨S8, .f32⟩ : BufTy).Contents (Elt Ideal)) (x17 : (⟨S8x8, .f32⟩ : BufTy).Contents (Elt Ideal)) (x18 : (⟨S72x64, .f32⟩ : BufTy).Contents (Elt Ideal)) (x19 : (⟨S64, .f32⟩ : BufTy).Contents (Elt Ideal)) (x20 : (⟨S8x8, .f32⟩ : BufTy).Contents (Elt Ideal)) (x21 : (⟨S64x8, .f32⟩ : BufTy).Contents (Elt Ideal)) (x22 : (⟨S8, .f32⟩ : BufTy).Contents (Elt Ideal)) (e : Fin 800000) (k : Fin 8) :
    val_main_v91 (F := Ideal) x0 x1 x2 x3 x4 x5 x6 x7 x8 x9 x10 x11 x12 x13 x14 x15 x16 x17 (ix2 e k) = Cert.Gvp.nrm (Cert.Gvp.mkW x17 x18 x19 x20 x21 x22) (fun r d => val_main_v84 (F := Ideal) x0 x1 x2 x3 x4 x5 x6 x7 x8 x9 x10 x11 x12 x13 x14 x15 x16 (ix3 e r d)) k := by
  rw [ReadP.val_main_v91_apply, ReadP.val_main_v90_apply, ReadP.val_main_v88_apply, ReadP.val_main_v89_apply,
    ReadP.val_main_cst_15_apply, ReadP.val_main_cst_14_apply, Fin.sum_univ_three]
  simp only [ReadP.val_main_v87_apply]
  have h0 : idx_main_v88 (ix2 e k) 0 = ix3 e (0 : Fin 3) k := funext fun a => Fin.ext (by match a with | ⟨0, _⟩ => rfl | ⟨1, _⟩ => rfl | ⟨2, _⟩ => rfl)
  have h1 : idx_main_v88 (ix2 e k) 1 = ix3 e (1 : Fin 3) k := funext fun a => Fin.ext (by match a with | ⟨0, _⟩ => rfl | ⟨1, _⟩ => rfl | ⟨2, _⟩ => rfl)
  have h2 : idx_main_v88 (ix2 e k) 2 = ix3 e (2 : Fin 3) k := funext fun a => Fin.ext (by match a with | ⟨0, _⟩ => rfl | ⟨1, _⟩ => rfl | ⟨2, _⟩ => rfl)
  rw [h0, h1, h2, hid_at x0 x1 x2 x3 x4 x5 x6 x7 x8 x9 x10 x11 x12 x13 x14 x15 x16 x17 x18 x19 x20 x21 x22 e, hid_at x0 x1 x2 x3 x4 x5 x6 x7 x8 x9 x10 x11 x12 x13 x14 x15 x16 x17 x18 x19 x20 x21 x22 e, hid_at x0 x1 x2 x3 x4 x5 x6 x7 x8 x9 x10 x11 x12 x13 x14 x15 x16 x17 x18 x19 x20 x21 x22 e]
  simp only [Ideal.ofBits_def, Ideal.addf_def, Ideal.mulf_def, Ideal.hostUnary_sqrt_def, Ideal.ofBits_zero_f32, zero_add]
  rfl

/-- The joined row: the scalar input row followed by the eight norms. -/
private theorem joined_at (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (x11 : (⟨S8x8, .f32⟩ : BufTy).Contents (Elt Ideal)) (x12 : (⟨S72x64, .f32⟩ : BufTy).Contents (Elt Ideal)) (x13 : (⟨S64, .f32⟩ : BufTy).Contents (Elt Ideal)) (x14 : (⟨S8x8, .f32⟩ : BufTy).Contents (Elt Ideal)) (x15 : (⟨S64x8, .f32⟩ : BufTy).Contents (Elt Ideal)) (x16 : (⟨S8, .f32⟩ : BufTy).Contents (Elt Ideal)) (x17 : (⟨S8x8, .f32⟩ : BufTy).Contents (Elt Ideal)) (x18 : (⟨S72x64, .f32⟩ : BufTy).Contents (Elt Ideal)) (x19 : (⟨S64, .f32⟩ : BufTy).Contents (Elt Ideal)) (x20 : (⟨S8x8, .f32⟩ : BufTy).Contents (Elt Ideal)) (x21 : (⟨S64x8, .f32⟩ : BufTy).Contents (Elt Ideal)) (x22 : (⟨S8, .f32⟩ : BufTy).Contents (Elt Ideal)) (e : Fin 800000) (i : Fin 72) :
    val_main_v92 (F := Ideal) x0 x1 x2 x3 x4 x5 x6 x7 x8 x9 x10 x11 x12 x13 x14 x15 x16 x17 (ix2 e i) = Cert.Gvp.joined (fun j' => val_main_v85 (F := Ideal) x0 x1 x2 x3 x4 x5 x6 x7 x8 x9 x10 x11 x12 x13 (ix2 e j')) (Cert.Gvp.nrm (Cert.Gvp.mkW x17 x18 x19 x20 x21 x22) (fun r d => val_main_v84 (F := Ideal) x0 x1 x2 x3 x4 x5 x6 x7 x8 x9 x10 x11 x12 x13 x14 x15 x16 (ix3 e r d))) i := by
  unfold ReadP.val_main_v92
  rw [concat72_apply]
  simp only [nrm_at x0 x1 x2 x3 x4 x5 x6 x7 x8 x9 x10 x11 x12 x13 x14 x15 x16 x17 x18 x19 x20 x21 x22 e]

/-- The scalar output before the rectifier: the joined row against the scalar weights, plus the bias. -/
private theorem sPre_at (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (x11 : (⟨S8x8, .f32⟩ : BufTy).Contents (Elt Ideal)) (x12 : (⟨S72x64, .f32⟩ : BufTy).Contents (Elt Ideal)) (x13 : (⟨S64, .f32⟩ : BufTy).Contents (Elt Ideal)) (x14 : (⟨S8x8, .f32⟩ : BufTy).Contents (Elt Ideal)) (x15 : (⟨S64x8, .f32⟩ : BufTy).Contents (Elt Ideal)) (x16 : (⟨S8, .f32⟩ : BufTy).Contents (Elt Ideal)) (x17 : (⟨S8x8, .f32⟩ : BufTy).Contents (Elt Ideal)) (x18 : (⟨S72x64, .f32⟩ : BufTy).Contents (Elt Ideal)) (x19 : (⟨S64, .f32⟩ : BufTy).Contents (Elt Ideal)) (x20 : (⟨S8x8, .f32⟩ : BufTy).Contents (Elt Ideal)) (x21 : (⟨S64x8, .f32⟩ : BufTy).Contents (Elt Ideal)) (x22 : (⟨S8, .f32⟩ : BufTy).Contents (Elt Ideal)) (e : Fin 800000) (j : Fin 64) :
    val_main_v96 (F := Ideal) x0 x1 x2 x3 x4 x5 x6 x7 x8 x9 x10 x11 x12 x13 x14 x15 x16 x17 x18 x19 (ix2 e j) = Cert.Gvp.sPre (Cert.Gvp.mkW x17 x18 x19 x20 x21 x22) (fun j' => val_main_v85 (F := Ideal) x0 x1 x2 x3 x4 x5 x6 x7 x8 x9 x10 x11 x12 x13 (ix2 e j')) (fun r d => val_main_v84 (F := Ideal) x0 x1 x2 x3 x4 x5 x6 x7 x8 x9 x10 x11 x12 x13 x14 x15 x16 (ix3 e r d)) j := by
  rw [ReadP.val_main_v96_apply, ReadP.val_main_v93_apply, ReadP.val_main_v95_apply, ReadP.val_main_v94_apply]
  unfold Cert.Gvp.sPre
  have hb : idx_main_v94 (idx_main_v95 (ix2 e j)) = ix1 j := funext fun a => Fin.ext (by match a with | ⟨0, _⟩ => rfl)
  rw [hb, Ideal.addf_def]
  refine congrArg₂ (· + ·) (Finset.sum_congr rfl fun i _ => ?_) rfl
  have el : lidx_main_v93 (ix2 e j) i = ix2 e i := funext fun a => Fin.ext (by match a with | ⟨0, _⟩ => rfl | ⟨1, _⟩ => rfl)
  have er : ridx_main_v93 (ix2 e j) i = ix2 i j := funext fun a => Fin.ext (by match a with | ⟨0, _⟩ => rfl | ⟨1, _⟩ => rfl)
  rw [el, er, joined_at x0 x1 x2 x3 x4 x5 x6 x7 x8 x9 x10 x11 x12 x13 x14 x15 x16 x17 x18 x19 x20 x21 x22 e]
  rfl

/-- The projected hidden vectors: the sum over the hidden channel `k`. -/
private theorem vMu_at (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (x11 : (⟨S8x8, .f32⟩ : BufTy).Contents (Elt Ideal)) (x12 : (⟨S72x64, .f32⟩ : BufTy).Contents (Elt Ideal)) (x13 : (⟨S64, .f32⟩ : BufTy).Contents (Elt Ideal)) (x14 : (⟨S8x8, .f32⟩ : BufTy).Contents (Elt Ideal)) (x15 : (⟨S64x8, .f32⟩ : BufTy).Contents (Elt Ideal)) (x16 : (⟨S8, .f32⟩ : BufTy).Contents (Elt Ideal)) (x17 : (⟨S8x8, .f32⟩ : BufTy).Contents (Elt Ideal)) (x18 : (⟨S72x64, .f32⟩ : BufTy).Contents (Elt Ideal)) (x19 : (⟨S64, .f32⟩ : BufTy).Contents (Elt Ideal)) (x20 : (⟨S8x8, .f32⟩ : BufTy).Contents (Elt Ideal)) (x21 : (⟨S64x8, .f32⟩ : BufTy).Contents (Elt Ideal)) (x22 : (⟨S8, .f32⟩ : BufTy).Contents (Elt Ideal)) (e : Fin 800000) (r : Fin 3) (o : Fin 8) :
    val_main_v97 (F := Ideal) x0 x1 x2 x3 x4 x5 x6 x7 x8 x9 x10 x11 x12 x13 x14 x15 x16 x17 x20 (ix3 e r o) = Cert.Gvp.vMu (Cert.Gvp.mkW x17 x18 x19 x20 x21 x22) (fun r d => val_main_v84 (F := Ideal) x0 x1 x2 x3 x4 x5 x6 x7 x8 x9 x10 x11 x12 x13 x14 x15 x16 (ix3 e r d)) r o := by
  rw [ReadP.val_main_v97_apply]
  unfold Cert.Gvp.vMu
  refine Finset.sum_congr rfl fun k _ => ?_
  have el : lidx_main_v97 (ix3 e r o) k = ix3 e r k := funext fun a => Fin.ext (by match a with | ⟨0, _⟩ => rfl | ⟨1, _⟩ => rfl | ⟨2, _⟩ => rfl)
  have er : ridx_main_v97 (ix3 e r o) k = ix2 k o := funext fun a => Fin.ext (by match a with | ⟨0, _⟩ => rfl | ⟨1, _⟩ => rfl)
  rw [el, er, hid_at x0 x1 x2 x3 x4 x5 x6 x7 x8 x9 x10 x11 x12 x13 x14 x15 x16 x17 x18 x19 x20 x21 x22 e]
  rfl

/-- The gate: the quotient form `1 / (1 + exp (-x))` of the sigmoid of the scalar output against the gate weights plus bias. -/
private theorem gate_at (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (x11 : (⟨S8x8, .f32⟩ : BufTy).Contents (Elt Ideal)) (x12 : (⟨S72x64, .f32⟩ : BufTy).Contents (Elt Ideal)) (x13 : (⟨S64, .f32⟩ : BufTy).Contents (Elt Ideal)) (x14 : (⟨S8x8, .f32⟩ : BufTy).Contents (Elt Ideal)) (x15 : (⟨S64x8, .f32⟩ : BufTy).Contents (Elt Ideal)) (x16 : (⟨S8, .f32⟩ : BufTy).Contents (Elt Ideal)) (x17 : (⟨S8x8, .f32⟩ : BufTy).Contents (Elt Ideal)) (x18 : (⟨S72x64, .f32⟩ : BufTy).Contents (Elt Ideal)) (x19 : (⟨S64, .f32⟩ : BufTy).Contents (Elt Ideal)) (x20 : (⟨S8x8, .f32⟩ : BufTy).Contents (Elt Ideal)) (x21 : (⟨S64x8, .f32⟩ : BufTy).Contents (Elt Ideal)) (x22 : (⟨S8, .f32⟩ : BufTy).Contents (Elt Ideal)) (e : Fin 800000) (o : Fin 8) :
    val_main_v107 (F := Ideal) x0 x1 x2 x3 x4 x5 x6 x7 x8 x9 x10 x11 x12 x13 x14 x15 x16 x17 x18 x19 x21 x22 (ix2 e o) = Cert.Gvp.gate (Cert.Gvp.mkW x17 x18 x19 x20 x21 x22) (fun j' => val_main_v85 (F := Ideal) x0 x1 x2 x3 x4 x5 x6 x7 x8 x9 x10 x11 x12 x13 (ix2 e j')) (fun r d => val_main_v84 (F := Ideal) x0 x1 x2 x3 x4 x5 x6 x7 x8 x9 x10 x11 x12 x13 x14 x15 x16 (ix3 e r d)) o := by
  rw [ReadP.val_main_v107_apply, ReadP.val_main_v106_apply, ReadP.val_main_cst_17_apply, ReadP.val_main_v105_apply,
    ReadP.val_main_v104_apply, ReadP.val_main_cst_16_apply, ReadP.val_main_v103_apply, ReadP.val_main_v102_apply,
    ReadP.val_main_v101_apply, ReadP.val_main_v98_apply, ReadP.val_main_v100_apply, ReadP.val_main_v99_apply]
  unfold Cert.Gvp.gate Ideal.logistic
  have hb : idx_main_v99 (idx_main_v100 (ix2 e o)) = ix1 o := funext fun a => Fin.ext (by match a with | ⟨0, _⟩ => rfl)
  rw [hb]
  simp only [Ideal.ofBits_def, Ideal.addf_def, Ideal.hostDivf_def, Ideal.hostUnary_exp_def, Ideal.hostNegf_def, Ideal.negf_def, ofBits_one_f32]
  have hs : (∑ k : Fin 64, val_main_v96 (F := Ideal) x0 x1 x2 x3 x4 x5 x6 x7 x8 x9 x10 x11 x12 x13 x14 x15 x16 x17 x18 x19 (lidx_main_v98 (ix2 e o) k) * x21 (ridx_main_v98 (ix2 e o) k))
      = ∑ j : Fin 64, Cert.Gvp.sPre (Cert.Gvp.mkW x17 x18 x19 x20 x21 x22) (fun j' => val_main_v85 (F := Ideal) x0 x1 x2 x3 x4 x5 x6 x7 x8 x9 x10 x11 x12 x13 (ix2 e j')) (fun r d => val_main_v84 (F := Ideal) x0 x1 x2 x3 x4 x5 x6 x7 x8 x9 x10 x11 x12 x13 x14 x15 x16 (ix3 e r d)) j * (Cert.Gvp.mkW x17 x18 x19 x20 x21 x22).Wg j o := by
    refine Finset.sum_congr rfl fun k _ => ?_
    have el : lidx_main_v98 (ix2 e o) k = ix2 e k := funext fun a => Fin.ext (by match a with | ⟨0, _⟩ => rfl | ⟨1, _⟩ => rfl)
    have er : ridx_main_v98 (ix2 e o) k = ix2 k o := funext fun a => Fin.ext (by match a with | ⟨0, _⟩ => rfl | ⟨1, _⟩ => rfl)
    rw [el, er, sPre_at x0 x1 x2 x3 x4 x5 x6 x7 x8 x9 x10 x11 x12 x13 x14 x15 x16 x17 x18 x19 x20 x21 x22 e]
    rfl
  rw [hs]
  rfl

theorem val_main_v96_apply (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (x11 : (⟨S8x8, .f32⟩ : BufTy).Contents (Elt Ideal)) (x12 : (⟨S72x64, .f32⟩ : BufTy).Contents (Elt Ideal)) (x13 : (⟨S64, .f32⟩ : BufTy).Contents (Elt Ideal)) (x14 : (⟨S8x8, .f32⟩ : BufTy).Contents (Elt Ideal)) (x15 : (⟨S64x8, .f32⟩ : BufTy).Contents (Elt Ideal)) (x16 : (⟨S8, .f32⟩ : BufTy).Contents (Elt Ideal)) (x17 : (⟨S8x8, .f32⟩ : BufTy).Contents (Elt Ideal)) (x18 : (⟨S72x64, .f32⟩ : BufTy).Contents (Elt Ideal)) (x19 : (⟨S64, .f32⟩ : BufTy).Contents (Elt Ideal)) (x20 : (⟨S8x8, .f32⟩ : BufTy).Contents (Elt Ideal)) (x21 : (⟨S64x8, .f32⟩ : BufTy).Contents (Elt Ideal)) (x22 : (⟨S8, .f32⟩ : BufTy).Contents (Elt Ideal)) (e : Fin 800000) (j : Fin 64) :
    val_main_v96 (F := Ideal) x0 x1 x2 x3 x4 x5 x6 x7 x8 x9 x10 x11 x12 x13 x14 x15 x16 x17 x18 x19 (ix2 e j)
      = Cert.Gvp.sPre (Cert.Gvp.mkW x17 x18 x19 x20 x21 x22) (fun j' => val_main_v85 (F := Ideal) x0 x1 x2 x3 x4 x5 x6 x7 x8 x9 x10 x11 x12 x13 (ix2 e j'))
          (fun r d => val_main_v84 (F := Ideal) x0 x1 x2 x3 x4 x5 x6 x7 x8 x9 x10 x11 x12 x13 x14 x15 x16 (ix3 e r d)) j := by
  exact sPre_at x0 x1 x2 x3 x4 x5 x6 x7 x8 x9 x10 x11 x12 x13 x14 x15 x16 x17 x18 x19 x20 x21 x22 e j

theorem val_main_v110_apply (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (x11 : (⟨S8x8, .f32⟩ : BufTy).Contents (Elt Ideal)) (x12 : (⟨S72x64, .f32⟩ : BufTy).Contents (Elt Ideal)) (x13 : (⟨S64, .f32⟩ : BufTy).Contents (Elt Ideal)) (x14 : (⟨S8x8, .f32⟩ : BufTy).Contents (Elt Ideal)) (x15 : (⟨S64x8, .f32⟩ : BufTy).Contents (Elt Ideal)) (x16 : (⟨S8, .f32⟩ : BufTy).Contents (Elt Ideal)) (x17 : (⟨S8x8, .f32⟩ : BufTy).Contents (Elt Ideal)) (x18 : (⟨S72x64, .f32⟩ : BufTy).Contents (Elt Ideal)) (x19 : (⟨S64, .f32⟩ : BufTy).Contents (Elt Ideal)) (x20 : (⟨S8x8, .f32⟩ : BufTy).Contents (Elt Ideal)) (x21 : (⟨S64x8, .f32⟩ : BufTy).Contents (Elt Ideal)) (x22 : (⟨S8, .f32⟩ : BufTy).Contents (Elt Ideal)) (e : Fin 800000) (r : Fin 3) (o : Fin 8) :
    val_main_v110 (F := Ideal) x0 x1 x2 x3 x4 x5 x6 x7 x8 x9 x10 x11 x12 x13 x14 x15 x16 x17 x18 x19 x20 x21 x22 (ix3 e r o)
      = Cert.Gvp.vOut (Cert.Gvp.mkW x17 x18 x19 x20 x21 x22) (fun j' => val_main_v85 (F := Ideal) x0 x1 x2 x3 x4 x5 x6 x7 x8 x9 x10 x11 x12 x13 (ix2 e j'))
          (fun r d => val_main_v84 (F := Ideal) x0 x1 x2 x3 x4 x5 x6 x7 x8 x9 x10 x11 x12 x13 x14 x15 x16 (ix3 e r d)) r o := by
  rw [ReadP.val_main_v110_apply, ReadP.val_main_v109_apply, ReadP.val_main_v108_apply]
  have hi : idx_main_v108 (idx_main_v109 (ix3 e r o)) = ix2 e o := funext fun a => Fin.ext (by match a with | ⟨0, _⟩ => rfl | ⟨1, _⟩ => rfl)
  rw [hi, vMu_at x0 x1 x2 x3 x4 x5 x6 x7 x8 x9 x10 x11 x12 x13 x14 x15 x16 x17 x18 x19 x20 x21 x22 e, gate_at x0 x1 x2 x3 x4 x5 x6 x7 x8 x9 x10 x11 x12 x13 x14 x15 x16 x17 x18 x19 x20 x21 x22 e]
  rfl

end Cert.ReferenceIdeal.RV

end
-- ==== Proof.RValue.lean ====
/-
  The reference's two results as whole arrays: chaining the three layers, the scalar result at `(e, j)` and the vector
  result at `(e, r, o)` are the network of `Cert.Gvp` on edge `e`'s message rows, i.e. the arrays `GS` and `GV` of the
  argument arrays.
-/
import proofs.«428393_j44160853737513_2_alg».proof.Proof.Spec
import proofs.«428393_j44160853737513_2_alg».proof.Proof.RRead
import proofs.«428393_j44160853737513_2_alg».proof.Proof.RInputs
import proofs.«428393_j44160853737513_2_alg».proof.Proof.RLayer1
import proofs.«428393_j44160853737513_2_alg».proof.Proof.RLayer2
import proofs.«428393_j44160853737513_2_alg».proof.Proof.RLayer3

set_option maxRecDepth 16384

noncomputable section

namespace Cert.ReferenceIdeal.RV

open Cert.ReferenceIdeal Cert.ReferenceIdeal.Gen Cert.ReferenceIdeal.ReadP
open Idealize.ShloMosaic Idealize.ShloMosaic.ValueIdx

theorem res_s (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (x11 : (⟨S8x8, .f32⟩ : BufTy).Contents (Elt Ideal)) (x12 : (⟨S72x64, .f32⟩ : BufTy).Contents (Elt Ideal)) (x13 : (⟨S64, .f32⟩ : BufTy).Contents (Elt Ideal)) (x14 : (⟨S8x8, .f32⟩ : BufTy).Contents (Elt Ideal)) (x15 : (⟨S64x8, .f32⟩ : BufTy).Contents (Elt Ideal)) (x16 : (⟨S8, .f32⟩ : BufTy).Contents (Elt Ideal)) (x17 : (⟨S8x8, .f32⟩ : BufTy).Contents (Elt Ideal)) (x18 : (⟨S72x64, .f32⟩ : BufTy).Contents (Elt Ideal)) (x19 : (⟨S64, .f32⟩ : BufTy).Contents (Elt Ideal)) (x20 : (⟨S8x8, .f32⟩ : BufTy).Contents (Elt Ideal)) (x21 : (⟨S64x8, .f32⟩ : BufTy).Contents (Elt Ideal)) (x22 : (⟨S8, .f32⟩ : BufTy).Contents (Elt Ideal)) :
    val_main_v96 (F := Ideal) x0 x1 x2 x3 x4 x5 x6 x7 x8 x9 x10 x11 x12 x13 x14 x15 x16 x17 x18 x19 = Cert.Gvp.GS x0 x1 x2 x3 x4 x5 x6 x7 x8 x9 x10 x11 x12 x13 x14 x15 x16 x17 x18 x19 x20 x21 x22 := by
  funext i
  obtain ⟨e, j, rfl⟩ : ∃ (e : Fin 800000) (j : Fin 64), i = ix2 e j := ⟨i 0, i 1, eq_ix2 i⟩
  rw [val_main_v96_apply x0 x1 x2 x3 x4 x5 x6 x7 x8 x9 x10 x11 x12 x13 x14 x15 x16 x17 x18 x19 x20 x21 x22 e j]
  simp only [val_main_v85_apply x0 x1 x2 x3 x4 x5 x6 x7 x8 x9 x10 x11 x12 x13 x14 x15 x16, val_main_v84_apply x0 x1 x2 x3 x4 x5 x6 x7 x8 x9 x10 x11 x12 x13 x14 x15 x16,
    val_main_v59_apply x0 x1 x2 x3 x4 x5 x6 x7 x8 x9 x10, val_main_v58_apply x0 x1 x2 x3 x4 x5 x6 x7 x8 x9 x10,
    val_main_v18_apply x0 x2 x4, val_main_v33_apply x1 x3 x4]
  rfl

theorem res_v (x0 : (⟨S50000x64, .f32⟩ : BufTy).Contents (Elt Ideal)) (x1 : (⟨S50000x3x8, .f32⟩ : BufTy).Contents (Elt Ideal)) (x2 : (⟨S800000x16, .f32⟩ : BufTy).Contents (Elt Ideal)) (x3 : (⟨S800000x3x1, .f32⟩ : BufTy).Contents (Elt Ideal)) (x4 : (⟨S2x800000, .i32⟩ : BufTy).Contents (Elt Ideal)) (x5 : (⟨S17x17, .f32⟩ : BufTy).Contents (Elt Ideal)) (x6 : (⟨S161x64, .f32⟩ : BufTy).Contents (Elt Ideal)) (x7 : (⟨S64, .f32⟩ : BufTy).Contents (Elt Ideal)) (x8 : (⟨S17x8, .f32⟩ : BufTy).Contents (Elt Ideal)) (x9 : (⟨S64x8, .f32⟩ : BufTy).Contents (Elt Ideal)) (x10 : (⟨S8, .f32⟩ : BufTy).Contents (Elt Ideal)) (x11 : (⟨S8x8, .f32⟩ : BufTy).Contents (Elt Ideal)) (x12 : (⟨S72x64, .f32⟩ : BufTy).Contents (Elt Ideal)) (x13 : (⟨S64, .f32⟩ : BufTy).Contents (Elt Ideal)) (x14 : (⟨S8x8, .f32⟩ : BufTy).Contents (Elt Ideal)) (x15 : (⟨S64x8, .f32⟩ : BufTy).Contents (Elt Ideal)) (x16 : (⟨S8, .f32⟩ : BufTy).Contents (Elt Ideal)) (x17 : (⟨S8x8, .f32⟩ : BufTy).Contents (Elt Ideal)) (x18 : (⟨S72x64, .f32⟩ : BufTy).Contents (Elt Ideal)) (x19 : (⟨S64, .f32⟩ : BufTy).Contents (Elt Ideal)) (x20 : (⟨S8x8, .f32⟩ : BufTy).Contents (Elt Ideal)) (x21 : (⟨S64x8, .f32⟩ : BufTy).Contents (Elt Ideal)) (x22 : (⟨S8, .f32⟩ : BufTy).Contents (Elt Ideal)) :
    val_main_v110 (F := Ideal) x0 x1 x2 x3 x4 x5 x6 x7 x8 x9 x10 x11 x12 x13 x14 x15 x16 x17 x18 x19 x20 x21 x22 = Cert.Gvp.GV x0 x1 x2 x3 x4 x5 x6 x7 x8 x9 x10 x11 x12 x13 x14 x15 x16 x17 x18 x19 x20 x21 x22 := by
  funext i
  obtain ⟨e, r, o, rfl⟩ : ∃ (e : Fin 800000) (r : Fin 3) (o : Fin 8), i = ix3 e r o := ⟨i 0, i 1, i 2, eq_ix3 i⟩
  rw [val_main_v110_apply x0 x1 x2 x3 x4 x5 x6 x7 x8 x9 x10 x11 x12 x13 x14 x15 x16 x17 x18 x19 x20 x21 x22 e r o]
  simp only [val_main_v85_apply x0 x1 x2 x3 x4 x5 x6 x7 x8 x9 x10 x11 x12 x13 x14 x15 x16, val_main_v84_apply x0 x1 x2 x3 x4 x5 x6 x7 x8 x9 x10 x11 x12 x13 x14 x15 x16,
    val_main_v59_apply x0 x1 x2 x3 x4 x5 x6 x7 x8 x9 x10, val_main_v58_apply x0 x1 x2 x3 x4 x5 x6 x7 x8 x9 x10,
    val_main_v18_apply x0 x2 x4, val_main_v33_apply x1 x3 x4]
  rfl

end Cert.ReferenceIdeal.RV

end
-- ==== Proof.RRunA.lean ====
/-
  The reference's run over its first two stretches of operations, read at an arbitrary valuation of the buffers.
  The first stretch (42 operations) turns the edge index words into node indices, gathers the two endpoint rows of
  the node scalars and of the node vectors, and joins each pair with the edge's own features: it ends with the
  scalar messages and the vector messages.  The second stretch (32 operations) is the first layer of the network:
  it ends with the gated vector output and the rectified scalar output.  Each stretch's results are the stage
  functions of the reference applied to what the valuation holds at the stretch's inputs, and a buffer a stretch
  does not write keeps what the valuation holds there.
-/
import proofs.«428393_j44160853737513_2_alg».proof.Proof.RRead
import proofs.«428393_j44160853737513_2_alg».proof.Proof.RRunOps

noncomputable section

namespace Cert.ReferenceIdeal.RV

open Cert.ReferenceIdeal Cert.ReferenceIdeal.Gen Cert.ReferenceIdeal.ReadP Cert.ReferenceIdeal.ValueP Idealize.ShloMosaic Idealize.ShloMosaic.TcCoe Idealize.SL.Sem Idealize.ShloMosaic.StableHlo

variable {F : FTy → Type} [FloatOps F]

/-- The first 42 operations: index words, gathers, the two message concatenations. -/
abbrev opsA : List (HloOp τ sig (Elt F)) := ops.take 42
/-- The next 32 operations: the first layer. -/
abbrev opsB1 : List (HloOp τ sig (Elt F)) := (ops.drop 42).take 32

/-- A three-operand operation's result at its own buffer: its function at the three operands' contents, each read
    at its own reference. -/
private theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

private theorem nary3_result' {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

/-- Each operation's result at its own buffer is its function's value, at another buffer what was there. -/
local macro "after_results3" : tactic =>
  `(tactic| (simp (disch := decide) only [after_cons, after_nil,
      nullary_result', unary_result', binary_result', ternary_result', reshape_result', nary3_result',
      nullary_result_ne', unary_result_ne', binary_result_ne', ternary_result_ne', reshape_result_ne', nary_result_ne']))

/-- The same, one operation and one buffer at a time: it reaches the operands inside a concatenation's piece list. -/
local macro "after_results_rw" : tactic =>
  `(tactic| (repeat (first
               | rw [nullary_result] | rw [unary_result] | rw [binary_result] | rw [ternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

/-! ## The first stretch -/

/-- After the first stretch the scalar-message buffer holds the scalar messages of the node scalars, the edge scalars
    and the edge index the valuation holds. -/
theorem stageA_v18 (G : Valuation τ sig (Elt F)) (x0 : (⟨S50000x64, .f32⟩ : BufTy).Contents (Elt F)) (x2 : (⟨S800000x16, .f32⟩ : BufTy).Contents (Elt F)) (x4 : (⟨S2x800000, .i32⟩ : BufTy).Contents (Elt F))
    (h0 : G (Proc.devRef .tc main_arg0) = x0) (h2 : G (Proc.devRef .tc main_arg2) = x2) (h4 : G (Proc.devRef .tc main_arg4) = x4) :
    StableHlo.after opsA G (Proc.devRef .tc main_v18) = val_main_v18 (F := F) x0 x2 x4 := by
  subst h0 h2 h4
  simp only [opsA, ops, List.take_succ_cons, List.take_zero, List.drop_succ_cons, List.drop_zero]
  after_results3
  rfl

/-- After the first stretch the vector-message buffer holds the vector messages of the node vectors, the edge vectors
    and the edge index the valuation holds. -/
theorem stageA_v33 (G : Valuation τ sig (Elt F)) (x1 : (⟨S50000x3x8, .f32⟩ : BufTy).Contents (Elt F)) (x3 : (⟨S800000x3x1, .f32⟩ : BufTy).Contents (Elt F)) (x4 : (⟨S2x800000, .i32⟩ : BufTy).Contents (Elt F))
    (h1 : G (Proc.devRef .tc main_arg1) = x1) (h3 : G (Proc.devRef .tc main_arg3) = x3) (h4 : G (Proc.devRef .tc main_arg4) = x4) :
    StableHlo.after opsA G (Proc.devRef .tc main_v33) = val_main_v33 (F := F) x1 x3 x4 := by
  subst h1 h3 h4
  simp only [opsA, ops, List.take_succ_cons, List.take_zero, List.drop_succ_cons, List.drop_zero]
  after_results3
  rfl

/-- The 42 buffers the first stretch writes, in order. -/
abbrev writesA : List (Ref sig .tc) :=
  [main_v0, main_v1, main_v2, main_v3, main_c, main_v4, main_v5, main_c_0,
   main_v6, main_v7, main_v8, main_v9, main_v10, main_c_1, main_v11, main_v12,
   main_c_2, main_v13, main_v14, main_v15, main_v16, main_v17, main_v18, main_c_3,
   main_v19, main_v20, main_c_4, main_v21, main_v22, main_v23, main_v24, main_v25,
   main_c_5, main_v26, main_v27, main_c_6, main_v28, main_v29, main_v30, main_v31,
   main_v32, main_v33]

theorem writesA_sub : (opsA : List (HloOp τ sig (Elt F))).Forall fun op =>
    op.writes ⊆ (writesA.map (Proc.devRef (τ := τ) .tc)).toFinset := by
  simp only [opsA, ops, List.take_succ_cons, List.take_zero, List.drop_succ_cons, List.drop_zero, List.Forall, nullary_writes, unary_writes, binary_writes, ternary_writes,
    reshape_writes, nary_writes, Finset.singleton_subset_iff, List.mem_toFinset]
  repeat' apply And.intro
  all_goals exact List.mem_map.mpr ⟨_, by decide, rfl⟩

/-- A buffer the first stretch does not write keeps what the valuation holds. -/
theorem keepA (G : Valuation τ sig (Elt F)) {r : Ref sig .tc} (hr : r ∉ writesA) :
    StableHlo.after opsA G (Proc.devRef .tc r) = G (Proc.devRef .tc r) :=
  after_of_writes_sub opsA G writesA_sub hr

/-- The 23 argument buffers are among them. -/
theorem keepA_args (G : Valuation τ sig (Elt F)) {r : Ref sig .tc}
    (hr : r ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]) :
    StableHlo.after opsA G (Proc.devRef .tc r) = G (Proc.devRef .tc r) :=
  keepA G ((by decide : ∀ r ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22], r ∉ writesA) r hr)

/-! ## The second stretch: layer 1 -/

/-- After the second stretch the rectified-scalar buffer holds layer 1's scalar output of the messages and weights the
    valuation holds. -/
theorem stageB1_v59 (G : Valuation τ sig (Elt F)) (x0 : (⟨S50000x64, .f32⟩ : BufTy).Contents (Elt F)) (x1 : (⟨S50000x3x8, .f32⟩ : BufTy).Contents (Elt F)) (x2 : (⟨S800000x16, .f32⟩ : BufTy).Contents (Elt F)) (x3 : (⟨S800000x3x1, .f32⟩ : BufTy).Contents (Elt F)) (x4 : (⟨S2x800000, .i32⟩ : BufTy).Contents (Elt F)) (x5 : (⟨S17x17, .f32⟩ : BufTy).Contents (Elt F)) (x6 : (⟨S161x64, .f32⟩ : BufTy).Contents (Elt F)) (x7 : (⟨S64, .f32⟩ : BufTy).Contents (Elt F))
    (h18 : G (Proc.devRef .tc main_v18) = val_main_v18 (F := F) x0 x2 x4)
    (h33 : G (Proc.devRef .tc main_v33) = val_main_v33 (F := F) x1 x3 x4)
    (h5 : G (Proc.devRef .tc main_arg5) = x5) (h6 : G (Proc.devRef .tc main_arg6) = x6) (h7 : G (Proc.devRef .tc main_arg7) = x7) :
    StableHlo.after opsB1 G (Proc.devRef .tc main_v59) = val_main_v59 (F := F) x0 x1 x2 x3 x4 x5 x6 x7 := by
  subst h5 h6 h7
  simp only [opsB1, ops, List.take_succ_cons, List.take_zero, List.drop_succ_cons, List.drop_zero]
  after_results3
  after_results_rw
  simp only [TRef.ofBuf, TRef.toBuf, cast_eq]
  rw [h18, h33]
  rfl

/-- After the second stretch the gated-vector buffer holds layer 1's vector output of the messages and weights the
    valuation holds. -/
theorem stageB1_v58 (G : Valuation τ sig (Elt F)) (x0 : (⟨S50000x64, .f32⟩ : BufTy).Contents (Elt F)) (x1 : (⟨S50000x3x8, .f32⟩ : BufTy).Contents (Elt F)) (x2 : (⟨S800000x16, .f32⟩ : BufTy).Contents (Elt F)) (x3 : (⟨S800000x3x1, .f32⟩ : BufTy).Contents (Elt F)) (x4 : (⟨S2x800000, .i32⟩ : BufTy).Contents (Elt F)) (x5 : (⟨S17x17, .f32⟩ : BufTy).Contents (Elt F)) (x6 : (⟨S161x64, .f32⟩ : BufTy).Contents (Elt F)) (x7 : (⟨S64, .f32⟩ : BufTy).Contents (Elt F)) (x8 : (⟨S17x8, .f32⟩ : BufTy).Contents (Elt F)) (x9 : (⟨S64x8, .f32⟩ : BufTy).Contents (Elt F)) (x10 : (⟨S8, .f32⟩ : BufTy).Contents (Elt F))
    (h18 : G (Proc.devRef .tc main_v18) = val_main_v18 (F := F) x0 x2 x4)
    (h33 : G (Proc.devRef .tc main_v33) = val_main_v33 (F := F) x1 x3 x4)
    (h5 : G (Proc.devRef .tc main_arg5) = x5) (h6 : G (Proc.devRef .tc main_arg6) = x6) (h7 : G (Proc.devRef .tc main_arg7) = x7) (h8 : G (Proc.devRef .tc main_arg8) = x8) (h9 : G (Proc.devRef .tc main_arg9) = x9) (h10 : G (Proc.devRef .tc main_arg10) = x10) :
    StableHlo.after opsB1 G (Proc.devRef .tc main_v58) = val_main_v58 (F := F) x0 x1 x2 x3 x4 x5 x6 x7 x8 x9 x10 := by
  subst h5 h6 h7 h8 h9 h10
  simp only [opsB1, ops, List.take_succ_cons, List.take_zero, List.drop_succ_cons, List.drop_zero]
  after_results3
  after_results_rw
  rw [h18, h33]
  rfl

/-- The 32 buffers the second stretch writes, in order. -/
abbrev writesB1 : List (Ref sig .tc) :=
  [main_v34, main_v35, main_cst, main_v36, main_cst_7, main_v37, main_v38, main_v39,
   main_v40, main_v41, main_v42, main_v43, main_v44, main_v45, main_v46, main_v47,
   main_v48, main_v49, main_v50, main_v51, main_cst_8, main_v52, main_v53, main_cst_9,
   main_v54, main_v55, main_v56, main_v57, main_v58, main_call0_cst, main_call0_v0, main_v59]

theorem writesB1_sub : (opsB1 : List (HloOp τ sig (Elt F))).Forall fun op =>
    op.writes ⊆ (writesB1.map (Proc.devRef (τ := τ) .tc)).toFinset := by
  simp only [opsB1, ops, List.take_succ_cons, List.take_zero, List.drop_succ_cons, List.drop_zero, List.Forall, nullary_writes, unary_writes, binary_writes, ternary_writes,
    reshape_writes, nary_writes, TRef.nullary, TRef.unary, TRef.binary, Finset.singleton_subset_iff, List.mem_toFinset]
  repeat' apply And.intro
  all_goals exact List.mem_map.mpr ⟨_, by decide, rfl⟩

/-- A buffer the second stretch does not write keeps what the valuation holds. -/
theorem keepB1 (G : Valuation τ sig (Elt F)) {r : Ref sig .tc} (hr : r ∉ writesB1) :
    StableHlo.after opsB1 G (Proc.devRef .tc r) = G (Proc.devRef .tc r) :=
  after_of_writes_sub opsB1 G writesB1_sub hr

/-- The 23 argument buffers are among them. -/
theorem keepB1_args (G : Valuation τ sig (Elt F)) {r : Ref sig .tc}
    (hr : r ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]) :
    StableHlo.after opsB1 G (Proc.devRef .tc r) = G (Proc.devRef .tc r) :=
  keepB1 G ((by decide : ∀ r ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22], r ∉ writesB1) r hr)

end Cert.ReferenceIdeal.RV

end
-- ==== Proof.RRunB.lean ====
/-
  The reference's run over its second and third layers.  The operations of a layer, applied in order to any contents
  of the buffers that hold the layer's inputs at the stage values of the layer before and the layer's weights at given
  arrays, leave the layer's two output buffers at the stage values of this layer; and they write no argument buffer.
-/
import proofs.«428393_j44160853737513_2_alg».proof.Proof.RRead
import proofs.«428393_j44160853737513_2_alg».proof.Proof.RRunOps
import Idealize.ShloMosaic.Lib.StableHlo.Run

set_option maxRecDepth 8192

noncomputable section

namespace Cert.ReferenceIdeal.RV

open Cert.ReferenceIdeal Cert.ReferenceIdeal.Gen Cert.ReferenceIdeal.ReadP Cert.ReferenceIdeal.ValueP Idealize.ShloMosaic Idealize.ShloMosaic.TcCoe Idealize.SL.Sem Idealize.ShloMosaic.StableHlo

variable {F : FTy → Type} [FloatOps F]

/-- Layer 2's operations: the thirty-two from the hidden-channel product to the rectified scalar output. -/
abbrev opsB2 : List (HloOp τ sig (Elt F)) := (ops.drop 74).take 32

/-- Layer 3's operations: the last twenty-nine. -/
abbrev opsB3 : List (HloOp τ sig (Elt F)) := ops.drop 106

/-! ## Layer 2 -/

set_option maxHeartbeats 4000000 in
theorem stageB2_v85 (G : Valuation τ sig (Elt F)) (x0 : (⟨S50000x64, .f32⟩ : BufTy).Contents (Elt F)) (x1 : (⟨S50000x3x8, .f32⟩ : BufTy).Contents (Elt F)) (x2 : (⟨S800000x16, .f32⟩ : BufTy).Contents (Elt F)) (x3 : (⟨S800000x3x1, .f32⟩ : BufTy).Contents (Elt F)) (x4 : (⟨S2x800000, .i32⟩ : BufTy).Contents (Elt F)) (x5 : (⟨S17x17, .f32⟩ : BufTy).Contents (Elt F)) (x6 : (⟨S161x64, .f32⟩ : BufTy).Contents (Elt F)) (x7 : (⟨S64, .f32⟩ : BufTy).Contents (Elt F)) (x8 : (⟨S17x8, .f32⟩ : BufTy).Contents (Elt F)) (x9 : (⟨S64x8, .f32⟩ : BufTy).Contents (Elt F)) (x10 : (⟨S8, .f32⟩ : BufTy).Contents (Elt F)) (x11 : (⟨S8x8, .f32⟩ : BufTy).Contents (Elt F)) (x12 : (⟨S72x64, .f32⟩ : BufTy).Contents (Elt F)) (x13 : (⟨S64, .f32⟩ : BufTy).Contents (Elt F))
    (h59 : G (Proc.devRef .tc main_v59) = val_main_v59 (F := F) x0 x1 x2 x3 x4 x5 x6 x7)
    (h58 : G (Proc.devRef .tc main_v58) = val_main_v58 (F := F) x0 x1 x2 x3 x4 x5 x6 x7 x8 x9 x10)
    (h11 : G (Proc.devRef .tc main_arg11) = x11) (h12 : G (Proc.devRef .tc main_arg12) = x12) (h13 : G (Proc.devRef .tc main_arg13) = x13) :
    StableHlo.after opsB2 G (Proc.devRef .tc main_v85) = val_main_v85 (F := F) x0 x1 x2 x3 x4 x5 x6 x7 x8 x9 x10 x11 x12 x13 := by
  simp only [opsB2, ops, List.drop_succ_cons, List.drop_zero, List.take_succ_cons, List.take_zero]
  after_results_simp
  repeat (first
    | rw [nullary_result] | rw [unary_result] | rw [binary_result]
    | (rw [nullary_result_ne]; rotate_left; decide)
    | (rw [unary_result_ne]; rotate_left; decide)
    | (rw [binary_result_ne]; rotate_left; decide))
  rw [h59, h58, h11, h12, h13]
  simp only [TRef.ofBuf, TRef.toBuf, cast_eq]
  rfl

set_option maxHeartbeats 4000000 in
theorem stageB2_v84 (G : Valuation τ sig (Elt F)) (x0 : (⟨S50000x64, .f32⟩ : BufTy).Contents (Elt F)) (x1 : (⟨S50000x3x8, .f32⟩ : BufTy).Contents (Elt F)) (x2 : (⟨S800000x16, .f32⟩ : BufTy).Contents (Elt F)) (x3 : (⟨S800000x3x1, .f32⟩ : BufTy).Contents (Elt F)) (x4 : (⟨S2x800000, .i32⟩ : BufTy).Contents (Elt F)) (x5 : (⟨S17x17, .f32⟩ : BufTy).Contents (Elt F)) (x6 : (⟨S161x64, .f32⟩ : BufTy).Contents (Elt F)) (x7 : (⟨S64, .f32⟩ : BufTy).Contents (Elt F)) (x8 : (⟨S17x8, .f32⟩ : BufTy).Contents (Elt F)) (x9 : (⟨S64x8, .f32⟩ : BufTy).Contents (Elt F)) (x10 : (⟨S8, .f32⟩ : BufTy).Contents (Elt F)) (x11 : (⟨S8x8, .f32⟩ : BufTy).Contents (Elt F)) (x12 : (⟨S72x64, .f32⟩ : BufTy).Contents (Elt F)) (x13 : (⟨S64, .f32⟩ : BufTy).Contents (Elt F)) (x14 : (⟨S8x8, .f32⟩ : BufTy).Contents (Elt F)) (x15 : (⟨S64x8, .f32⟩ : BufTy).Contents (Elt F)) (x16 : (⟨S8, .f32⟩ : BufTy).Contents (Elt F))
    (h59 : G (Proc.devRef .tc main_v59) = val_main_v59 (F := F) x0 x1 x2 x3 x4 x5 x6 x7)
    (h58 : G (Proc.devRef .tc main_v58) = val_main_v58 (F := F) x0 x1 x2 x3 x4 x5 x6 x7 x8 x9 x10)
    (h11 : G (Proc.devRef .tc main_arg11) = x11) (h12 : G (Proc.devRef .tc main_arg12) = x12) (h13 : G (Proc.devRef .tc main_arg13) = x13) (h14 : G (Proc.devRef .tc main_arg14) = x14) (h15 : G (Proc.devRef .tc main_arg15) = x15) (h16 : G (Proc.devRef .tc main_arg16) = x16) :
    StableHlo.after opsB2 G (Proc.devRef .tc main_v84) = val_main_v84 (F := F) x0 x1 x2 x3 x4 x5 x6 x7 x8 x9 x10 x11 x12 x13 x14 x15 x16 := by
  simp only [opsB2, ops, List.drop_succ_cons, List.drop_zero, List.take_succ_cons, List.take_zero]
  after_results_simp
  repeat (first
    | rw [nullary_result] | rw [unary_result] | rw [binary_result]
    | (rw [nullary_result_ne]; rotate_left; decide)
    | (rw [unary_result_ne]; rotate_left; decide)
    | (rw [binary_result_ne]; rotate_left; decide))
  rw [h59, h58, h11, h12, h13, h14, h15, h16]
  rfl

/-- The buffers layer 2's operations write. -/
abbrev opsB2_W : List (Ref sig .tc) := [main_v60, main_v61, main_cst_10, main_v62, main_cst_11, main_v63, main_v64, main_v65, main_v66, main_v67, main_v68, main_v69, main_v70, main_v71, main_v72, main_v73, main_v74, main_v75, main_v76, main_v77, main_cst_12, main_v78, main_v79, main_cst_13, main_v80, main_v81, main_v82, main_v83, main_v84, main_call1_cst, main_call1_v0, main_v85]

set_option maxHeartbeats 4000000 in
theorem opsB2_writes : (opsB2 : List (HloOp τ sig (Elt F))).Forall fun op => op.writes ⊆ (opsB2_W.map (Proc.devRef (τ := τ) .tc)).toFinset := by
  simp only [opsB2, ops, List.drop_succ_cons, List.drop_zero, List.take_succ_cons, List.take_zero, List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))

/-- A buffer layer 2 does not write keeps its contents through it. -/
theorem keepB2 (G : Valuation τ sig (Elt F)) (r : Ref sig .tc) (h : r ∉ opsB2_W) :
    StableHlo.after opsB2 G (Proc.devRef .tc r) = G (Proc.devRef .tc r) :=
  after_of_writes_sub opsB2 G opsB2_writes h

/-- Layer 2 writes none of the twenty-three argument buffers. -/
theorem keepB2_args (G : Valuation τ sig (Elt F)) {r : Ref sig .tc} (hr : r ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22] : List (Ref sig .tc))) :
    StableHlo.after opsB2 G (Proc.devRef .tc r) = G (Proc.devRef .tc r) :=
  keepB2 G r ((by decide : ∀ r ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22] : List (Ref sig .tc)), r ∉ opsB2_W) r hr)

/-! ## Layer 3 -/

set_option maxHeartbeats 4000000 in
theorem stageB3_v96 (G : Valuation τ sig (Elt F)) (x0 : (⟨S50000x64, .f32⟩ : BufTy).Contents (Elt F)) (x1 : (⟨S50000x3x8, .f32⟩ : BufTy).Contents (Elt F)) (x2 : (⟨S800000x16, .f32⟩ : BufTy).Contents (Elt F)) (x3 : (⟨S800000x3x1, .f32⟩ : BufTy).Contents (Elt F)) (x4 : (⟨S2x800000, .i32⟩ : BufTy).Contents (Elt F)) (x5 : (⟨S17x17, .f32⟩ : BufTy).Contents (Elt F)) (x6 : (⟨S161x64, .f32⟩ : BufTy).Contents (Elt F)) (x7 : (⟨S64, .f32⟩ : BufTy).Contents (Elt F)) (x8 : (⟨S17x8, .f32⟩ : BufTy).Contents (Elt F)) (x9 : (⟨S64x8, .f32⟩ : BufTy).Contents (Elt F)) (x10 : (⟨S8, .f32⟩ : BufTy).Contents (Elt F)) (x11 : (⟨S8x8, .f32⟩ : BufTy).Contents (Elt F)) (x12 : (⟨S72x64, .f32⟩ : BufTy).Contents (Elt F)) (x13 : (⟨S64, .f32⟩ : BufTy).Contents (Elt F)) (x14 : (⟨S8x8, .f32⟩ : BufTy).Contents (Elt F)) (x15 : (⟨S64x8, .f32⟩ : BufTy).Contents (Elt F)) (x16 : (⟨S8, .f32⟩ : BufTy).Contents (Elt F)) (x17 : (⟨S8x8, .f32⟩ : BufTy).Contents (Elt F)) (x18 : (⟨S72x64, .f32⟩ : BufTy).Contents (Elt F)) (x19 : (⟨S64, .f32⟩ : BufTy).Contents (Elt F))
    (h85 : G (Proc.devRef .tc main_v85) = val_main_v85 (F := F) x0 x1 x2 x3 x4 x5 x6 x7 x8 x9 x10 x11 x12 x13)
    (h84 : G (Proc.devRef .tc main_v84) = val_main_v84 (F := F) x0 x1 x2 x3 x4 x5 x6 x7 x8 x9 x10 x11 x12 x13 x14 x15 x16)
    (h17 : G (Proc.devRef .tc main_arg17) = x17) (h18 : G (Proc.devRef .tc main_arg18) = x18) (h19 : G (Proc.devRef .tc main_arg19) = x19) :
    StableHlo.after opsB3 G (Proc.devRef .tc main_v96) = val_main_v96 (F := F) x0 x1 x2 x3 x4 x5 x6 x7 x8 x9 x10 x11 x12 x13 x14 x15 x16 x17 x18 x19 := by
  simp only [opsB3, ops, List.drop_succ_cons, List.drop_zero]
  after_results_simp
  repeat (first
    | rw [nullary_result] | rw [unary_result] | rw [binary_result]
    | (rw [nullary_result_ne]; rotate_left; decide)
    | (rw [unary_result_ne]; rotate_left; decide)
    | (rw [binary_result_ne]; rotate_left; decide))
  rw [h85, h84, h17, h18, h19]
  rfl

set_option maxHeartbeats 4000000 in
theorem stageB3_v110 (G : Valuation τ sig (Elt F)) (x0 : (⟨S50000x64, .f32⟩ : BufTy).Contents (Elt F)) (x1 : (⟨S50000x3x8, .f32⟩ : BufTy).Contents (Elt F)) (x2 : (⟨S800000x16, .f32⟩ : BufTy).Contents (Elt F)) (x3 : (⟨S800000x3x1, .f32⟩ : BufTy).Contents (Elt F)) (x4 : (⟨S2x800000, .i32⟩ : BufTy).Contents (Elt F)) (x5 : (⟨S17x17, .f32⟩ : BufTy).Contents (Elt F)) (x6 : (⟨S161x64, .f32⟩ : BufTy).Contents (Elt F)) (x7 : (⟨S64, .f32⟩ : BufTy).Contents (Elt F)) (x8 : (⟨S17x8, .f32⟩ : BufTy).Contents (Elt F)) (x9 : (⟨S64x8, .f32⟩ : BufTy).Contents (Elt F)) (x10 : (⟨S8, .f32⟩ : BufTy).Contents (Elt F)) (x11 : (⟨S8x8, .f32⟩ : BufTy).Contents (Elt F)) (x12 : (⟨S72x64, .f32⟩ : BufTy).Contents (Elt F)) (x13 : (⟨S64, .f32⟩ : BufTy).Contents (Elt F)) (x14 : (⟨S8x8, .f32⟩ : BufTy).Contents (Elt F)) (x15 : (⟨S64x8, .f32⟩ : BufTy).Contents (Elt F)) (x16 : (⟨S8, .f32⟩ : BufTy).Contents (Elt F)) (x17 : (⟨S8x8, .f32⟩ : BufTy).Contents (Elt F)) (x18 : (⟨S72x64, .f32⟩ : BufTy).Contents (Elt F)) (x19 : (⟨S64, .f32⟩ : BufTy).Contents (Elt F)) (x20 : (⟨S8x8, .f32⟩ : BufTy).Contents (Elt F)) (x21 : (⟨S64x8, .f32⟩ : BufTy).Contents (Elt F)) (x22 : (⟨S8, .f32⟩ : BufTy).Contents (Elt F))
    (h85 : G (Proc.devRef .tc main_v85) = val_main_v85 (F := F) x0 x1 x2 x3 x4 x5 x6 x7 x8 x9 x10 x11 x12 x13)
    (h84 : G (Proc.devRef .tc main_v84) = val_main_v84 (F := F) x0 x1 x2 x3 x4 x5 x6 x7 x8 x9 x10 x11 x12 x13 x14 x15 x16)
    (h17 : G (Proc.devRef .tc main_arg17) = x17) (h18 : G (Proc.devRef .tc main_arg18) = x18) (h19 : G (Proc.devRef .tc main_arg19) = x19) (h20 : G (Proc.devRef .tc main_arg20) = x20) (h21 : G (Proc.devRef .tc main_arg21) = x21) (h22 : G (Proc.devRef .tc main_arg22) = x22) :
    StableHlo.after opsB3 G (Proc.devRef .tc main_v110) = val_main_v110 (F := F) x0 x1 x2 x3 x4 x5 x6 x7 x8 x9 x10 x11 x12 x13 x14 x15 x16 x17 x18 x19 x20 x21 x22 := by
  simp only [opsB3, ops, List.drop_succ_cons, List.drop_zero]
  after_results_simp
  repeat (first
    | rw [nullary_result] | rw [unary_result] | rw [binary_result]
    | (rw [nullary_result_ne]; rotate_left; decide)
    | (rw [unary_result_ne]; rotate_left; decide)
    | (rw [binary_result_ne]; rotate_left; decide))
  rw [h85, h84, h17, h18, h19, h20, h21, h22]
  rfl

/-- The buffers layer 3's operations write. -/
abbrev opsB3_W : List (Ref sig .tc) := [main_v86, main_v87, main_cst_14, main_v88, main_cst_15, main_v89, main_v90, main_v91, main_v92, main_v93, main_v94, main_v95, main_v96, main_v97, main_v98, main_v99, main_v100, main_v101, main_v102, main_v103, main_cst_16, main_v104, main_v105, main_cst_17, main_v106, main_v107, main_v108, main_v109, main_v110]

set_option maxHeartbeats 4000000 in
theorem opsB3_writes : (opsB3 : List (HloOp τ sig (Elt F))).Forall fun op => op.writes ⊆ (opsB3_W.map (Proc.devRef (τ := τ) .tc)).toFinset := by
  simp only [opsB3, ops, List.drop_succ_cons, List.drop_zero, List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))

/-- A buffer layer 3 does not write keeps its contents through it. -/
theorem keepB3 (G : Valuation τ sig (Elt F)) (r : Ref sig .tc) (h : r ∉ opsB3_W) :
    StableHlo.after opsB3 G (Proc.devRef .tc r) = G (Proc.devRef .tc r) :=
  after_of_writes_sub opsB3 G opsB3_writes h

/-- Layer 3 writes none of the twenty-three argument buffers. -/
theorem keepB3_args (G : Valuation τ sig (Elt F)) {r : Ref sig .tc} (hr : r ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22] : List (Ref sig .tc))) :
    StableHlo.after opsB3 G (Proc.devRef .tc r) = G (Proc.devRef .tc r) :=
  keepB3 G r ((by decide : ∀ r ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22] : List (Ref sig .tc)), r ∉ opsB3_W) r hr)

end Cert.ReferenceIdeal.RV

end
-- ==== Proof.RRun.lean ====
/-
  The reference program's run, read over its stages.  @main is a list of 135 host operations; running it leaves every
  buffer at the fold of the operations' results over the launch contents.  No operation writes an argument array (each
  writes its own result buffer), and the fold, cut at the layer boundaries into four stretches, leaves the two results at
  the stages `val_main_v96` and `val_main_v110` of the argument arrays: the message arrays first, then one layer per
  stretch, each read over the valuation the stretch before it left.
-/
import proofs.«428393_j44160853737513_2_alg».proof.Proof.RRead
import proofs.«428393_j44160853737513_2_alg».proof.Proof.RRunOps
import proofs.«428393_j44160853737513_2_alg».proof.Proof.RRunA
import proofs.«428393_j44160853737513_2_alg».proof.Proof.RRunB

set_option maxRecDepth 16384

noncomputable section

namespace Cert.ReferenceIdeal.RV

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable {F : FTy → Type} [FloatOps F]

/-- The buffers @main's operations write, in program order: each operation's one result. -/
def written : List (Ref sig .tc) :=
  [ main_v0, main_v1, main_v2, main_v3, main_c, main_v4, main_v5, main_c_0, main_v6, main_v7,
    main_v8, main_v9, main_v10, main_c_1, main_v11, main_v12, main_c_2, main_v13, main_v14, main_v15,
    main_v16, main_v17, main_v18, main_c_3, main_v19, main_v20, main_c_4, main_v21, main_v22, main_v23,
    main_v24, main_v25, main_c_5, main_v26, main_v27, main_c_6, main_v28, main_v29, main_v30, main_v31,
    main_v32, main_v33, main_v34, main_v35, main_cst, main_v36, main_cst_7, main_v37, main_v38, main_v39,
    main_v40, main_v41, main_v42, main_v43, main_v44, main_v45, main_v46, main_v47, main_v48, main_v49,
    main_v50, main_v51, main_cst_8, main_v52, main_v53, main_cst_9, main_v54, main_v55, main_v56, main_v57,
    main_v58, main_call0_cst, main_call0_v0, main_v59, main_v60, main_v61, main_cst_10, main_v62, main_cst_11, main_v63,
    main_v64, main_v65, main_v66, main_v67, main_v68, main_v69, main_v70, main_v71, main_v72, main_v73,
    main_v74, main_v75, main_v76, main_v77, main_cst_12, main_v78, main_v79, main_cst_13, main_v80, main_v81,
    main_v82, main_v83, main_v84, main_call1_cst, main_call1_v0, main_v85, main_v86, main_v87, main_cst_14, main_v88,
    main_cst_15, main_v89, main_v90, main_v91, main_v92, main_v93, main_v94, main_v95, main_v96, main_v97,
    main_v98, main_v99, main_v100, main_v101, main_v102, main_v103, main_cst_16, main_v104, main_v105, main_cst_17,
    main_v106, main_v107, main_v108, main_v109, main_v110 ]

/-- Every operation writes one buffer, and that buffer is in the list. -/
theorem ops_writes : (ops (F := F)).Forall fun op =>
    op.writes ⊆ ((written.map (Proc.devRef (τ := τ) .tc)).toFinset) := by
  simp only [ops, List.Forall, nullary_writes, unary_writes, binary_writes, ternary_writes, quaternary_writes,
    reshape_writes, binaryIndexed_writes, nary_writes, unaryIndexed_writes]
  repeat' apply And.intro
  all_goals exact Finset.singleton_subset_iff.mpr (List.mem_toFinset.mpr (List.mem_map.mpr ⟨_, by decide, rfl⟩))

/-- A buffer outside the list ends as launched. -/
theorem ops_keep (V : Valuation τ sig (Elt F)) (r : Ref sig .tc) (hr : r ∉ written) :
    after (ops (F := F)) V (Proc.devRef .tc r) = V (Proc.devRef .tc r) :=
  after_of_writes_sub _ _ ops_writes hr

/-! ## The four stretches in sequence -/

/-- The operation list is its four stretches in order. -/
theorem ops_split : (ops : List (HloOp τ sig (Elt F))) = opsA ++ (opsB1 ++ (opsB2 ++ opsB3)) := by rfl

section Fold

variable (V : Valuation τ sig (Elt F))

/-- The contents after the message stretch, after layer 1, after layer 2. -/
abbrev VA : Valuation τ sig (Elt F) := after opsA V
abbrev VB1 : Valuation τ sig (Elt F) := after opsB1 (VA V)
abbrev VB2 : Valuation τ sig (Elt F) := after opsB2 (VB1 V)

theorem after_ops_eq (b : DevRef τ sig) : after (ops (F := F)) V b = after opsB3 (VB2 V) b := by
  rw [ops_split, after_append, after_append, after_append]

/-- No stretch writes an argument array. -/
theorem arg_A {r : Ref sig .tc} (hr : r ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]) : VA V (Proc.devRef .tc r) = V (Proc.devRef .tc r) :=
  keepA_args V hr
theorem arg_B1 {r : Ref sig .tc} (hr : r ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]) : VB1 V (Proc.devRef .tc r) = V (Proc.devRef .tc r) :=
  (keepB1_args (VA V) hr).trans (arg_A V hr)
theorem arg_B2 {r : Ref sig .tc} (hr : r ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]) : VB2 V (Proc.devRef .tc r) = V (Proc.devRef .tc r) :=
  (keepB2_args (VB1 V) hr).trans (arg_B1 V hr)

/-- The message arrays after the first stretch. -/
theorem at_v18 : VA V (Proc.devRef .tc main_v18) = val_main_v18 (F := F) (V (Proc.devRef .tc main_arg0)) (V (Proc.devRef .tc main_arg2)) (V (Proc.devRef .tc main_arg4)) :=
  stageA_v18 V _ _ _ rfl rfl rfl
theorem at_v33 : VA V (Proc.devRef .tc main_v33) = val_main_v33 (F := F) (V (Proc.devRef .tc main_arg1)) (V (Proc.devRef .tc main_arg3)) (V (Proc.devRef .tc main_arg4)) :=
  stageA_v33 V _ _ _ rfl rfl rfl

/-- Layer 1's results after the second stretch. -/
theorem at_v59 : VB1 V (Proc.devRef .tc main_v59) = val_main_v59 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  stageB1_v59 (VA V) _ _ _ _ _ _ _ _ (at_v18 V) (at_v33 V) (arg_A V (by decide)) (arg_A V (by decide)) (arg_A V (by decide))
theorem at_v58 : VB1 V (Proc.devRef .tc main_v58) = val_main_v58 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) :=
  stageB1_v58 (VA V) _ _ _ _ _ _ _ _ _ _ _ (at_v18 V) (at_v33 V) (arg_A V (by decide)) (arg_A V (by decide)) (arg_A V (by decide))
    (arg_A V (by decide)) (arg_A V (by decide)) (arg_A V (by decide))

/-- Layer 2's results after the third stretch. -/
theorem at_v85 : VB2 V (Proc.devRef .tc main_v85) = val_main_v85 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) :=
  stageB2_v85 (VB1 V) _ _ _ _ _ _ _ _ _ _ _ _ _ _ (at_v59 V) (at_v58 V) (arg_B1 V (by decide)) (arg_B1 V (by decide)) (arg_B1 V (by decide))
theorem at_v84 : VB2 V (Proc.devRef .tc main_v84) = val_main_v84 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) :=
  stageB2_v84 (VB1 V) _ _ _ _ _ _ _ _ _ _ _ _ _ _ _ _ _ (at_v59 V) (at_v58 V) (arg_B1 V (by decide)) (arg_B1 V (by decide)) (arg_B1 V (by decide))
    (arg_B1 V (by decide)) (arg_B1 V (by decide)) (arg_B1 V (by decide))

/-- The two results after the whole list. -/
theorem after_v96 : after (ops (F := F)) V (Proc.devRef .tc main_v96) = val_main_v96 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) := by
  rw [after_ops_eq]
  exact stageB3_v96 (VB2 V) _ _ _ _ _ _ _ _ _ _ _ _ _ _ _ _ _ _ _ _ (at_v85 V) (at_v84 V) (arg_B2 V (by decide)) (arg_B2 V (by decide)) (arg_B2 V (by decide))
theorem after_v110 : after (ops (F := F)) V (Proc.devRef .tc main_v110) = val_main_v110 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) := by
  rw [after_ops_eq]
  exact stageB3_v110 (VB2 V) _ _ _ _ _ _ _ _ _ _ _ _ _ _ _ _ _ _ _ _ _ _ _ (at_v85 V) (at_v84 V) (arg_B2 V (by decide)) (arg_B2 V (by decide)) (arg_B2 V (by decide))
    (arg_B2 V (by decide)) (arg_B2 V (by decide)) (arg_B2 V (by decide))

end Fold

/-! ## The run -/

/-- Every weakly fair execution of the reference's @main terminates without a fault, with the scalar result at the
    stage `val_main_v96` and the vector result at the stage `val_main_v110` of the argument arrays, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v96) = val_main_v96 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v110) = val_main_v110 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v96).trans (after_v96 _), (h c main_v110).trans (after_v110 _),
      (h c main_arg0).trans (ops_keep _ _ (by decide)),
      (h c main_arg1).trans (ops_keep _ _ (by decide)),
      (h c main_arg2).trans (ops_keep _ _ (by decide)),
      (h c main_arg3).trans (ops_keep _ _ (by decide)),
      (h c main_arg4).trans (ops_keep _ _ (by decide)),
      (h c main_arg5).trans (ops_keep _ _ (by decide)),
      (h c main_arg6).trans (ops_keep _ _ (by decide)),
      (h c main_arg7).trans (ops_keep _ _ (by decide)),
      (h c main_arg8).trans (ops_keep _ _ (by decide)),
      (h c main_arg9).trans (ops_keep _ _ (by decide)),
      (h c main_arg10).trans (ops_keep _ _ (by decide)),
      (h c main_arg11).trans (ops_keep _ _ (by decide)),
      (h c main_arg12).trans (ops_keep _ _ (by decide)),
      (h c main_arg13).trans (ops_keep _ _ (by decide)),
      (h c main_arg14).trans (ops_keep _ _ (by decide)),
      (h c main_arg15).trans (ops_keep _ _ (by decide)),
      (h c main_arg16).trans (ops_keep _ _ (by decide)),
      (h c main_arg17).trans (ops_keep _ _ (by decide)),
      (h c main_arg18).trans (ops_keep _ _ (by decide)),
      (h c main_arg19).trans (ops_keep _ _ (by decide)),
      (h c main_arg20).trans (ops_keep _ _ (by decide)),
      (h c main_arg21).trans (ops_keep _ _ (by decide)),
      (h c main_arg22).trans (ops_keep _ _ (by decide))⟩)
    (run_seq scopedRefs_eq scopedSems_eq defs main (fun _ => ops) main_eq (fun _ => ops_sub) m ρ)

end Cert.ReferenceIdeal.RV

end
-- ==== Proof.lean ====
/-
  The certificate: a three-layer GVP message network over the 800000 edges of a 50000-node graph.  The kernel program
  gathers the node rows and joins the message rows with host operations, then runs one kernel region over 200 blocks
  of 4000 edges that fuses the three layers; the reference program does all of it with whole-array host operations.

  * Frames.  The kernel program is host operations, the kernel region and one reshape; the body loads its twenty input
    blocks whole and stores its two result blocks whole, so every run terminates without a fault and no argument array
    is written (at the word level and at the extended reals alike).  The reference is host operations only.
  * Values, at the extended reals.  Every float operation is exact and a change of float format is the identity, so
    on each edge both programs compute the same expression of that edge's message rows: hidden vectors, their norm
    over the three spatial rows under a root with the shared literal ε, the scalar map of the joined row, the sigmoid
    gate and the gated vectors, layer after layer.  The only difference in arrangement is the grouping of the three
    squares under the root (the kernel adds them in a row, the reference folds them from zero), which is equal because
    addition on the extended reals is associative and zero is its unit.  Both results are the arrays `GS` and `GV` of
    `Cert.Gvp` of the argument arrays.
  * The precondition carries, beside the finiteness of the float inputs, that every entry of the edge index lies in
    `[0, 50000)`: outside that range the kernel's `take` fills the gathered row while the reference's indexing clamps.
    It is used exactly there: with it every in-range mask of the kernel's gathers is set.
-/
import proofs.«428393_j44160853737513_2_alg».proof.Defs
import proofs.«428393_j44160853737513_2_alg».proof.Proof.Gen.Kernel
import proofs.«428393_j44160853737513_2_alg».proof.Proof.Gen.KernelIdeal
import proofs.«428393_j44160853737513_2_alg».proof.Proof.Gen.ReferenceIdeal
import proofs.«428393_j44160853737513_2_alg».proof.Proof.Gen.Pre_finite_inputs
import proofs.«428393_j44160853737513_2_alg».proof.Proof.BFrame
import proofs.«428393_j44160853737513_2_alg».proof.Proof.KIFrame
import proofs.«428393_j44160853737513_2_alg».proof.Proof.KValue
import proofs.«428393_j44160853737513_2_alg».proof.Proof.PreFacts
import proofs.«428393_j44160853737513_2_alg».proof.Proof.RValue
import proofs.«428393_j44160853737513_2_alg».proof.Proof.RRun
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.RV.run (F := Ideal) m ρ)

/-- Both programs end at `GS` and `GV` of arguments that agree. -/
theorem algebraic : Cert.algebraic_KernelIdeal_ReferenceIdeal := by
  intro m ρ m' ρ' hpre hagree
  refine ⟨fun c => Cert.KernelIdeal.Fr.GSk m c, fun c => Cert.KernelIdeal.Fr.GVk m c,
    Cert.KernelIdeal.Fr.run_value m ρ (fun c => Cert.KernelIdeal.Fr.inRange_of_pre m hpre c), ?_⟩
  refine (θ_run Cert.ReferenceIdeal.defs _ _).mono (fun _ h c => ⟨(h c).1.trans ?_, (h c).2.1.trans ?_, (h c).2.2⟩)
    (Cert.ReferenceIdeal.RV.run (F := Ideal) m' ρ')
  · obtain ⟨h0, h1, h2, h3, h4, h5, h6, h7, h8, h9, h10, h11, h12, h13, h14, h15, h16, h17, h18, h19, h20, h21, h22⟩ := hagree c
    rw [h0, h1, h2, h3, h4, h5, h6, h7, h8, h9, h10, h11, h12, h13, h14, h15, h16, h17, h18, h19]
    exact Cert.ReferenceIdeal.RV.res_s _ _ _ _ _ _ _ _ _ _ _ _ _ _ _ _ _ _ _ _ _ _ _
  · obtain ⟨h0, h1, h2, h3, h4, h5, h6, h7, h8, h9, h10, h11, h12, h13, h14, h15, h16, h17, h18, h19, h20, h21, h22⟩ := hagree c
    rw [h0, h1, h2, h3, h4, h5, h6, h7, h8, h9, h10, h11, h12, h13, h14, h15, h16, h17, h18, h19, h20, h21, h22]
    exact Cert.ReferenceIdeal.RV.res_v _ _ _ _ _ _ _ _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
